-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1105x12 : Shape := ⟨3, ![2, 1105, 12]⟩
abbrev S2x1132624x8 : Shape := ⟨3, ![2, 1132624, 8]⟩
abbrev S32x34 : Shape := ⟨2, ![32, 34]⟩
abbrev S32 : Shape := ⟨1, ![32]⟩
abbrev S24x32 : Shape := ⟨2, ![24, 32]⟩
abbrev S24 : Shape := ⟨1, ![24]⟩
abbrev S16x28 : Shape := ⟨2, ![16, 28]⟩
abbrev S16 : Shape := ⟨1, ![16]⟩
abbrev S8x16 : Shape := ⟨2, ![8, 16]⟩
abbrev S8 : Shape := ⟨1, ![8]⟩
abbrev S1132624 : Shape := ⟨1, ![1132624]⟩
abbrev S_ : Shape := ⟨0, ![]⟩

class Facts : Prop where
  bcast_S_S2x1105x12 : S_.BroadcastsInDim S2x1105x12 (![] : Fin 0 → Fin S2x1105x12.rank)
  reducesTo_S2x1105x12_S_d0_1_2 : S2x1105x12.ReducesTo [0, 1, 2] S_
  h_S_ : 0 < S_.numel
  bcast_S_S2x1132624x8 : S_.BroadcastsInDim S2x1132624x8 (![] : Fin 0 → Fin S2x1132624x8.rank)
  reducesTo_S2x1132624x8_S_d0_1_2 : S2x1132624x8.ReducesTo [0, 1, 2] S_
  bcast_S_S32x34 : S_.BroadcastsInDim S32x34 (![] : Fin 0 → Fin S32x34.rank)
  reducesTo_S32x34_S_d0_1 : S32x34.ReducesTo [0, 1] S_
  bcast_S_S32 : S_.BroadcastsInDim S32 (![] : Fin 0 → Fin S32.rank)
  reducesTo_S32_S_d0 : S32.ReducesTo [0] S_
  bcast_S_S24x32 : S_.BroadcastsInDim S24x32 (![] : Fin 0 → Fin S24x32.rank)
  reducesTo_S24x32_S_d0_1 : S24x32.ReducesTo [0, 1] S_
  bcast_S_S24 : S_.BroadcastsInDim S24 (![] : Fin 0 → Fin S24.rank)
  reducesTo_S24_S_d0 : S24.ReducesTo [0] S_
  bcast_S_S16x28 : S_.BroadcastsInDim S16x28 (![] : Fin 0 → Fin S16x28.rank)
  reducesTo_S16x28_S_d0_1 : S16x28.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S1132624 : S_.BroadcastsInDim S1132624 (![] : Fin 0 → Fin S1132624.rank)
  reducesTo_S1132624_S_d0 : S1132624.ReducesTo [0] S_

variable [Facts]

def fn_part3 {F : FTy → Type} [FloatOps F] (main_arg10 : IVec S1132624 32) (main_arg11 : IVec S1132624 32) (main_v48 : IVec S_ 1) (main_v50 : IVec S1132624 1) : IVec S_ 1 :=
  let main_c_19 : IVec S_ 1 := constantI S_ 1 1#1
  let main_v51 : IVec S_ 1 := (fun x v => Host.reduce IntOp.andi x v reducesTo_S1132624_S_d0 h_S_) main_v50 main_c_19
  let main_v52 : IVec S_ 1 := andi main_v48 main_v51
  let main_c_20 : IVec S_ 32 := constantI S_ 32 1105#32
  let main_v53 : IVec S1132624 32 := broadcastInDim S1132624 ![] bcast_S_S1132624 main_c_20
  let main_v54 : IVec S1132624 1 := cmpi .slt main_arg10 main_v53
  let main_c_21 : IVec S_ 1 := constantI S_ 1 1#1
  let main_v55 : IVec S_ 1 := (fun x v => Host.reduce IntOp.andi x v reducesTo_S1132624_S_d0 h_S_) main_v54 main_c_21
  let main_v56 : IVec S_ 1 := andi main_v52 main_v55
  let main_c_22 : IVec S_ 32 := constantI S_ 32 4294966191#32
  let main_v57 : IVec S1132624 32 := broadcastInDim S1132624 ![] bcast_S_S1132624 main_c_22
  let main_v58 : IVec S1132624 1 := cmpi .sge main_arg11 main_v57
  let main_c_23 : IVec S_ 1 := constantI S_ 1 1#1
  let main_v59 : IVec S_ 1 := (fun x v => Host.reduce IntOp.andi x v reducesTo_S1132624_S_d0 h_S_) main_v58 main_c_23
  let main_v60 : IVec S_ 1 := andi main_v56 main_v59
  let main_c_24 : IVec S_ 32 := constantI S_ 32 1105#32
  let main_v61 : IVec S1132624 32 := broadcastInDim S1132624 ![] bcast_S_S1132624 main_c_24
  let main_v62 : IVec S1132624 1 := cmpi .slt main_arg11 main_v61
  let main_c_25 : IVec S_ 1 := constantI S_ 1 1#1
  let main_v63 : IVec S_ 1 := (fun x v => Host.reduce IntOp.andi x v reducesTo_S1132624_S_d0 h_S_) main_v62 main_c_25
  let main_v64 : IVec S_ 1 := andi main_v60 main_v63
  main_v64

def fn_part2 {F : FTy → Type} [FloatOps F] (main_arg7 : FVec F S16 .f32) (main_arg8 : FVec F S8x16 .f32) (main_arg9 : FVec F S8 .f32) (main_arg10 : IVec S1132624 32) (main_arg11 : IVec S1132624 32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S8x16 .f32 := Host.absf main_arg8
  let main_cst_14 : FVec F S_ .f32 := constant S_ .f32 0x7F800000#32
  let main_v40 : FVec F S8x16 .f32 := broadcastInDim S8x16 ![] bcast_S_S8x16 main_cst_14
  let main_v41 : IVec S8x16 1 := cmpf .olt main_v39 main_v40
  let main_c_15 : IVec S_ 1 := constantI S_ 1 1#1
  let main_v42 : IVec S_ 1 := (fun x v => Host.reduce IntOp.andi x v reducesTo_S8x16_S_d0_1 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_c_18 : IVec S_ 32 := constantI S_ 32 4294966191#32
  let main_v49 : IVec S1132624 32 := broadcastInDim S1132624 ![] bcast_S_S1132624 main_c_18
  let main_v50 : IVec S1132624 1 := cmpi .sge main_arg10 main_v49
  fn_part3 (F := F) main_arg10 main_arg11 main_v48 main_v50

def fn_part1 {F : FTy → Type} [FloatOps F] (main_arg4 : FVec F S24x32 .f32) (main_arg5 : FVec F S24 .f32) (main_arg6 : FVec F S16x28 .f32) (main_arg7 : FVec F S16 .f32) (main_arg8 : FVec F S8x16 .f32) (main_arg9 : FVec F S8 .f32) (main_arg10 : IVec S1132624 32) (main_arg11 : IVec S1132624 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S24x32 .f32 := Host.absf main_arg4
  let main_cst_6 : FVec F S_ .f32 := constant S_ .f32 0x7F800000#32
  let main_v20 : FVec F S24x32 .f32 := broadcastInDim S24x32 ![] bcast_S_S24x32 main_cst_6
  let main_v21 : IVec S24x32 1 := cmpf .olt main_v19 main_v20
  let main_c_7 : IVec S_ 1 := constantI S_ 1 1#1
  let main_v22 : IVec S_ 1 := (fun x v => Host.reduce IntOp.andi x v reducesTo_S24x32_S_d0_1 h_S_) main_v21 main_c_7
  let main_v23 : IVec S_ 1 := andi main_v18 main_v22
  let main_v24 : FVec F S24 .f32 := Host.absf main_arg5
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_v29 : FVec F S16x28 .f32 := Host.absf main_arg6
  let main_cst_10 : FVec F S_ .f32 := constant S_ .f32 0x7F800000#32
  let main_v30 : FVec F S16x28 .f32 := broadcastInDim S16x28 ![] bcast_S_S16x28 main_cst_10
  let main_v31 : IVec S16x28 1 := cmpf .olt main_v29 main_v30
  let main_c_11 : IVec S_ 1 := constantI S_ 1 1#1
  let main_v32 : IVec S_ 1 := (fun x v => Host.reduce IntOp.andi x v reducesTo_S16x28_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x1105x12 .f32) (main_arg1 : FVec F S2x1132624x8 .f32) (main_arg2 : FVec F S32x34 .f32) (main_arg3 : FVec F S32 .f32) (main_arg4 : FVec F S24x32 .f32) (main_arg5 : FVec F S24 .f32) (main_arg6 : FVec F S16x28 .f32) (main_arg7 : FVec F S16 .f32) (main_arg8 : FVec F S8x16 .f32) (main_arg9 : FVec F S8 .f32) (main_arg10 : IVec S1132624 32) (main_arg11 : IVec S1132624 32) : IVec S_ 1 :=
  let main_v0 : FVec F S2x1105x12 .f32 := Host.absf main_arg0
  let main_cst : FVec F S_ .f32 := constant S_ .f32 0x7F800000#32
  let main_v1 : FVec F S2x1105x12 .f32 := broadcastInDim S2x1105x12 ![] bcast_S_S2x1105x12 main_cst
  let main_v2 : IVec S2x1105x12 1 := cmpf .olt main_v0 main_v1
  let main_c : IVec S_ 1 := constantI S_ 1 1#1
  let main_v3 : IVec S_ 1 := (fun x v => Host.reduce IntOp.andi x v reducesTo_S2x1105x12_S_d0_1_2 h_S_) main_v2 main_c
  let main_v4 : FVec F S2x1132624x8 .f32 := Host.absf main_arg1
  let main_cst_0 : FVec F S_ .f32 := constant S_ .f32 0x7F800000#32
  let main_v5 : FVec F S2x1132624x8 .f32 := broadcastInDim S2x1132624x8 ![] bcast_S_S2x1132624x8 main_cst_0
  let main_v6 : IVec S2x1132624x8 1 := cmpf .olt main_v4 main_v5
  let main_c_1 : IVec S_ 1 := constantI S_ 1 1#1
  let main_v7 : IVec S_ 1 := (fun x v => Host.reduce IntOp.andi x v reducesTo_S2x1132624x8_S_d0_1_2 h_S_) main_v6 main_c_1
  let main_v8 : IVec S_ 1 := andi main_v3 main_v7
  let main_v9 : FVec F S32x34 .f32 := Host.absf main_arg2
  let main_cst_2 : FVec F S_ .f32 := constant S_ .f32 0x7F800000#32
  let main_v10 : FVec F S32x34 .f32 := broadcastInDim S32x34 ![] bcast_S_S32x34 main_cst_2
  let main_v11 : IVec S32x34 1 := cmpf .olt main_v9 main_v10
  let main_c_3 : IVec S_ 1 := constantI S_ 1 1#1
  let main_v12 : IVec S_ 1 := (fun x v => Host.reduce IntOp.andi x v reducesTo_S32x34_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S2x1105x12 : Shape := ⟨3, ![2, 1105, 12]⟩
abbrev S2x1132624x8 : Shape := ⟨3, ![2, 1132624, 8]⟩
abbrev S32x34 : Shape := ⟨2, ![32, 34]⟩
abbrev S32 : Shape := ⟨1, ![32]⟩
abbrev S24x32 : Shape := ⟨2, ![24, 32]⟩
abbrev S24 : Shape := ⟨1, ![24]⟩
abbrev S16x28 : Shape := ⟨2, ![16, 28]⟩
abbrev S16 : Shape := ⟨1, ![16]⟩
abbrev S8x16 : Shape := ⟨2, ![8, 16]⟩
abbrev S8 : Shape := ⟨1, ![8]⟩
abbrev S1132624 : Shape := ⟨1, ![1132624]⟩
abbrev S_ : Shape := ⟨0, ![]⟩
abbrev S1105 : Shape := ⟨1, ![1105]⟩
abbrev S1132624x1 : Shape := ⟨2, ![1132624, 1]⟩
abbrev S1x1105x1 : Shape := ⟨3, ![1, 1105, 1]⟩
abbrev S2x1105x1 : Shape := ⟨3, ![2, 1105, 1]⟩
abbrev S2x1105x13 : Shape := ⟨3, ![2, 1105, 13]⟩
abbrev S2x13x1105 : Shape := ⟨3, ![2, 13, 1105]⟩
abbrev S2x8x1132624 : Shape := ⟨3, ![2, 8, 1132624]⟩
abbrev S1 : Shape := ⟨1, ![1]⟩
abbrev S1x1 : Shape := ⟨2, ![1, 1]⟩
abbrev S2x13x1132624 : Shape := ⟨3, ![2, 13, 1132624]⟩
abbrev S32x1 : Shape := ⟨2, ![32, 1]⟩
abbrev S24x1 : Shape := ⟨2, ![24, 1]⟩
abbrev S1x13x16384 : Shape := ⟨3, ![1, 13, 16384]⟩
abbrev S1x8x16384 : Shape := ⟨3, ![1, 8, 16384]⟩
abbrev S13x16384 : Shape := ⟨2, ![13, 16384]⟩
abbrev S8x16384 : Shape := ⟨2, ![8, 16384]⟩
abbrev S12x16384 : Shape := ⟨2, ![12, 16384]⟩
abbrev S1x16384 : Shape := ⟨2, ![1, 16384]⟩
abbrev S34x16384 : Shape := ⟨2, ![34, 16384]⟩
abbrev S32x16384 : Shape := ⟨2, ![32, 16384]⟩
abbrev S24x16384 : Shape := ⟨2, ![24, 16384]⟩
abbrev S2x1105x8 : Shape := ⟨3, ![2, 1105, 8]⟩
abbrev S2x8x1105 : Shape := ⟨3, ![2, 8, 1105]⟩
abbrev S2x12x1105 : Shape := ⟨3, ![2, 12, 1105]⟩
abbrev S16x1 : Shape := ⟨2, ![16, 1]⟩
abbrev S8x1 : Shape := ⟨2, ![8, 1]⟩
abbrev S1x8x1105 : Shape := ⟨3, ![1, 8, 1105]⟩
abbrev S1x12x1105 : Shape := ⟨3, ![1, 12, 1105]⟩
abbrev S8x1105 : Shape := ⟨2, ![8, 1105]⟩
abbrev S12x1105 : Shape := ⟨2, ![12, 1105]⟩
abbrev S28x1105 : Shape := ⟨2, ![28, 1105]⟩
abbrev S16x1105 : Shape := ⟨2, ![16, 1105]⟩
abbrev S2x1105x4 : Shape := ⟨3, ![2, 1105, 4]⟩

abbrev nBuf : Space → Nat
  | .hbm => 128
  | .vmem => 28
  | .smem => 0
  | _ => 0

abbrev bufTy : (tb : Table) → Fin (tcTables nBuf tb) → BufTy
  | .hbm, ⟨0, _⟩ => ⟨S2x1105x12, .f32⟩
  | .hbm, ⟨1, _⟩ => ⟨S2x1132624x8, .f32⟩
  | .hbm, ⟨2, _⟩ => ⟨S32x34, .f32⟩
  | .hbm, ⟨3, _⟩ => ⟨S32, .f32⟩
  | .hbm, ⟨4, _⟩ => ⟨S24x32, .f32⟩
  | .hbm, ⟨5, _⟩ => ⟨S24, .f32⟩
  | .hbm, ⟨6, _⟩ => ⟨S16x28, .f32⟩
  | .hbm, ⟨7, _⟩ => ⟨S16, .f32⟩
  | .hbm, ⟨8, _⟩ => ⟨S8x16, .f32⟩
  | .hbm, ⟨9, _⟩ => ⟨S8, .f32⟩
  | .hbm, ⟨10, _⟩ => ⟨S1132624, .i32⟩
  | .hbm, ⟨11, _⟩ => ⟨S1132624, .i32⟩
  | .hbm, ⟨12, _⟩ => ⟨S_, .f32⟩
  | .hbm, ⟨13, _⟩ => ⟨S1132624, .f32⟩
  | .hbm, ⟨14, _⟩ => ⟨S_, .f32⟩
  | .hbm, ⟨15, _⟩ => ⟨S1105, .f32⟩
  | .hbm, ⟨16, _⟩ => ⟨S1132624x1, .i32⟩
  | .hbm, ⟨17, _⟩ => ⟨S1105, .f32⟩
  | .hbm, ⟨18, _⟩ => ⟨S_, .f32⟩
  | .hbm, ⟨19, _⟩ => ⟨S1105, .f32⟩
  | .hbm, ⟨20, _⟩ => ⟨S1132624x1, .i32⟩
  | .hbm, ⟨21, _⟩ => ⟨S1105, .f32⟩
  | .hbm, ⟨22, _⟩ => ⟨S1x1105x1, .f32⟩
  | .hbm, ⟨23, _⟩ => ⟨S2x1105x1, .f32⟩
  | .hbm, ⟨24, _⟩ => ⟨S2x1105x13, .f32⟩
  | .hbm, ⟨25, _⟩ => ⟨S1x1105x1, .f32⟩
  | .hbm, ⟨26, _⟩ => ⟨S2x1105x1, .f32⟩
  | .hbm, ⟨27, _⟩ => ⟨S2x1105x13, .f32⟩
  | .hbm, ⟨28, _⟩ => ⟨S2x13x1105, .f32⟩
  | .hbm, ⟨29, _⟩ => ⟨S2x13x1105, .f32⟩
  | .hbm, ⟨30, _⟩ => ⟨S2x8x1132624, .f32⟩
  | .hbm, ⟨31, _⟩ => ⟨S_, .i32⟩
  | .hbm, ⟨32, _⟩ => ⟨S1132624, .i32⟩
  | .hbm, ⟨33, _⟩ => ⟨S1132624, .i1⟩
  | .hbm, ⟨34, _⟩ => ⟨S_, .i32⟩
  | .hbm, ⟨35, _⟩ => ⟨S1132624, .i32⟩
  | .hbm, ⟨36, _⟩ => ⟨S1132624, .i32⟩
  | .hbm, ⟨37, _⟩ => ⟨S1132624, .i32⟩
  | .hbm, ⟨38, _⟩ => ⟨S1132624x1, .i32⟩
  | .hbm, ⟨39, _⟩ => ⟨S1, .i32⟩
  | .hbm, ⟨40, _⟩ => ⟨S_, .i32⟩
  | .hbm, ⟨41, _⟩ => ⟨S1132624x1, .i32⟩
  | .hbm, ⟨42, _⟩ => ⟨S1132624x1, .i1⟩
  | .hbm, ⟨43, _⟩ => ⟨S1x1, .i32⟩
  | .hbm, ⟨44, _⟩ => ⟨S1132624x1, .i32⟩
  | .hbm, ⟨45, _⟩ => ⟨S1132624x1, .i1⟩
  | .hbm, ⟨46, _⟩ => ⟨S1132624x1, .i1⟩
  | .hbm, ⟨47, _⟩ => ⟨S_, .i1⟩
  | .hbm, ⟨48, _⟩ => ⟨S1132624, .i1⟩
  | .hbm, ⟨49, _⟩ => ⟨S2x13x1132624, .f32⟩
  | .hbm, ⟨50, _⟩ => ⟨S2x13x1132624, .i1⟩
  | .hbm, ⟨51, _⟩ => ⟨S_, .f32⟩
  | .hbm, ⟨52, _⟩ => ⟨S2x13x1132624, .f32⟩
  | .hbm, ⟨53, _⟩ => ⟨S2x13x1132624, .f32⟩
  | .hbm, ⟨54, _⟩ => ⟨S_, .i32⟩
  | .hbm, ⟨55, _⟩ => ⟨S1132624, .i32⟩
  | .hbm, ⟨56, _⟩ => ⟨S1132624, .i1⟩
  | .hbm, ⟨57, _⟩ => ⟨S_, .i32⟩
  | .hbm, ⟨58, _⟩ => ⟨S1132624, .i32⟩
  | .hbm, ⟨59, _⟩ => ⟨S1132624, .i32⟩
  | .hbm, ⟨60, _⟩ => ⟨S1132624, .i32⟩
  | .hbm, ⟨61, _⟩ => ⟨S1132624x1, .i32⟩
  | .hbm, ⟨62, _⟩ => ⟨S1, .i32⟩
  | .hbm, ⟨63, _⟩ => ⟨S_, .i32⟩
  | .hbm, ⟨64, _⟩ => ⟨S1132624x1, .i32⟩
  | .hbm, ⟨65, _⟩ => ⟨S1132624x1, .i1⟩
  | .hbm, ⟨66, _⟩ => ⟨S1x1, .i32⟩
  | .hbm, ⟨67, _⟩ => ⟨S1132624x1, .i32⟩
  | .hbm, ⟨68, _⟩ => ⟨S1132624x1, .i1⟩
  | .hbm, ⟨69, _⟩ => ⟨S1132624x1, .i1⟩
  | .hbm, ⟨70, _⟩ => ⟨S_, .i1⟩
  | .hbm, ⟨71, _⟩ => ⟨S1132624, .i1⟩
  | .hbm, ⟨72, _⟩ => ⟨S2x13x1132624, .f32⟩
  | .hbm, ⟨73, _⟩ => ⟨S2x13x1132624, .i1⟩
  | .hbm, ⟨74, _⟩ => ⟨S_, .f32⟩
  | .hbm, ⟨75, _⟩ => ⟨S2x13x1132624, .f32⟩
  | .hbm, ⟨76, _⟩ => ⟨S2x13x1132624, .f32⟩
  | .hbm, ⟨77, _⟩ => ⟨S32x1, .f32⟩
  | .hbm, ⟨78, _⟩ => ⟨S24x1, .f32⟩
  | .hbm, ⟨79, _⟩ => ⟨S2x8x1132624, .f32⟩
  | .hbm, ⟨80, _⟩ => ⟨S2x8x1132624, .f32⟩
  | .hbm, ⟨81, _⟩ => ⟨S2x8x1132624, .f32⟩
  | .hbm, ⟨82, _⟩ => ⟨S2x1132624x8, .f32⟩
  | .hbm, ⟨83, _⟩ => ⟨S2x1132624x8, .f32⟩
  | .hbm, ⟨84, _⟩ => ⟨S2x1132624x8, .f32⟩
  | .hbm, ⟨85, _⟩ => ⟨S_, .f32⟩
  | .hbm, ⟨86, _⟩ => ⟨S2x1105x8, .f32⟩
  | .hbm, ⟨87, _⟩ => ⟨S_, .i32⟩
  | .hbm, ⟨88, _⟩ => ⟨S1132624, .i32⟩
  | .hbm, ⟨89, _⟩ => ⟨S1132624, .i1⟩
  | .hbm, ⟨90, _⟩ => ⟨S_, .i32⟩
  | .hbm, ⟨91, _⟩ => ⟨S1132624, .i32⟩
  | .hbm, ⟨92, _⟩ => ⟨S1132624, .i32⟩
  | .hbm, ⟨93, _⟩ => ⟨S1132624, .i32⟩
  | .hbm, ⟨94, _⟩ => ⟨S1132624x1, .i32⟩
  | .hbm, ⟨95, _⟩ => ⟨S2x1105x8, .f32⟩
  | .hbm, ⟨96, _⟩ => ⟨S_, .f32⟩
  | .hbm, ⟨97, _⟩ => ⟨S2x1105x8, .f32⟩
  | .hbm, ⟨98, _⟩ => ⟨S_, .i32⟩
  | .hbm, ⟨99, _⟩ => ⟨S1132624, .i32⟩
  | .hbm, ⟨100, _⟩ => ⟨S1132624, .i1⟩
  | .hbm, ⟨101, _⟩ => ⟨S_, .i32⟩
  | .hbm, ⟨102, _⟩ => ⟨S1132624, .i32⟩
  | .hbm, ⟨103, _⟩ => ⟨S1132624, .i32⟩
  | .hbm, ⟨104, _⟩ => ⟨S1132624, .i32⟩
  | .hbm, ⟨105, _⟩ => ⟨S1132624x1, .i32⟩
  | .hbm, ⟨106, _⟩ => ⟨S2x1105x8, .f32⟩
  | .hbm, ⟨107, _⟩ => ⟨S_, .f32⟩
  | .hbm, ⟨108, _⟩ => ⟨S1105, .f32⟩
  | .hbm, ⟨109, _⟩ => ⟨S1105, .f32⟩
  | .hbm, ⟨110, _⟩ => ⟨S1x1105x1, .f32⟩
  | .hbm, ⟨111, _⟩ => ⟨S2x1105x8, .f32⟩
  | .hbm, ⟨112, _⟩ => ⟨S2x1105x8, .f32⟩
  | .hbm, ⟨113, _⟩ => ⟨S_, .f32⟩
  | .hbm, ⟨114, _⟩ => ⟨S1105, .f32⟩
  | .hbm, ⟨115, _⟩ => ⟨S1105, .f32⟩
  | .hbm, ⟨116, _⟩ => ⟨S1x1105x1, .f32⟩
  | .hbm, ⟨117, _⟩ => ⟨S2x1105x8, .f32⟩
  | .hbm, ⟨118, _⟩ => ⟨S2x1105x8, .f32⟩
  | .hbm, ⟨119, _⟩ => ⟨S2x8x1105, .f32⟩
  | .hbm, ⟨120, _⟩ => ⟨S2x8x1105, .f32⟩
  | .hbm, ⟨121, _⟩ => ⟨S2x12x1105, .f32⟩
  | .hbm, ⟨122, _⟩ => ⟨S16x1, .f32⟩
  | .hbm, ⟨123, _⟩ => ⟨S8x1, .f32⟩
  | .hbm, ⟨124, _⟩ => ⟨S2x8x1105, .f32⟩
  | .hbm, ⟨125, _⟩ => ⟨S2x1105x8, .f32⟩
  | .hbm, ⟨126, _⟩ => ⟨S2x1105x4, .f32⟩
  | .hbm, ⟨127, _⟩ => ⟨S2x1105x12, .f32⟩
  | .local _ .vmem, ⟨0, _⟩ => ⟨S1x13x16384, .f32⟩
  | .local _ .vmem, ⟨1, _⟩ => ⟨S1x13x16384, .f32⟩
  | .local _ .vmem, ⟨2, _⟩ => ⟨S1x13x16384, .f32⟩
  | .local _ .vmem, ⟨3, _⟩ => ⟨S1x13x16384, .f32⟩
  | .local _ .vmem, ⟨4, _⟩ => ⟨S1x8x16384, .f32⟩
  | .local _ .vmem, ⟨5, _⟩ => ⟨S1x8x16384, .f32⟩
  | .local _ .vmem, ⟨6, _⟩ => ⟨S32x34, .f32⟩
  | .local _ .vmem, ⟨7, _⟩ => ⟨S32x1, .f32⟩
  | .local _ .vmem, ⟨8, _⟩ => ⟨S24x32, .f32⟩
  | .local _ .vmem, ⟨9, _⟩ => ⟨S24x1, .f32⟩
  | .local _ .vmem, ⟨10, _⟩ => ⟨S1x8x16384, .f32⟩
  | .local _ .vmem, ⟨11, _⟩ => ⟨S1x8x16384, .f32⟩
  | .local _ .vmem, ⟨12, _⟩ => ⟨S1x8x16384, .f32⟩
  | .local _ .vmem, ⟨13, _⟩ => ⟨S1x8x16384, .f32⟩
  | .local _ .vmem, ⟨14, _⟩ => ⟨S1x8x16384, .f32⟩
  | .local _ .vmem, ⟨15, _⟩ => ⟨S1x8x16384, .f32⟩
  | .local _ .vmem, ⟨16, _⟩ => ⟨S1x8x1105, .f32⟩
  | .local _ .vmem, ⟨17, _⟩ => ⟨S1x8x1105, .f32⟩
  | .local _ .vmem, ⟨18, _⟩ => ⟨S1x8x1105, .f32⟩
  | .local _ .vmem, ⟨19, _⟩ => ⟨S1x8x1105, .f32⟩
  | .local _ .vmem, ⟨20, _⟩ => ⟨S1x12x1105, .f32⟩
  | .local _ .vmem, ⟨21, _⟩ => ⟨S1x12x1105, .f32⟩
  | .local _ .vmem, ⟨22, _⟩ => ⟨S16x28, .f32⟩
  | .local _ .vmem, ⟨23, _⟩ => ⟨S16x1, .f32⟩
  | .local _ .vmem, ⟨24, _⟩ => ⟨S8x16, .f32⟩
  | .local _ .vmem, ⟨25, _⟩ => ⟨S8x1, .f32⟩
  | .local _ .vmem, ⟨26, _⟩ => ⟨S1x8x1105, .f32⟩
  | .local _ .vmem, ⟨27, _⟩ => ⟨S1x8x1105, .f32⟩
  | _, _ => ⟨S2x1105x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v16 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20_0 : Ref sig .tc := ⟨.hbm, 79, rfl⟩
abbrev main_v20_1 : Ref sig .tc := ⟨.hbm, 80, rfl⟩
abbrev main_v20_2 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_cst_2 : Ref sig .tc := ⟨.hbm, 85, rfl⟩
abbrev main_v24 : Ref sig .tc := ⟨.hbm, 86, rfl⟩
abbrev main_c : Ref sig .tc := ⟨.hbm, 87, rfl⟩
abbrev main_v25 : Ref sig .tc := ⟨.hbm, 88, rfl⟩
abbrev main_v26 : Ref sig .tc := ⟨.hbm, 89, rfl⟩
abbrev main_c_3 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_4 : Ref sig .tc := ⟨.hbm, 96, rfl⟩
abbrev main_v32 : Ref sig .tc := ⟨.hbm, 97, rfl⟩
abbrev main_c_5 : Ref sig .tc := ⟨.hbm, 98, rfl⟩
abbrev main_v33 : Ref sig .tc := ⟨.hbm, 99, rfl⟩
abbrev main_v34 : Ref sig .tc := ⟨.hbm, 100, rfl⟩
abbrev main_c_6 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_7 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_cst_8 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![2, 70], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x13x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x13x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x34 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S24x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x1105 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x1105 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12x1105 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x28 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x8x1105 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1132624 : S_.BroadcastsInDim S1132624 (![] : Fin 0 → Fin S1132624.rank)
  bcast_S_S1105 : S_.BroadcastsInDim S1105 (![] : Fin 0 → Fin S1105.rank)
  bcast_S1132624_S1132624x1_0 : S1132624.BroadcastsInDim S1132624x1 (![0] : Fin 1 → Fin S1132624x1.rank)
  bcast_S1105_S1x1105x1_1 : S1105.BroadcastsInDim S1x1105x1 (![1] : Fin 1 → Fin S1x1105x1.rank)
  bcast_S1x1105x1_S2x1105x1_0_1_2 : S1x1105x1.BroadcastsInDim S2x1105x1 (![0, 1, 2] : Fin 3 → Fin S2x1105x1.rank)
  concatenates_S2x1105x12_S2x1105x1_S2x1105x13_d2 : Shape.Concatenates [S2x1105x12, S2x1105x1] S2x1105x13 2
  transposes_S2x1105x13_S2x13x1105_0_2_1 : S2x1105x13.Transposes [0, 2, 1] S2x13x1105
  transposes_S2x1132624x8_S2x8x1132624_0_2_1 : S2x1132624x8.Transposes [0, 2, 1] S2x8x1132624
  bcast_S_S1132624x1 : S_.BroadcastsInDim S1132624x1 (![] : Fin 0 → Fin S1132624x1.rank)
  bcast_S1_S1x1_1 : S1.BroadcastsInDim S1x1 (![1] : Fin 1 → Fin S1x1.rank)
  bcast_S1x1_S1132624x1_0_1 : S1x1.BroadcastsInDim S1132624x1 (![0, 1] : Fin 2 → Fin S1132624x1.rank)
  reducesTo_S1132624x1_S1132624_d1 : S1132624x1.ReducesTo [1] S1132624
  h_S_ : 0 < S_.numel
  bcast_S1132624_S2x13x1132624_2 : S1132624.BroadcastsInDim S2x13x1132624 (![2] : Fin 1 → Fin S2x13x1132624.rank)
  bcast_S_S2x13x1132624 : S_.BroadcastsInDim S2x13x1132624 (![] : Fin 0 → Fin S2x13x1132624.rank)
  shapeCasts_S32_S32x1 : S32.ShapeCasts S32x1
  shapeCasts_S24_S24x1 : S24.ShapeCasts S24x1
  inb_S1x13x16384_S1x13x16384_0_0_0 : ∀ a, (![0, 0, 0] : Fin 3 → Nat) a + S1x13x16384.size a ≤ S1x13x16384.size a
  h_S1x13x16384 : 0 < S1x13x16384.numel
  shapeCasts_S1x13x16384_S13x16384 : S1x13x16384.ShapeCasts S13x16384
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S8x16384 : S1x8x16384.ShapeCasts S8x16384
  slices_S13x16384_o0_0_S12x16384 : S13x16384.Slices ![0, 0] S12x16384
  slices_S13x16384_o12_0_S1x16384 : S13x16384.Slices ![12, 0] S1x16384
  concatenates_S12x16384_S12x16384_S8x16384_S1x16384_S1x16384_S34x16384_d0 : Shape.Concatenates [S12x16384, S12x16384, S8x16384, S1x16384, S1x16384] S34x16384 0
  bitsLt_bf16_f32 : FTy.bits .bf16 < FTy.bits .f32
  inb_S32x34_S32x34_0_0 : ∀ a, (![0, 0] : Fin 2 → Nat) a + S32x34.size a ≤ S32x34.size a
  h_S32x34 : 0 < S32x34.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S24x32_S24x32_0_0 : ∀ a, (![0, 0] : Fin 2 → Nat) a + S24x32.size a ≤ S24x32.size a
  h_S24x32 : 0 < S24x32.numel
  inb_S24x1_S24x1_0_0 : ∀ a, (![0, 0] : Fin 2 → Nat) a + S24x1.size a ≤ S24x1.size a
  h_S24x1 : 0 < S24x1.numel
  shapeCasts_S24x1_S24x1 : S24x1.ShapeCasts S24x1
  broadcasts_S24x1_S24x16384 : S24x1.Broadcasts S24x16384
  slices_S24x16384_o0_0_S8x16384 : S24x16384.Slices ![0, 0] S8x16384
  slices_S24x16384_o8_0_S8x16384 : S24x16384.Slices ![8, 0] S8x16384
  slices_S24x16384_o16_0_S8x16384 : S24x16384.Slices ![16, 0] S8x16384
  shapeCasts_S8x16384_S1x8x16384 : S8x16384.ShapeCasts S1x8x16384
  transposes_S2x8x1132624_S2x1132624x8_0_2_1 : S2x8x1132624.Transposes [0, 2, 1] S2x1132624x8
  bcast_S_S2x1105x8 : S_.BroadcastsInDim S2x1105x8 (![] : Fin 0 → Fin S2x1105x8.rank)
  bcast_S1x1105x1_S2x1105x8_0_1_2 : S1x1105x1.BroadcastsInDim S2x1105x8 (![0, 1, 2] : Fin 3 → Fin S2x1105x8.rank)
  transposes_S2x1105x8_S2x8x1105_0_2_1 : S2x1105x8.Transposes [0, 2, 1] S2x8x1105
  transposes_S2x1105x12_S2x12x1105_0_2_1 : S2x1105x12.Transposes [0, 2, 1] S2x12x1105
  shapeCasts_S16_S16x1 : S16.ShapeCasts S16x1
  shapeCasts_S8_S8x1 : S8.ShapeCasts S8x1
  inb_S1x8x1105_S1x8x1105_0_0_0 : ∀ a, (![0, 0, 0] : Fin 3 → Nat) a + S1x8x1105.size a ≤ S1x8x1105.size a
  h_S1x8x1105 : 0 < S1x8x1105.numel
  shapeCasts_S1x8x1105_S8x1105 : S1x8x1105.ShapeCasts S8x1105
  inb_S1x12x1105_S1x12x1105_0_0_0 : ∀ a, (![0, 0, 0] : Fin 3 → Nat) a + S1x12x1105.size a ≤ S1x12x1105.size a
  h_S1x12x1105 : 0 < S1x12x1105.numel
  shapeCasts_S1x12x1105_S12x1105 : S1x12x1105.ShapeCasts S12x1105
  concatenates_S8x1105_S8x1105_S12x1105_S28x1105_d0 : Shape.Concatenates [S8x1105, S8x1105, S12x1105] S28x1105 0
  inb_S16x28_S16x28_0_0 : ∀ a, (![0, 0] : Fin 2 → Nat) a + S16x28.size a ≤ S16x28.size a
  h_S16x28 : 0 < S16x28.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x1105 : S16x1.Broadcasts S16x1105
  inb_S8x16_S8x16_0_0 : ∀ a, (![0, 0] : Fin 2 → Nat) a + S8x16.size a ≤ S8x16.size a
  h_S8x16 : 0 < S8x16.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x1105 : S8x1.Broadcasts S8x1105
  slices_S12x1105_o0_0_S8x1105 : S12x1105.Slices ![0, 0] S8x1105
  shapeCasts_S8x1105_S1x8x1105 : S8x1105.ShapeCasts S1x8x1105
  transposes_S2x8x1105_S2x1105x8_0_2_1 : S2x8x1105.Transposes [0, 2, 1] S2x1105x8
  slices_S2x1105x12_S2x1105x4_0_0_8 : S2x1105x12.Slices ![0, 0, 8] S2x1105x4
  concatenates_S2x1105x8_S2x1105x4_S2x1105x12_d2 : Shape.Concatenates [S2x1105x8, S2x1105x4] S2x1105x12 2
  scatter_S1105_S1132624x1_S1132624_n_0_0_1_wf : ScatterDims.WF S1105 S1132624x1 S1132624 [] [0] [0] 1
  gather_S2x13x1105_S1132624x1_S2x13x1132624_01_2_n_n_2_1_2131_wf : GatherDims.WF S2x13x1105 S1132624x1 S2x13x1132624 [0, 1] [2] [] [2] [] 1 ![2, 13, 1]
  dot_S32x34_S34x16384_S32x16384_1_0_0_1_n_n_wf : DotDims.WF S32x34 S34x16384 S32x16384 [1] [0] [0] [1] [] []
  dot_S24x32_S32x16384_S24x16384_1_0_0_1_n_n_wf : DotDims.WF S24x32 S32x16384 S24x16384 [1] [0] [0] [1] [] []
  scatter_S2x1105x8_S1132624x1_S2x1132624x8_02_1_1_1_wf : ScatterDims.WF S2x1105x8 S1132624x1 S2x1132624x8 [0, 2] [1] [1] 1
  dot_S16x28_S28x1105_S16x1105_1_0_0_1_n_n_wf : DotDims.WF S16x28 S28x1105 S16x1105 [1] [0] [0] [1] [] []
  dot_S8x16_S16x1105_S8x1105_1_0_0_1_n_n_wf : DotDims.WF S8x16 S16x1105 S8x1105 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x13x16384.size a < S2x13x1132624.size a
  hwx0_0 : ∀ i : grid0.Coords, EltTy.bits .f32 = 32 ∨ (Rect.unit (s := S2x13x1132624) (fun a => cc0_transform_0 i a * S1x13x16384.size a) (fun a => (Pipeline.Clip.of (cc0_transform_0 i a) (S1x13x16384.size a) (S2x13x1132624.size a)).extent (S1x13x16384.size a)) fun a => Pipeline.Clip.inb (Pipeline.Clip.ok_of (hstart0_0 i a))).WholeWords (EltTy.packing .f32)
  hwxs0_0 : ∀ i : grid0.Coords, EltTy.bits .f32 = 32 ∨ (Rect.unit (s := S1x13x16384) (fun _ => 0) (fun a => (Pipeline.Clip.of (cc0_transform_0 i a) (S1x13x16384.size a) (S2x13x1132624.size a)).extent (S1x13x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x13x16384.size a < S2x13x1132624.size a
  hwx0_1 : ∀ i : grid0.Coords, EltTy.bits .f32 = 32 ∨ (Rect.unit (s := S2x13x1132624) (fun a => cc0_transform_1 i a * S1x13x16384.size a) (fun a => (Pipeline.Clip.of (cc0_transform_1 i a) (S1x13x16384.size a) (S2x13x1132624.size a)).extent (S1x13x16384.size a)) fun a => Pipeline.Clip.inb (Pipeline.Clip.ok_of (hstart0_1 i a))).WholeWords (EltTy.packing .f32)
  hwxs0_1 : ∀ i : grid0.Coords, EltTy.bits .f32 = 32 ∨ (Rect.unit (s := S1x13x16384) (fun _ => 0) (fun a => (Pipeline.Clip.of (cc0_transform_1 i a) (S1x13x16384.size a) (S2x13x1132624.size a)).extent (S1x13x16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x8x16384.size a < S2x8x1132624.size a
  hwx0_2 : ∀ i : grid0.Coords, EltTy.bits .f32 = 32 ∨ (Rect.unit (s := S2x8x1132624) (fun a => cc0_transform_2 i a * S1x8x16384.size a) (fun a => (Pipeline.Clip.of (cc0_transform_2 i a) (S1x8x16384.size a) (S2x8x1132624.size a)).extent (S1x8x16384.size a)) fun a => Pipeline.Clip.inb (Pipeline.Clip.ok_of (hstart0_2 i a))).WholeWords (EltTy.packing .f32)
  hwxs0_2 : ∀ i : grid0.Coords, EltTy.bits .f32 = 32 ∨ (Rect.unit (s := S1x8x16384) (fun _ => 0) (fun a => (Pipeline.Clip.of (cc0_transform_2 i a) (S1x8x16384.size a) (S2x8x1132624.size a)).extent (S1x8x16384.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x34.size a ≤ S32x34.size a
  hwx0_3 : ∀ i : grid0.Coords, EltTy.bits .f32 = 32 ∨ (Rect.block (s := S32x34) S32x34.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x32.size a ≤ S24x32.size a
  hwx0_5 : ∀ i : grid0.Coords, EltTy.bits .f32 = 32 ∨ (Rect.block (s := S24x32) S24x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x1.size a ≤ S24x1.size a
  hwx0_6 : ∀ i : grid0.Coords, EltTy.bits .f32 = 32 ∨ (Rect.block (s := S24x1) S24x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1x8x16384.size a < S2x8x1132624.size a
  hwx0_7 : ∀ i : grid0.Coords, EltTy.bits .f32 = 32 ∨ (Rect.unit (s := S2x8x1132624) (fun a => cc0_transform_7 i a * S1x8x16384.size a) (fun a => (Pipeline.Clip.of (cc0_transform_7 i a) (S1x8x16384.size a) (S2x8x1132624.size a)).extent (S1x8x16384.size a)) fun a => Pipeline.Clip.inb (Pipeline.Clip.ok_of (hstart0_7 i a))).WholeWords (EltTy.packing .f32)
  hwxs0_7 : ∀ i : grid0.Coords, EltTy.bits .f32 = 32 ∨ (Rect.unit (s := S1x8x16384) (fun _ => 0) (fun a => (Pipeline.Clip.of (cc0_transform_7 i a) (S1x8x16384.size a) (S2x8x1132624.size a)).extent (S1x8x16384.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1x8x16384.size a < S2x8x1132624.size a
  hwx0_8 : ∀ i : grid0.Coords, EltTy.bits .f32 = 32 ∨ (Rect.unit (s := S2x8x1132624) (fun a => cc0_transform_8 i a * S1x8x16384.size a) (fun a => (Pipeline.Clip.of (cc0_transform_8 i a) (S1x8x16384.size a) (S2x8x1132624.size a)).extent (S1x8x16384.size a)) fun a => Pipeline.Clip.inb (Pipeline.Clip.ok_of (hstart0_8 i a))).WholeWords (EltTy.packing .f32)
  hwxs0_8 : ∀ i : grid0.Coords, EltTy.bits .f32 = 32 ∨ (Rect.unit (s := S1x8x16384) (fun _ => 0) (fun a => (Pipeline.Clip.of (cc0_transform_8 i a) (S1x8x16384.size a) (S2x8x1132624.size a)).extent (S1x8x16384.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S1x8x16384.size a < S2x8x1132624.size a
  hwx0_9 : ∀ i : grid0.Coords, EltTy.bits .f32 = 32 ∨ (Rect.unit (s := S2x8x1132624) (fun a => cc0_transform_9 i a * S1x8x16384.size a) (fun a => (Pipeline.Clip.of (cc0_transform_9 i a) (S1x8x16384.size a) (S2x8x1132624.size a)).extent (S1x8x16384.size a)) fun a => Pipeline.Clip.inb (Pipeline.Clip.ok_of (hstart0_9 i a))).WholeWords (EltTy.packing .f32)
  hwxs0_9 : ∀ i : grid0.Coords, EltTy.bits .f32 = 32 ∨ (Rect.unit (s := S1x8x16384) (fun _ => 0) (fun a => (Pipeline.Clip.of (cc0_transform_9 i a) (S1x8x16384.size a) (S2x8x1132624.size a)).extent (S1x8x16384.size a)) fun a => (Nat.zero_add _).trans_le (Pipeline.Clip.extent_le (Pipeline.Clip.ok_of (hstart0_9 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x1105.size a ≤ S2x8x1105.size a
  hwx1_0 : ∀ i : grid1.Coords, EltTy.bits .f32 = 32 ∨ (Rect.block (s := S2x8x1105) S1x8x1105.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x1105.size a ≤ S2x8x1105.size a
  hwx1_1 : ∀ i : grid1.Coords, EltTy.bits .f32 = 32 ∨ (Rect.block (s := S2x8x1105) S1x8x1105.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12x1105.size a ≤ S2x12x1105.size a
  hwx1_2 : ∀ i : grid1.Coords, EltTy.bits .f32 = 32 ∨ (Rect.block (s := S2x12x1105) S1x12x1105.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x28.size a ≤ S16x28.size a
  hwx1_3 : ∀ i : grid1.Coords, EltTy.bits .f32 = 32 ∨ (Rect.block (s := S16x28) S16x28.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x16.size a ≤ S8x16.size a
  hwx1_5 : ∀ i : grid1.Coords, EltTy.bits .f32 = 32 ∨ (Rect.block (s := S8x16) S8x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S8x1.size a
  hwx1_6 : ∀ i : grid1.Coords, EltTy.bits .f32 = 32 ∨ (Rect.block (s := S8x1) S8x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x1105.size a ≤ S2x8x1105.size a
  hwx1_7 : ∀ i : grid1.Coords, EltTy.bits .f32 = 32 ∨ (Rect.block (s := S2x8x1105) S1x8x1105.size (cc1_transform_7 i) (hinb1_7 i)).WholeWords (EltTy.packing .f32)

variable [Facts₀]

def scatter_S1105_S1132624x1_S1132624_n_0_0_1 : ScatterDims S1105 S1132624x1 S1132624 where
  updateWindowDims := []
  insertedWindowDims := [0]
  scatterDimsToOperandDims := [0]
  indexVectorDim := 1
  wf := scatter_S1105_S1132624x1_S1132624_n_0_0_1_wf
def gather_S2x13x1105_S1132624x1_S2x13x1132624_01_2_n_n_2_1_2131 : GatherDims S2x13x1105 S1132624x1 S2x13x1132624 where
  offsetDims := [0, 1]
  collapsedSliceDims := [2]
  operandBatchingDims := []
  startIndicesBatchingDims := []
  startIndexMap := [2]
  indexVectorDim := 1
  sliceSizes := ![2, 13, 1]
  wf := gather_S2x13x1105_S1132624x1_S2x13x1132624_01_2_n_n_2_1_2131_wf
def dot_S32x34_S34x16384_S32x16384_1_0_0_1_n_n : DotDims S32x34 S34x16384 S32x16384 where
  lhsContracting := [1]
  rhsContracting := [0]
  lhsNonContracting := [0]
  rhsNonContracting := [1]
  lhsBatch := []
  rhsBatch := []
  wf := dot_S32x34_S34x16384_S32x16384_1_0_0_1_n_n_wf
def dot_S24x32_S32x16384_S24x16384_1_0_0_1_n_n : DotDims S24x32 S32x16384 S24x16384 where
  lhsContracting := [1]
  rhsContracting := [0]
  lhsNonContracting := [0]
  rhsNonContracting := [1]
  lhsBatch := []
  rhsBatch := []
  wf := dot_S24x32_S32x16384_S24x16384_1_0_0_1_n_n_wf
def scatter_S2x1105x8_S1132624x1_S2x1132624x8_02_1_1_1 : ScatterDims S2x1105x8 S1132624x1 S2x1132624x8 where
  updateWindowDims := [0, 2]
  insertedWindowDims := [1]
  scatterDimsToOperandDims := [1]
  indexVectorDim := 1
  wf := scatter_S2x1105x8_S1132624x1_S2x1132624x8_02_1_1_1_wf
def dot_S16x28_S28x1105_S16x1105_1_0_0_1_n_n : DotDims S16x28 S28x1105 S16x1105 where
  lhsContracting := [1]
  rhsContracting := [0]
  lhsNonContracting := [0]
  rhsNonContracting := [1]
  lhsBatch := []
  rhsBatch := []
  wf := dot_S16x28_S28x1105_S16x1105_1_0_0_1_n_n_wf
def dot_S8x16_S16x1105_S8x1105_1_0_0_1_n_n : DotDims S8x16 S16x1105 S8x1105 where
  lhsContracting := [1]
  rhsContracting := [0]
  lhsNonContracting := [0]
  rhsNonContracting := [1]
  lhsBatch := []
  rhsBatch := []
  wf := dot_S8x16_S16x1105_S8x1105_1_0_0_1_n_n_wf

abbrev win0_0 : Pipeline.Window sig grid0 :=
  Pipeline.Window.ofSpecClip (Memref.whole main_v16) S1x13x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v17) S1x13x16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v15) S1x8x16384.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg2) S32x34.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S24x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S24x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v20_0) S1x8x16384.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v20_1) S1x8x16384.size cc0_transform_8 reads0_8 true false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v20_2) S1x8x16384.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v50) S1x8x1105.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x8x1105.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x12x1105.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x28.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S8x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S8x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S1x8x1105.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x1105x12 : Shape := ⟨3, ![2, 1105, 12]⟩
abbrev S2x1132624x8 : Shape := ⟨3, ![2, 1132624, 8]⟩
abbrev S32x34 : Shape := ⟨2, ![32, 34]⟩
abbrev S32 : Shape := ⟨1, ![32]⟩
abbrev S24x32 : Shape := ⟨2, ![24, 32]⟩
abbrev S24 : Shape := ⟨1, ![24]⟩
abbrev S16x28 : Shape := ⟨2, ![16, 28]⟩
abbrev S16 : Shape := ⟨1, ![16]⟩
abbrev S8x16 : Shape := ⟨2, ![8, 16]⟩
abbrev S8 : Shape := ⟨1, ![8]⟩
abbrev S1132624 : Shape := ⟨1, ![1132624]⟩
abbrev S_ : Shape := ⟨0, ![]⟩
abbrev S1105 : Shape := ⟨1, ![1105]⟩
abbrev S1132624x1 : Shape := ⟨2, ![1132624, 1]⟩
abbrev S1x1132624x1 : Shape := ⟨3, ![1, 1132624, 1]⟩
abbrev S2x1132624x1 : Shape := ⟨3, ![2, 1132624, 1]⟩
abbrev S2x1132624x12 : Shape := ⟨3, ![2, 1132624, 12]⟩
abbrev S2x1132624x34 : Shape := ⟨3, ![2, 1132624, 34]⟩
abbrev S2x1132624x32 : Shape := ⟨3, ![2, 1132624, 32]⟩
abbrev S1x1x32 : Shape := ⟨3, ![1, 1, 32]⟩
abbrev S2x1132624x24 : Shape := ⟨3, ![2, 1132624, 24]⟩
abbrev S1x1x24 : Shape := ⟨3, ![1, 1, 24]⟩
abbrev S2x1105x8 : Shape := ⟨3, ![2, 1105, 8]⟩
abbrev S1x1105x1 : Shape := ⟨3, ![1, 1105, 1]⟩
abbrev S2x1105x28 : Shape := ⟨3, ![2, 1105, 28]⟩
abbrev S2x1105x16 : Shape := ⟨3, ![2, 1105, 16]⟩
abbrev S1x1x16 : Shape := ⟨3, ![1, 1, 16]⟩
abbrev S1x1x8 : Shape := ⟨3, ![1, 1, 8]⟩
abbrev S2x1105x4 : Shape := ⟨3, ![2, 1105, 4]⟩

abbrev nBuf : Space → Nat
  | .hbm => 152
  | .vmem => 0
  | .smem => 0
  | _ => 0

abbrev hbmTy0_0 (i : Nat) : BufTy := match i % 128 with
  | 0 => ⟨S2x1105x12, .f32⟩
  | 1 => ⟨S2x1132624x8, .f32⟩
  | 2 => ⟨S32x34, .f32⟩
  | 3 => ⟨S32, .f32⟩
  | 4 => ⟨S24x32, .f32⟩
  | 5 => ⟨S24, .f32⟩
  | 6 => ⟨S16x28, .f32⟩
  | 7 => ⟨S16, .f32⟩
  | 8 => ⟨S8x16, .f32⟩
  | 9 => ⟨S8, .f32⟩
  | 10 => ⟨S1132624, .i32⟩
  | 11 => ⟨S1132624, .i32⟩
  | 12 => ⟨S_, .f32⟩
  | 13 => ⟨S1132624, .f32⟩
  | 14 => ⟨S_, .f32⟩
  | 15 => ⟨S1105, .f32⟩
  | 16 => ⟨S1132624x1, .i32⟩
  | 17 => ⟨S1105, .f32⟩
  | 18 => ⟨S_, .f32⟩
  | 19 => ⟨S1132624, .f32⟩
  | 20 => ⟨S_, .f32⟩
  | 21 => ⟨S1105, .f32⟩
  | 22 => ⟨S1132624x1, .i32⟩
  | 23 => ⟨S1105, .f32⟩
  | 24 => ⟨S_, .i32⟩
  | 25 => ⟨S1132624, .i32⟩
  | 26 => ⟨S1132624, .i1⟩
  | 27 => ⟨S_, .i32⟩
  | 28 => ⟨S1132624, .i32⟩
  | 29 => ⟨S1132624, .i32⟩
  | 30 => ⟨S1132624, .i32⟩
  | 31 => ⟨S1132624x1, .i32⟩
  | 32 => ⟨S1132624, .f32⟩
  | 33 => ⟨S1x1132624x1, .f32⟩
  | 34 => ⟨S2x1132624x1, .f32⟩
  | 35 => ⟨S_, .i32⟩
  | 36 => ⟨S1132624, .i32⟩
  | 37 => ⟨S1132624, .i1⟩
  | 38 => ⟨S_, .i32⟩
  | 39 => ⟨S1132624, .i32⟩
  | 40 => ⟨S1132624, .i32⟩
  | 41 => ⟨S1132624, .i32⟩
  | 42 => ⟨S1132624x1, .i32⟩
  | 43 => ⟨S1132624, .f32⟩
  | 44 => ⟨S1x1132624x1, .f32⟩
  | 45 => ⟨S2x1132624x1, .f32⟩
  | 46 => ⟨S_, .i32⟩
  | 47 => ⟨S1132624, .i32⟩
  | 48 => ⟨S1132624, .i1⟩
  | 49 => ⟨S_, .i32⟩
  | 50 => ⟨S1132624, .i32⟩
  | 51 => ⟨S1132624, .i32⟩
  | 52 => ⟨S1132624, .i32⟩
  | 53 => ⟨S1132624x1, .i32⟩
  | 54 => ⟨S2x1132624x12, .f32⟩
  | 55 => ⟨S_, .i32⟩
  | 56 => ⟨S1132624, .i32⟩
  | 57 => ⟨S1132624, .i1⟩
  | 58 => ⟨S_, .i32⟩
  | 59 => ⟨S1132624, .i32⟩
  | 60 => ⟨S1132624, .i32⟩
  | 61 => ⟨S1132624, .i32⟩
  | 62 => ⟨S1132624x1, .i32⟩
  | 63 => ⟨S2x1132624x12, .f32⟩
  | 64 => ⟨S2x1132624x34, .f32⟩
  | 65 => ⟨S2x1132624x32, .f32⟩
  | 66 => ⟨S1x1x32, .f32⟩
  | 67 => ⟨S2x1132624x32, .f32⟩
  | 68 => ⟨S2x1132624x32, .f32⟩
  | 69 => ⟨S_, .f32⟩
  | 70 => ⟨S2x1132624x32, .f32⟩
  | 71 => ⟨S2x1132624x32, .f32⟩
  | 72 => ⟨S2x1132624x24, .f32⟩
  | 73 => ⟨S1x1x24, .f32⟩
  | 74 => ⟨S2x1132624x24, .f32⟩
  | 75 => ⟨S2x1132624x24, .f32⟩
  | 76 => ⟨S2x1132624x8, .f32⟩
  | 77 => ⟨S2x1132624x8, .f32⟩
  | 78 => ⟨S2x1132624x8, .f32⟩
  | 79 => ⟨S_, .f32⟩
  | 80 => ⟨S2x1105x8, .f32⟩
  | 81 => ⟨S_, .i32⟩
  | 82 => ⟨S1132624, .i32⟩
  | 83 => ⟨S1132624, .i1⟩
  | 84 => ⟨S_, .i32⟩
  | 85 => ⟨S1132624, .i32⟩
  | 86 => ⟨S1132624, .i32⟩
  | 87 => ⟨S1132624, .i32⟩
  | 88 => ⟨S1132624x1, .i32⟩
  | 89 => ⟨S2x1105x8, .f32⟩
  | 90 => ⟨S_, .f32⟩
  | 91 => ⟨S2x1105x8, .f32⟩
  | 92 => ⟨S_, .i32⟩
  | 93 => ⟨S1132624, .i32⟩
  | 94 => ⟨S1132624, .i1⟩
  | 95 => ⟨S_, .i32⟩
  | 96 => ⟨S1132624, .i32⟩
  | 97 => ⟨S1132624, .i32⟩
  | 98 => ⟨S1132624, .i32⟩
  | 99 => ⟨S1132624x1, .i32⟩
  | 100 => ⟨S2x1105x8, .f32⟩
  | 101 => ⟨S_, .f32⟩
  | 102 => ⟨S1105, .f32⟩
  | 103 => ⟨S1105, .f32⟩
  | 104 => ⟨S1x1105x1, .f32⟩
  | 105 => ⟨S2x1105x8, .f32⟩
  | 106 => ⟨S2x1105x8, .f32⟩
  | 107 => ⟨S_, .f32⟩
  | 108 => ⟨S1105, .f32⟩
  | 109 => ⟨S1105, .f32⟩
  | 110 => ⟨S1x1105x1, .f32⟩
  | 111 => ⟨S2x1105x8, .f32⟩
  | 112 => ⟨S2x1105x8, .f32⟩
  | 113 => ⟨S2x1105x28, .f32⟩
  | 114 => ⟨S2x1105x16, .f32⟩
  | 115 => ⟨S1x1x16, .f32⟩
  | 116 => ⟨S2x1105x16, .f32⟩
  | 117 => ⟨S2x1105x16, .f32⟩
  | 118 => ⟨S_, .f32⟩
  | 119 => ⟨S2x1105x16, .f32⟩
  | 120 => ⟨S2x1105x16, .f32⟩
  | 121 => ⟨S2x1105x8, .f32⟩
  | 122 => ⟨S1x1x8, .f32⟩
  | 123 => ⟨S2x1105x8, .f32⟩
  | 124 => ⟨S2x1105x8, .f32⟩
  | 125 => ⟨S2x1105x8, .f32⟩
  | 126 => ⟨S_, .f32⟩
  | 127 => ⟨S2x1105x8, .f32⟩
  | _ => ⟨S2x1105x12, .f32⟩

abbrev hbmTy0_1 (i : Nat) : BufTy := match i % 128 with
  | 0 => ⟨S2x1105x8, .f32⟩
  | 1 => ⟨S2x1105x8, .f32⟩
  | 2 => ⟨S_, .f32⟩
  | 3 => ⟨S_, .f32⟩
  | 4 => ⟨S_, .f32⟩
  | 5 => ⟨S2x1105x8, .f32⟩
  | 6 => ⟨S2x1105x8, .f32⟩
  | 7 => ⟨S_, .f32⟩
  | 8 => ⟨S2x1105x8, .f32⟩
  | 9 => ⟨S2x1105x8, .f32⟩
  | 10 => ⟨S2x1105x4, .f32⟩
  | 11 => ⟨S2x1105x12, .f32⟩
  | 12 => ⟨S_, .f32⟩
  | 13 => ⟨S2x1132624x8, .f32⟩
  | 14 => ⟨S2x1132624x8, .f32⟩
  | 15 => ⟨S2x1132624x8, .f32⟩
  | 16 => ⟨S_, .f32⟩
  | 17 => ⟨S_, .f32⟩
  | 18 => ⟨S_, .f32⟩
  | 19 => ⟨S2x1132624x8, .f32⟩
  | 20 => ⟨S2x1132624x8, .f32⟩
  | 21 => ⟨S_, .f32⟩
  | 22 => ⟨S2x1132624x8, .f32⟩
  | 23 => ⟨S2x1132624x8, .f32⟩
  | _ => ⟨S2x1105x12, .f32⟩

abbrev hbmTy (i : Nat) : BufTy := match i / 128 with
  | 0 => hbmTy0_0 i
  | 1 => hbmTy0_1 i
  | _ => ⟨S2x1105x12, .f32⟩

abbrev bufTy : (tb : Table) → Fin (tcTables nBuf tb) → BufTy
  | .hbm, ⟨i, _⟩ => hbmTy i
  | _, _ => ⟨S2x1105x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_cst : Ref sig .tc := ⟨.hbm, 69, rfl⟩
abbrev main_call0_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_cst : Ref sig .tc := ⟨.hbm, 118, rfl⟩
abbrev main_call1_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_cst_20 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_cst_23 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v99 : Ref sig .tc := ⟨.hbm, 151, rfl⟩

abbrev nD : Nat := 1
abbrev τ : Topo := Topo.v7x

variable {F : FTy → Type} [FloatOps F]

class Facts₀ : Prop where
  bcast_S_S1132624 : S_.BroadcastsInDim S1132624 (![] : Fin 0 → Fin S1132624.rank)
  bcast_S_S1105 : S_.BroadcastsInDim S1105 (![] : Fin 0 → Fin S1105.rank)
  bcast_S1132624_S1132624x1_0 : S1132624.BroadcastsInDim S1132624x1 (![0] : Fin 1 → Fin S1132624x1.rank)
  bcast_S1132624_S1x1132624x1_1 : S1132624.BroadcastsInDim S1x1132624x1 (![1] : Fin 1 → Fin S1x1132624x1.rank)
  bcast_S1x1132624x1_S2x1132624x1_0_1_2 : S1x1132624x1.BroadcastsInDim S2x1132624x1 (![0, 1, 2] : Fin 3 → Fin S2x1132624x1.rank)
  concatenates_S2x1132624x12_S2x1132624x12_S2x1132624x8_S2x1132624x1_S2x1132624x1_S2x1132624x34_d2 : Shape.Concatenates [S2x1132624x12, S2x1132624x12, S2x1132624x8, S2x1132624x1, S2x1132624x1] S2x1132624x34 2
  bcast_S32_S1x1x32_2 : S32.BroadcastsInDim S1x1x32 (![2] : Fin 1 → Fin S1x1x32.rank)
  bcast_S1x1x32_S2x1132624x32_0_1_2 : S1x1x32.BroadcastsInDim S2x1132624x32 (![0, 1, 2] : Fin 3 → Fin S2x1132624x32.rank)
  bcast_S_S2x1132624x32 : S_.BroadcastsInDim S2x1132624x32 (![] : Fin 0 → Fin S2x1132624x32.rank)
  bcast_S24_S1x1x24_2 : S24.BroadcastsInDim S1x1x24 (![2] : Fin 1 → Fin S1x1x24.rank)
  bcast_S1x1x24_S2x1132624x24_0_1_2 : S1x1x24.BroadcastsInDim S2x1132624x24 (![0, 1, 2] : Fin 3 → Fin S2x1132624x24.rank)
  slices_S2x1132624x24_S2x1132624x8_0_0_0 : S2x1132624x24.Slices ![0, 0, 0] S2x1132624x8
  slices_S2x1132624x24_S2x1132624x8_0_0_8 : S2x1132624x24.Slices ![0, 0, 8] S2x1132624x8
  slices_S2x1132624x24_S2x1132624x8_0_0_16 : S2x1132624x24.Slices ![0, 0, 16] S2x1132624x8
  bcast_S_S2x1105x8 : S_.BroadcastsInDim S2x1105x8 (![] : Fin 0 → Fin S2x1105x8.rank)
  bcast_S1105_S1x1105x1_1 : S1105.BroadcastsInDim S1x1105x1 (![1] : Fin 1 → Fin S1x1105x1.rank)
  bcast_S1x1105x1_S2x1105x8_0_1_2 : S1x1105x1.BroadcastsInDim S2x1105x8 (![0, 1, 2] : Fin 3 → Fin S2x1105x8.rank)
  concatenates_S2x1105x8_S2x1105x8_S2x1105x12_S2x1105x28_d2 : Shape.Concatenates [S2x1105x8, S2x1105x8, S2x1105x12] S2x1105x28 2
  bcast_S16_S1x1x16_2 : S16.BroadcastsInDim S1x1x16 (![2] : Fin 1 → Fin S1x1x16.rank)
  bcast_S1x1x16_S2x1105x16_0_1_2 : S1x1x16.BroadcastsInDim S2x1105x16 (![0, 1, 2] : Fin 3 → Fin S2x1105x16.rank)
  bcast_S_S2x1105x16 : S_.BroadcastsInDim S2x1105x16 (![] : Fin 0 → Fin S2x1105x16.rank)
  bcast_S8_S1x1x8_2 : S8.BroadcastsInDim S1x1x8 (![2] : Fin 1 → Fin S1x1x8.rank)
  bcast_S1x1x8_S2x1105x8_0_1_2 : S1x1x8.BroadcastsInDim S2x1105x8 (![0, 1, 2] : Fin 3 → Fin S2x1105x8.rank)
  slices_S2x1105x12_S2x1105x8_0_0_0 : S2x1105x12.Slices ![0, 0, 0] S2x1105x8
  slices_S2x1105x12_S2x1105x4_0_0_8 : S2x1105x12.Slices ![0, 0, 8] S2x1105x4
  concatenates_S2x1105x8_S2x1105x4_S2x1105x12_d2 : Shape.Concatenates [S2x1105x8, S2x1105x4] S2x1105x12 2
  bcast_S_S2x1132624x8 : S_.BroadcastsInDim S2x1132624x8 (![] : Fin 0 → Fin S2x1132624x8.rank)
  scatter_S1105_S1132624x1_S1132624_n_0_0_1_wf : ScatterDims.WF S1105 S1132624x1 S1132624 [] [0] [0] 1
  gather_S1105_S1132624x1_S1132624_n_0_n_n_0_1_1_wf : GatherDims.WF S1105 S1132624x1 S1132624 [] [0] [] [0] [] 1 ![1]
  gather_S2x1105x12_S1132624x1_S2x1132624x12_02_1_n_n_1_1_2112_wf : GatherDims.WF S2x1105x12 S1132624x1 S2x1132624x12 [0, 2] [1] [] [1] [] 1 ![2, 1, 12]
  dot_S2x1132624x34_S32x34_S2x1132624x32_2_1_01_0_n_n_wf : DotDims.WF S2x1132624x34 S32x34 S2x1132624x32 [2] [1] [0, 1] [0] [] []
  dot_S2x1132624x32_S24x32_S2x1132624x24_2_1_01_0_n_n_wf : DotDims.WF S2x1132624x32 S24x32 S2x1132624x24 [2] [1] [0, 1] [0] [] []
  scatter_S2x1105x8_S1132624x1_S2x1132624x8_02_1_1_1_wf : ScatterDims.WF S2x1105x8 S1132624x1 S2x1132624x8 [0, 2] [1] [1] 1
  dot_S2x1105x28_S16x28_S2x1105x16_2_1_01_0_n_n_wf : DotDims.WF S2x1105x28 S16x28 S2x1105x16 [2] [1] [0, 1] [0] [] []
  dot_S2x1105x16_S8x16_S2x1105x8_2_1_01_0_n_n_wf : DotDims.WF S2x1105x16 S8x16 S2x1105x8 [2] [1] [0, 1] [0] [] []

variable [Facts₀]

def scatter_S1105_S1132624x1_S1132624_n_0_0_1 : ScatterDims S1105 S1132624x1 S1132624 where
  updateWindowDims := []
  insertedWindowDims := [0]
  scatterDimsToOperandDims := [0]
  indexVectorDim := 1
  wf := scatter_S1105_S1132624x1_S1132624_n_0_0_1_wf
def gather_S1105_S1132624x1_S1132624_n_0_n_n_0_1_1 : GatherDims S1105 S1132624x1 S1132624 where
  offsetDims := []
  collapsedSliceDims := [0]
  operandBatchingDims := []
  startIndicesBatchingDims := []
  startIndexMap := [0]
  indexVectorDim := 1
  sliceSizes := ![1]
  wf := gather_S1105_S1132624x1_S1132624_n_0_n_n_0_1_1_wf
def gather_S2x1105x12_S1132624x1_S2x1132624x12_02_1_n_n_1_1_2112 : GatherDims S2x1105x12 S1132624x1 S2x1132624x12 where
  offsetDims := [0, 2]
  collapsedSliceDims := [1]
  operandBatchingDims := []
  startIndicesBatchingDims := []
  startIndexMap := [1]
  indexVectorDim := 1
  sliceSizes := ![2, 1, 12]
  wf := gather_S2x1105x12_S1132624x1_S2x1132624x12_02_1_n_n_1_1_2112_wf
def dot_S2x1132624x34_S32x34_S2x1132624x32_2_1_01_0_n_n : DotDims S2x1132624x34 S32x34 S2x1132624x32 where
  lhsContracting := [2]
  rhsContracting := [1]
  lhsNonContracting := [0, 1]
  rhsNonContracting := [0]
  lhsBatch := []
  rhsBatch := []
  wf := dot_S2x1132624x34_S32x34_S2x1132624x32_2_1_01_0_n_n_wf
def dot_S2x1132624x32_S24x32_S2x1132624x24_2_1_01_0_n_n : DotDims S2x1132624x32 S24x32 S2x1132624x24 where
  lhsContracting := [2]
  rhsContracting := [1]
  lhsNonContracting := [0, 1]
  rhsNonContracting := [0]
  lhsBatch := []
  rhsBatch := []
  wf := dot_S2x1132624x32_S24x32_S2x1132624x24_2_1_01_0_n_n_wf
def scatter_S2x1105x8_S1132624x1_S2x1132624x8_02_1_1_1 : ScatterDims S2x1105x8 S1132624x1 S2x1132624x8 where
  updateWindowDims := [0, 2]
  insertedWindowDims := [1]
  scatterDimsToOperandDims := [1]
  indexVectorDim := 1
  wf := scatter_S2x1105x8_S1132624x1_S2x1132624x8_02_1_1_1_wf
def dot_S2x1105x28_S16x28_S2x1105x16_2_1_01_0_n_n : DotDims S2x1105x28 S16x28 S2x1105x16 where
  lhsContracting := [2]
  rhsContracting := [1]
  lhsNonContracting := [0, 1]
  rhsNonContracting := [0]
  lhsBatch := []
  rhsBatch := []
  wf := dot_S2x1105x28_S16x28_S2x1105x16_2_1_01_0_n_n_wf
def dot_S2x1105x16_S8x16_S2x1105x8_2_1_01_0_n_n : DotDims S2x1105x16 S8x16 S2x1105x8 where
  lhsContracting := [2]
  rhsContracting := [1]
  lhsNonContracting := [0, 1]
  rhsNonContracting := [0]
  lhsBatch := []
  rhsBatch := []
  wf := dot_S2x1105x16_S8x16_S2x1105x8_2_1_01_0_n_n_wf

class Facts : Prop extends Facts₀ where

variable [Facts]
-- ==== Proof.RefRun.lean ====
/-
  The reference program's run, stretch by stretch: its 140 host operations are cut into six stretches (a cut
  before each concatenation and at each printed window's end); every weakly fair execution runs them in
  order, so the final memory is the six stretches' folds over the launch contents, and each result buffer is
  read off the folds one stretch at a time as the stage function of the arguments, every other buffer a
  stretch does not write being carried through it unchanged. The arguments are written by no stretch.
-/
import proofs.«427296_j67087389163569_2_alg».proof.Proof.ReadP
import proofs.«427296_j67087389163569_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # The reference's run, stretch by stretch

@main's 140 host operations are cut into six stretches, a cut before each concatenate and at each window's end. The
run is `run_seq` over their concatenation; what a buffer holds at the end is then read off one stretch at a time,
each result as its stage function `ReadP.val_main_…` of the arguments' launch contents. -/

/-- Operations 1 to 52: the two degree counts and the four gathers, up to the edge concatenate. -/
abbrev ops0 : List (HloOp τ sig (Elt F)) :=
  [ nullary main_cst (constant S_ .f32 0x3F800000#32),
    unary main_cst main_v0 (broadcastInDim S1132624 ![] bcast_S_S1132624 : (⟨S_, .f32⟩ : BufTy).Contents (Elt F) → (⟨S1132624, .f32⟩ : BufTy).Contents (Elt F)),
    nullary main_cst_0 (constant S_ .f32 0x00000000#32),
    unary main_cst_0 main_v1 (broadcastInDim S1105 ![] bcast_S_S1105 : (⟨S_, .f32⟩ : BufTy).Contents (Elt F) → (⟨S1105, .f32⟩ : BufTy).Contents (Elt F)),
    unary main_arg10 main_v2 (broadcastInDim S1132624x1 ![0] bcast_S1132624_S1132624x1_0 : (⟨S1132624, .i32⟩ : BufTy).Contents (Elt F) → (⟨S1132624x1, .i32⟩ : BufTy).Contents (Elt F)),
    ternary main_v1 main_v2 main_v0 main_v3 ((fun x i u => Host.scatterAdd scatter_S1105_S1132624x1_S1132624_n_0_0_1 x i u) : (⟨S1105, .f32⟩ : BufTy).Contents (Elt F) → (⟨S1132624x1, .i32⟩ : BufTy).Contents (Elt F) → (⟨S1132624, .f32⟩ : BufTy).Contents (Elt F) → (⟨S1105, .f32⟩ : BufTy).Contents (Elt F)),
    nullary main_cst_1 (constant S_ .f32 0x3F800000#32),
    unary main_cst_1 main_v4 (broadcastInDim S1132624 ![] bcast_S_S1132624 : (⟨S_, .f32⟩ : BufTy).Contents (Elt F) → (⟨S1132624, .f32⟩ : BufTy).Contents (Elt F)),
    nullary main_cst_2 (constant S_ .f32 0x00000000#32),
    unary main_cst_2 main_v5 (broadcastInDim S1105 ![] bcast_S_S1105 : (⟨S_, .f32⟩ : BufTy).Contents (Elt F) → (⟨S1105, .f32⟩ : BufTy).Contents (Elt F)),
    unary main_arg11 main_v6 (broadcastInDim S1132624x1 ![0] bcast_S1132624_S1132624x1_0 : (⟨S1132624, .i32⟩ : BufTy).Contents (Elt F) → (⟨S1132624x1, .i32⟩ : BufTy).Contents (Elt F)),
    ternary main_v5 main_v6 main_v4 main_v7 ((fun x i u => Host.scatterAdd scatter_S1105_S1132624x1_S1132624_n_0_0_1 x i u) : (⟨S1105, .f32⟩ : BufTy).Contents (Elt F) → (⟨S1132624x1, .i32⟩ : BufTy).Contents (Elt F) → (⟨S1132624, .f32⟩ : BufTy).Contents (Elt F) → (⟨S1105, .f32⟩ : BufTy).Contents (Elt F)),
    nullary main_c (constantI S_ 32 0#32),
    unary main_c main_v8 (broadcastInDim S1132624 ![] bcast_S_S1132624 : (⟨S_, .i32⟩ : BufTy).Contents (Elt F) → (⟨S1132624, .i32⟩ : BufTy).Contents (Elt F)),
    binary main_arg10 main_v8 main_v9 (cmpi .slt : (⟨S1132624, .i32⟩ : BufTy).Contents (Elt F) → (⟨S1132624, .i32⟩ : BufTy).Contents (Elt F) → (⟨S1132624, .i1⟩ : BufTy).Contents (Elt F)),
    nullary main_c_3 (constantI S_ 32 1105#32),
    unary main_c_3 main_v10 (broadcastInDim S1132624 ![] bcast_S_S1132624 : (⟨S_, .i32⟩ : BufTy).Contents (Elt F) → (⟨S1132624, .i32⟩ : BufTy).Contents (Elt F)),
    binary main_arg10 main_v10 main_v11 (addi : (⟨S1132624, .i32⟩ : BufTy).Contents (Elt F) → (⟨S1132624, .i32⟩ : BufTy).Contents (Elt F) → (⟨S1132624, .i32⟩ : BufTy).Contents (Elt F)),
    ternary main_v9 main_v11 main_arg10 main_v12 (select : (⟨S1132624, .i1⟩ : BufTy).Contents (Elt F) → (⟨S1132624, .i32⟩ : BufTy).Contents (Elt F) → (⟨S1132624, .i32⟩ : BufTy).Contents (Elt F) → (⟨S1132624, .i32⟩ : BufTy).Contents (Elt F)),
    unary main_v12 main_v13 (broadcastInDim S1132624x1 ![0] bcast_S1132624_S1132624x1_0 : (⟨S1132624, .i32⟩ : BufTy).Contents (Elt F) → (⟨S1132624x1, .i32⟩ : BufTy).Contents (Elt F)),
    binary main_v3 main_v13 main_v14 ((fun x i => Host.gather gather_S1105_S1132624x1_S1132624_n_0_n_n_0_1_1 x i) : (⟨S1105, .f32⟩ : BufTy).Contents (Elt F) → (⟨S1132624x1, .i32⟩ : BufTy).Contents (Elt F) → (⟨S1132624, .f32⟩ : BufTy).Contents (Elt F)),
    unary main_v14 main_v15 (broadcastInDim S1x1132624x1 ![1] bcast_S1132624_S1x1132624x1_1 : (⟨S1132624, .f32⟩ : BufTy).Contents (Elt F) → (⟨S1x1132624x1, .f32⟩ : BufTy).Contents (Elt F)),
    unary main_v15 main_v16 (broadcastInDim S2x1132624x1 ![0, 1, 2] bcast_S1x1132624x1_S2x1132624x1_0_1_2 : (⟨S1x1132624x1, .f32⟩ : BufTy).Contents (Elt F) → (⟨S2x1132624x1, .f32⟩ : BufTy).Contents (Elt F)),
    nullary main_c_4 (constantI S_ 32 0#32),
    unary main_c_4 main_v17 (broadcastInDim S1132624 ![] bcast_S_S1132624 : (⟨S_, .i32⟩ : BufTy).Contents (Elt F) → (⟨S1132624, .i32⟩ : BufTy).Contents (Elt F)),
    binary main_arg11 main_v17 main_v18 (cmpi .slt : (⟨S1132624, .i32⟩ : BufTy).Contents (Elt F) → (⟨S1132624, .i32⟩ : BufTy).Contents (Elt F) → (⟨S1132624, .i1⟩ : BufTy).Contents (Elt F)),
    nullary main_c_5 (constantI S_ 32 1105#32),
    unary main_c_5 main_v19 (broadcastInDim S1132624 ![] bcast_S_S1132624 : (⟨S_, .i32⟩ : BufTy).Contents (Elt F) → (⟨S1132624, .i32⟩ : BufTy).Contents (Elt F)),
    binary main_arg11 main_v19 main_v20 (addi : (⟨S1132624, .i32⟩ : BufTy).Contents (Elt F) → (⟨S1132624, .i32⟩ : BufTy).Contents (Elt F) → (⟨S1132624, .i32⟩ : BufTy).Contents (Elt F)),
    ternary main_v18 main_v20 main_arg11 main_v21 (select : (⟨S1132624, .i1⟩ : BufTy).Contents (Elt F) → (⟨S1132624, .i32⟩ : BufTy).Contents (Elt F) → (⟨S1132624, .i32⟩ : BufTy).Contents (Elt F) → (⟨S1132624, .i32⟩ : BufTy).Contents (Elt F)),
    unary main_v21 main_v22 (broadcastInDim S1132624x1 ![0] bcast_S1132624_S1132624x1_0 : (⟨S1132624, .i32⟩ : BufTy).Contents (Elt F) → (⟨S1132624x1, .i32⟩ : BufTy).Contents (Elt F)),
    binary main_v7 main_v22 main_v23 ((fun x i => Host.gather gather_S1105_S1132624x1_S1132624_n_0_n_n_0_1_1 x i) : (⟨S1105, .f32⟩ : BufTy).Contents (Elt F) → (⟨S1132624x1, .i32⟩ : BufTy).Contents (Elt F) → (⟨S1132624, .f32⟩ : BufTy).Contents (Elt F)),
    unary main_v23 main_v24 (broadcastInDim S1x1132624x1 ![1] bcast_S1132624_S1x1132624x1_1 : (⟨S1132624, .f32⟩ : BufTy).Contents (Elt F) → (⟨S1x1132624x1, .f32⟩ : BufTy).Contents (Elt F)),
    unary main_v24 main_v25 (broadcastInDim S2x1132624x1 ![0, 1, 2] bcast_S1x1132624x1_S2x1132624x1_0_1_2 : (⟨S1x1132624x1, .f32⟩ : BufTy).Contents (Elt F) → (⟨S2x1132624x1, .f32⟩ : BufTy).Contents (Elt F)),
    nullary main_c_6 (constantI S_ 32 0#32),
    unary main_c_6 main_v26 (broadcastInDim S1132624 ![] bcast_S_S1132624 : (⟨S_, .i32⟩ : BufTy).Contents (Elt F) → (⟨S1132624, .i32⟩ : BufTy).Contents (Elt F)),
    binary main_arg10 main_v26 main_v27 (cmpi .slt : (⟨S1132624, .i32⟩ : BufTy).Contents (Elt F) → (⟨S1132624, .i32⟩ : BufTy).Contents (Elt F) → (⟨S1132624, .i1⟩ : BufTy).Contents (Elt F)),
    nullary main_c_7 (constantI S_ 32 1105#32),
    unary main_c_7 main_v28 (broadcastInDim S1132624 ![] bcast_S_S1132624 : (⟨S_, .i32⟩ : BufTy).Contents (Elt F) → (⟨S1132624, .i32⟩ : BufTy).Contents (Elt F)),
    binary main_arg10 main_v28 main_v29 (addi : (⟨S1132624, .i32⟩ : BufTy).Contents (Elt F) → (⟨S1132624, .i32⟩ : BufTy).Contents (Elt F) → (⟨S1132624, .i32⟩ : BufTy).Contents (Elt F)),
    ternary main_v27 main_v29 main_arg10 main_v30 (select : (⟨S1132624, .i1⟩ : BufTy).Contents (Elt F) → (⟨S1132624, .i32⟩ : BufTy).Contents (Elt F) → (⟨S1132624, .i32⟩ : BufTy).Contents (Elt F) → (⟨S1132624, .i32⟩ : BufTy).Contents (Elt F)),
    unary main_v30 main_v31 (broadcastInDim S1132624x1 ![0] bcast_S1132624_S1132624x1_0 : (⟨S1132624, .i32⟩ : BufTy).Contents (Elt F) → (⟨S1132624x1, .i32⟩ : BufTy).Contents (Elt F)),
    binary main_arg0 main_v31 main_v32 ((fun x i => Host.gather gather_S2x1105x12_S1132624x1_S2x1132624x12_02_1_n_n_1_1_2112 x i) : (⟨S2x1105x12, .f32⟩ : BufTy).Contents (Elt F) → (⟨S1132624x1, .i32⟩ : BufTy).Contents (Elt F) → (⟨S2x1132624x12, .f32⟩ : BufTy).Contents (Elt F)),
    nullary main_c_8 (constantI S_ 32 0#32),
    unary main_c_8 main_v33 (broadcastInDim S1132624 ![] bcast_S_S1132624 : (⟨S_, .i32⟩ : BufTy).Contents (Elt F) → (⟨S1132624, .i32⟩ : BufTy).Contents (Elt F)),
    binary main_arg11 main_v33 main_v34 (cmpi .slt : (⟨S1132624, .i32⟩ : BufTy).Contents (Elt F) → (⟨S1132624, .i32⟩ : BufTy).Contents (Elt F) → (⟨S1132624, .i1⟩ : BufTy).Contents (Elt F)),
    nullary main_c_9 (constantI S_ 32 1105#32),
    unary main_c_9 main_v35 (broadcastInDim S1132624 ![] bcast_S_S1132624 : (⟨S_, .i32⟩ : BufTy).Contents (Elt F) → (⟨S1132624, .i32⟩ : BufTy).Contents (Elt F)),
    binary main_arg11 main_v35 main_v36 (addi : (⟨S1132624, .i32⟩ : BufTy).Contents (Elt F) → (⟨S1132624, .i32⟩ : BufTy).Contents (Elt F) → (⟨S1132624, .i32⟩ : BufTy).Contents (Elt F)),
    ternary main_v34 main_v36 main_arg11 main_v37 (select : (⟨S1132624, .i1⟩ : BufTy).Contents (Elt F) → (⟨S1132624, .i32⟩ : BufTy).Contents (Elt F) → (⟨S1132624, .i32⟩ : BufTy).Contents (Elt F) → (⟨S1132624, .i32⟩ : BufTy).Contents (Elt F)),
    unary main_v37 main_v38 (broadcastInDim S1132624x1 ![0] bcast_S1132624_S1132624x1_0 : (⟨S1132624, .i32⟩ : BufTy).Contents (Elt F) → (⟨S1132624x1, .i32⟩ : BufTy).Contents (Elt F)),
    binary main_arg0 main_v38 main_v39 ((fun x i => Host.gather gather_S2x1105x12_S1132624x1_S2x1132624x12_02_1_n_n_1_1_2112 x i) : (⟨S2x1105x12, .f32⟩ : BufTy).Contents (Elt F) → (⟨S1132624x1, .i32⟩ : BufTy).Contents (Elt F) → (⟨S2x1132624x12, .f32⟩ : BufTy).Contents (Elt F)) ]

/-- Operations 53 to 62: the edge concatenate and the first edge layer, to the end of the first window. -/
abbrev ops1 : List (HloOp τ sig (Elt F)) :=
  [ nary ![main_v32, main_v39, main_arg1, main_v16, main_v25] main_v40 (fun u => concatenate S2x1132624x34 2 [⟨S2x1132624x12, u 0⟩, ⟨S2x1132624x12, u 1⟩, ⟨S2x1132624x8, u 2⟩, ⟨S2x1132624x1, u 3⟩, ⟨S2x1132624x1, u 4⟩] concatenates_S2x1132624x12_S2x1132624x12_S2x1132624x8_S2x1132624x1_S2x1132624x1_S2x1132624x34_d2),
    binary main_v40 main_arg2 main_v41 ((fun l r => Host.dotGeneral dot_S2x1132624x34_S32x34_S2x1132624x32_2_1_01_0_n_n none l r) : (⟨S2x1132624x34, .f32⟩ : BufTy).Contents (Elt F) → (⟨S32x34, .f32⟩ : BufTy).Contents (Elt F) → (⟨S2x1132624x32, .f32⟩ : BufTy).Contents (Elt F)),
    unary main_arg3 main_v42 (broadcastInDim S1x1x32 ![2] bcast_S32_S1x1x32_2 : (⟨S32, .f32⟩ : BufTy).Contents (Elt F) → (⟨S1x1x32, .f32⟩ : BufTy).Contents (Elt F)),
    unary main_v42 main_v43 (broadcastInDim S2x1132624x32 ![0, 1, 2] bcast_S1x1x32_S2x1132624x32_0_1_2 : (⟨S1x1x32, .f32⟩ : BufTy).Contents (Elt F) → (⟨S2x1132624x32, .f32⟩ : BufTy).Contents (Elt F)),
    binary main_v41 main_v43 main_v44 (addf : (⟨S2x1132624x32, .f32⟩ : BufTy).Contents (Elt F) → (⟨S2x1132624x32, .f32⟩ : BufTy).Contents (Elt F) → (⟨S2x1132624x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2x1132624x32, .f32⟩) main_call0_v0) (broadcastInDim S2x1132624x32 ![] bcast_S_S2x1132624x32),
    TRef.binary (TRef.of (T := ⟨S2x1132624x32, .f32⟩) main_v44) (TRef.of (T := ⟨S2x1132624x32, .f32⟩) main_call0_v0) (TRef.of (T := ⟨S2x1132624x32, .f32⟩) main_v45) maximumf,
    binary main_v45 main_arg4 main_v46 ((fun l r => Host.dotGeneral dot_S2x1132624x32_S24x32_S2x1132624x24_2_1_01_0_n_n none l r) : (⟨S2x1132624x32, .f32⟩ : BufTy).Contents (Elt F) → (⟨S24x32, .f32⟩ : BufTy).Contents (Elt F) → (⟨S2x1132624x24, .f32⟩ : BufTy).Contents (Elt F)),
    unary main_arg5 main_v47 (broadcastInDim S1x1x24 ![2] bcast_S24_S1x1x24_2 : (⟨S24, .f32⟩ : BufTy).Contents (Elt F) → (⟨S1x1x24, .f32⟩ : BufTy).Contents (Elt F)) ]

/-- Operations 63 to 101: the second edge layer, the two scatter-adds and their means, up to the node concatenate. -/
abbrev ops2 : List (HloOp τ sig (Elt F)) :=
  [ unary main_v47 main_v48 (broadcastInDim S2x1132624x24 ![0, 1, 2] bcast_S1x1x24_S2x1132624x24_0_1_2 : (⟨S1x1x24, .f32⟩ : BufTy).Contents (Elt F) → (⟨S2x1132624x24, .f32⟩ : BufTy).Contents (Elt F)),
    binary main_v46 main_v48 main_v49 (addf : (⟨S2x1132624x24, .f32⟩ : BufTy).Contents (Elt F) → (⟨S2x1132624x24, .f32⟩ : BufTy).Contents (Elt F) → (⟨S2x1132624x24, .f32⟩ : BufTy).Contents (Elt F)),
    unary main_v49 main_v50 ((extractStridedSlice S2x1132624x8 ![0, 0, 0] · slices_S2x1132624x24_S2x1132624x8_0_0_0) : (⟨S2x1132624x24, .f32⟩ : BufTy).Contents (Elt F) → (⟨S2x1132624x8, .f32⟩ : BufTy).Contents (Elt F)),
    unary main_v49 main_v51 ((extractStridedSlice S2x1132624x8 ![0, 0, 8] · slices_S2x1132624x24_S2x1132624x8_0_0_8) : (⟨S2x1132624x24, .f32⟩ : BufTy).Contents (Elt F) → (⟨S2x1132624x8, .f32⟩ : BufTy).Contents (Elt F)),
    unary main_v49 main_v52 ((extractStridedSlice S2x1132624x8 ![0, 0, 16] · slices_S2x1132624x24_S2x1132624x8_0_0_16) : (⟨S2x1132624x24, .f32⟩ : BufTy).Contents (Elt F) → (⟨S2x1132624x8, .f32⟩ : BufTy).Contents (Elt F)),
    nullary main_cst_10 (constant S_ .f32 0x00000000#32),
    unary main_cst_10 main_v53 (broadcastInDim S2x1105x8 ![] bcast_S_S2x1105x8 : (⟨S_, .f32⟩ : BufTy).Contents (Elt F) → (⟨S2x1105x8, .f32⟩ : BufTy).Contents (Elt F)),
    nullary main_c_11 (constantI S_ 32 0#32),
    unary main_c_11 main_v54 (broadcastInDim S1132624 ![] bcast_S_S1132624 : (⟨S_, .i32⟩ : BufTy).Contents (Elt F) → (⟨S1132624, .i32⟩ : BufTy).Contents (Elt F)),
    binary main_arg10 main_v54 main_v55 (cmpi .slt : (⟨S1132624, .i32⟩ : BufTy).Contents (Elt F) → (⟨S1132624, .i32⟩ : BufTy).Contents (Elt F) → (⟨S1132624, .i1⟩ : BufTy).Contents (Elt F)),
    nullary main_c_12 (constantI S_ 32 1105#32),
    unary main_c_12 main_v56 (broadcastInDim S1132624 ![] bcast_S_S1132624 : (⟨S_, .i32⟩ : BufTy).Contents (Elt F) → (⟨S1132624, .i32⟩ : BufTy).Contents (Elt F)),
    binary main_arg10 main_v56 main_v57 (addi : (⟨S1132624, .i32⟩ : BufTy).Contents (Elt F) → (⟨S1132624, .i32⟩ : BufTy).Contents (Elt F) → (⟨S1132624, .i32⟩ : BufTy).Contents (Elt F)),
    ternary main_v55 main_v57 main_arg10 main_v58 (select : (⟨S1132624, .i1⟩ : BufTy).Contents (Elt F) → (⟨S1132624, .i32⟩ : BufTy).Contents (Elt F) → (⟨S1132624, .i32⟩ : BufTy).Contents (Elt F) → (⟨S1132624, .i32⟩ : BufTy).Contents (Elt F)),
    unary main_v58 main_v59 (broadcastInDim S1132624x1 ![0] bcast_S1132624_S1132624x1_0 : (⟨S1132624, .i32⟩ : BufTy).Contents (Elt F) → (⟨S1132624x1, .i32⟩ : BufTy).Contents (Elt F)),
    ternary main_v53 main_v59 main_v50 main_v60 ((fun x i u => Host.scatterAdd scatter_S2x1105x8_S1132624x1_S2x1132624x8_02_1_1_1 x i u) : (⟨S2x1105x8, .f32⟩ : BufTy).Contents (Elt F) → (⟨S1132624x1, .i32⟩ : BufTy).Contents (Elt F) → (⟨S2x1132624x8, .f32⟩ : BufTy).Contents (Elt F) → (⟨S2x1105x8, .f32⟩ : BufTy).Contents (Elt F)),
    nullary main_cst_13 (constant S_ .f32 0x00000000#32),
    unary main_cst_13 main_v61 (broadcastInDim S2x1105x8 ![] bcast_S_S2x1105x8 : (⟨S_, .f32⟩ : BufTy).Contents (Elt F) → (⟨S2x1105x8, .f32⟩ : BufTy).Contents (Elt F)),
    nullary main_c_14 (constantI S_ 32 0#32),
    unary main_c_14 main_v62 (broadcastInDim S1132624 ![] bcast_S_S1132624 : (⟨S_, .i32⟩ : BufTy).Contents (Elt F) → (⟨S1132624, .i32⟩ : BufTy).Contents (Elt F)),
    binary main_arg11 main_v62 main_v63 (cmpi .slt : (⟨S1132624, .i32⟩ : BufTy).Contents (Elt F) → (⟨S1132624, .i32⟩ : BufTy).Contents (Elt F) → (⟨S1132624, .i1⟩ : BufTy).Contents (Elt F)),
    nullary main_c_15 (constantI S_ 32 1105#32),
    unary main_c_15 main_v64 (broadcastInDim S1132624 ![] bcast_S_S1132624 : (⟨S_, .i32⟩ : BufTy).Contents (Elt F) → (⟨S1132624, .i32⟩ : BufTy).Contents (Elt F)),
    binary main_arg11 main_v64 main_v65 (addi : (⟨S1132624, .i32⟩ : BufTy).Contents (Elt F) → (⟨S1132624, .i32⟩ : BufTy).Contents (Elt F) → (⟨S1132624, .i32⟩ : BufTy).Contents (Elt F)),
    ternary main_v63 main_v65 main_arg11 main_v66 (select : (⟨S1132624, .i1⟩ : BufTy).Contents (Elt F) → (⟨S1132624, .i32⟩ : BufTy).Contents (Elt F) → (⟨S1132624, .i32⟩ : BufTy).Contents (Elt F) → (⟨S1132624, .i32⟩ : BufTy).Contents (Elt F)),
    unary main_v66 main_v67 (broadcastInDim S1132624x1 ![0] bcast_S1132624_S1132624x1_0 : (⟨S1132624, .i32⟩ : BufTy).Contents (Elt F) → (⟨S1132624x1, .i32⟩ : BufTy).Contents (Elt F)),
    ternary main_v61 main_v67 main_v51 main_v68 ((fun x i u => Host.scatterAdd scatter_S2x1105x8_S1132624x1_S2x1132624x8_02_1_1_1 x i u) : (⟨S2x1105x8, .f32⟩ : BufTy).Contents (Elt F) → (⟨S1132624x1, .i32⟩ : BufTy).Contents (Elt F) → (⟨S2x1132624x8, .f32⟩ : BufTy).Contents (Elt F) → (⟨S2x1105x8, .f32⟩ : BufTy).Contents (Elt F)),
    nullary main_cst_16 (constant S_ .f32 0x3F800000#32),
    unary main_cst_16 main_v69 (broadcastInDim S1105 ![] bcast_S_S1105 : (⟨S_, .f32⟩ : BufTy).Contents (Elt F) → (⟨S1105, .f32⟩ : BufTy).Contents (Elt F)),
    binary main_v3 main_v69 main_v70 (maximumf : (⟨S1105, .f32⟩ : BufTy).Contents (Elt F) → (⟨S1105, .f32⟩ : BufTy).Contents (Elt F) → (⟨S1105, .f32⟩ : BufTy).Contents (Elt F)),
    unary main_v70 main_v71 (broadcastInDim S1x1105x1 ![1] bcast_S1105_S1x1105x1_1 : (⟨S1105, .f32⟩ : BufTy).Contents (Elt F) → (⟨S1x1105x1, .f32⟩ : BufTy).Contents (Elt F)),
    unary main_v71 main_v72 (broadcastInDim S2x1105x8 ![0, 1, 2] bcast_S1x1105x1_S2x1105x8_0_1_2 : (⟨S1x1105x1, .f32⟩ : BufTy).Contents (Elt F) → (⟨S2x1105x8, .f32⟩ : BufTy).Contents (Elt F)),
    binary main_v60 main_v72 main_v73 (Host.divf : (⟨S2x1105x8, .f32⟩ : BufTy).Contents (Elt F) → (⟨S2x1105x8, .f32⟩ : BufTy).Contents (Elt F) → (⟨S2x1105x8, .f32⟩ : BufTy).Contents (Elt F)),
    nullary main_cst_17 (constant S_ .f32 0x3F800000#32),
    unary main_cst_17 main_v74 (broadcastInDim S1105 ![] bcast_S_S1105 : (⟨S_, .f32⟩ : BufTy).Contents (Elt F) → (⟨S1105, .f32⟩ : BufTy).Contents (Elt F)),
    binary main_v7 main_v74 main_v75 (maximumf : (⟨S1105, .f32⟩ : BufTy).Contents (Elt F) → (⟨S1105, .f32⟩ : BufTy).Contents (Elt F) → (⟨S1105, .f32⟩ : BufTy).Contents (Elt F)),
    unary main_v75 main_v76 (broadcastInDim S1x1105x1 ![1] bcast_S1105_S1x1105x1_1 : (⟨S1105, .f32⟩ : BufTy).Contents (Elt F) → (⟨S1x1105x1, .f32⟩ : BufTy).Contents (Elt F)),
    unary main_v76 main_v77 (broadcastInDim S2x1105x8 ![0, 1, 2] bcast_S1x1105x1_S2x1105x8_0_1_2 : (⟨S1x1105x1, .f32⟩ : BufTy).Contents (Elt F) → (⟨S2x1105x8, .f32⟩ : BufTy).Contents (Elt F)),
    binary main_v68 main_v77 main_v78 (Host.divf : (⟨S2x1105x8, .f32⟩ : BufTy).Contents (Elt F) → (⟨S2x1105x8, .f32⟩ : BufTy).Contents (Elt F) → (⟨S2x1105x8, .f32⟩ : BufTy).Contents (Elt F)) ]

/-- Operations 102 to 127: the node concatenate, the node layers and the clipped node update, up to the result's concatenate. -/
abbrev ops3 : List (HloOp τ sig (Elt F)) :=
  [ nary ![main_v73, main_v78, main_arg0] main_v79 (fun u => concatenate S2x1105x28 2 [⟨S2x1105x8, u 0⟩, ⟨S2x1105x8, u 1⟩, ⟨S2x1105x12, u 2⟩] concatenates_S2x1105x8_S2x1105x8_S2x1105x12_S2x1105x28_d2),
    binary main_v79 main_arg6 main_v80 ((fun l r => Host.dotGeneral dot_S2x1105x28_S16x28_S2x1105x16_2_1_01_0_n_n none l r) : (⟨S2x1105x28, .f32⟩ : BufTy).Contents (Elt F) → (⟨S16x28, .f32⟩ : BufTy).Contents (Elt F) → (⟨S2x1105x16, .f32⟩ : BufTy).Contents (Elt F)),
    unary main_arg7 main_v81 (broadcastInDim S1x1x16 ![2] bcast_S16_S1x1x16_2 : (⟨S16, .f32⟩ : BufTy).Contents (Elt F) → (⟨S1x1x16, .f32⟩ : BufTy).Contents (Elt F)),
    unary main_v81 main_v82 (broadcastInDim S2x1105x16 ![0, 1, 2] bcast_S1x1x16_S2x1105x16_0_1_2 : (⟨S1x1x16, .f32⟩ : BufTy).Contents (Elt F) → (⟨S2x1105x16, .f32⟩ : BufTy).Contents (Elt F)),
    binary main_v80 main_v82 main_v83 (addf : (⟨S2x1105x16, .f32⟩ : BufTy).Contents (Elt F) → (⟨S2x1105x16, .f32⟩ : BufTy).Contents (Elt F) → (⟨S2x1105x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2x1105x16, .f32⟩) main_call1_v0) (broadcastInDim S2x1105x16 ![] bcast_S_S2x1105x16),
    TRef.binary (TRef.of (T := ⟨S2x1105x16, .f32⟩) main_v83) (TRef.of (T := ⟨S2x1105x16, .f32⟩) main_call1_v0) (TRef.of (T := ⟨S2x1105x16, .f32⟩) main_v84) maximumf,
    binary main_v84 main_arg8 main_v85 ((fun l r => Host.dotGeneral dot_S2x1105x16_S8x16_S2x1105x8_2_1_01_0_n_n none l r) : (⟨S2x1105x16, .f32⟩ : BufTy).Contents (Elt F) → (⟨S8x16, .f32⟩ : BufTy).Contents (Elt F) → (⟨S2x1105x8, .f32⟩ : BufTy).Contents (Elt F)),
    unary main_arg9 main_v86 (broadcastInDim S1x1x8 ![2] bcast_S8_S1x1x8_2 : (⟨S8, .f32⟩ : BufTy).Contents (Elt F) → (⟨S1x1x8, .f32⟩ : BufTy).Contents (Elt F)),
    unary main_v86 main_v87 (broadcastInDim S2x1105x8 ![0, 1, 2] bcast_S1x1x8_S2x1105x8_0_1_2 : (⟨S1x1x8, .f32⟩ : BufTy).Contents (Elt F) → (⟨S2x1105x8, .f32⟩ : BufTy).Contents (Elt F)),
    binary main_v85 main_v87 main_v88 (addf : (⟨S2x1105x8, .f32⟩ : BufTy).Contents (Elt F) → (⟨S2x1105x8, .f32⟩ : BufTy).Contents (Elt F) → (⟨S2x1105x8, .f32⟩ : BufTy).Contents (Elt F)),
    unary main_arg0 main_v89 ((extractStridedSlice S2x1105x8 ![0, 0, 0] · slices_S2x1105x12_S2x1105x8_0_0_0) : (⟨S2x1105x12, .f32⟩ : BufTy).Contents (Elt F) → (⟨S2x1105x8, .f32⟩ : BufTy).Contents (Elt F)),
    nullary main_cst_18 (constant S_ .f32 0x3F800000#32),
    unary main_cst_18 main_v90 (broadcastInDim S2x1105x8 ![] bcast_S_S2x1105x8 : (⟨S_, .f32⟩ : BufTy).Contents (Elt F) → (⟨S2x1105x8, .f32⟩ : BufTy).Contents (Elt F)),
    binary main_v88 main_v90 main_v91 (mulf : (⟨S2x1105x8, .f32⟩ : BufTy).Contents (Elt F) → (⟨S2x1105x8, .f32⟩ : BufTy).Contents (Elt F) → (⟨S2x1105x8, .f32⟩ : BufTy).Contents (Elt F)),
    binary main_v89 main_v91 main_v92 (addf : (⟨S2x1105x8, .f32⟩ : BufTy).Contents (Elt F) → (⟨S2x1105x8, .f32⟩ : BufTy).Contents (Elt F) → (⟨S2x1105x8, .f32⟩ : BufTy).Contents (Elt F)),
    nullary main_cst_19 (constant S_ .f32 0xC2C80000#32),
    nullary main_cst_20 (constant S_ .f32 0x42C80000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S2x1105x8, .f32⟩) main_call2_v1) (broadcastInDim S2x1105x8 ![] bcast_S_S2x1105x8),
    TRef.binary (TRef.of (T := ⟨S2x1105x8, .f32⟩) main_call2_v1) (TRef.of (T := ⟨S2x1105x8, .f32⟩) main_v92) (TRef.of (T := ⟨S2x1105x8, .f32⟩) main_call2_v2) maximumf,
    TRef.unary (TRef.of (T := ⟨S_, .f32⟩) main_cst_20) (TRef.of (T := ⟨S_, .f32⟩) main_call2_v3) id,
    TRef.unary (TRef.of (T := ⟨S_, .f32⟩) main_call2_v3) (TRef.of (T := ⟨S2x1105x8, .f32⟩) main_call2_v4) (broadcastInDim S2x1105x8 ![] bcast_S_S2x1105x8),
    TRef.binary (TRef.of (T := ⟨S2x1105x8, .f32⟩) main_call2_v4) (TRef.of (T := ⟨S2x1105x8, .f32⟩) main_call2_v2) (TRef.of (T := ⟨S2x1105x8, .f32⟩) main_v93) minimumf,
    unary main_arg0 main_v94 ((extractStridedSlice S2x1105x4 ![0, 0, 8] · slices_S2x1105x12_S2x1105x4_0_0_8) : (⟨S2x1105x12, .f32⟩ : BufTy).Contents (Elt F) → (⟨S2x1105x4, .f32⟩ : BufTy).Contents (Elt F)) ]

/-- Operations 128 and 129: the node result's concatenate and a constant, to the end of the second window. -/
abbrev ops4 : List (HloOp τ sig (Elt F)) :=
  [ binary main_v93 main_v94 main_v95 ((fun a b => concatenate S2x1105x12 2 [⟨S2x1105x8, a⟩, ⟨S2x1105x4, b⟩] concatenates_S2x1105x8_S2x1105x4_S2x1105x12_d2) : (⟨S2x1105x8, .f32⟩ : BufTy).Contents (Elt F) → (⟨S2x1105x4, .f32⟩ : BufTy).Contents (Elt F) → (⟨S2x1105x12, .f32⟩ : BufTy).Contents (Elt F)),
    nullary main_cst_21 (constant S_ .f32 0x3F800000#32) ]

/-- Operations 130 to 140: the clipped edge result (the third window). -/
abbrev ops5 : List (HloOp τ sig (Elt F)) :=
  [ unary main_cst_21 main_v96 (broadcastInDim S2x1132624x8 ![] bcast_S_S2x1132624x8 : (⟨S_, .f32⟩ : BufTy).Contents (Elt F) → (⟨S2x1132624x8, .f32⟩ : BufTy).Contents (Elt F)),
    binary main_v52 main_v96 main_v97 (mulf : (⟨S2x1132624x8, .f32⟩ : BufTy).Contents (Elt F) → (⟨S2x1132624x8, .f32⟩ : BufTy).Contents (Elt F) → (⟨S2x1132624x8, .f32⟩ : BufTy).Contents (Elt F)),
    binary main_arg1 main_v97 main_v98 (addf : (⟨S2x1132624x8, .f32⟩ : BufTy).Contents (Elt F) → (⟨S2x1132624x8, .f32⟩ : BufTy).Contents (Elt F) → (⟨S2x1132624x8, .f32⟩ : BufTy).Contents (Elt F)),
    nullary main_cst_22 (constant S_ .f32 0xC2C80000#32),
    nullary main_cst_23 (constant S_ .f32 0x42C80000#32),
    TRef.unary (TRef.of (T := ⟨S_, .f32⟩) main_cst_22) (TRef.of (T := ⟨S_, .f32⟩) main_call3_v0) id,
    TRef.unary (TRef.of (T := ⟨S_, .f32⟩) main_call3_v0) (TRef.of (T := ⟨S2x1132624x8, .f32⟩) main_call3_v1) (broadcastInDim S2x1132624x8 ![] bcast_S_S2x1132624x8),
    TRef.binary (TRef.of (T := ⟨S2x1132624x8, .f32⟩) main_call3_v1) (TRef.of (T := ⟨S2x1132624x8, .f32⟩) main_v98) (TRef.of (T := ⟨S2x1132624x8, .f32⟩) main_call3_v2) maximumf,
    TRef.unary (TRef.of (T := ⟨S_, .f32⟩) main_cst_23) (TRef.of (T := ⟨S_, .f32⟩) main_call3_v3) id,
    TRef.unary (TRef.of (T := ⟨S_, .f32⟩) main_call3_v3) (TRef.of (T := ⟨S2x1132624x8, .f32⟩) main_call3_v4) (broadcastInDim S2x1132624x8 ![] bcast_S_S2x1132624x8),
    TRef.binary (TRef.of (T := ⟨S2x1132624x8, .f32⟩) main_call3_v4) (TRef.of (T := ⟨S2x1132624x8, .f32⟩) main_call3_v2) (TRef.of (T := ⟨S2x1132624x8, .f32⟩) main_v99) minimumf ]

/-- The first window is its operations in order. -/
theorem main_part0_eq (c : Dev nD) : main_part0 (F := F) c = seq (ops0 ++ ops1) := rfl
/-- The second window is its operations in order. -/
theorem main_part1_eq (c : Dev nD) : main_part1 (F := F) c = seq (ops2 ++ (ops3 ++ ops4)) := rfl
/-- The third window is its operations in order. -/
theorem main_part2_eq (c : Dev nD) : main_part2 (F := F) c = seq ops5 := rfl

theorem scopedRefs_eq : (Finset.univ.filter fun b : Ref sig .tc => b.isScoped) = ∅ := by decide
theorem scopedSems_eq : (Finset.univ.filter fun sm : SemLoc sig => sm.isScoped .tc) = ∅ := by decide

/-- All 140 operations: the six stretches in order, bracketed as the windows are. -/
abbrev opsAll : List (HloOp τ sig (Elt F)) := (ops0 ++ ops1) ++ ((ops2 ++ (ops3 ++ ops4)) ++ ops5)

/-- @main is the three windows in order, so the line of all the operations. -/
theorem main_eq (c : Dev nD) : main (F := F) c = seq opsAll := by
  have h : main (F := F) c = (main_part0 c >>= fun _ => (main_part1 c >>= fun _ => main_part2 c)) := rfl
  rw [h, main_part0_eq, main_part1_eq, main_part2_eq, ← seq_append, ← seq_append]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops1_sub : (ops1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub ..⟩
theorem ops2_sub : (ops2 : List (HloOp τ sig (Elt F))).Forall fun op => op.bufs ⊆ tcRefs τ sig :=
  ⟨unary_bufs_sub .., binary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub ..⟩
theorem ops3_sub : (ops3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩
theorem ops4_sub : (ops4 : List (HloOp τ sig (Elt F))).Forall fun op => op.bufs ⊆ tcRefs τ sig :=
  ⟨binary_bufs_sub .., nullary_bufs_sub ..⟩
theorem ops5_sub : (ops5 : List (HloOp τ sig (Elt F))).Forall fun op => op.bufs ⊆ tcRefs τ sig :=
  ⟨unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem ops4_fresh : (ops4 : List (HloOp τ sig (Elt F))).Forall fun op => op.fresh = ∅ :=
  ⟨rfl, rfl⟩
theorem ops5_fresh : (ops5 : List (HloOp τ sig (Elt F))).Forall fun op => op.fresh = ∅ :=
  ⟨rfl, rfl, rfl, rfl, rfl, rfl, rfl, rfl, rfl, rfl, rfl⟩

theorem opsAll_sub : (opsAll : List (HloOp τ sig (Elt F))).Forall fun op => op.bufs ⊆ tcRefs τ sig :=
  forall_app (forall_app ops0_sub ops1_sub) (forall_app (forall_app ops2_sub (forall_app ops3_sub ops4_sub)) ops5_sub)
theorem opsAll_fresh : (opsAll : List (HloOp τ sig (Elt F))).Forall fun op => op.fresh = ∅ :=
  forall_app (forall_app ops0_fresh ops1_fresh) (forall_app (forall_app ops2_fresh (forall_app ops3_fresh ops4_fresh)) ops5_fresh)

/-- On every device, for any float values, from any memory with zero counters: every weakly fair execution of @main
    terminates with every buffer at the fold of the six stretches, in order, over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops5 (after ops4 (after ops3 (after ops2 (after ops1 (after ops0 (launchContents m d)))))) (Proc.devRef .tc b) :=
  (θ_run defs _ _).mono (fun _ h d b => (h d b).trans (by rw [after_app, after_app, after_app, after_app, after_app]))
    (run_seq scopedRefs_eq scopedSems_eq defs main (fun _ => opsAll) main_eq (fun _ => opsAll_sub) m ρ
      (fun _ => List.forall_iff_forall_mem.mp opsAll_fresh))

/-- A set that is one reference's buffer lies among the buffers of any list of references holding it. -/
theorem sub_of_mem {Wl : List (Ref sig .tc)} {y : Ref sig .tc} {s : Finset (DevRef τ sig)}
    (hs : s = {Proc.devRef .tc y}) (hy : y ∈ Wl) : s ⊆ (Wl.map (Proc.devRef (τ := τ) .tc)).toFinset := by
  subst hs
  exact Finset.singleton_subset_iff.mpr (List.mem_toFinset.mpr (List.mem_map_of_mem hy))
/-- The references stretch 0 writes, in order. -/
abbrev written0 : List (Ref sig .tc) :=
  [main_cst, main_v0, main_cst_0, main_v1, main_v2, main_v3, main_cst_1, main_v4, main_cst_2, main_v5, main_v6, main_v7, main_c, main_v8, main_v9, main_c_3, main_v10, main_v11, main_v12, main_v13, main_v14, main_v15, main_v16, main_c_4, main_v17, main_v18, main_c_5, main_v19, main_v20, main_v21, main_v22, main_v23, main_v24, main_v25, main_c_6, main_v26, main_v27, main_c_7, main_v28, main_v29, main_v30, main_v31, main_v32, main_c_8, main_v33, main_v34, main_c_9, main_v35, main_v36, main_v37, main_v38, main_v39]
theorem ops0_writes : (ops0 : List (HloOp τ sig (Elt F))).Forall fun op => op.writes ⊆ ((written0).map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩
/-- A reference stretch 0 does not write keeps its contents over it. -/
theorem keep0 (W : Valuation τ sig (Elt F)) (r : Ref sig .tc) (hr : r ∉ written0) :
    after ops0 W (Proc.devRef .tc r) = W (Proc.devRef .tc r) :=
  after_of_writes_sub ops0 W ops0_writes hr

/-- The references stretch 1 writes, in order. -/
abbrev written1 : List (Ref sig .tc) :=
  [main_v40, main_v41, main_v42, main_v43, main_v44, main_call0_cst, main_call0_v0, main_v45, main_v46, main_v47]
theorem ops1_writes : (ops1 : List (HloOp τ sig (Elt F))).Forall fun op => op.writes ⊆ ((written1).map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩
/-- A reference stretch 1 does not write keeps its contents over it. -/
theorem keep1 (W : Valuation τ sig (Elt F)) (r : Ref sig .tc) (hr : r ∉ written1) :
    after ops1 W (Proc.devRef .tc r) = W (Proc.devRef .tc r) :=
  after_of_writes_sub ops1 W ops1_writes hr

/-- The references stretch 2 writes, in order. -/
abbrev written2 : List (Ref sig .tc) :=
  [main_v48, main_v49, main_v50, main_v51, main_v52, main_cst_10, main_v53, main_c_11, main_v54, main_v55, main_c_12, main_v56, main_v57, main_v58, main_v59, main_v60, main_cst_13, main_v61, main_c_14, main_v62, main_v63, main_c_15, main_v64, main_v65, main_v66, main_v67, main_v68, main_cst_16, main_v69, main_v70, main_v71, main_v72, main_v73, main_cst_17, main_v74, main_v75, main_v76, main_v77, main_v78]
theorem ops2_writes : (ops2 : List (HloOp τ sig (Elt F))).Forall fun op => op.writes ⊆ ((written2).map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩
/-- A reference stretch 2 does not write keeps its contents over it. -/
theorem keep2 (W : Valuation τ sig (Elt F)) (r : Ref sig .tc) (hr : r ∉ written2) :
    after ops2 W (Proc.devRef .tc r) = W (Proc.devRef .tc r) :=
  after_of_writes_sub ops2 W ops2_writes hr

/-- The references stretch 3 writes, in order. -/
abbrev written3 : List (Ref sig .tc) :=
  [main_v79, main_v80, main_v81, main_v82, main_v83, main_call1_cst, main_call1_v0, main_v84, main_v85, main_v86, main_v87, main_v88, main_v89, main_cst_18, main_v90, main_v91, main_v92, main_cst_19, main_cst_20, main_call2_v0, main_call2_v1, main_call2_v2, main_call2_v3, main_call2_v4, main_v93, main_v94]
theorem ops3_writes : (ops3 : List (HloOp τ sig (Elt F))).Forall fun op => op.writes ⊆ ((written3).map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩
/-- A reference stretch 3 does not write keeps its contents over it. -/
theorem keep3 (W : Valuation τ sig (Elt F)) (r : Ref sig .tc) (hr : r ∉ written3) :
    after ops3 W (Proc.devRef .tc r) = W (Proc.devRef .tc r) :=
  after_of_writes_sub ops3 W ops3_writes hr

/-- The references stretch 4 writes, in order. -/
abbrev written4 : List (Ref sig .tc) :=
  [main_v95, main_cst_21]
theorem ops4_writes : (ops4 : List (HloOp τ sig (Elt F))).Forall fun op => op.writes ⊆ ((written4).map (Proc.devRef (τ := τ) .tc)).toFinset :=
  ⟨sub_of_mem rfl (by decide), sub_of_mem rfl (by decide)⟩
/-- A reference stretch 4 does not write keeps its contents over it. -/
theorem keep4 (W : Valuation τ sig (Elt F)) (r : Ref sig .tc) (hr : r ∉ written4) :
    after ops4 W (Proc.devRef .tc r) = W (Proc.devRef .tc r) :=
  after_of_writes_sub ops4 W ops4_writes hr

/-- The references stretch 5 writes, in order. -/
abbrev written5 : List (Ref sig .tc) :=
  [main_v96, main_v97, main_v98, main_cst_22, main_cst_23, main_call3_v0, main_call3_v1, main_call3_v2, main_call3_v3, main_call3_v4, main_v99]
theorem ops5_writes : (ops5 : List (HloOp τ sig (Elt F))).Forall fun op => op.writes ⊆ ((written5).map (Proc.devRef (τ := τ) .tc)).toFinset :=
  ⟨sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide), sub_of_mem rfl (by decide)⟩
/-- A reference stretch 5 does not write keeps its contents over it. -/
theorem keep5 (W : Valuation τ sig (Elt F)) (r : Ref sig .tc) (hr : r ∉ written5) :
    after ops5 W (Proc.devRef .tc r) = W (Proc.devRef .tc r) :=
  after_of_writes_sub ops5 W ops5_writes hr

/-! ## The stretches' results as stages

Each lemma reads one buffer after a stretch (or two stretches in a row), from any contents `W` before it, as the
stage function of that buffer: the stretch's own operations composed, over the stages of the buffers it takes over
from the stretches before (the hypotheses `hv…`) and the arguments it reads (`ha…`). A stretch begins at each
concatenate, so that a concatenate reads its operands from `W`. -/

/-- After the first stretch: the source-degree count. -/
theorem sA_v3 (W : Valuation τ sig (Elt F)) : after ops0 W (Proc.devRef .tc main_v3) = ReadP.val_main_v3 (F := F) (W (Proc.devRef .tc main_arg10)) := by
  after_results_simp <;> rfl
/-- After the first stretch: the target-degree count. -/
theorem sA_v7 (W : Valuation τ sig (Elt F)) : after ops0 W (Proc.devRef .tc main_v7) = ReadP.val_main_v7 (F := F) (W (Proc.devRef .tc main_arg11)) := by
  after_results_simp <;> rfl
/-- After the first stretch: the source degree of each edge. -/
theorem sA_v16 (W : Valuation τ sig (Elt F)) : after ops0 W (Proc.devRef .tc main_v16) = ReadP.val_main_v16 (F := F) (W (Proc.devRef .tc main_arg10)) := by
  after_results_simp <;> rfl
/-- After the first stretch: the target degree of each edge. -/
theorem sA_v25 (W : Valuation τ sig (Elt F)) : after ops0 W (Proc.devRef .tc main_v25) = ReadP.val_main_v25 (F := F) (W (Proc.devRef .tc main_arg11)) := by
  after_results_simp <;> rfl
/-- After the first stretch: the node features gathered at each edge's source. -/
theorem sA_v32 (W : Valuation τ sig (Elt F)) : after ops0 W (Proc.devRef .tc main_v32) = ReadP.val_main_v32 (F := F) (W (Proc.devRef .tc main_arg0)) (W (Proc.devRef .tc main_arg10)) := by
  after_results_simp <;> rfl
/-- After the first stretch: the node features gathered at each edge's target. -/
theorem sA_v39 (W : Valuation τ sig (Elt F)) : after ops0 W (Proc.devRef .tc main_v39) = ReadP.val_main_v39 (F := F) (W (Proc.devRef .tc main_arg0)) (W (Proc.devRef .tc main_arg11)) := by
  after_results_simp <;> rfl

/-- After the second and third stretches: the edge update before clipping. -/
theorem sB_v52 (W : Valuation τ sig (Elt F)) (x0 : (⟨S2x1105x12, .f32⟩ : BufTy).Contents (Elt F)) (x1 : (⟨S2x1132624x8, .f32⟩ : BufTy).Contents (Elt F)) (x2 : (⟨S32x34, .f32⟩ : BufTy).Contents (Elt F)) (x3 : (⟨S32, .f32⟩ : BufTy).Contents (Elt F)) (x4 : (⟨S24x32, .f32⟩ : BufTy).Contents (Elt F)) (x5 : (⟨S24, .f32⟩ : BufTy).Contents (Elt F)) (x10 : (⟨S1132624, .i32⟩ : BufTy).Contents (Elt F)) (x11 : (⟨S1132624, .i32⟩ : BufTy).Contents (Elt F))
    (hv32 : W (Proc.devRef .tc main_v32) = ReadP.val_main_v32 (F := F) x0 x10) (hv39 : W (Proc.devRef .tc main_v39) = ReadP.val_main_v39 (F := F) x0 x11) (hv16 : W (Proc.devRef .tc main_v16) = ReadP.val_main_v16 (F := F) x10) (hv25 : W (Proc.devRef .tc main_v25) = ReadP.val_main_v25 (F := F) x11)
    (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) :
    after ops2 (after ops1 W) (Proc.devRef .tc main_v52) = ReadP.val_main_v52 (F := F) x0 x1 x2 x3 x4 x5 x10 x11 := by
  subst ha1 ha2 ha3 ha4 ha5
  after_results_simp
  simp only [Matrix.cons_val]
  rw [hv32, hv39, hv16, hv25]
  rfl
/-- After the second and third stretches: the mean of the first message at each edge's source node. -/
theorem sB_v73 (W : Valuation τ sig (Elt F)) (x0 : (⟨S2x1105x12, .f32⟩ : BufTy).Contents (Elt F)) (x1 : (⟨S2x1132624x8, .f32⟩ : BufTy).Contents (Elt F)) (x2 : (⟨S32x34, .f32⟩ : BufTy).Contents (Elt F)) (x3 : (⟨S32, .f32⟩ : BufTy).Contents (Elt F)) (x4 : (⟨S24x32, .f32⟩ : BufTy).Contents (Elt F)) (x5 : (⟨S24, .f32⟩ : BufTy).Contents (Elt F)) (x10 : (⟨S1132624, .i32⟩ : BufTy).Contents (Elt F)) (x11 : (⟨S1132624, .i32⟩ : BufTy).Contents (Elt F))
    (hv32 : W (Proc.devRef .tc main_v32) = ReadP.val_main_v32 (F := F) x0 x10) (hv39 : W (Proc.devRef .tc main_v39) = ReadP.val_main_v39 (F := F) x0 x11) (hv16 : W (Proc.devRef .tc main_v16) = ReadP.val_main_v16 (F := F) x10) (hv25 : W (Proc.devRef .tc main_v25) = ReadP.val_main_v25 (F := F) x11) (hv3 : W (Proc.devRef .tc main_v3) = ReadP.val_main_v3 (F := F) x10)
    (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha10 : W (Proc.devRef .tc main_arg10) = x10) :
    after ops2 (after ops1 W) (Proc.devRef .tc main_v73) = ReadP.val_main_v73 (F := F) x0 x1 x2 x3 x4 x5 x10 x11 := by
  subst ha1 ha2 ha3 ha4 ha5 ha10
  after_results_simp
  simp only [Matrix.cons_val]
  rw [hv32, hv39, hv16, hv25, hv3]
  rfl
/-- After the second and third stretches: the mean of the second message at each edge's target node. -/
theorem sB_v78 (W : Valuation τ sig (Elt F)) (x0 : (⟨S2x1105x12, .f32⟩ : BufTy).Contents (Elt F)) (x1 : (⟨S2x1132624x8, .f32⟩ : BufTy).Contents (Elt F)) (x2 : (⟨S32x34, .f32⟩ : BufTy).Contents (Elt F)) (x3 : (⟨S32, .f32⟩ : BufTy).Contents (Elt F)) (x4 : (⟨S24x32, .f32⟩ : BufTy).Contents (Elt F)) (x5 : (⟨S24, .f32⟩ : BufTy).Contents (Elt F)) (x10 : (⟨S1132624, .i32⟩ : BufTy).Contents (Elt F)) (x11 : (⟨S1132624, .i32⟩ : BufTy).Contents (Elt F))
    (hv32 : W (Proc.devRef .tc main_v32) = ReadP.val_main_v32 (F := F) x0 x10) (hv39 : W (Proc.devRef .tc main_v39) = ReadP.val_main_v39 (F := F) x0 x11) (hv16 : W (Proc.devRef .tc main_v16) = ReadP.val_main_v16 (F := F) x10) (hv25 : W (Proc.devRef .tc main_v25) = ReadP.val_main_v25 (F := F) x11) (hv7 : W (Proc.devRef .tc main_v7) = ReadP.val_main_v7 (F := F) x11)
    (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha11 : W (Proc.devRef .tc main_arg11) = x11) :
    after ops2 (after ops1 W) (Proc.devRef .tc main_v78) = ReadP.val_main_v78 (F := F) x0 x1 x2 x3 x4 x5 x10 x11 := by
  subst ha1 ha2 ha3 ha4 ha5 ha11
  after_results_simp
  simp only [Matrix.cons_val]
  rw [hv32, hv39, hv16, hv25, hv7]
  rfl

/-- After the fourth stretch: the clipped node update. -/
theorem sC_v93 (W : Valuation τ sig (Elt F)) (x0 : (⟨S2x1105x12, .f32⟩ : BufTy).Contents (Elt F)) (x1 : (⟨S2x1132624x8, .f32⟩ : BufTy).Contents (Elt F)) (x2 : (⟨S32x34, .f32⟩ : BufTy).Contents (Elt F)) (x3 : (⟨S32, .f32⟩ : BufTy).Contents (Elt F)) (x4 : (⟨S24x32, .f32⟩ : BufTy).Contents (Elt F)) (x5 : (⟨S24, .f32⟩ : BufTy).Contents (Elt F)) (x6 : (⟨S16x28, .f32⟩ : BufTy).Contents (Elt F)) (x7 : (⟨S16, .f32⟩ : BufTy).Contents (Elt F)) (x8 : (⟨S8x16, .f32⟩ : BufTy).Contents (Elt F)) (x9 : (⟨S8, .f32⟩ : BufTy).Contents (Elt F)) (x10 : (⟨S1132624, .i32⟩ : BufTy).Contents (Elt F)) (x11 : (⟨S1132624, .i32⟩ : BufTy).Contents (Elt F))
    (hv73 : W (Proc.devRef .tc main_v73) = ReadP.val_main_v73 (F := F) x0 x1 x2 x3 x4 x5 x10 x11) (hv78 : W (Proc.devRef .tc main_v78) = ReadP.val_main_v78 (F := F) x0 x1 x2 x3 x4 x5 x10 x11)
    (ha0 : W (Proc.devRef .tc main_arg0) = x0) (ha6 : W (Proc.devRef .tc main_arg6) = x6) (ha7 : W (Proc.devRef .tc main_arg7) = x7) (ha8 : W (Proc.devRef .tc main_arg8) = x8) (ha9 : W (Proc.devRef .tc main_arg9) = x9) :
    after ops3 W (Proc.devRef .tc main_v93) = ReadP.val_main_v93 (F := F) x0 x1 x2 x3 x4 x5 x6 x7 x8 x9 x10 x11 := by
  subst ha0 ha6 ha7 ha8 ha9
  after_results_simp
  simp only [Matrix.cons_val]
  rw [hv73, hv78]
  rfl
/-- After the fourth stretch: the node features' columns that pass through. -/
theorem sC_v94 (W : Valuation τ sig (Elt F)) (x0 : (⟨S2x1105x12, .f32⟩ : BufTy).Contents (Elt F)) (ha0 : W (Proc.devRef .tc main_arg0) = x0) :
    after ops3 W (Proc.devRef .tc main_v94) = ReadP.val_main_v94 (F := F) x0 := by
  subst ha0
  after_results_simp <;> rfl

/-- After the last two stretches: the node result. -/
theorem sD_v95 (W : Valuation τ sig (Elt F)) (x0 : (⟨S2x1105x12, .f32⟩ : BufTy).Contents (Elt F)) (x1 : (⟨S2x1132624x8, .f32⟩ : BufTy).Contents (Elt F)) (x2 : (⟨S32x34, .f32⟩ : BufTy).Contents (Elt F)) (x3 : (⟨S32, .f32⟩ : BufTy).Contents (Elt F)) (x4 : (⟨S24x32, .f32⟩ : BufTy).Contents (Elt F)) (x5 : (⟨S24, .f32⟩ : BufTy).Contents (Elt F)) (x6 : (⟨S16x28, .f32⟩ : BufTy).Contents (Elt F)) (x7 : (⟨S16, .f32⟩ : BufTy).Contents (Elt F)) (x8 : (⟨S8x16, .f32⟩ : BufTy).Contents (Elt F)) (x9 : (⟨S8, .f32⟩ : BufTy).Contents (Elt F)) (x10 : (⟨S1132624, .i32⟩ : BufTy).Contents (Elt F)) (x11 : (⟨S1132624, .i32⟩ : BufTy).Contents (Elt F))
    (hv93 : W (Proc.devRef .tc main_v93) = ReadP.val_main_v93 (F := F) x0 x1 x2 x3 x4 x5 x6 x7 x8 x9 x10 x11) (hv94 : W (Proc.devRef .tc main_v94) = ReadP.val_main_v94 (F := F) x0) :
    after ops5 (after ops4 W) (Proc.devRef .tc main_v95) = ReadP.val_main_v95 (F := F) x0 x1 x2 x3 x4 x5 x6 x7 x8 x9 x10 x11 := by
  after_results_simp
  rw [hv93, hv94]
  rfl
/-- After the last two stretches: the edge result. -/
theorem sD_v99 (W : Valuation τ sig (Elt F)) (x0 : (⟨S2x1105x12, .f32⟩ : BufTy).Contents (Elt F)) (x1 : (⟨S2x1132624x8, .f32⟩ : BufTy).Contents (Elt F)) (x2 : (⟨S32x34, .f32⟩ : BufTy).Contents (Elt F)) (x3 : (⟨S32, .f32⟩ : BufTy).Contents (Elt F)) (x4 : (⟨S24x32, .f32⟩ : BufTy).Contents (Elt F)) (x5 : (⟨S24, .f32⟩ : BufTy).Contents (Elt F)) (x10 : (⟨S1132624, .i32⟩ : BufTy).Contents (Elt F)) (x11 : (⟨S1132624, .i32⟩ : BufTy).Contents (Elt F))
    (hv52 : W (Proc.devRef .tc main_v52) = ReadP.val_main_v52 (F := F) x0 x1 x2 x3 x4 x5 x10 x11) (ha1 : W (Proc.devRef .tc main_arg1) = x1) :
    after ops5 (after ops4 W) (Proc.devRef .tc main_v99) = ReadP.val_main_v99 (F := F) x0 x1 x2 x3 x4 x5 x10 x11 := by
  subst ha1
  after_results_simp
  rw [hv52]
  rfl

/-! ## The stretches in a row, from the launch contents -/

section Assemble

variable (V : Valuation τ sig (Elt F))

/-- The contents after the first stretch. -/
abbrev P1 : Valuation τ sig (Elt F) := after ops0 V
/-- The contents after the first three stretches. -/
abbrev P3 : Valuation τ sig (Elt F) := after ops2 (after ops1 (P1 V))
/-- The contents after the first four stretches. -/
abbrev P4 : Valuation τ sig (Elt F) := after ops3 (P3 V)
/-- The contents after all six stretches. -/
abbrev P6 : Valuation τ sig (Elt F) := after ops5 (after ops4 (P4 V))

theorem keepP3 (r : Ref sig .tc) (h0 : r ∉ written0) (h1 : r ∉ written1) (h2 : r ∉ written2) :
    P3 V (Proc.devRef .tc r) = V (Proc.devRef .tc r) :=
  (keep2 _ r h2).trans ((keep1 _ r h1).trans (keep0 V r h0))
theorem keepP4 (r : Ref sig .tc) (h0 : r ∉ written0) (h1 : r ∉ written1) (h2 : r ∉ written2) (h3 : r ∉ written3) :
    P4 V (Proc.devRef .tc r) = V (Proc.devRef .tc r) :=
  (keep3 _ r h3).trans (keepP3 V r h0 h1 h2)
/-- A reference no stretch writes holds at the end what it held at the launch. -/
theorem keepP6 (r : Ref sig .tc) (h0 : r ∉ written0) (h1 : r ∉ written1) (h2 : r ∉ written2) (h3 : r ∉ written3)
    (h4 : r ∉ written4) (h5 : r ∉ written5) :
    P6 V (Proc.devRef .tc r) = V (Proc.devRef .tc r) :=
  (keep5 _ r h5).trans ((keep4 _ r h4).trans (keepP4 V r h0 h1 h2 h3))

theorem P3_v52 : P3 V (Proc.devRef .tc main_v52) = ReadP.val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) :=
  sB_v52 (P1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) (sA_v32 V) (sA_v39 V) (sA_v16 V) (sA_v25 V)
    (keep0 V main_arg1 (by decide)) (keep0 V main_arg2 (by decide)) (keep0 V main_arg3 (by decide))
    (keep0 V main_arg4 (by decide)) (keep0 V main_arg5 (by decide))
theorem P3_v73 : P3 V (Proc.devRef .tc main_v73) = ReadP.val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) :=
  sB_v73 (P1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) (sA_v32 V) (sA_v39 V) (sA_v16 V) (sA_v25 V) (sA_v3 V)
    (keep0 V main_arg1 (by decide)) (keep0 V main_arg2 (by decide)) (keep0 V main_arg3 (by decide))
    (keep0 V main_arg4 (by decide)) (keep0 V main_arg5 (by decide)) (keep0 V main_arg10 (by decide))
theorem P3_v78 : P3 V (Proc.devRef .tc main_v78) = ReadP.val_main_v78 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) :=
  sB_v78 (P1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) (sA_v32 V) (sA_v39 V) (sA_v16 V) (sA_v25 V) (sA_v7 V)
    (keep0 V main_arg1 (by decide)) (keep0 V main_arg2 (by decide)) (keep0 V main_arg3 (by decide))
    (keep0 V main_arg4 (by decide)) (keep0 V main_arg5 (by decide)) (keep0 V main_arg11 (by decide))
theorem P4_v93 : P4 V (Proc.devRef .tc main_v93) = ReadP.val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  sC_v93 (P3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (P3_v73 V) (P3_v78 V)
    (keepP3 V main_arg0 (by decide) (by decide) (by decide)) (keepP3 V main_arg6 (by decide) (by decide) (by decide)) (keepP3 V main_arg7 (by decide) (by decide) (by decide))
    (keepP3 V main_arg8 (by decide) (by decide) (by decide)) (keepP3 V main_arg9 (by decide) (by decide) (by decide))
theorem P4_v94 : P4 V (Proc.devRef .tc main_v94) = ReadP.val_main_v94 (F := F) (V (Proc.devRef .tc main_arg0)) :=
  sC_v94 (P3 V) (V (Proc.devRef .tc main_arg0)) (keepP3 V main_arg0 (by decide) (by decide) (by decide))
theorem P4_v52 : P4 V (Proc.devRef .tc main_v52) = ReadP.val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) :=
  (keep3 _ main_v52 (by decide)).trans (P3_v52 V)
/-- The node result at the end, as its stage of the launch contents of the twelve arguments. -/
theorem P6_v95 : P6 V (Proc.devRef .tc main_v95) = ReadP.val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  sD_v95 (P4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (P4_v93 V) (P4_v94 V)
/-- The edge result at the end, as its stage of the launch contents of the arguments it depends on. -/
theorem P6_v99 : P6 V (Proc.devRef .tc main_v99) = ReadP.val_main_v99 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) :=
  sD_v99 (P4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) (P4_v52 V) (keepP4 V main_arg1 (by decide) (by decide) (by decide) (by decide))

end Assemble

/-- On every device, for any float values, from any memory with zero counters: every weakly fair execution of
    @main terminates with each result at its stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v99) = ReadP.val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v95).trans (P6_v95 (launchContents m c)),
     (h c main_v99).trans (P6_v99 (launchContents m c)),
     (h c main_arg0).trans (keepP6 (launchContents m c) main_arg0 (by decide) (by decide) (by decide) (by decide) (by decide) (by decide)),
     (h c main_arg1).trans (keepP6 (launchContents m c) main_arg1 (by decide) (by decide) (by decide) (by decide) (by decide) (by decide)),
     (h c main_arg2).trans (keepP6 (launchContents m c) main_arg2 (by decide) (by decide) (by decide) (by decide) (by decide) (by decide)),
     (h c main_arg3).trans (keepP6 (launchContents m c) main_arg3 (by decide) (by decide) (by decide) (by decide) (by decide) (by decide)),
     (h c main_arg4).trans (keepP6 (launchContents m c) main_arg4 (by decide) (by decide) (by decide) (by decide) (by decide) (by decide)),
     (h c main_arg5).trans (keepP6 (launchContents m c) main_arg5 (by decide) (by decide) (by decide) (by decide) (by decide) (by decide)),
     (h c main_arg6).trans (keepP6 (launchContents m c) main_arg6 (by decide) (by decide) (by decide) (by decide) (by decide) (by decide)),
     (h c main_arg7).trans (keepP6 (launchContents m c) main_arg7 (by decide) (by decide) (by decide) (by decide) (by decide) (by decide)),
     (h c main_arg8).trans (keepP6 (launchContents m c) main_arg8 (by decide) (by decide) (by decide) (by decide) (by decide) (by decide)),
     (h c main_arg9).trans (keepP6 (launchContents m c) main_arg9 (by decide) (by decide) (by decide) (by decide) (by decide) (by decide)),
     (h c main_arg10).trans (keepP6 (launchContents m c) main_arg10 (by decide) (by decide) (by decide) (by decide) (by decide) (by decide)),
     (h c main_arg11).trans (keepP6 (launchContents m c) main_arg11 (by decide) (by decide) (by decide) (by decide) (by decide) (by decide))⟩)
    (run_after m ρ)

end Cert.ReferenceIdeal.HandRun

end
-- ==== Proof.FrameBits.lean ====
/-
  The frame claim of the word-level program: every weakly fair execution of @main at `F := Bits` terminates,
  nothing faulting, and the twelve argument arrays end as launched.

  @main is four host stretches, a first kernel region (a grid of 2 x 70 points, its three streamed inputs and its three
  outputs cut at the last block of the long axis), a host stretch, a second kernel region (2 points), a host stretch.
  At the cut block a staging buffer holds the array's block on the part inside the array and words nothing names
  elsewhere, and at `Bits` a matrix product's value at an element is a function of the whole operand, so what the first
  region writes back is not a function of the launch memory that a certificate could name. The regions are therefore
  taken over RELATIONAL proof data that say nothing of what a body leaves in a staging buffer: a body faults nowhere
  whatever its buffers hold, an input array is never written back, and an output array ends at contents not named.
  Between two items the thread state holds every unscoped buffer at SOME valuation, of which one fact is kept: it has the
  argument arrays as launched. No item writes an argument array, which is the claim.

  Since a region's proof data name its arrays' contents at entry, and those are not known before the run once a region
  of relational data has run, each region is entered inside a segment with its own account: the thread state's
  valuation is opened, the proof data are taken at it, and the region rule runs on the pipeline's cells' ghost state,
  which the launch deals from a second copy of the rounds algebra and the thread state carries to the region.
-/
import proofs.«427296_j67087389163569_2_alg».proof.Proof.Gen.Kernel.Regions
import proofs.«427296_j67087389163569_2_alg».proof.Proof.Gen.Kernel.Skeleton
import proofs.«427296_j67087389163569_2_alg».proof.Proof.Gen.Kernel.Points
import proofs.«427296_j67087389163569_2_alg».proof.Proof.Gen.Pre_finite_inputs
import proofs.«427296_j67087389163569_2_alg».proof.Defs
import Idealize.ShloMosaic.Lib.Pipeline.FrameBody
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Proof.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf HostSeg)

variable {F : FTy → Type} [FloatOps F]

/-- The certificate's user algebra: two copies of the rounds algebra over the machine's cells. -/
abbrev UU : Type := UR sig nD τ × UR sig nD τ

local notation "𝕄" => MT nD τ sig Unit (Elt F) ℕ UU ℕ

/-! ## The kernel bodies: each runs from any contents of its buffers and hands every buffer back

Nothing is claimed of what a body leaves: it loads its inputs whole, and for each output loads the buffer
whole and stores a whole vector over it, so it faults nowhere whatever the buffers hold. -/

set_option maxHeartbeats 2000000 in
theorem sound_kernel0 (c : Dev nD) (E : Set ℕ) (i : grid0.Coords)
    (a0 : Memref sig .tc .vmem S1x13x16384 .f32) (h0 : a0.IsWhole) (a1 : Memref sig .tc .vmem S1x13x16384 .f32) (h1 : a1.IsWhole) (a2 : Memref sig .tc .vmem S1x8x16384 .f32) (h2 : a2.IsWhole) (a3 : Memref sig .tc .vmem S32x34 .f32) (h3 : a3.IsWhole) (a4 : Memref sig .tc .vmem S32x1 .f32) (h4 : a4.IsWhole) (a5 : Memref sig .tc .vmem S24x32 .f32) (h5 : a5.IsWhole) (a6 : Memref sig .tc .vmem S24x1 .f32) (h6 : a6.IsWhole) (a7 : Memref sig .tc .vmem S1x8x16384 .f32) (h7 : a7.IsWhole) (a8 : Memref sig .tc .vmem S1x8x16384 .f32) (h8 : a8.IsWhole) (a9 : Memref sig .tc .vmem S1x8x16384 .f32) (h9 : a9.IsWhole)
    (K : PUnit → sProp 𝕄) :
    iprop((∃ d, owns (c : Thread nD τ) a0 fullShare d)
        ∗ (∃ d, owns (c : Thread nD τ) a1 fullShare d)
        ∗ (∃ d, owns (c : Thread nD τ) a2 fullShare d)
        ∗ (∃ d, owns (c : Thread nD τ) a3 fullShare d)
        ∗ (∃ d, owns (c : Thread nD τ) a4 fullShare d)
        ∗ (∃ d, owns (c : Thread nD τ) a5 fullShare d)
        ∗ (∃ d, owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (iprop((∃ d, owns (c : Thread nD τ) a0 fullShare d)
            ∗ (∃ d, owns (c : Thread nD τ) a1 fullShare d)
            ∗ (∃ d, owns (c : Thread nD τ) a2 fullShare d)
            ∗ (∃ d, owns (c : Thread nD τ) a3 fullShare d)
            ∗ (∃ d, owns (c : Thread nD τ) a4 fullShare d)
            ∗ (∃ d, owns (c : Thread nD τ) a5 fullShare d)
            ∗ (∃ d, owns (c : Thread nD τ) a6 fullShare d)
            ∗ (∃ d, owns (c : Thread nD τ) a7 fullShare d)
            ∗ (∃ d, owns (c : Thread nD τ) a8 fullShare d)
            ∗ (∃ d, owns (c : Thread nD τ) a9 fullShare d)) -∗ K ⟨⟩))
      ⊢ wp frame (wpE (defs₀ (F := F)) Variants.none c none) E (cc0__message_kernel i a0 h0 a1 h1 a2 h2 a3 h3 a4 h4 a5 h5 a6 h6 a7 h7 a8 h8 a9 h9) K := by
  simp only [cc0__message_kernel_eq_skeleton]; unfold cc0__message_kernel_skel
  simp only [k0_part1_eq_skeleton]; unfold k0_part1_skel
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  · iexists _; iexists _; isplitr; swap; · iexact H9
    ipureintro; rfl

set_option maxHeartbeats 2000000 in
theorem sound_kernel1 (c : Dev nD) (E : Set ℕ) (i : grid1.Coords)
    (a0 : Memref sig .tc .vmem S1x8x1105 .f32) (h0 : a0.IsWhole) (a1 : Memref sig .tc .vmem S1x8x1105 .f32) (h1 : a1.IsWhole) (a2 : Memref sig .tc .vmem S1x12x1105 .f32) (h2 : a2.IsWhole) (a3 : Memref sig .tc .vmem S16x28 .f32) (h3 : a3.IsWhole) (a4 : Memref sig .tc .vmem S16x1 .f32) (h4 : a4.IsWhole) (a5 : Memref sig .tc .vmem S8x16 .f32) (h5 : a5.IsWhole) (a6 : Memref sig .tc .vmem S8x1 .f32) (h6 : a6.IsWhole) (a7 : Memref sig .tc .vmem S1x8x1105 .f32) (h7 : a7.IsWhole)
    (K : PUnit → sProp 𝕄) :
    iprop((∃ d, owns (c : Thread nD τ) a0 fullShare d)
        ∗ (∃ d, owns (c : Thread nD τ) a1 fullShare d)
        ∗ (∃ d, owns (c : Thread nD τ) a2 fullShare d)
        ∗ (∃ d, owns (c : Thread nD τ) a3 fullShare d)
        ∗ (∃ d, owns (c : Thread nD τ) a4 fullShare d)
        ∗ (∃ d, owns (c : Thread nD τ) a5 fullShare d)
        ∗ (∃ d, owns (c : Thread nD τ) a6 fullShare d)
        ∗ (∃ d, owns (c : Thread nD τ) a7 fullShare d)
        ∗ (iprop((∃ d, owns (c : Thread nD τ) a0 fullShare d)
            ∗ (∃ d, owns (c : Thread nD τ) a1 fullShare d)
            ∗ (∃ d, owns (c : Thread nD τ) a2 fullShare d)
            ∗ (∃ d, owns (c : Thread nD τ) a3 fullShare d)
            ∗ (∃ d, owns (c : Thread nD τ) a4 fullShare d)
            ∗ (∃ d, owns (c : Thread nD τ) a5 fullShare d)
            ∗ (∃ d, owns (c : Thread nD τ) a6 fullShare d)
            ∗ (∃ d, owns (c : Thread nD τ) a7 fullShare d)) -∗ K ⟨⟩))
      ⊢ wp frame (wpE (defs₀ (F := F)) Variants.none c none) E (cc1__update_kernel i a0 h0 a1 h1 a2 h2 a3 h3 a4 h4 a5 h5 a6 h6 a7 h7) K := by
  simp only [cc1__update_kernel_eq_skeleton]; unfold cc1__update_kernel_skel
  simp only [k1_part1_eq_skeleton]; unfold k1_part1_skel
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  · iexists _; iexists _; isplitr; swap; · iexact H7
    ipureintro; rfl

/-! ## The proof data: relational, and saying nothing

Pipeline `p` on core `c`, entered with the TensorCore's buffers at `V`: the arrays at `V`; of what the body leaves in a
staging buffer nothing is said (the relation holds of any contents found and left); the invariant is the scoped rest
and the generator register; nothing owed; full shares. An input array is never written back, so it ends as entered;
an output array ends at contents not named. -/
def rd (V : (c : Dev nD) → (b : Ref sig .tc) → Buf (Elt F) ((c : Thread nD τ).loc b)) (p : Fin 2) (c : Dev nD) :
    RDat τ (Elt F) Unit ℕ UU ℕ (Pipeline.pin (pcfgs (F := F)) adm p) c where
  A w := V c (Pipeline.arrRef (Pipeline.pin (pcfgs (F := F)) adm p).spec w)
  after _ _ _ _ := True
  Φ _ := Pipeline.ΦA (Pipeline.pin (pcfgs (F := F)) adm p).spec c
  q _ := fullShare
  owed _ := 0

/-- What the body of pipeline 0 is called with at point `t`, the windows one by one, -/
def bodyPre0 (V : (c : Dev nD) → (b : Ref sig .tc) → Buf (Elt F) ((c : Thread nD τ).loc b)) (c : Dev nD) (t : Fin cfg0.N)
    (Y : (w : Fin cfg0.W) → (cfg0.win w).block.Idx → Elt F (cfg0.win w).elt) : sProp 𝕄 :=
  iprop((rd V 0 c).Φ t.castSucc ∗ (rd V 0 c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9))

/-- and what it returns: every buffer at some contents. -/
def bodyPost0 (V : (c : Dev nD) → (b : Ref sig .tc) → Buf (Elt F) ((c : Thread nD τ).loc b)) (c : Dev nD) (t : Fin cfg0.N) : sProp 𝕄 :=
  iprop((rd V 0 c).Φ t.succ ∗ (rd V 0 c).owesAt () t.succ
    ∗ (∃ X, ⌜True⌝ ∗ owns (c : Thread nD τ) (st0_0 t) fullShare X)
    ∗ (∃ X, ⌜True⌝ ∗ owns (c : Thread nD τ) (st0_1 t) fullShare X)
    ∗ (∃ X, ⌜True⌝ ∗ owns (c : Thread nD τ) (st0_2 t) fullShare X)
    ∗ (∃ X, ⌜True⌝ ∗ owns (c : Thread nD τ) (st0_3 t) fullShare X)
    ∗ (∃ X, ⌜True⌝ ∗ owns (c : Thread nD τ) (st0_4 t) fullShare X)
    ∗ (∃ X, ⌜True⌝ ∗ owns (c : Thread nD τ) (st0_5 t) fullShare X)
    ∗ (∃ X, ⌜True⌝ ∗ owns (c : Thread nD τ) (st0_6 t) fullShare X)
    ∗ (∃ X, ⌜True⌝ ∗ owns (c : Thread nD τ) (st0_7 t) fullShare X)
    ∗ (∃ X, ⌜True⌝ ∗ owns (c : Thread nD τ) (st0_8 t) fullShare X)
    ∗ (∃ X, ⌜True⌝ ∗ owns (c : Thread nD τ) (st0_9 t) fullShare X))

theorem sound_body0 (V : (c : Dev nD) → (b : Ref sig .tc) → Buf (Elt F) ((c : Thread nD τ).loc b)) (c : Dev nD) (t : Fin cfg0.N)
    (Y : (w : Fin cfg0.W) → (cfg0.win w).block.Idx → Elt F (cfg0.win w).elt) :
    bodyPre0 V c t Y ⊢ wp frame (wpE (defs₀ (F := F)) Variants.none c none) Set.univ (bodyAt0 t) (fun _ => bodyPost0 V c t) := by
  unfold bodyPre0 bodyPost0 bodyAt0
  rw [show (rd V 0 c).Φ t.succ = (rd V 0 c).Φ t.castSucc from rfl,
    show (rd V 0 c).owesAt () t.succ = (rd V 0 c).owesAt () t.castSucc from rfl]
  iintro ⟨HΦ, Ho, H0, H1, H2, H3, H4, H5, H6, H7, H8, H9⟩
  iapply (sound_kernel0 c Set.univ _ _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨⟨%xH0, H0⟩, ⟨%xH1, H1⟩, ⟨%xH2, H2⟩, ⟨%xH3, H3⟩, ⟨%xH4, H4⟩, ⟨%xH5, H5⟩, ⟨%xH6, H6⟩, ⟨%xH7, H7⟩, ⟨%xH8, H8⟩, ⟨%xH9, H9⟩⟩
  isplitl [HΦ]; · iexact HΦ
  isplitl [Ho]; · iexact Ho
  isplitl [H0]
  · iexists _; isplitr
    · ipureintro; trivial
    · iexact H0
  isplitl [H1]
  · iexists _; isplitr
    · ipureintro; trivial
    · iexact H1
  isplitl [H2]
  · iexists _; isplitr
    · ipureintro; trivial
    · iexact H2
  isplitl [H3]
  · iexists _; isplitr
    · ipureintro; trivial
    · iexact H3
  isplitl [H4]
  · iexists _; isplitr
    · ipureintro; trivial
    · iexact H4
  isplitl [H5]
  · iexists _; isplitr
    · ipureintro; trivial
    · iexact H5
  isplitl [H6]
  · iexists _; isplitr
    · ipureintro; trivial
    · iexact H6
  isplitl [H7]
  · iexists _; isplitr
    · ipureintro; trivial
    · iexact H7
  isplitl [H8]
  · iexists _; isplitr
    · ipureintro; trivial
    · iexact H8
  iexists _; isplitr
  · ipureintro; trivial
  · iexact H9

/-- The library's body obligation of the relational data, at every point: nothing of what the buffers may hold is used. -/
theorem body_obligation0 (V : (c : Dev nD) → (b : Ref sig .tc) → Buf (Elt F) ((c : Thread nD τ).loc b)) (c : Dev nD) :
    (rd (F := F) V 0 c).BodyObligation (defs₀ (F := F)) Variants.none () Set.univ := fun t Y _ => by
  rw [bigSep_W0, bigSep_W0]
  exact sound_body0 V c t Y

/-- What the body of pipeline 1 is called with at point `t`, the windows one by one, -/
def bodyPre1 (V : (c : Dev nD) → (b : Ref sig .tc) → Buf (Elt F) ((c : Thread nD τ).loc b)) (c : Dev nD) (t : Fin cfg1.N)
    (Y : (w : Fin cfg1.W) → (cfg1.win w).block.Idx → Elt F (cfg1.win w).elt) : sProp 𝕄 :=
  iprop((rd V 1 c).Φ t.castSucc ∗ (rd V 1 c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4)
    ∗ owns (c : Thread nD τ) (st1_5 t) fullShare (Y 5)
    ∗ owns (c : Thread nD τ) (st1_6 t) fullShare (Y 6)
    ∗ owns (c : Thread nD τ) (st1_7 t) fullShare (Y 7))

/-- and what it returns: every buffer at some contents. -/
def bodyPost1 (V : (c : Dev nD) → (b : Ref sig .tc) → Buf (Elt F) ((c : Thread nD τ).loc b)) (c : Dev nD) (t : Fin cfg1.N) : sProp 𝕄 :=
  iprop((rd V 1 c).Φ t.succ ∗ (rd V 1 c).owesAt () t.succ
    ∗ (∃ X, ⌜True⌝ ∗ owns (c : Thread nD τ) (st1_0 t) fullShare X)
    ∗ (∃ X, ⌜True⌝ ∗ owns (c : Thread nD τ) (st1_1 t) fullShare X)
    ∗ (∃ X, ⌜True⌝ ∗ owns (c : Thread nD τ) (st1_2 t) fullShare X)
    ∗ (∃ X, ⌜True⌝ ∗ owns (c : Thread nD τ) (st1_3 t) fullShare X)
    ∗ (∃ X, ⌜True⌝ ∗ owns (c : Thread nD τ) (st1_4 t) fullShare X)
    ∗ (∃ X, ⌜True⌝ ∗ owns (c : Thread nD τ) (st1_5 t) fullShare X)
    ∗ (∃ X, ⌜True⌝ ∗ owns (c : Thread nD τ) (st1_6 t) fullShare X)
    ∗ (∃ X, ⌜True⌝ ∗ owns (c : Thread nD τ) (st1_7 t) fullShare X))

theorem sound_body1 (V : (c : Dev nD) → (b : Ref sig .tc) → Buf (Elt F) ((c : Thread nD τ).loc b)) (c : Dev nD) (t : Fin cfg1.N)
    (Y : (w : Fin cfg1.W) → (cfg1.win w).block.Idx → Elt F (cfg1.win w).elt) :
    bodyPre1 V c t Y ⊢ wp frame (wpE (defs₀ (F := F)) Variants.none c none) Set.univ (bodyAt1 t) (fun _ => bodyPost1 V c t) := by
  unfold bodyPre1 bodyPost1 bodyAt1
  rw [show (rd V 1 c).Φ t.succ = (rd V 1 c).Φ t.castSucc from rfl,
    show (rd V 1 c).owesAt () t.succ = (rd V 1 c).owesAt () t.castSucc from rfl]
  iintro ⟨HΦ, Ho, H0, H1, H2, H3, H4, H5, H6, H7⟩
  iapply (sound_kernel1 c Set.univ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨⟨%xH0, H0⟩, ⟨%xH1, H1⟩, ⟨%xH2, H2⟩, ⟨%xH3, H3⟩, ⟨%xH4, H4⟩, ⟨%xH5, H5⟩, ⟨%xH6, H6⟩, ⟨%xH7, H7⟩⟩
  isplitl [HΦ]; · iexact HΦ
  isplitl [Ho]; · iexact Ho
  isplitl [H0]
  · iexists _; isplitr
    · ipureintro; trivial
    · iexact H0
  isplitl [H1]
  · iexists _; isplitr
    · ipureintro; trivial
    · iexact H1
  isplitl [H2]
  · iexists _; isplitr
    · ipureintro; trivial
    · iexact H2
  isplitl [H3]
  · iexists _; isplitr
    · ipureintro; trivial
    · iexact H3
  isplitl [H4]
  · iexists _; isplitr
    · ipureintro; trivial
    · iexact H4
  isplitl [H5]
  · iexists _; isplitr
    · ipureintro; trivial
    · iexact H5
  isplitl [H6]
  · iexists _; isplitr
    · ipureintro; trivial
    · iexact H6
  iexists _; isplitr
  · ipureintro; trivial
  · iexact H7

/-- The library's body obligation of the relational data, at every point: nothing of what the buffers may hold is used. -/
theorem body_obligation1 (V : (c : Dev nD) → (b : Ref sig .tc) → Buf (Elt F) ((c : Thread nD τ).loc b)) (c : Dev nD) :
    (rd (F := F) V 1 c).BodyObligation (defs₀ (F := F)) Variants.none () Set.univ := fun t Y _ => by
  rw [bigSep_W1, bigSep_W1]
  exact sound_body1 V c t Y

/-! ## The thread state between two items of @main

With relational proof data a region's exit hands its output arrays at contents it does not name, so the contents
of the TensorCore's buffers between two items are not a function of the launch memory. The thread state holds every
unscoped buffer whole at SOME valuation of which one thing is kept: it has the twelve argument arrays as launched.
No item writes an argument: a host stretch's results are other buffers, a region's output arrays are other buffers. -/

abbrev 𝒱₀ : Variants := Variants.none
/-- No core owes another anything: no level is assigned. -/
abbrev L : GSem nD τ sig → Finset Unit := fun _ => ∅
abbrev lv : GSem nD τ sig → Unit → ℕ := fun _ _ => 0

/-- The twelve argument arrays. -/
abbrev argsL : List (Ref sig .tc) :=
  [main_arg0, main_arg1, main_arg2, main_arg3, main_arg4, main_arg5, main_arg6, main_arg7, main_arg8, main_arg9, main_arg10, main_arg11]

variable (m : (ℓ : Loc nD τ sig) → Buf (Elt F) ℓ)

/-- A valuation of core `c`'s buffers that has every argument array as launched. -/
def Agree (c : Dev nD) (V : Valuation τ sig (Elt F)) : Prop := ∀ r ∈ argsL, V r = V0 m c r

/-- The generator register at some state, and nothing owed. -/
abbrev Rr (c : Dev nD) : sProp 𝕄 := iprop((∃ r, prngReg c r) ∗ ∃ W, owes (c : Thread nD τ) (0 : CellTallies nD τ sig Unit) W)

/-- The thread state: every unscoped buffer whole at some valuation with the arguments as launched, `Rr`, and a rest. -/
def TS (Rst : Dev nD → sProp 𝕄) (c : Dev nD) : sProp 𝕄 :=
  iprop(∃ V : Valuation τ sig (Elt F), ⌜Agree m c V⌝ ∗ StableHlo.held (c : Thread nD τ) (Pipeline.ucRefs τ sig) V ∗ Rr c ∗ Rst c)

/-! ## A host stretch over the thread state -/

set_option backward.isDefEq.respectTransparency.types false in
/-- A line of host operations that writes no argument array, run from the thread state to the thread state: the
    valuation is opened, the line runs over it to its `StableHlo.after`, which has the arguments as they were. -/
def hsegE (ops : List (HloOp τ sig (Elt F))) (hsub : ops.Forall fun op => op.bufs ⊆ StableHlo.tcRefs τ sig)
    (hfresh : ops.Forall fun op => op.fresh = ∅) (Wl : List (Ref sig .tc))
    (hW : ops.Forall fun op => op.writes ⊆ (Wl.map (Proc.devRef (τ := τ) .tc)).toFinset)
    (hargs : ∀ r ∈ argsL, r ∉ Wl) (Rst : Dev nD → sProp 𝕄) :
    HostSeg (Name := ℕ) (U := UU) (pcfgs (F := F)) defs₀ 𝒱₀ L lv where
  prog := StableHlo.seq ops
  pre := TS m Rst
  post := TS m Rst
  run c {β} k K := by
    unfold TS
    iintro ⟨Hk, Hbd, ⟨%V, %hV, Hh, HR⟩, Hla⟩
    have hrun := (HostSeg.ofOps (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => V) (fun c => iprop(Rr c ∗ Rst c))).run c k K
    dsimp only [HostSeg.ofOps] at hrun
    iapply hrun
    isplitr [Hbd Hh HR Hla]
    · iintro ⟨Hbd, Hh, HR⟩
      iapply Hk
      isplitl [Hbd]; · iexact Hbd
      iexists (StableHlo.after ops V)
      isplitr
      · ipureintro
        exact fun r hr => (StableHlo.after_of_writes_sub ops V hW (hargs r hr)).trans (hV r hr)
      isplitl [Hh]; · iexact Hh
      iexact HR
    · isplitl [Hbd]; · iexact Hbd
      isplitl [Hh HR]
      · isplitl [Hh]; · iexact Hh
        iexact HR
      iexact Hla

/-! ## A region's exit over the thread state -/

set_option backward.isDefEq.respectTransparency.types false in
/-- EXIT of region 0, the arrays' part: the region's arrays at contents they may hold after every write-back and the
    unscoped rest as entered are the core's unscoped buffers at SOME valuation that differs from the entry valuation
    at the output windows' arrays only (an input array is never written back: `RDat.ArrAt_in`). -/
theorem exit_held0 (V : Valuation τ sig (Elt F)) (c : Dev nD) :
    iprop((rd (F := F) (fun _ b => V b) 0 c).arraysAt cfg0.N
        ∗ Pipeline.unscopedRest (Ix := Unit) (Name := ℕ) (U := UU) (Lvl := ℕ) spec0 c (fun b => V b))
      ⊢ (iprop(∃ V' : Valuation τ sig (Elt F),
          ⌜∀ b : Ref sig .tc, (∀ w, (cfg0.win w).isOut = true → Pipeline.arrRef spec0 w ≠ b) → V' b = V b⌝
          ∗ StableHlo.held (c : Thread nD τ) (Pipeline.ucRefs τ sig) V') : sProp 𝕄) := by
  classical
  unfold RDat.arraysAt
  iintro ⟨Ha, Hrest⟩
  ihave Ha' := (BI.bigSep_exists_pi Finset.univ (fun (w : Fin cfg0.W) G => iprop(⌜(rd (F := F) (fun _ b => V b) 0 c).ArrAt w cfg0.N G⌝
      ∗ (cfg0.win w).arr.view.loc (c : Thread nD τ) ↦[(cfg0.win w).arr.view.set]{(rd (F := F) (fun _ b => V b) 0 c).share w} G))) $$ Ha
  icases Ha' with ⟨%Fs, Ha⟩
  ihave Ha2 := (BI.bigSep_pure_sep Finset.univ (fun w => (rd (F := F) (fun _ b => V b) 0 c).ArrAt w cfg0.N (Fs w))
      (fun w => (cfg0.win w).arr.view.loc (c : Thread nD τ) ↦[(cfg0.win w).arr.view.set]{(rd (F := F) (fun _ b => V b) 0 c).share w} Fs w)) $$ Ha
  icases Ha2 with ⟨%hFs, Ha⟩
  iexists (Pipeline.withArrays spec0 c V Fs)
  isplitr
  · ipureintro
    intro b hb
    by_cases h : ∃ w, Pipeline.arrRef spec0 w = b
    · obtain ⟨w, rfl⟩ := h
      have hin : (cfg0.win w).isOut = false := by
        cases hio : (cfg0.win w).isOut
        · rfl
        · exact absurd rfl (hb w hio)
      have h1 := hFs w (Finset.mem_univ w)
      rw [(rd (F := F) (fun _ b => V b) 0 c).ArrAt_in w hin] at h1
      exact (Pipeline.withArrays_arr spec0 launch0.win.arr_inj c V Fs w).trans h1
    · exact Pipeline.withArrays_of_ne spec0 c V Fs b fun w e => h ⟨w, e⟩
  · have e1 := Pipeline.RDat.arrays_eq (pcfgs (F := F)) adm (rd (F := F) (fun _ b => V b)) 0 c launch0.arr_whole
      ((rd (F := F) (fun _ b => V b) 0 c).share_full fun _ => rfl) Fs
    have e2 := Pipeline.unscopedBufs_split (Ix := Unit) (Name := ℕ) (U := UU) (Lvl := ℕ) (Pipeline.pin (pcfgs (F := F)) adm) 0
      launch0.win.arr_unscoped launch0.win.arr_inj c (fun b => Pipeline.withArrays spec0 c V Fs b)
    rw [← Pipeline.unscopedBufs_held (Ix := Unit) (Name := ℕ) (U := UU) (Lvl := ℕ) c (Pipeline.withArrays spec0 c V Fs), e2]
    isplitl [Ha]
    · have e3 : (bigSep Finset.univ fun w => (((c : Thread nD τ).loc (Pipeline.arrRef spec0 w)) ↦{fullShare} Pipeline.withArrays spec0 c V Fs (Pipeline.arrRef spec0 w) : sProp 𝕄))
          = (rd (F := F) (fun _ b => V b) 0 c).arrays Fs := by
        rw [e1]; exact bigSep_congr fun w _ => by rw [Pipeline.withArrays_arr spec0 launch0.win.arr_inj c V Fs w]; rfl
      unfold RDat.arrays at e3
      iapply (Entails.of_eq e3.symm)
      iexact Ha
    · iapply (Entails.of_eq (show (Pipeline.unscopedRest (Ix := Unit) (Name := ℕ) (U := UU) (Lvl := ℕ) spec0 c (fun b => V b) : sProp 𝕄)
          = Pipeline.unscopedRest spec0 c (fun b => Pipeline.withArrays spec0 c V Fs b) from by
        unfold Pipeline.unscopedRest
        exact bigSep_congr fun b hb => by
          beta_reduce
          rw [Pipeline.withArrays_of_ne spec0 c V Fs b (fun w e => (Finset.mem_sdiff.mp hb).2 (Finset.mem_image.mpr ⟨w, Finset.mem_univ _, e⟩))]))
      iexact Hrest

set_option backward.isDefEq.respectTransparency.types false in
/-- EXIT of region 1, the arrays' part: the region's arrays at contents they may hold after every write-back and the
    unscoped rest as entered are the core's unscoped buffers at SOME valuation that differs from the entry valuation
    at the output windows' arrays only (an input array is never written back: `RDat.ArrAt_in`). -/
theorem exit_held1 (V : Valuation τ sig (Elt F)) (c : Dev nD) :
    iprop((rd (F := F) (fun _ b => V b) 1 c).arraysAt cfg1.N
        ∗ Pipeline.unscopedRest (Ix := Unit) (Name := ℕ) (U := UU) (Lvl := ℕ) spec1 c (fun b => V b))
      ⊢ (iprop(∃ V' : Valuation τ sig (Elt F),
          ⌜∀ b : Ref sig .tc, (∀ w, (cfg1.win w).isOut = true → Pipeline.arrRef spec1 w ≠ b) → V' b = V b⌝
          ∗ StableHlo.held (c : Thread nD τ) (Pipeline.ucRefs τ sig) V') : sProp 𝕄) := by
  classical
  unfold RDat.arraysAt
  iintro ⟨Ha, Hrest⟩
  ihave Ha' := (BI.bigSep_exists_pi Finset.univ (fun (w : Fin cfg1.W) G => iprop(⌜(rd (F := F) (fun _ b => V b) 1 c).ArrAt w cfg1.N G⌝
      ∗ (cfg1.win w).arr.view.loc (c : Thread nD τ) ↦[(cfg1.win w).arr.view.set]{(rd (F := F) (fun _ b => V b) 1 c).share w} G))) $$ Ha
  icases Ha' with ⟨%Fs, Ha⟩
  ihave Ha2 := (BI.bigSep_pure_sep Finset.univ (fun w => (rd (F := F) (fun _ b => V b) 1 c).ArrAt w cfg1.N (Fs w))
      (fun w => (cfg1.win w).arr.view.loc (c : Thread nD τ) ↦[(cfg1.win w).arr.view.set]{(rd (F := F) (fun _ b => V b) 1 c).share w} Fs w)) $$ Ha
  icases Ha2 with ⟨%hFs, Ha⟩
  iexists (Pipeline.withArrays spec1 c V Fs)
  isplitr
  · ipureintro
    intro b hb
    by_cases h : ∃ w, Pipeline.arrRef spec1 w = b
    · obtain ⟨w, rfl⟩ := h
      have hin : (cfg1.win w).isOut = false := by
        cases hio : (cfg1.win w).isOut
        · rfl
        · exact absurd rfl (hb w hio)
      have h1 := hFs w (Finset.mem_univ w)
      rw [(rd (F := F) (fun _ b => V b) 1 c).ArrAt_in w hin] at h1
      exact (Pipeline.withArrays_arr spec1 launch1.win.arr_inj c V Fs w).trans h1
    · exact Pipeline.withArrays_of_ne spec1 c V Fs b fun w e => h ⟨w, e⟩
  · have e1 := Pipeline.RDat.arrays_eq (pcfgs (F := F)) adm (rd (F := F) (fun _ b => V b)) 1 c launch1.arr_whole
      ((rd (F := F) (fun _ b => V b) 1 c).share_full fun _ => rfl) Fs
    have e2 := Pipeline.unscopedBufs_split (Ix := Unit) (Name := ℕ) (U := UU) (Lvl := ℕ) (Pipeline.pin (pcfgs (F := F)) adm) 1
      launch1.win.arr_unscoped launch1.win.arr_inj c (fun b => Pipeline.withArrays spec1 c V Fs b)
    rw [← Pipeline.unscopedBufs_held (Ix := Unit) (Name := ℕ) (U := UU) (Lvl := ℕ) c (Pipeline.withArrays spec1 c V Fs), e2]
    isplitl [Ha]
    · have e3 : (bigSep Finset.univ fun w => (((c : Thread nD τ).loc (Pipeline.arrRef spec1 w)) ↦{fullShare} Pipeline.withArrays spec1 c V Fs (Pipeline.arrRef spec1 w) : sProp 𝕄))
          = (rd (F := F) (fun _ b => V b) 1 c).arrays Fs := by
        rw [e1]; exact bigSep_congr fun w _ => by rw [Pipeline.withArrays_arr spec1 launch1.win.arr_inj c V Fs w]; rfl
      unfold RDat.arrays at e3
      iapply (Entails.of_eq e3.symm)
      iexact Ha
    · iapply (Entails.of_eq (show (Pipeline.unscopedRest (Ix := Unit) (Name := ℕ) (U := UU) (Lvl := ℕ) spec1 c (fun b => V b) : sProp 𝕄)
          = Pipeline.unscopedRest spec1 c (fun b => Pipeline.withArrays spec1 c V Fs b) from by
        unfold Pipeline.unscopedRest
        exact bigSep_congr fun b hb => by
          beta_reduce
          rw [Pipeline.withArrays_of_ne spec1 c V Fs b (fun w e => (Finset.mem_sdiff.mp hb).2 (Finset.mem_image.mpr ⟨w, Finset.mem_univ _, e⟩))]))
      iexact Hrest

/-! ## The regions over the thread state

A region's proof data name its arrays' contents at entry, which after a region of relational data are not known
before the run: each region's data are therefore taken when the region is entered, at the valuation the thread state
then holds, and its staging cells are funded from a second copy of the rounds algebra dealt at the launch. -/

/-- Pipeline `p`'s cells' launch ghost state and duty tokens on core `c`, in the second copy of the rounds algebra. -/
def Gh (p : Fin 2) (c : Dev nD) : sProp 𝕄 :=
  iprop(Pipeline.cellsGhost (Pipeline.pin (pcfgs (F := F)) adm) (embR : Emb (UR sig nD τ) 𝕄) p c
    ∗ Pipeline.toksInit (Pipeline.pin (pcfgs (F := F)) adm) (embR : Emb (UR sig nD τ) 𝕄) p c)

theorem hargs0 : ∀ r ∈ argsL, ∀ w, (cfg0.win w).isOut = true → Pipeline.arrRef spec0 w ≠ r := by decide

set_option backward.isDefEq.respectTransparency.types false in
/-- REGION 0 entered with the unscoped buffers at a valuation `V`: its record over relational proof data at `V`.
    Entered from every unscoped buffer at `V`, left at some valuation that differs from `V` at the region's output
    arrays only; the generator register into the invariant and out; nothing owed; no semaphore of the kernel's own. -/
def reg0 (V : Valuation τ sig (Elt F)) :
    Pipeline.RDat.RegionSeg (pcfgs (F := F)) adm (rd (F := F) (fun _ b => V b)) () defs₀ 𝒱₀ L lv 0 where
  win := launch0.win.to₀
  block_pos := launch0.block_pos
  stage_whole := launch0.stage_whole
  K := PEmpty
  osem k := k.elim
  ho := Pipeline.OwnSemFacts.none _
  hbody c := body_obligation0 _ c
  hwaits := Pipeline.RDat.hwaits_of_owed_zero _ _ _ _ L lv 0 fun _ _ => rfl
  pre c := iprop(StableHlo.held (c : Thread nD τ) (Pipeline.ucRefs τ sig) V ∗ Rr c)
  post c := iprop((∃ V' : Valuation τ sig (Elt F),
      ⌜∀ b : Ref sig .tc, (∀ w, (cfg0.win w).isOut = true → Pipeline.arrRef spec0 w ≠ b) → V' b = V b⌝
      ∗ StableHlo.held (c : Thread nD τ) (Pipeline.ucRefs τ sig) V') ∗ Rr c)
  X c := iprop(∃ r, prngReg c r)
  Y c := iprop(∃ r, prngReg c r)
  Z c := Pipeline.unscopedRest (Ix := Unit) (Name := ℕ) (U := UU) (Lvl := ℕ) spec0 c (fun b => V b)
  hentry c := by
    rw [Pipeline.ownSems0_none]
    have hsplit := Pipeline.RDat.arrays_of_unscopedBufs (p := 0) (pcfgs (F := F)) adm (rd (F := F) (fun _ b => V b)) launch0.win launch0.arr_whole c
      ((rd (F := F) (fun _ b => V b) 0 c).share_full fun _ => rfl) (fun b => V b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rd (F := F) (fun _ b => V b) 0 c).Φ 0 = Pipeline.ΦA spec0 c from rfl]; unfold Pipeline.ΦA
    iintro ⟨Hp, -, Hr⟩
    isplitl [Hr]; · iexact Hr
    iexact Hp
  hout c := by
    rw [Pipeline.ownSems0_none, show (rd (F := F) (fun _ b => V b) 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_held0 V c); isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 0 over the thread state, as a segment with its own account: the valuation is opened, the proof data are
    taken at it, and the region runs by the region rule (`RDat.RegionSeg.wp`) on its pipeline's cells' ghost state
    in the second copy of the rounds algebra, which the thread state has carried from the launch. -/
def rseg0 (Rrest : Dev nD → sProp 𝕄) : HostSeg (Name := ℕ) (U := UU) (pcfgs (F := F)) defs₀ 𝒱₀ L lv where
  prog := Prog.lift (.customCall (Pipeline.entry 0) ())
  pre := TS m (fun c => iprop(Gh (F := F) 0 c ∗ Rrest c))
  post := TS m Rrest
  run c {β} k K := by
    unfold TS Gh
    iintro ⟨Hk, Hbd, ⟨%V, %hV, Hh, HR, ⟨Hg, Ht⟩, Hrest⟩, #Hla⟩
    have hwp := Pipeline.RDat.RegionSeg.wp (pcfgs (F := F)) adm (rd (F := F) (fun _ b => V b)) () cellOf_inj
      (embR : Emb (UR sig nD τ) 𝕄) defs₀ 𝒱₀ L lv (reg0 V) c none (fun u h => nomatch h) k K
    dsimp only [reg0] at hwp
    iapply hwp
    isplitr [Hbd Hh HR Hg Ht]
    · iintro ⟨Hbd, ⟨%V', %hV', Hh⟩, HR⟩
      iapply Hk
      isplitl [Hbd]; · iexact Hbd
      iexists V'
      isplitr
      · ipureintro
        exact fun r hr => (hV' r (hargs0 r hr)).trans (hV r hr)
      isplitl [Hh]; · iexact Hh
      isplitl [HR]; · iexact HR
      iexact Hrest
    · isplitl [Hbd]; · iexact Hbd
      isplitl [Hh HR]
      · isplitl [Hh]; · iexact Hh
        iexact HR
      isplitr; · iexact Hla
      isplitl [Hg]; · iexact Hg
      iexact Ht

theorem hargs1 : ∀ r ∈ argsL, ∀ w, (cfg1.win w).isOut = true → Pipeline.arrRef spec1 w ≠ r := by decide

set_option backward.isDefEq.respectTransparency.types false in
/-- REGION 1 entered with the unscoped buffers at a valuation `V`: its record over relational proof data at `V`.
    Entered from every unscoped buffer at `V`, left at some valuation that differs from `V` at the region's output
    arrays only; the generator register into the invariant and out; nothing owed; no semaphore of the kernel's own. -/
def reg1 (V : Valuation τ sig (Elt F)) :
    Pipeline.RDat.RegionSeg (pcfgs (F := F)) adm (rd (F := F) (fun _ b => V b)) () defs₀ 𝒱₀ L lv 1 where
  win := launch1.win.to₀
  block_pos := launch1.block_pos
  stage_whole := launch1.stage_whole
  K := PEmpty
  osem k := k.elim
  ho := Pipeline.OwnSemFacts.none _
  hbody c := body_obligation1 _ c
  hwaits := Pipeline.RDat.hwaits_of_owed_zero _ _ _ _ L lv 1 fun _ _ => rfl
  pre c := iprop(StableHlo.held (c : Thread nD τ) (Pipeline.ucRefs τ sig) V ∗ Rr c)
  post c := iprop((∃ V' : Valuation τ sig (Elt F),
      ⌜∀ b : Ref sig .tc, (∀ w, (cfg1.win w).isOut = true → Pipeline.arrRef spec1 w ≠ b) → V' b = V b⌝
      ∗ StableHlo.held (c : Thread nD τ) (Pipeline.ucRefs τ sig) V') ∗ Rr c)
  X c := iprop(∃ r, prngReg c r)
  Y c := iprop(∃ r, prngReg c r)
  Z c := Pipeline.unscopedRest (Ix := Unit) (Name := ℕ) (U := UU) (Lvl := ℕ) spec1 c (fun b => V b)
  hentry c := by
    rw [Pipeline.ownSems0_none]
    have hsplit := Pipeline.RDat.arrays_of_unscopedBufs (p := 1) (pcfgs (F := F)) adm (rd (F := F) (fun _ b => V b)) launch1.win launch1.arr_whole c
      ((rd (F := F) (fun _ b => V b) 1 c).share_full fun _ => rfl) (fun b => V b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rd (F := F) (fun _ b => V b) 1 c).Φ 0 = Pipeline.ΦA spec1 c from rfl]; unfold Pipeline.ΦA
    iintro ⟨Hp, -, Hr⟩
    isplitl [Hr]; · iexact Hr
    iexact Hp
  hout c := by
    rw [Pipeline.ownSems0_none, show (rd (F := F) (fun _ b => V b) 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_held1 V c); isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state, as a segment with its own account: the valuation is opened, the proof data are
    taken at it, and the region runs by the region rule (`RDat.RegionSeg.wp`) on its pipeline's cells' ghost state
    in the second copy of the rounds algebra, which the thread state has carried from the launch. -/
def rseg1 (Rrest : Dev nD → sProp 𝕄) : HostSeg (Name := ℕ) (U := UU) (pcfgs (F := F)) defs₀ 𝒱₀ L lv where
  prog := Prog.lift (.customCall (Pipeline.entry 1) ())
  pre := TS m (fun c => iprop(Gh (F := F) 1 c ∗ Rrest c))
  post := TS m Rrest
  run c {β} k K := by
    unfold TS Gh
    iintro ⟨Hk, Hbd, ⟨%V, %hV, Hh, HR, ⟨Hg, Ht⟩, Hrest⟩, #Hla⟩
    have hwp := Pipeline.RDat.RegionSeg.wp (pcfgs (F := F)) adm (rd (F := F) (fun _ b => V b)) () cellOf_inj
      (embR : Emb (UR sig nD τ) 𝕄) defs₀ 𝒱₀ L lv (reg1 V) c none (fun u h => nomatch h) k K
    dsimp only [reg1] at hwp
    iapply hwp
    isplitr [Hbd Hh HR Hg Ht]
    · iintro ⟨Hbd, ⟨%V', %hV', Hh⟩, HR⟩
      iapply Hk
      isplitl [Hbd]; · iexact Hbd
      iexists V'
      isplitr
      · ipureintro
        exact fun r hr => (hV' r (hargs1 r hr)).trans (hV r hr)
      isplitl [Hh]; · iexact Hh
      isplitl [HR]; · iexact HR
      iexact Hrest
    · isplitl [Hbd]; · iexact Hbd
      isplitl [Hh HR]
      · isplitl [Hh]; · iexact Hh
        iexact HR
      isplitr; · iexact Hla
      isplitl [Hg]; · iexact Hg
      iexact Ht

/-! ## @main as segments, and the launch -/

/-- A conjunction over the two pipelines, one by one. -/
theorem bigSep_P {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- What rides beside the buffers from the launch: both pipelines' cells' ghost state in the second copy of the algebra. -/
abbrev G0 (c : Dev nD) : sProp 𝕄 := iprop(Gh (F := F) 0 c ∗ Gh (F := F) 1 c ∗ emp)
/-- After region 0: pipeline 1's. -/
abbrev G1 (c : Dev nD) : sProp 𝕄 := iprop(Gh (F := F) 1 c ∗ emp)
/-- After region 1: nothing. -/
abbrev G2 (c : Dev nD) : sProp 𝕄 := iprop(emp)

/-- Both pipelines' ghost state and duty tokens on a core, pipeline by pipeline. -/
theorem deal (c : Dev nD) :
    (iprop((Pipeline.cellsGhost (Pipeline.pin (pcfgs (F := F)) adm) (embR : Emb (UR sig nD τ) 𝕄) 0 c
          ∗ Pipeline.cellsGhost (Pipeline.pin (pcfgs (F := F)) adm) (embR : Emb (UR sig nD τ) 𝕄) 1 c)
        ∗ Pipeline.toksInit (Pipeline.pin (pcfgs (F := F)) adm) (embR : Emb (UR sig nD τ) 𝕄) 0 c
        ∗ Pipeline.toksInit (Pipeline.pin (pcfgs (F := F)) adm) (embR : Emb (UR sig nD τ) 𝕄) 1 c) : sProp 𝕄)
      ⊢ G0 (F := F) c := by
  unfold G0 Gh
  iintro ⟨⟨Hg0, Hg1⟩, Ht0, Ht1⟩
  isplitl [Hg0 Ht0]
  · isplitl [Hg0] <;> iassumption
  isplitl [Hg1 Ht1]
  · isplitl [Hg1] <;> iassumption
  iempintro

/-- @main's eight items in order as segments over the thread state (the proof data family the segment type names is
    not used: every region is entered inside a segment with its own account). -/
abbrev segs : List (Pipeline.RDat.Seg (pcfgs (F := F)) adm (rd (F := F) (fun c b => V0 m c b)) () defs₀ 𝒱₀ L lv) :=
  [ .host (hsegE m hostOps0 hostOps0_sub hostOps0_fresh hostOps0_W hostOps0_writes (by decide) G0),
    .host (hsegE m hostOps0_1 hostOps0_1_sub hostOps0_1_fresh hostOps0_1_W hostOps0_1_writes (by decide) G0),
    .host (hsegE m hostOps0_2 hostOps0_2_sub hostOps0_2_fresh hostOps0_2_W hostOps0_2_writes (by decide) G0),
    .host (hsegE m hostOps0_3 hostOps0_3_sub hostOps0_3_fresh hostOps0_3_W hostOps0_3_writes (by decide) G0),
    .host (rseg0 m G1),
    .host (hsegE m hostOps1 hostOps1_sub hostOps1_fresh hostOps1_W hostOps1_writes (by decide) G1),
    .host (rseg1 m G2),
    .host (hsegE m hostOps2 hostOps2_sub hostOps2_fresh hostOps2_W hostOps2_writes (by decide) G2) ]

set_option backward.isDefEq.respectTransparency.types false in
/-- THE FRAME at any `F`: from any memory with zero counters, every weakly fair execution of @main on the TensorCores
    terminates, nothing faulting, and every final memory has the twelve argument arrays as launched. -/
theorem frame_any (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.RDat.θ_run_regions_kit_dev (pcfgs (F := F)) adm (rd (F := F) (fun c b => V0 m c b)) () cellOf_inj
    (embL : Emb (UR sig nD τ) 𝕄) defs₀ 𝒱₀ L lv m ρ main (fun _ => segs m)
    (fun c Q => by
      rewrite [main_chain c, Pipeline.RDat.Seg.run_eq_chain,
        show (segs m).map Pipeline.RDat.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.RDat.Seg.pipes_host, Pipeline.RDat.Seg.pipes_nil]; exact List.nodup_nil)
    (O₀ := 0) (hL := fun _ _ => rfl) (G := G0)
    (u₀ := (initOf (Pipeline.cells (Pipeline.pin (pcfgs (F := F)) adm) cellOf_inj) (Pipeline.launchToks (Pipeline.pin (pcfgs (F := F)) adm) cellOf_inj),
            initOf (Pipeline.cells (Pipeline.pin (pcfgs (F := F)) adm) cellOf_inj) (Pipeline.launchToks (Pipeline.pin (pcfgs (F := F)) adm) cellOf_inj)))
    (hu₀ := ?_)
    (T₀ := TS m G0)
    (Tₙ := fun c => iprop(∃ V : Valuation τ sig (Elt F), ⌜Agree m c V⌝ ∗ StableHlo.held (c : Thread nD τ) (Pipeline.ucRefs τ sig) V))
    (hch := fun c => ⟨.rfl, .rfl, .rfl, .rfl, .rfl, .rfl, .rfl, .rfl, ?_⟩)
    (hinit := ?_)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch element: one copy for the launch theorem, one dealt to the cores as the pipelines' cells' ghost state
    have hG : iprop((bigSep Finset.univ fun c : Dev nD => bigSep Finset.univ fun p => Pipeline.cellsGhost (Pipeline.pin (pcfgs (F := F)) adm) (embR : Emb (UR sig nD τ) 𝕄) p c)
          ∗ (bigSep Finset.univ fun c : Dev nD => bigSep Finset.univ fun p => (Pipeline.toksInit (Pipeline.pin (pcfgs (F := F)) adm) (embR : Emb (UR sig nD τ) 𝕄) p c : sProp 𝕄)))
        ⊢ bigSep Finset.univ (G0 (F := F)) := by
      rw [← bigSep_sep']
      exact bigSep_mono fun c _ => by rw [bigSep_P, bigSep_P]; exact deal c
    iintro Hu
    ihave Hp := (ownU_pair (nD := nD) (τ := τ) (sig := sig) (Ix := Unit) (Val := Elt F) (Name := ℕ) (Lvl := ℕ) _ _) $$ Hu
    icases Hp with ⟨HL, HR⟩
    imod (Pipeline.fund_ghost (Pipeline.pin (pcfgs (F := F)) adm) (embR : Emb (UR sig nD τ) 𝕄) cellOf_inj) $$ HR with ⟨Hg, Ht⟩
    imodintro
    isplitl [HL]; · iexact HL
    iapply hG
    isplitl [Hg] <;> iassumption
  · -- the end of the chain: the last thread state is the last valuation beside the core owing nothing
    show TS m G2 c ⊢ iprop((∃ V : Valuation τ sig (Elt F), ⌜Agree m c V⌝ ∗ StableHlo.held (c : Thread nD τ) (Pipeline.ucRefs τ sig) V)
      ∗ ∃ W, owes (c.tc : Thread nD τ) (0 : CellTallies nD τ sig Unit) W)
    unfold TS
    iintro ⟨%V, %hV, Hh, ⟨-, HO⟩, -⟩
    isplitl [Hh]
    · iexists V; isplitr; · ipureintro; exact hV
      iexact Hh
    iexact HO
  · -- the launch: the unscoped buffers are held at the launch valuation, which has the arguments as launched
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    unfold TS
    iintro ⟨⟨Hh, -, HO, -, Hp, HG⟩, -⟩
    imodintro
    iexists (V0 m c)
    isplitr; · ipureintro; exact fun _ _ => rfl
    isplitl [Hh]; · iexact Hh
    isplitl [Hp HO]
    · isplitl [Hp]; · iexists _; iexact Hp
      iexists ∅; iexact HO
    iexact HG
  · -- the end: each argument's buffer read off the last valuation
    unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (hV main_arg0 (by decide)),
        (h (Proc.devRef .tc main_arg1) (Finset.mem_filter.mpr ⟨StableHlo.devRef_mem_tcRefs main_arg1, by decide⟩)).trans (hV main_arg1 (by decide)),
        (h (Proc.devRef .tc main_arg2) (Finset.mem_filter.mpr ⟨StableHlo.devRef_mem_tcRefs main_arg2, by decide⟩)).trans (hV main_arg2 (by decide)),
        (h (Proc.devRef .tc main_arg3) (Finset.mem_filter.mpr ⟨StableHlo.devRef_mem_tcRefs main_arg3, by decide⟩)).trans (hV main_arg3 (by decide)),
        (h (Proc.devRef .tc main_arg4) (Finset.mem_filter.mpr ⟨StableHlo.devRef_mem_tcRefs main_arg4, by decide⟩)).trans (hV main_arg4 (by decide)),
        (h (Proc.devRef .tc main_arg5) (Finset.mem_filter.mpr ⟨StableHlo.devRef_mem_tcRefs main_arg5, by decide⟩)).trans (hV main_arg5 (by decide)),
        (h (Proc.devRef .tc main_arg6) (Finset.mem_filter.mpr ⟨StableHlo.devRef_mem_tcRefs main_arg6, by decide⟩)).trans (hV main_arg6 (by decide)),
        (h (Proc.devRef .tc main_arg7) (Finset.mem_filter.mpr ⟨StableHlo.devRef_mem_tcRefs main_arg7, by decide⟩)).trans (hV main_arg7 (by decide)),
        (h (Proc.devRef .tc main_arg8) (Finset.mem_filter.mpr ⟨StableHlo.devRef_mem_tcRefs main_arg8, by decide⟩)).trans (hV main_arg8 (by decide)),
        (h (Proc.devRef .tc main_arg9) (Finset.mem_filter.mpr ⟨StableHlo.devRef_mem_tcRefs main_arg9, by decide⟩)).trans (hV main_arg9 (by decide)),
        (h (Proc.devRef .tc main_arg10) (Finset.mem_filter.mpr ⟨StableHlo.devRef_mem_tcRefs main_arg10, by decide⟩)).trans (hV main_arg10 (by decide)),
        (h (Proc.devRef .tc main_arg11) (Finset.mem_filter.mpr ⟨StableHlo.devRef_mem_tcRefs main_arg11, by decide⟩)).trans (hV main_arg11 (by decide))⟩
    · iexact HSI

end Cert.Proof.FrameBits

namespace Cert.Proof.FrameBits

open Idealize.ShloMosaic

/-- The frame claim of the program as printed (`F := Bits`): the precondition is not needed. -/
theorem frame : Cert.frame_Kernel (hKernel := Cert.Kernel.Gen.facts) (hPre_finite_inputs := Cert.Pre_finite_inputs.Gen.facts) :=
  fun m g _ => frame_any (F := Bits) m g

end Cert.Proof.FrameBits

end
-- ==== Proof.R0Dat.lean ====
/-
  The message region's proof data: what each of its ten staging buffers holds after the body at a grid
  point, as a function of the arrays the region finds.

  The grid is (batch, edge block): 2 x 70 points, the edge axis cut in blocks of 16384 edges; the last
  block reaches past the array's 1132624 edges, so only its first 2128 columns are moved in either
  direction. A staging block is stated on the columns inside the array (the array's block read through
  the window) and, past them, at the zero word, which nothing reads back: the body's arithmetic never
  mixes two columns, so a column inside the array is a function of the same column of the inputs.
-/
import proofs.«427296_j67087389163569_2_alg».proof.Proof.Gen.KernelIdeal.Launch
import proofs.«427296_j67087389163569_2_alg».proof.Proof.Gen.KernelIdeal.Skeleton
import proofs.«427296_j67087389163569_2_alg».proof.Proof.Gen.KernelIdeal.Points
import Idealize.ShloMosaic.Lib.Pipeline.FrameBody
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three edge-indexed input blocks as whole staging blocks: the array's columns where the block lies inside
    the array, the zero word past its end. -/
def ns0 (c : Dev nD) (t : Fin cfg0.N) : Vec F S1x13x16384 .f32 :=
  win0_0.fill (grid0.coords t) (fun _ => Scalar.ofBits .f32 0#32) (iblk0 V c 0 t)
def nt0 (c : Dev nD) (t : Fin cfg0.N) : Vec F S1x13x16384 .f32 :=
  win0_1.fill (grid0.coords t) (fun _ => Scalar.ofBits .f32 0#32) (iblk0 V c 1 t)
def et0 (c : Dev nD) (t : Fin cfg0.N) : Vec F S1x8x16384 .f32 :=
  win0_2.fill (grid0.coords t) (fun _ => Scalar.ofBits .f32 0#32) (iblk0 V c 2 t)

/-- The 24 message rows of the block at point `t`: the body's two-layer arithmetic of the staged inputs. -/
def msg0 (c : Dev nD) (t : Fin cfg0.N) : FVec F S24x16384 .f32 :=
  k0_pay5 (ns0 V c t) (nt0 V c t) (et0 V c t) (iblk0 V c 3 t) (iblk0 V c 4 t) (iblk0 V c 5 t) (iblk0 V c 6 t)

/-- What the body stores into the three output staging buffers at point `t`. -/
def oute0 (c : Dev nD) (t : Fin cfg0.N) : FVec F S1x8x16384 .f32 :=
  k0_pay1 (k0_pay8 (ns0 V c t) (nt0 V c t) (et0 V c t) (iblk0 V c 3 t) (iblk0 V c 4 t) (iblk0 V c 5 t) (iblk0 V c 6 t))
    (Scalar.ofBits .f32 0xC2C80000#32) (Scalar.ofBits .f32 0x42C80000#32)
def outa0 (c : Dev nD) (t : Fin cfg0.N) : FVec F S1x8x16384 .f32 :=
  k0_pay2 (k0_pay6 (ns0 V c t) (nt0 V c t) (et0 V c t) (iblk0 V c 3 t) (iblk0 V c 4 t) (iblk0 V c 5 t) (iblk0 V c 6 t))
def outb0 (c : Dev nD) (t : Fin cfg0.N) : FVec F S1x8x16384 .f32 :=
  k0_pay3 (k0_pay7 (ns0 V c t) (nt0 V c t) (et0 V c t) (iblk0 V c 3 t) (iblk0 V c 4 t) (iblk0 V c 5 t) (iblk0 V c 6 t))

/-- The proof data of pipeline 0 on core `c`: the arrays as the region finds them; after the body at point `t`
    the inputs' buffers at their blocks and the outputs' at what the body stores; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => ns0 V c t
    | ⟨1, _⟩ => nt0 V c t
    | ⟨2, _⟩ => et0 V c t
    | ⟨3, _⟩ => iblk0 V c 3 t
    | ⟨4, _⟩ => iblk0 V c 4 t
    | ⟨5, _⟩ => iblk0 V c 5 t
    | ⟨6, _⟩ => iblk0 V c 6 t
    | ⟨7, _⟩ => oute0 V c t
    | ⟨8, _⟩ => outa0 V c t
    | ⟨9, _⟩ => outb0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = ns0 V c t := by dsimp only [dat0]
theorem after0_1 (c : Dev nD) (t : Fin cfg0.N) : (dat0 V c).after 1 t = nt0 V c t := by dsimp only [dat0]
theorem after0_2 (c : Dev nD) (t : Fin cfg0.N) : (dat0 V c).after 2 t = et0 V c t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = oute0 V c t := by dsimp only [dat0]
theorem after0_8 (c : Dev nD) (t : Fin cfg0.N) : (dat0 V c).after 8 t = outa0 V c t := by dsimp only [dat0]
theorem after0_9 (c : Dev nD) (t : Fin cfg0.N) : (dat0 V c).after 9 t = outb0 V c t := by dsimp only [dat0]

end Cert.KernelIdeal.Hand

end
-- ==== Proof.R1Dat.lean ====
/-
  The update region's proof data: what each of its eight staging buffers holds after the body at a grid
  point (one point per batch entry; every block is a whole (channel, node) plane, nothing is cut).
-/
import proofs.«427296_j67087389163569_2_alg».proof.Proof.Gen.KernelIdeal.Launch
import proofs.«427296_j67087389163569_2_alg».proof.Proof.Gen.KernelIdeal.Skeleton
import proofs.«427296_j67087389163569_2_alg».proof.Proof.Gen.KernelIdeal.Points
import Idealize.ShloMosaic.Lib.Pipeline.FrameBody
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- Window `w`'s block at point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the output staging buffer at point `t`. -/
def outd1 (c : Dev nD) (t : Fin cfg1.N) : FVec F S1x8x1105 .f32 :=
  k1_pay1 (k1_pay2 (iblk1 V c 0 t) (iblk1 V c 1 t) (iblk1 V c 2 t) (iblk1 V c 3 t) (iblk1 V c 4 t) (iblk1 V c 5 t) (iblk1 V c 6 t))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outd1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outd1 V c t := by dsimp only [dat1]

end Cert.KernelIdeal.Hand

end
-- ==== Proof.Outs.lean ====
/-
  What the two regions leave in the arrays they write, at the extended reals, as the contents of every
  unscoped buffer at the regions' exits: the message region's three result arrays after its 140 write-backs
  over the contents it was entered with, every other buffer as entered; then, after the host operations in
  between, the update region's result array after its 2 write-backs likewise.
-/
import proofs.«427296_j67087389163569_2_alg».proof.Proof.Gen.KernelIdeal.Regions
import proofs.«427296_j67087389163569_2_alg».proof.Proof.R0Dat
import proofs.«427296_j67087389163569_2_alg».proof.Proof.R1Dat
import Idealize.ShloMosaic.Lib.Pipeline.FrameSuffix
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ)

/-- The message region's entry contents, read at the TensorCore's references. -/
abbrev E4 : (c : Dev nD) → (b : Ref sig .tc) → Buf (Elt Ideal) ((c : Thread nD τ).loc b) := fun c b => Gen.V4 m c b

/-- Every unscoped buffer at the message region's exit. -/
def W5 (c : Dev nD) : Valuation τ sig (Elt Ideal) :=
  Pipeline.withArrays spec0 c (Gen.V4 m c) fun w => (dat0 (E4 m) c).arrAt w cfg0.N

/-- What the message region leaves, as the unknowns the generated valuations are written over. -/
def outsA : Gen.Outs (F := Ideal) := fun _ r c => W5 m c r

/-- The update region's entry contents, read at the TensorCore's references. -/
abbrev E6 : (c : Dev nD) → (b : Ref sig .tc) → Buf (Elt Ideal) ((c : Thread nD τ).loc b) := fun c b => Gen.V6 m (outsA m) c b

/-- Every unscoped buffer at the update region's exit. -/
def W7 (c : Dev nD) : Valuation τ sig (Elt Ideal) :=
  Pipeline.withArrays spec1 c (Gen.V6 m (outsA m) c) fun w => (dat1 (E6 m) c).arrAt w cfg1.N

/-- What both regions leave: read after item 6 (the update region) it is that region's exit contents, read
    anywhere else the message region's. -/
def outs : Gen.Outs (F := Ideal) := fun J r c => if J = 7 then W7 m c r else W5 m c r

theorem outs_five (r : Ref sig .tc) (c : Dev nD) : outs m 5 r c = W5 m c r := if_neg (by decide)
theorem outs_seven (r : Ref sig .tc) (c : Dev nD) : outs m 7 r c = W7 m c r := if_pos rfl

/-- The two results the program returns, as the last valuation holds them. -/
abbrev K58 (c : Dev nD) : Buf (Elt Ideal) ((c : Thread nD τ).loc main_v58) := Gen.V8 m (outs m) c main_v58
abbrev K21 (c : Dev nD) : Buf (Elt Ideal) ((c : Thread nD τ).loc main_v21) := Gen.V8 m (outs m) c main_v21

end Cert.KernelIdeal.Hand

end
-- ==== Proof.R0Body.lean ====
/-
  The message region's body obligation at the extended reals.

  Three parts. The body's triple, for any float values: on whole staging buffers the body loads its seven inputs whole,
  and stores the three payloads whole. What the body finds: the three edge blocks fetched at every point, filled out past
  the array's end with whatever their buffers held; the weights and biases in place; the outputs' buffers at anything.
  And the one mathematical fact, at the extended reals: the message arithmetic never mixes two columns, so on the columns
  inside the array the stored payloads do not depend on the words past the array's end — which is all the obligation of a
  clipped window asks.
-/
import proofs.«427296_j67087389163569_2_alg».proof.Proof.R0Dat
import Idealize.ShloMosaic.Lib.Tactic
import Idealize.ShloMosaic.Lib.ValueIdx
import Idealize.ShloMosaic.Lib.ValueLayout
import Idealize.ShloMosaic.Lib.Pipeline.Value
import Idealize.ShloMosaic.Lib.Pipeline.Frame
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace R0Body

/-! ## The body's triple -/

/-- Contents read back after ONE store through the whole-shape rectangle at zero offsets: the payload. -/
theorem read_writes_whole {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through the whole-shape rectangle at zero offsets reads the contents. -/
theorem readAt_whole {sig' : RefSig} {κ : Kind} {sp : Space} {S : Shape} {e : EltTy} {Val : EltTy → Type}
    (v : View sig' κ sp S e) (f : v.ty.Contents Val) {off : Fin S.rank → Nat}
    (h : off = fun _ => 0) (inb : ∀ a, off a + S.size a ≤ S.size a) :
    v.readAt Val (Rect.unit off S.size inb).toLoadRect f = v.read Val f :=
  (View.readAt_eq_ld v f _).trans (View.ld_unit_zero h inb _)

section Triple

variable {F : FTy → Type} [FloatOps F]

local notation "𝕄" => MT nD τ sig Unit (Elt F) ℕ (UR sig nD τ) ℕ

set_option maxHeartbeats 4000000 in
/-- The kernel body on whole staging memrefs, the seven inputs' at read contents `x0 … x6` and the three outputs' at anything,
    runs to the continuation holding the inputs' as they were and the outputs' at the three stored payloads: the clamped new
    edge rows and the two message halves of the inputs. -/
theorem sound_kernel0 (c : Dev nD) (E : Set ℕ) (i : grid0.Coords)
    (arg2 : Memref sig .tc .vmem S1x13x16384 .f32) (harg2 : arg2.IsWhole)
    (arg3 : Memref sig .tc .vmem S1x13x16384 .f32) (harg3 : arg3.IsWhole)
    (arg4 : Memref sig .tc .vmem S1x8x16384 .f32) (harg4 : arg4.IsWhole)
    (arg5 : Memref sig .tc .vmem S32x34 .f32) (harg5 : arg5.IsWhole)
    (arg6 : Memref sig .tc .vmem S32x1 .f32) (harg6 : arg6.IsWhole)
    (arg7 : Memref sig .tc .vmem S24x32 .f32) (harg7 : arg7.IsWhole)
    (arg8 : Memref sig .tc .vmem S24x1 .f32) (harg8 : arg8.IsWhole)
    (arg9 : Memref sig .tc .vmem S1x8x16384 .f32) (harg9 : arg9.IsWhole)
    (arg10 : Memref sig .tc .vmem S1x8x16384 .f32) (harg10 : arg10.IsWhole)
    (arg11 : Memref sig .tc .vmem S1x8x16384 .f32) (harg11 : arg11.IsWhole)
    (x0 : Vec F S1x13x16384 .f32) (x1 : Vec F S1x13x16384 .f32) (x2 : Vec F S1x8x16384 .f32)
    (x3 : Vec F S32x34 .f32) (x4 : Vec F S32x1 .f32) (x5 : Vec F S24x32 .f32) (x6 : Vec F S24x1 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare
                (k0_pay1 (k0_pay8 x0 x1 x2 x3 x4 x5 x6) (Scalar.ofBits .f32 0xC2C80000#32) (Scalar.ofBits .f32 0x42C80000#32))
            ∗ owns (c : Thread nD τ) arg10 fullShare (k0_pay2 (k0_pay6 x0 x1 x2 x3 x4 x5 x6))
            ∗ owns (c : Thread nD τ) arg11 fullShare (k0_pay3 (k0_pay7 x0 x1 x2 x3 x4 x5 x6))) -∗ K ⟨⟩))
      ⊢ wp frame (wpE (defs₀ (F := F)) Variants.none c none) E
          (cc0__message_kernel i arg2 harg2 arg3 harg3 arg4 harg4 arg5 harg5 arg6 harg6 arg7 harg7 arg8 harg8
            arg9 harg9 arg10 harg10 arg11 harg11) K := by
  simp only [cc0__message_kernel_eq_skeleton, k0_part1_eq_skeleton]
  unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  have hz : (![0, 0, 0] : Fin 3 → Nat) = fun _ => 0 := funext fun a => by fin_cases a <;> rfl
  have hz2 : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_whole (Val := Elt F) arg9.view _ hz _ _).trans ?_
    unfold sound_kernel0.sl.r_2 sound_kernel0.sl.cst_19 sound_kernel0.sl.cst_20
    rw [readAt_whole arg2.view f0 hz, readAt_whole arg3.view f1 hz, readAt_whole arg4.view f2 hz,
      readAt_whole arg5.view f3 hz2, readAt_whole arg6.view f4 hz2, readAt_whole arg7.view f5 hz2,
      readAt_whole arg8.view f6 hz2]
  isplitl [H8]
  · iexists _; isplitr
    swap; · iexact H8
    ipureintro
    refine (read_writes_whole (Val := Elt F) arg10.view _ hz _ _).trans ?_
    unfold sound_kernel0.sl.r
    rw [readAt_whole arg2.view f0 hz, readAt_whole arg3.view f1 hz, readAt_whole arg4.view f2 hz,
      readAt_whole arg5.view f3 hz2, readAt_whole arg6.view f4 hz2, readAt_whole arg7.view f5 hz2,
      readAt_whole arg8.view f6 hz2]
  · iexists _; isplitr
    swap; · iexact H9
    ipureintro
    refine (read_writes_whole (Val := Elt F) arg11.view _ hz _ _).trans ?_
    unfold sound_kernel0.sl.r_1
    rw [readAt_whole arg2.view f0 hz, readAt_whole arg3.view f1 hz, readAt_whole arg4.view f2 hz,
      readAt_whole arg5.view f3 hz2, readAt_whole arg6.view f4 hz2, readAt_whole arg7.view f5 hz2,
      readAt_whole arg8.view f6 hz2]

end Triple

/-! ## What the body finds -/

section Before

variable {F : FTy → Type} [FloatOps F]
variable (V : (c : Dev nD) → (b : Ref sig .tc) → Buf (Elt F) ((c : Thread nD τ).loc b))

/-- The three edge-indexed inputs are fetched at every point: the block on the columns inside the array, the words `d` the
    buffer held elsewhere. -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl
theorem before0_2 (c : Dev nD) (t : Fin cfg0.N) (d) :
    (dat0 V c).before 2 t d = win0_2.fill (grid0.coords t) d (iblk0 V c 2 t) := by
  unfold Dat.before; rw [if_pos (fetch0_2 t)]; rfl

/-- The weights and biases are fetched once and left in place: their whole arrays at every point. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- The outputs are written back at every point: their buffers arrive holding anything. -/
theorem before0_7 (c : Dev nD) (t : Fin cfg0.N) (d) : (dat0 V c).before 7 t d = d :=
  (dat0 V c).before_out_reset 7 rfl t (by
    by_cases h0 : t.val = 0
    · exact .inl h0
    · exact .inr ⟨h0, flush0_7 _⟩) d
theorem before0_8 (c : Dev nD) (t : Fin cfg0.N) (d) : (dat0 V c).before 8 t d = d :=
  (dat0 V c).before_out_reset 8 rfl t (by
    by_cases h0 : t.val = 0
    · exact .inl h0
    · exact .inr ⟨h0, flush0_8 _⟩) d
theorem before0_9 (c : Dev nD) (t : Fin cfg0.N) (d) : (dat0 V c).before 9 t d = d :=
  (dat0 V c).before_out_reset 9 rfl t (by
    by_cases h0 : t.val = 0
    · exact .inl h0
    · exact .inr ⟨h0, flush0_9 _⟩) d

end Before

/-! ## Columns stay apart

Every operation of the message arithmetic reads, at a column, that column of its operands only: the casts and the
row slices keep the column, the concatenation is along rows, the two products contract the rows of their right
operand, the biases are spread along columns, and the rest is pointwise. So two triples of edge blocks that agree
on a column give payloads that agree on it. -/

section Columns

variable {α : Type}

/-- Two arrays of `a` rows and `b` columns agree on column `n`. -/
def Col2 {a b : ℕ} (n : ℕ) (x y : (⟨2, ![a, b]⟩ : Shape).Idx → α) : Prop :=
  ∀ (p : Fin a) (q : Fin b), q.val = n → x (ix2 p q) = y (ix2 p q)

/-- The same under a leading unit axis. -/
def Col3 {a b : ℕ} (n : ℕ) (x y : (⟨3, ![1, a, b]⟩ : Shape).Idx → α) : Prop :=
  ∀ (u : Fin 1) (p : Fin a) (q : Fin b), q.val = n → x (ix3 u p q) = y (ix3 u p q)

theorem Col2.rfl' {a b : ℕ} (n : ℕ) (x : (⟨2, ![a, b]⟩ : Shape).Idx → α) : Col2 n x x := fun _ _ _ => rfl

/-- Dropping the leading unit axis keeps the column. -/
theorem Col3.dropUnit {a b n : ℕ} {x y : (⟨3, ![1, a, b]⟩ : Shape).Idx → α}
    (h : (⟨3, ![1, a, b]⟩ : Shape).ShapeCasts ⟨2, ![a, b]⟩) (hxy : Col3 n x y) :
    Col2 n (shapeCast ⟨2, ![a, b]⟩ x h) (shapeCast ⟨2, ![a, b]⟩ y h) := fun p q hq => by
  rw [shapeCast_1ab_ab_apply, shapeCast_1ab_ab_apply]; exact hxy 0 p q hq

/-- Adding it back keeps the column. -/
theorem Col2.addUnit {a b n : ℕ} {x y : (⟨2, ![a, b]⟩ : Shape).Idx → α}
    (h : (⟨2, ![a, b]⟩ : Shape).ShapeCasts ⟨3, ![1, a, b]⟩) (hxy : Col2 n x y) :
    Col3 n (shapeCast ⟨3, ![1, a, b]⟩ x h) (shapeCast ⟨3, ![1, a, b]⟩ y h) := fun u p q hq => by
  rw [shapeCast_ab_1ab_apply, shapeCast_ab_1ab_apply]; exact hxy p q hq

/-- A run of rows keeps the column. -/
theorem Col2.sliceRows {n0 n1 m o n : ℕ} {x y : (⟨2, ![n0, n1]⟩ : Shape).Idx → α}
    (h : (⟨2, ![n0, n1]⟩ : Shape).Slices ![o, 0] ⟨2, ![m, n1]⟩) (hxy : Col2 n x y) :
    Col2 n (extractStridedSlice ⟨2, ![m, n1]⟩ ![o, 0] x h) (extractStridedSlice ⟨2, ![m, n1]⟩ ![o, 0] y h) :=
  fun p q hq => by
    rw [slice2_axis0_eq, slice2_axis0_eq]; exact hxy _ q hq

/-- A pointwise operation of one operand keeps the column. -/
theorem Col2.map {β : Type} {a b n : ℕ} (f : α → β) {x y : (⟨2, ![a, b]⟩ : Shape).Idx → α} (hxy : Col2 n x y) :
    Col2 n (fun i => f (x i)) (fun i => f (y i)) := fun p q hq => congrArg f (hxy p q hq)

/-- A pointwise operation of two operands keeps the column. -/
theorem Col2.map₂ {β γ : Type} {a b n : ℕ} (f : α → β → γ) {x y : (⟨2, ![a, b]⟩ : Shape).Idx → α}
    {x' y' : (⟨2, ![a, b]⟩ : Shape).Idx → β} (hxy : Col2 n x y) (hxy' : Col2 n x' y') :
    Col2 n (fun i => f (x i) (x' i)) (fun i => f (y i) (y' i)) := fun p q hq => by
  show f (x _) (x' _) = f (y _) (y' _)
  rw [hxy p q hq, hxy' p q hq]

end Columns

section ColumnsFloat

variable {F : FTy → Type} [FloatOps F] {a b n : ℕ} {φ : FTy}

theorem Col2.truncf {ψ : FTy} (h : ψ.bits < φ.bits) {x y : FVec F ⟨2, ![a, b]⟩ φ} (hxy : Col2 n x y) :
    Col2 n (truncf ψ x h) (truncf ψ y h) := Col2.map (FloatOps.truncf ψ h) hxy

theorem Col2.addf {x y x' y' : FVec F ⟨2, ![a, b]⟩ φ} (hxy : Col2 n x y) (hxy' : Col2 n x' y') :
    Col2 n (addf x x') (addf y y') := Col2.map₂ FloatOps.addf hxy hxy'

theorem Col2.mulf {x y x' y' : FVec F ⟨2, ![a, b]⟩ φ} (hxy : Col2 n x y) (hxy' : Col2 n x' y') :
    Col2 n (mulf x x') (mulf y y') := Col2.map₂ FloatOps.mulf hxy hxy'

theorem Col2.maximumf {x y x' y' : FVec F ⟨2, ![a, b]⟩ φ} (hxy : Col2 n x y) (hxy' : Col2 n x' y') :
    Col2 n (maximumf x x') (maximumf y y') := Col2.map₂ FloatOps.maximumf hxy hxy'

theorem Col2.minimumf {x y x' y' : FVec F ⟨2, ![a, b]⟩ φ} (hxy : Col2 n x y) (hxy' : Col2 n x' y') :
    Col2 n (minimumf x x') (minimumf y y') := Col2.map₂ FloatOps.minimumf hxy hxy'

end ColumnsFloat

/-- A product whose right operand's column axis is the result's: over the extended reals the entry at a column is the sum
    over the contraction of the left entries times the right operand's entries ON THAT COLUMN. -/
theorem Col2.matmul {sl : Shape} {k a b n : ℕ} {φ₁ φ₂ : FTy} (D : DotDims sl ⟨2, ![k, b]⟩ ⟨2, ![a, b]⟩)
    (hD : ∀ (j : (⟨2, ![a, b]⟩ : Shape).Idx) (kk : D.contr.Idx), (D.rhsIdx j kk 1).val = (j 1).val)
    (prec : Option ContractPrecision) (lhs : FVec Ideal sl φ₁) {x y : FVec Ideal ⟨2, ![k, b]⟩ φ₂}
    (acc : FVec Ideal ⟨2, ![a, b]⟩ .f32) (hxy : Col2 n x y) :
    Col2 n (matmul D prec lhs x acc) (matmul D prec lhs y acc) := fun p q hq => by
  show FloatOps.matmul D prec lhs x acc (ix2 p q) = FloatOps.matmul D prec lhs y acc (ix2 p q)
  rw [Ideal.matmul_apply, Ideal.matmul_apply]
  refine congrArg (acc (ix2 p q) + ·) (Finset.sum_congr rfl fun kk _ => ?_)
  obtain ⟨r, s, hrs⟩ : ∃ (r : Fin k) (s : Fin b), D.rhsIdx (ix2 p q) kk = ix2 r s := ⟨_, _, eq_ix2 _⟩
  have hs : s.val = n := by
    have e := hD (ix2 p q) kk
    rw [hrs] at e
    exact (show s.val = q.val from e).trans hq
  rw [hrs, hxy r s hs]

/-- The two products' right operands are indexed (contraction, column). -/
theorem rhs_col_dot1 (j : S32x16384.Idx) (kk : dot_S32x34_S34x16384_S32x16384_1_0_0_1_n_n.contr.Idx) :
    (dot_S32x34_S34x16384_S32x16384_1_0_0_1_n_n.rhsIdx j kk 1).val = (j 1).val := by
  unfold DotDims.rhsIdx
  rw [dif_neg (show ¬(1 : Fin S34x16384.rank) ∈ dot_S32x34_S34x16384_S32x16384_1_0_0_1_n_n.rhsBatch by decide),
    dif_pos (show (1 : Fin S34x16384.rank) ∈ dot_S32x34_S34x16384_S32x16384_1_0_0_1_n_n.rhsNonContracting by decide)]
  rfl

theorem rhs_col_dot2 (j : S24x16384.Idx) (kk : dot_S24x32_S32x16384_S24x16384_1_0_0_1_n_n.contr.Idx) :
    (dot_S24x32_S32x16384_S24x16384_1_0_0_1_n_n.rhsIdx j kk 1).val = (j 1).val := by
  unfold DotDims.rhsIdx
  rw [dif_neg (show ¬(1 : Fin S32x16384.rank) ∈ dot_S24x32_S32x16384_S24x16384_1_0_0_1_n_n.rhsBatch by decide),
    dif_pos (show (1 : Fin S32x16384.rank) ∈ dot_S24x32_S32x16384_S24x16384_1_0_0_1_n_n.rhsNonContracting by decide)]
  rfl

/-! ### The concatenation along rows -/

section Concat

variable {α : Type}

/-- A concatenation along rows into 34 rows of 16384 columns, read at `(p, q)`: piece `k`, of `m` rows, the rows before it
    `pre`, at row `r` with `pre + r = p`, same column. -/
theorem concat_rows_at (xs : List ((s : Shape) × (s.Idx → α))) (h : Shape.Concatenates (xs.map (·.1)) S34x16384 0)
    (k : ℕ) (hk : k < xs.length) (m : ℕ) (x₁ : (⟨2, ![m, 16384]⟩ : Shape).Idx → α)
    (hxk : xs[k] = ⟨⟨2, ![m, 16384]⟩, x₁⟩) (pre : ℕ)
    (hpre : (((xs.take k).map (·.1)).map fun s => if h : s.rank = S34x16384.rank then s.size ((0 : Fin S34x16384.rank).cast h.symm) else 0).sum = pre)
    (p : Fin 34) (q : Fin 16384) (r : Fin m) (hr : pre + r.val = p.val) :
    concatenate S34x16384 0 xs h (ix2 p q) = x₁ (ix2 r q) :=
  concatenate_apply_piece (0 : Fin S34x16384.rank) xs h (ix2 p q) k hk _ x₁ hxk rfl pre hpre (ix2 r q)
    (fun b hb => by
      match b with
      | ⟨0, _⟩ => exact absurd rfl hb
      | ⟨1, _⟩ => rfl) hr

/-- The five pieces of the first layer's input — twelve rows, twelve, eight, one, one — each agreeing on column `n`: so does
    their concatenation along rows. -/
theorem Col2.concat5 {n : ℕ} {x1 y1 x2 y2 : S12x16384.Idx → α} {x3 y3 : S8x16384.Idx → α} {x4 y4 x5 y5 : S1x16384.Idx → α}
    (h : Shape.Concatenates [S12x16384, S12x16384, S8x16384, S1x16384, S1x16384] S34x16384 0)
    (h1 : Col2 n x1 y1) (h2 : Col2 n x2 y2) (h3 : Col2 n x3 y3) (h4 : Col2 n x4 y4) (h5 : Col2 n x5 y5) :
    Col2 n (concatenate S34x16384 0 [⟨S12x16384, x1⟩, ⟨S12x16384, x2⟩, ⟨S8x16384, x3⟩, ⟨S1x16384, x4⟩, ⟨S1x16384, x5⟩] h)
      (concatenate S34x16384 0 [⟨S12x16384, y1⟩, ⟨S12x16384, y2⟩, ⟨S8x16384, y3⟩, ⟨S1x16384, y4⟩, ⟨S1x16384, y5⟩] h) :=
  fun p q hq => by
    have hp := p.isLt
    by_cases c1 : p.val < 12
    · rw [concat_rows_at ([⟨S12x16384, x1⟩, ⟨S12x16384, x2⟩, ⟨S8x16384, x3⟩, ⟨S1x16384, x4⟩, ⟨S1x16384, x5⟩] : List ((s : Shape) × (s.Idx → α))) h 0 (by show 0 < 5; omega) 12 x1 rfl 0 rfl p q ⟨p.val, c1⟩ (Nat.zero_add _),
        concat_rows_at ([⟨S12x16384, y1⟩, ⟨S12x16384, y2⟩, ⟨S8x16384, y3⟩, ⟨S1x16384, y4⟩, ⟨S1x16384, y5⟩] : List ((s : Shape) × (s.Idx → α))) h 0 (by show 0 < 5; omega) 12 y1 rfl 0 rfl p q ⟨p.val, c1⟩ (Nat.zero_add _)]
      exact h1 _ q hq
    by_cases c2 : p.val < 24
    · rw [concat_rows_at ([⟨S12x16384, x1⟩, ⟨S12x16384, x2⟩, ⟨S8x16384, x3⟩, ⟨S1x16384, x4⟩, ⟨S1x16384, x5⟩] : List ((s : Shape) × (s.Idx → α))) h 1 (by show 1 < 5; omega) 12 x2 rfl 12 rfl p q ⟨p.val - 12, by omega⟩ (by show 12 + (p.val - 12) = p.val; omega),
        concat_rows_at ([⟨S12x16384, y1⟩, ⟨S12x16384, y2⟩, ⟨S8x16384, y3⟩, ⟨S1x16384, y4⟩, ⟨S1x16384, y5⟩] : List ((s : Shape) × (s.Idx → α))) h 1 (by show 1 < 5; omega) 12 y2 rfl 12 rfl p q ⟨p.val - 12, by omega⟩ (by show 12 + (p.val - 12) = p.val; omega)]
      exact h2 _ q hq
    by_cases c3 : p.val < 32
    · rw [concat_rows_at ([⟨S12x16384, x1⟩, ⟨S12x16384, x2⟩, ⟨S8x16384, x3⟩, ⟨S1x16384, x4⟩, ⟨S1x16384, x5⟩] : List ((s : Shape) × (s.Idx → α))) h 2 (by show 2 < 5; omega) 8 x3 rfl 24 rfl p q ⟨p.val - 24, by omega⟩ (by show 24 + (p.val - 24) = p.val; omega),
        concat_rows_at ([⟨S12x16384, y1⟩, ⟨S12x16384, y2⟩, ⟨S8x16384, y3⟩, ⟨S1x16384, y4⟩, ⟨S1x16384, y5⟩] : List ((s : Shape) × (s.Idx → α))) h 2 (by show 2 < 5; omega) 8 y3 rfl 24 rfl p q ⟨p.val - 24, by omega⟩ (by show 24 + (p.val - 24) = p.val; omega)]
      exact h3 _ q hq
    by_cases c4 : p.val < 33
    · rw [concat_rows_at ([⟨S12x16384, x1⟩, ⟨S12x16384, x2⟩, ⟨S8x16384, x3⟩, ⟨S1x16384, x4⟩, ⟨S1x16384, x5⟩] : List ((s : Shape) × (s.Idx → α))) h 3 (by show 3 < 5; omega) 1 x4 rfl 32 rfl p q ⟨p.val - 32, by omega⟩ (by show 32 + (p.val - 32) = p.val; omega),
        concat_rows_at ([⟨S12x16384, y1⟩, ⟨S12x16384, y2⟩, ⟨S8x16384, y3⟩, ⟨S1x16384, y4⟩, ⟨S1x16384, y5⟩] : List ((s : Shape) × (s.Idx → α))) h 3 (by show 3 < 5; omega) 1 y4 rfl 32 rfl p q ⟨p.val - 32, by omega⟩ (by show 32 + (p.val - 32) = p.val; omega)]
      exact h4 _ q hq
    · rw [concat_rows_at ([⟨S12x16384, x1⟩, ⟨S12x16384, x2⟩, ⟨S8x16384, x3⟩, ⟨S1x16384, x4⟩, ⟨S1x16384, x5⟩] : List ((s : Shape) × (s.Idx → α))) h 4 (by show 4 < 5; omega) 1 x5 rfl 33 rfl p q ⟨p.val - 33, by omega⟩ (by show 33 + (p.val - 33) = p.val; omega),
        concat_rows_at ([⟨S12x16384, y1⟩, ⟨S12x16384, y2⟩, ⟨S8x16384, y3⟩, ⟨S1x16384, y4⟩, ⟨S1x16384, y5⟩] : List ((s : Shape) × (s.Idx → α))) h 4 (by show 4 < 5; omega) 1 y5 rfl 33 rfl p q ⟨p.val - 33, by omega⟩ (by show 33 + (p.val - 33) = p.val; omega)]
      exact h5 _ q hq

end Concat

/-! ### The payloads -/

section Payloads

variable {n : ℕ} {x0 y0 x1 y1 : Vec Ideal S1x13x16384 .f32} {x2 y2 : Vec Ideal S1x8x16384 .f32}
  (w1 : Vec Ideal S32x34 .f32) (b1 : Vec Ideal S32x1 .f32) (w2 : Vec Ideal S24x32 .f32) (b2 : Vec Ideal S24x1 .f32)

/-- The 24 message rows at a column depend on the three edge blocks through that column only. -/
theorem k0_pay5_col (h0 : Col3 n x0 y0) (h1 : Col3 n x1 y1) (h2 : Col3 n x2 y2) :
    Col2 n (k0_pay5 x0 x1 x2 w1 b1 w2 b2) (k0_pay5 y0 y1 y2 w1 b1 w2 b2) := by
  unfold k0_pay5 k0_pay4
  refine Col2.addf (Col2.matmul _ rhs_col_dot2 _ _ _ (Col2.truncf _ (Col2.maximumf (Col2.addf
    (Col2.matmul _ rhs_col_dot1 _ _ _ (Col2.truncf _ (Col2.concat5 _
      (Col2.sliceRows _ (Col3.dropUnit _ h0)) (Col2.sliceRows _ (Col3.dropUnit _ h1)) (Col3.dropUnit _ h2)
      (Col2.sliceRows _ (Col3.dropUnit _ h0)) (Col2.sliceRows _ (Col3.dropUnit _ h1)))))
    (Col2.rfl' _ _)) (Col2.rfl' _ _)))) (Col2.rfl' _ _)

theorem k0_pay6_col (h0 : Col3 n x0 y0) (h1 : Col3 n x1 y1) (h2 : Col3 n x2 y2) :
    Col2 n (k0_pay6 x0 x1 x2 w1 b1 w2 b2) (k0_pay6 y0 y1 y2 w1 b1 w2 b2) := by
  unfold k0_pay6
  exact Col2.sliceRows _ (k0_pay5_col w1 b1 w2 b2 h0 h1 h2)

theorem k0_pay7_col (h0 : Col3 n x0 y0) (h1 : Col3 n x1 y1) (h2 : Col3 n x2 y2) :
    Col2 n (k0_pay7 x0 x1 x2 w1 b1 w2 b2) (k0_pay7 y0 y1 y2 w1 b1 w2 b2) := by
  unfold k0_pay7
  exact Col2.sliceRows _ (k0_pay5_col w1 b1 w2 b2 h0 h1 h2)

theorem k0_pay8_col (h0 : Col3 n x0 y0) (h1 : Col3 n x1 y1) (h2 : Col3 n x2 y2) :
    Col2 n (k0_pay8 x0 x1 x2 w1 b1 w2 b2) (k0_pay8 y0 y1 y2 w1 b1 w2 b2) := by
  unfold k0_pay8 k0_pay4
  exact Col2.addf (Col3.dropUnit _ h2) (Col2.mulf (Col2.sliceRows _ (k0_pay5_col w1 b1 w2 b2 h0 h1 h2)) (Col2.rfl' _ _))

/-- What the body stores into the three output blocks, likewise. -/
theorem oute_col (lo hi : Ideal .f32) (h0 : Col3 n x0 y0) (h1 : Col3 n x1 y1) (h2 : Col3 n x2 y2) :
    Col3 n (k0_pay1 (k0_pay8 x0 x1 x2 w1 b1 w2 b2) lo hi) (k0_pay1 (k0_pay8 y0 y1 y2 w1 b1 w2 b2) lo hi) := by
  unfold k0_pay1
  exact Col2.addUnit _ (Col2.minimumf (Col2.rfl' _ _) (Col2.maximumf (Col2.rfl' _ _) (k0_pay8_col w1 b1 w2 b2 h0 h1 h2)))

theorem outa_col (h0 : Col3 n x0 y0) (h1 : Col3 n x1 y1) (h2 : Col3 n x2 y2) :
    Col3 n (k0_pay2 (k0_pay6 x0 x1 x2 w1 b1 w2 b2)) (k0_pay2 (k0_pay6 y0 y1 y2 w1 b1 w2 b2)) := by
  unfold k0_pay2
  exact Col2.addUnit _ (k0_pay6_col w1 b1 w2 b2 h0 h1 h2)

theorem outb_col (h0 : Col3 n x0 y0) (h1 : Col3 n x1 y1) (h2 : Col3 n x2 y2) :
    Col3 n (k0_pay3 (k0_pay7 x0 x1 x2 w1 b1 w2 b2)) (k0_pay3 (k0_pay7 y0 y1 y2 w1 b1 w2 b2)) := by
  unfold k0_pay3
  exact Col2.addUnit _ (k0_pay7_col w1 b1 w2 b2 h0 h1 h2)

end Payloads

/-! ## The edge blocks' cuts

The six edge-indexed windows cut their blocks on the edge axis only, and all alike: a block's transfer moves whole rows
of the columns inside the array. -/

section Cuts

theorem xsize_rows0 : ∀ t : Fin cfg0.N, win0_0.xsize (grid0.coords t) 0 = 1 ∧ win0_0.xsize (grid0.coords t) 1 = 13
    ∧ win0_0.xsize (grid0.coords t) 2 = win0_0.xsize (grid0.coords t) 2 :=
  (by decide +kernel : ∀ t : Fin grid0.N, win0_0.xsize (grid0.coords t) 0 = 1 ∧ win0_0.xsize (grid0.coords t) 1 = 13
    ∧ win0_0.xsize (grid0.coords t) 2 = win0_0.xsize (grid0.coords t) 2)
theorem xsize_rows1 : ∀ t : Fin cfg0.N, win0_1.xsize (grid0.coords t) 0 = 1 ∧ win0_1.xsize (grid0.coords t) 1 = 13
    ∧ win0_1.xsize (grid0.coords t) 2 = win0_0.xsize (grid0.coords t) 2 :=
  (by decide +kernel : ∀ t : Fin grid0.N, win0_1.xsize (grid0.coords t) 0 = 1 ∧ win0_1.xsize (grid0.coords t) 1 = 13
    ∧ win0_1.xsize (grid0.coords t) 2 = win0_0.xsize (grid0.coords t) 2)
theorem xsize_rows2 : ∀ t : Fin cfg0.N, win0_2.xsize (grid0.coords t) 0 = 1 ∧ win0_2.xsize (grid0.coords t) 1 = 8
    ∧ win0_2.xsize (grid0.coords t) 2 = win0_0.xsize (grid0.coords t) 2 :=
  (by decide +kernel : ∀ t : Fin grid0.N, win0_2.xsize (grid0.coords t) 0 = 1 ∧ win0_2.xsize (grid0.coords t) 1 = 8
    ∧ win0_2.xsize (grid0.coords t) 2 = win0_0.xsize (grid0.coords t) 2)
theorem xsize_cols7 : ∀ t : Fin cfg0.N, win0_7.xsize (grid0.coords t) 2 = win0_0.xsize (grid0.coords t) 2 :=
  (by decide +kernel : ∀ t : Fin grid0.N, win0_7.xsize (grid0.coords t) 2 = win0_0.xsize (grid0.coords t) 2)
theorem xsize_cols8 : ∀ t : Fin cfg0.N, win0_8.xsize (grid0.coords t) 2 = win0_0.xsize (grid0.coords t) 2 :=
  (by decide +kernel : ∀ t : Fin grid0.N, win0_8.xsize (grid0.coords t) 2 = win0_0.xsize (grid0.coords t) 2)
theorem xsize_cols9 : ∀ t : Fin cfg0.N, win0_9.xsize (grid0.coords t) 2 = win0_0.xsize (grid0.coords t) 2 :=
  (by decide +kernel : ∀ t : Fin grid0.N, win0_9.xsize (grid0.coords t) 2 = win0_0.xsize (grid0.coords t) 2)

/-- A staging block filled out past the array's end with any words, and the same block filled out with others, agree on
    every column inside the array. -/

theorem fill_col0 (t : Fin cfg0.N) (d d' : win0_0.block.Idx → Elt Ideal .f32)
    (g : (win0_0.xblock (grid0.coords t)).Idx → Elt Ideal .f32) {n : ℕ} (hn : n < win0_0.xsize (grid0.coords t) 2) :
    Col3 (a := 13) (b := 16384) n (win0_0.fill (grid0.coords t) d g) (win0_0.fill (grid0.coords t) d' g) := fun u p q hq => by
  have hm : win0_0.moved (grid0.coords t) (ix3 u p q) = true := (win0_0.moved_iff _ _).mpr fun ax => by
    match ax with
    | ⟨0, _⟩ => show u.val < win0_0.xsize (grid0.coords t) 0; rw [(xsize_rows0 t).1]; exact u.isLt
    | ⟨1, _⟩ => show p.val < win0_0.xsize (grid0.coords t) 1; rw [(xsize_rows0 t).2.1]; exact p.isLt
    | ⟨2, _⟩ => show q.val < win0_0.xsize (grid0.coords t) 2; rw [(xsize_rows0 t).2.2, hq]; exact hn
  unfold Window.fill; rw [dif_pos hm, dif_pos hm]

theorem fill_col1 (t : Fin cfg0.N) (d d' : win0_1.block.Idx → Elt Ideal .f32)
    (g : (win0_1.xblock (grid0.coords t)).Idx → Elt Ideal .f32) {n : ℕ} (hn : n < win0_0.xsize (grid0.coords t) 2) :
    Col3 (a := 13) (b := 16384) n (win0_1.fill (grid0.coords t) d g) (win0_1.fill (grid0.coords t) d' g) := fun u p q hq => by
  have hm : win0_1.moved (grid0.coords t) (ix3 u p q) = true := (win0_1.moved_iff _ _).mpr fun ax => by
    match ax with
    | ⟨0, _⟩ => show u.val < win0_1.xsize (grid0.coords t) 0; rw [(xsize_rows1 t).1]; exact u.isLt
    | ⟨1, _⟩ => show p.val < win0_1.xsize (grid0.coords t) 1; rw [(xsize_rows1 t).2.1]; exact p.isLt
    | ⟨2, _⟩ => show q.val < win0_1.xsize (grid0.coords t) 2; rw [(xsize_rows1 t).2.2, hq]; exact hn
  unfold Window.fill; rw [dif_pos hm, dif_pos hm]

theorem fill_col2 (t : Fin cfg0.N) (d d' : win0_2.block.Idx → Elt Ideal .f32)
    (g : (win0_2.xblock (grid0.coords t)).Idx → Elt Ideal .f32) {n : ℕ} (hn : n < win0_0.xsize (grid0.coords t) 2) :
    Col3 (a := 8) (b := 16384) n (win0_2.fill (grid0.coords t) d g) (win0_2.fill (grid0.coords t) d' g) := fun u p q hq => by
  have hm : win0_2.moved (grid0.coords t) (ix3 u p q) = true := (win0_2.moved_iff _ _).mpr fun ax => by
    match ax with
    | ⟨0, _⟩ => show u.val < win0_2.xsize (grid0.coords t) 0; rw [(xsize_rows2 t).1]; exact u.isLt
    | ⟨1, _⟩ => show p.val < win0_2.xsize (grid0.coords t) 1; rw [(xsize_rows2 t).2.1]; exact p.isLt
    | ⟨2, _⟩ => show q.val < win0_2.xsize (grid0.coords t) 2; rw [(xsize_rows2 t).2.2, hq]; exact hn
  unfold Window.fill; rw [dif_pos hm, dif_pos hm]

end Cuts

/-! ## The body obligation -/

section Obligation

variable (V : (c : Dev nD) → (b : Ref sig .tc) → Buf (Elt Ideal) ((c : Thread nD τ).loc b))

local notation "𝕄" => MT nD τ sig Unit (Elt Ideal) ℕ (UR sig nD τ) ℕ

/-- On the columns inside the array, what the body stores of edge blocks filled out past the array's end with ANY words is
    what it stores of the blocks filled out with the zero word: a stored column is a function of the same column of the
    inputs, and a column inside the array is the array's in either filling. -/

theorem cut_oute (c : Dev nD) (t : Fin cfg0.N) (d0 d1 : S1x13x16384.Idx → Elt Ideal .f32) (d2 : S1x8x16384.Idx → Elt Ideal .f32) :
    win0_7.cut (grid0.coords t) (k0_pay1 (k0_pay8 (win0_0.fill (grid0.coords t) d0 (iblk0 V c 0 t)) (win0_1.fill (grid0.coords t) d1 (iblk0 V c 1 t))
          (win0_2.fill (grid0.coords t) d2 (iblk0 V c 2 t)) (iblk0 V c 3 t) (iblk0 V c 4 t) (iblk0 V c 5 t) (iblk0 V c 6 t))
          (Scalar.ofBits .f32 0xC2C80000#32) (Scalar.ofBits .f32 0x42C80000#32))
      = win0_7.cut (grid0.coords t) (oute0 V c t) := by
  funext j
  obtain ⟨u, p, q, hj⟩ : ∃ (u : Fin 1) (p : Fin 8) (q : Fin 16384), win0_7.xinj (grid0.coords t) j = ix3 u p q :=
    ⟨_, _, _, eq_ix3 _⟩
  have hq : q.val < win0_0.xsize (grid0.coords t) 2 := by
    have e : q.val = (j 2).val := (congrArg (fun f => (f 2).val) hj).symm
    rw [e, ← xsize_cols7 t]; exact (j 2).isLt
  show (k0_pay1 (k0_pay8 (win0_0.fill (grid0.coords t) d0 (iblk0 V c 0 t)) (win0_1.fill (grid0.coords t) d1 (iblk0 V c 1 t))
          (win0_2.fill (grid0.coords t) d2 (iblk0 V c 2 t)) (iblk0 V c 3 t) (iblk0 V c 4 t) (iblk0 V c 5 t) (iblk0 V c 6 t))
          (Scalar.ofBits .f32 0xC2C80000#32) (Scalar.ofBits .f32 0x42C80000#32)) (win0_7.xinj (grid0.coords t) j) = oute0 V c t (win0_7.xinj (grid0.coords t) j)
  rw [hj]
  exact oute_col _ _ _ _ _ _ (fill_col0 t _ _ _ hq) (fill_col1 t _ _ _ hq) (fill_col2 t _ _ _ hq) u p q rfl

theorem cut_outa (c : Dev nD) (t : Fin cfg0.N) (d0 d1 : S1x13x16384.Idx → Elt Ideal .f32) (d2 : S1x8x16384.Idx → Elt Ideal .f32) :
    win0_8.cut (grid0.coords t) (k0_pay2 (k0_pay6 (win0_0.fill (grid0.coords t) d0 (iblk0 V c 0 t)) (win0_1.fill (grid0.coords t) d1 (iblk0 V c 1 t))
          (win0_2.fill (grid0.coords t) d2 (iblk0 V c 2 t)) (iblk0 V c 3 t) (iblk0 V c 4 t) (iblk0 V c 5 t) (iblk0 V c 6 t)))
      = win0_8.cut (grid0.coords t) (outa0 V c t) := by
  funext j
  obtain ⟨u, p, q, hj⟩ : ∃ (u : Fin 1) (p : Fin 8) (q : Fin 16384), win0_8.xinj (grid0.coords t) j = ix3 u p q :=
    ⟨_, _, _, eq_ix3 _⟩
  have hq : q.val < win0_0.xsize (grid0.coords t) 2 := by
    have e : q.val = (j 2).val := (congrArg (fun f => (f 2).val) hj).symm
    rw [e, ← xsize_cols8 t]; exact (j 2).isLt
  show (k0_pay2 (k0_pay6 (win0_0.fill (grid0.coords t) d0 (iblk0 V c 0 t)) (win0_1.fill (grid0.coords t) d1 (iblk0 V c 1 t))
          (win0_2.fill (grid0.coords t) d2 (iblk0 V c 2 t)) (iblk0 V c 3 t) (iblk0 V c 4 t) (iblk0 V c 5 t) (iblk0 V c 6 t))) (win0_8.xinj (grid0.coords t) j) = outa0 V c t (win0_8.xinj (grid0.coords t) j)
  rw [hj]
  exact outa_col _ _ _ _ (fill_col0 t _ _ _ hq) (fill_col1 t _ _ _ hq) (fill_col2 t _ _ _ hq) u p q rfl

theorem cut_outb (c : Dev nD) (t : Fin cfg0.N) (d0 d1 : S1x13x16384.Idx → Elt Ideal .f32) (d2 : S1x8x16384.Idx → Elt Ideal .f32) :
    win0_9.cut (grid0.coords t) (k0_pay3 (k0_pay7 (win0_0.fill (grid0.coords t) d0 (iblk0 V c 0 t)) (win0_1.fill (grid0.coords t) d1 (iblk0 V c 1 t))
          (win0_2.fill (grid0.coords t) d2 (iblk0 V c 2 t)) (iblk0 V c 3 t) (iblk0 V c 4 t) (iblk0 V c 5 t) (iblk0 V c 6 t)))
      = win0_9.cut (grid0.coords t) (outb0 V c t) := by
  funext j
  obtain ⟨u, p, q, hj⟩ : ∃ (u : Fin 1) (p : Fin 8) (q : Fin 16384), win0_9.xinj (grid0.coords t) j = ix3 u p q :=
    ⟨_, _, _, eq_ix3 _⟩
  have hq : q.val < win0_0.xsize (grid0.coords t) 2 := by
    have e : q.val = (j 2).val := (congrArg (fun f => (f 2).val) hj).symm
    rw [e, ← xsize_cols9 t]; exact (j 2).isLt
  show (k0_pay3 (k0_pay7 (win0_0.fill (grid0.coords t) d0 (iblk0 V c 0 t)) (win0_1.fill (grid0.coords t) d1 (iblk0 V c 1 t))
          (win0_2.fill (grid0.coords t) d2 (iblk0 V c 2 t)) (iblk0 V c 3 t) (iblk0 V c 4 t) (iblk0 V c 5 t) (iblk0 V c 6 t))) (win0_9.xinj (grid0.coords t) j) = outb0 V c t (win0_9.xinj (grid0.coords t) j)
  rw [hj]
  exact outb_col _ _ _ _ (fill_col0 t _ _ _ hq) (fill_col1 t _ _ _ hq) (fill_col2 t _ _ _ hq) u p q rfl

/-- What the body is called with at point `t`: the invariant, what the core owes, and each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the six edge-indexed buffers stated on the columns inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t))))
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (∃ d, owns (c : Thread nD τ) (st0_7 t) fullShare (win0_7.fill (grid0.coords t) d (win0_7.cut (grid0.coords t) ((dat0 V c).after 7 t))))
    ∗ (∃ d, owns (c : Thread nD τ) (st0_8 t) fullShare (win0_8.fill (grid0.coords t) d (win0_8.cut (grid0.coords t) ((dat0 V c).after 8 t))))
    ∗ (∃ d, owns (c : Thread nD τ) (st0_9 t) fullShare (win0_9.fill (grid0.coords t) d (win0_9.cut (grid0.coords t) ((dat0 V c).after 9 t)))))

/-- The body at any point: the edge blocks arrive filled out with whatever their buffers held, the weights at their arrays,
    the outputs at anything; the body's triple applies; every buffer is handed back as it is, which on the columns inside
    the array is what the proof data says. -/
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0 V c t d0, before0_1 V c t d1, before0_2 V c t d2, before0_3 V c t d3, before0_4 V c t d4,
    before0_5 V c t d5, before0_6 V c t d6, before0_7 V c t d7, before0_8 V c t d8, before0_9 V c t d9]
  iapply (sound_kernel0 (F := Ideal) c Set.univ (grid0.coords t) _ _ _ _ _ _ _ _ _ _ _ _ _ _ _ _ _ _ _ _
    (win0_0.fill (grid0.coords t) d0 (iblk0 V c 0 t)) (win0_1.fill (grid0.coords t) d1 (iblk0 V c 1 t))
    (win0_2.fill (grid0.coords t) d2 (iblk0 V c 2 t)) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0; unfold ns0; rw [Window.cut_fill]; iexact H0
  isplitl [H1]
  · iexists d1; unfold nt0; rw [Window.cut_fill]; iexact H1
  isplitl [H2]
  · iexists d2; unfold et0; rw [Window.cut_fill]; iexact H2
  isplitl [H3]; · iexact H3
  isplitl [H4]; · iexact H4
  isplitl [H5]; · iexact H5
  isplitl [H6]; · iexact H6
  isplitl [H7]
  · iexists _; rw [← cut_oute V c t d0 d1 d2, Window.fill_cut]; iexact H7
  isplitl [H8]
  · iexists _; rw [← cut_outa V c t d0 d1 d2, Window.fill_cut]; iexact H8
  · iexists _; rw [← cut_outb V c t d0 d1 d2, Window.fill_cut]; iexact H9

end Obligation

end R0Body

open R0Body in
/-- The library's body obligation of the message region, at every point. -/
theorem body_obligation0 (V : (c : Dev nD) → (b : Ref sig .tc) → Buf (Elt Ideal) ((c : Thread nD τ).loc b)) (c : Dev nD) :
    BodyObligationLoose (dat0 (F := Ideal) V c) (defs₀ (F := Ideal)) Variants.none () Set.univ := fun t => by
  rw [bigSep_W0, bigSep_W0]
  exact sound_body0 V c t

end Cert.KernelIdeal.Hand

end
-- ==== Proof.R1Body.lean ====
/-
  The update region's body obligation, at any float instance.

  The body reads its seven input staging buffers whole, computes the two-layer perceptron and the clamped
  residual of them, and overwrites the output staging buffer whole with the result.  So after the body each
  input buffer holds what it held, and the output buffer holds the payload of the one store: one piece that
  covers the buffer, whose canonical contents are the payload itself.
-/
import proofs.«427296_j67087389163569_2_alg».proof.Proof.R1Dat
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer

An input window's current staging buffer holds the window's block at the point, whether the pipeline fetched it
there or not: a window that is not fetched at a point has not moved its block index since the point before, and
the body leaves every input buffer as it found it. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The whole-buffer rectangle

Every load and the store of the body go through the rectangle that starts at the origin and has the buffer's own
extents: a load through it reads the buffer, a store through it overwrites the buffer. -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- A load of the whole buffer reads the buffer's contents. -/
private theorem readAt_unit_zero {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb (v.read Val f)

/-- One store over the whole buffer, whatever it held, leaves the stored payload: the one piece covers the
    buffer, and its canonical contents are its payload. -/
private theorem read_write_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the seven inputs' at read contents `x0 … x6` and the output's at
    anything, runs to the continuation holding the inputs' as they were and the output's at the payload of the
    inputs. -/
theorem sound_kernel1 (c : Dev nD) (E : Set ℕ) (i : grid1.Coords) (arg1 : Memref sig .tc .vmem S1x8x1105 .f32) (harg1 : arg1.IsWhole) (arg2 : Memref sig .tc .vmem S1x8x1105 .f32) (harg2 : arg2.IsWhole) (arg3 : Memref sig .tc .vmem S1x12x1105 .f32) (harg3 : arg3.IsWhole) (arg4 : Memref sig .tc .vmem S16x28 .f32) (harg4 : arg4.IsWhole) (arg5 : Memref sig .tc .vmem S16x1 .f32) (harg5 : arg5.IsWhole) (arg6 : Memref sig .tc .vmem S8x16 .f32) (harg6 : arg6.IsWhole) (arg7 : Memref sig .tc .vmem S8x1 .f32) (harg7 : arg7.IsWhole) (arg8 : Memref sig .tc .vmem S1x8x1105 .f32) (harg8 : arg8.IsWhole)
    (x0 : Vec F S1x8x1105 .f32) (x1 : Vec F S1x8x1105 .f32) (x2 : Vec F S1x12x1105 .f32) (x3 : Vec F S16x28 .f32) (x4 : Vec F S16x1 .f32) (x5 : Vec F S8x16 .f32) (x6 : Vec F S8x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay1 (k1_pay2 x0 x1 x2 x3 x4 x5 x6))) -∗ K ⟨⟩))
      ⊢ wp frame (wpE (defs₀ (F := F)) Variants.none c none) E (cc1__update_kernel i arg1 harg1 arg2 harg2 arg3 harg3 arg4 harg4 arg5 harg5 arg6 harg6 arg7 harg7 arg8 harg8) K := by
  simp only [cc1__update_kernel_eq_skeleton]; unfold cc1__update_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_write_unit_zero (S := S1x8x1105) _ _ zeros3 _ _).trans ?_
  unfold sound_kernel1.sl.r
  rw [readAt_unit_zero (S := S1x8x1105) arg1.view f0 zeros3, readAt_unit_zero (S := S1x8x1105) arg2.view f1 zeros3,
    readAt_unit_zero (S := S1x12x1105) arg3.view f2 zeros3, readAt_unit_zero (S := S16x28) arg4.view f3 zeros2,
    readAt_unit_zero (S := S16x1) arg5.view f4 zeros2, readAt_unit_zero (S := S8x16) arg6.view f5 zeros2,
    readAt_unit_zero (S := S8x1) arg7.view f6 zeros2]

/-! ## The body obligation, at a generic point -/

/-- What the body is called with at point `t`: the invariant, what the core owes, and the eight windows' current
    staging buffers, one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Body

/-- The library's body obligation, at every point. -/
theorem body_obligation1 {F : FTy → Type} [FloatOps F] (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Hand

end
-- ==== Proof.RunIdeal.lean ====
/-
  The idealized kernel program's run at the extended reals: every weakly fair execution of @main ends with
  every unscoped buffer at the last valuation, which names the two results and holds the twelve arguments
  as launched.
-/
import proofs.«427296_j67087389163569_2_alg».proof.Defs
import proofs.«427296_j67087389163569_2_alg».proof.Proof.Outs
import proofs.«427296_j67087389163569_2_alg».proof.Proof.R0Body
import proofs.«427296_j67087389163569_2_alg».proof.Proof.R1Body
import proofs.«427296_j67087389163569_2_alg».proof.Proof.Gen.Pre_finite_inputs
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

local notation "𝕄" => MT nD τ sig Unit (Elt Ideal) ℕ (UR sig nD τ) ℕ

variable (m : (ℓ : Loc nD τ sig) → Buf (Elt Ideal) ℓ) (ρ : Dev nD → PrngReg)

/-! ## The contents at the regions' exits, against the valuations the host stretches are stated over -/

theorem W5_arr (c : Dev nD) (w : Fin cfg0.W) :
    W5 m c (Proc.devRef .tc (Pipeline.arrRef spec0 w)) = (dat0 (E4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = Gen.V4 m c (Proc.devRef .tc b) := by
  unfold W5; exact Pipeline.withArrays_of_ne spec0 c _ _ b hb
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = Gen.V6 m (outsA m) c (Proc.devRef .tc b) := by
  unfold W7; exact Pipeline.withArrays_of_ne spec1 c _ _ b hb

/-- A window of the message region whose array is none of the three result arrays is an input window. -/
theorem isIn0 : ∀ w : Fin 10, Pipeline.arrRef spec0 w ∉ ([main_v20_0, main_v20_1, main_v20_2] : List (Ref sig .tc)) →
    (cfg0.win w).isOut = false := by decide
/-- A window of the update region whose array is not the result array is an input window. -/
theorem isIn1 : ∀ w : Fin 8, Pipeline.arrRef spec1 w ∉ ([main_v55] : List (Ref sig .tc)) →
    (cfg1.win w).isOut = false := by decide

/-- The message region writes no array but its three results: elsewhere its exit contents are its entry contents. -/
theorem W5_of (c : Dev nD) (r : Ref sig .tc) (h : r ∉ ([main_v20_0, main_v20_1, main_v20_2] : List (Ref sig .tc))) :
    W5 m c r = Gen.V4 m c r := by
  by_cases hw : ∃ w, Pipeline.arrRef spec0 w = r
  · obtain ⟨w, rfl⟩ := hw
    exact (W5_arr m c w).trans (((dat0 (E4 m) c).arrAt_in w (isIn0 w h) _).trans (A_eq0 (E4 m) c w))
  · exact W5_of_ne m c r fun w e => hw ⟨w, e⟩
theorem W7_of (c : Dev nD) (r : Ref sig .tc) (h : r ∉ ([main_v55] : List (Ref sig .tc))) :
    W7 m c r = Gen.V6 m (outsA m) c r := by
  by_cases hw : ∃ w, Pipeline.arrRef spec1 w = r
  · obtain ⟨w, rfl⟩ := hw
    exact (W7_arr m c w).trans (((dat1 (E6 m) c).arrAt_in w (isIn1 w h) _).trans (A_eq1 (E6 m) c w))
  · exact W7_of_ne m c r fun w e => hw ⟨w, e⟩

/-- What the generated valuation after the message region reads of the unknowns is that region's exit contents. -/
theorem V5_outs (c : Dev nD) : Gen.V5 m (outs m) c = Gen.V5 m (outsA m) c := by
  simp only [Gen.V5, outs_five, outsA]
theorem V6_outs (c : Dev nD) : Gen.V6 m (outs m) c = Gen.V6 m (outsA m) c :=
  congrArg (StableHlo.after hostOps1) (V5_outs m c)

theorem V5_eq_W5 (c : Dev nD) (r : Ref sig .tc) : Gen.V5 m (outs m) c r = W5 m c r := by
  by_cases h : r ∈ ([main_v20_0, main_v20_1, main_v20_2] : List (Ref sig .tc))
  · simp only [List.mem_cons, List.not_mem_nil, or_false] at h
    rcases h with rfl | rfl | rfl
    · simp only [Gen.V5, outs_five,
        Function.update_of_ne (StableHlo.devRef_ne_of_ne (by decide) : (Proc.devRef .tc main_v20_0 : DevRef τ sig) ≠ Proc.devRef .tc main_v20_2),
        Function.update_of_ne (StableHlo.devRef_ne_of_ne (by decide) : (Proc.devRef .tc main_v20_0 : DevRef τ sig) ≠ Proc.devRef .tc main_v20_1),
        Function.update_self]
    · simp only [Gen.V5, outs_five,
        Function.update_of_ne (StableHlo.devRef_ne_of_ne (by decide) : (Proc.devRef .tc main_v20_1 : DevRef τ sig) ≠ Proc.devRef .tc main_v20_2),
        Function.update_self]
    · simp only [Gen.V5, outs_five, Function.update_self]
  · exact (Gen.V5_of m (outs m) c r h).trans (W5_of m c r h).symm

theorem V7_eq_W7 (c : Dev nD) (r : Ref sig .tc) : Gen.V7 m (outs m) c r = W7 m c r := by
  by_cases h : r ∈ ([main_v55] : List (Ref sig .tc))
  · simp only [List.mem_cons, List.not_mem_nil, or_false] at h
    subst h
    simp only [Gen.V7, outs_seven, Function.update_self]
  · exact (Gen.V7_of m (outs m) c r h).trans ((congrFun (V6_outs m c) _).trans (W7_of m c r h).symm)

/-- On the unscoped buffers the generated valuations after the two regions are the regions' exit contents. -/
theorem held_W5 (c : Dev nD) :
    (StableHlo.held (c : Thread nD τ) (Pipeline.ucRefs τ sig) (W5 m c) : sProp 𝕄)
      = StableHlo.held (c : Thread nD τ) (Pipeline.ucRefs τ sig) (Gen.V5 m (outs m) c) :=
  StableHlo.held_congr _ fun b hb => by
    obtain ⟨r, -, rfl⟩ := Finset.mem_map.mp (Finset.mem_filter.mp hb).1
    exact (V5_eq_W5 m c r).symm
theorem held_W7 (c : Dev nD) :
    (StableHlo.held (c : Thread nD τ) (Pipeline.ucRefs τ sig) (W7 m c) : sProp 𝕄)
      = StableHlo.held (c : Thread nD τ) (Pipeline.ucRefs τ sig) (Gen.V7 m (outs m) c) :=
  StableHlo.held_congr _ fun b hb => by
    obtain ⟨r, -, rfl⟩ := Finset.mem_map.mp (Finset.mem_filter.mp hb).1
    exact (V7_eq_W7 m c r).symm

/-! ## The proof data family and the thread state -/

/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (E4 m) c
  | ⟨1, _⟩ => fun c => dat1 (E6 m) c

/-- No core owes another anything: no level is assigned. -/
abbrev L₀ : GSem nD τ sig → Finset Unit := fun _ => ∅
abbrev lv₀ : GSem nD τ sig → Unit → ℕ := fun _ _ => 0

/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)

/-- The same rest state between any two items. -/
abbrev E₀ : Fin 3 → Dev nD → sProp 𝕄 := fun _ c => R c

/-! ## The regions as segments -/

set_option backward.isDefEq.respectTransparency.types false in
/-- The message region: entered from every unscoped buffer at the contents after the fourth host stretch, left with
    its arrays at what its write-backs leave and every other buffer as entered. -/
def R0 : RegionSeg (pcfgs (F := Ideal)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := body_obligation0 (E4 m) c
  hwaits := Pipeline.hwaits_of_owed_zero _ _ _ _ L₀ lv₀ 0 fun _ _ => rfl
  pre c := iprop(StableHlo.held (c : Thread nD τ) (Pipeline.ucRefs τ sig) (Gen.V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (E4 m c) (fun b => W5 m c b) ((pdats m 0 c).arrAt · cfg0.N) (fun w => (W5_arr m c w).symm)
      (fun b hb => W5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update region: entered from every unscoped buffer at the contents after the host stretch between the
    regions, left with its result array at what its write-backs leave and every other buffer as entered. -/
def R1 : RegionSeg (pcfgs (F := Ideal)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L₀ lv₀ 1 fun _ _ => rfl
  pre c := iprop(StableHlo.held (c : Thread nD τ) (Pipeline.ucRefs τ sig) (Gen.V6 m (outsA m) c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (E6 m c) (fun b => W7 m c b) ((pdats m 1 c).arrAt · cfg1.N) (fun w => (W7_arr m c w).symm)
      (fun b hb => W7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run, with every unscoped buffer read off the last valuation. -/
theorem run_main : θ_run defs (onTc (τ := τ) (main (F := Ideal))) ⟨m, fun _ => 0, ρ⟩
    (fun r => ∀ c : Dev nD, ∀ b ∈ Pipeline.ucRefs τ sig, r.2.mem ((c : Thread nD τ).1, b) = Gen.V8 m (outs m) c b) := by
  refine Pipeline.θ_run_regions_kit_dev (pcfgs (F := Ideal)) adm (pdats m) () cellOf_inj emb₁ defs₀ Variants.none L₀ lv₀ m ρ main
    (segs m (outs m) Variants.none L₀ lv₀ E₀ () (pdats m) (R0 m) (R1 m))
    (fun c Q => by
      rewrite [main_chain c, Seg.run_eq_chain,
        show (segs m (outs m) Variants.none L₀ lv₀ E₀ () (pdats m) (R0 m) (R1 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl,
      sep_mono (Entails.of_eq (held_W5 m c)) .rfl,
      sep_mono (Entails.of_eq (congrArg (StableHlo.held (c : Thread nD τ) (Pipeline.ucRefs τ sig)) (V6_outs m c))) .rfl,
      sep_mono (Entails.of_eq (held_W7 m c)) .rfl,
      sep_mono .rfl (by iintro ⟨-, H⟩; iexact H)⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V8 m (outs m) c b)
    (hfin := fun c s' => by
      iintro ⟨Hh, HSI⟩
      unfold StableHlo.held
      imodintro
      iapply (pointsTo_read_all (Pipeline.ucRefs τ sig) (fun b => ((c : Thread nD τ).1, b)) (V8 m (outs m) c) s')
      isplitl [Hh] <;> iassumption)
    (hQ := fun _ h => h)

/-- The run read at the two results and the twelve arguments. -/
theorem run_results : θ_run defs (onTc (τ := τ) (main (F := Ideal))) ⟨m, fun _ => 0, ρ⟩ (fun r => ∀ c : Dev nD,
      r.2.mem ((c.tc : Thread nD τ).loc main_v58) = K58 m c
      ∧ r.2.mem ((c.tc : Thread nD τ).loc main_v21) = K21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (run_main m ρ)
  have hm : ∀ b : Ref sig .tc, ¬ (Proc.devRef .tc b : DevRef τ sig).isScoped →
      r.2.mem ((c.tc : Thread nD τ).loc b) = Gen.V8 m (outs m) c b :=
    fun b hb => h c _ (Finset.mem_filter.mpr ⟨StableHlo.devRef_mem_tcRefs b, hb⟩)
  exact ⟨hm main_v58 (by decide), hm main_v21 (by decide),
    (hm main_arg0 (by decide)).trans (V8_main_arg0 m (outs m) c),
    (hm main_arg1 (by decide)).trans (V8_main_arg1 m (outs m) c),
    (hm main_arg2 (by decide)).trans (V8_main_arg2 m (outs m) c),
    (hm main_arg3 (by decide)).trans (V8_main_arg3 m (outs m) c),
    (hm main_arg4 (by decide)).trans (V8_main_arg4 m (outs m) c),
    (hm main_arg5 (by decide)).trans (V8_main_arg5 m (outs m) c),
    (hm main_arg6 (by decide)).trans (V8_main_arg6 m (outs m) c),
    (hm main_arg7 (by decide)).trans (V8_main_arg7 m (outs m) c),
    (hm main_arg8 (by decide)).trans (V8_main_arg8 m (outs m) c),
    (hm main_arg9 (by decide)).trans (V8_main_arg9 m (outs m) c),
    (hm main_arg10 (by decide)).trans (V8_main_arg10 m (outs m) c),
    (hm main_arg11 (by decide)).trans (V8_main_arg11 m (outs m) c)⟩

/-- The frame claim of the idealized kernel program. -/
theorem frame : Cert.frame_KernelIdeal (hKernelIdeal := Cert.KernelIdeal.Gen.facts) (hPre_finite_inputs := Cert.Pre_finite_inputs.Gen.facts) := by
  intro m ρ _
  exact (θ_run defs _ _).mono (fun r h c => (h c).2.2) (run_results m ρ)

end Cert.KernelIdeal.Hand

end
-- ==== Proof.Spec.lean ====
/-
  The mathematics both programs compute, as functions on extended reals over literal index types.

  One edge's message is a two-layer perceptron of 34 features: the source node's 12 channels, the target
  node's 12 channels, the edge's 8 channels, the source's out-degree and the target's in-degree. The
  hidden layer has 32 units with a rectifier, the output layer 24 units; outputs 0..7 are summed onto the
  source node, outputs 8..15 onto the target node, outputs 16..23 are added to the edge's channels, which
  are then clamped to [-100, 100]. One node's update is a perceptron of 28 features (the two degree-averaged
  sums and the node's 12 channels) with 16 hidden units and 8 outputs, added to the node's first 8 channels
  and clamped. Sums over the features are finite sums in the extended reals, where addition and
  multiplication are commutative and associative, so no order is fixed here.
-/
import Idealize.ShloMosaic.PureOps.Ideal
import Idealize.ShloMosaic.Lib.ValueIdx

noncomputable section

open scoped BigOperators

namespace Cert.Spec

open Idealize.ShloMosaic Idealize.ShloMosaic.ValueIdx

/-- The float words the programs carry, read as extended reals. -/
abbrev zeroW : EReal := Ideal.ofBits .f32 0x00000000#32
abbrev oneW : EReal := Ideal.ofBits .f32 0x3F800000#32
abbrev loW : EReal := Ideal.ofBits .f32 0xC2C80000#32
abbrev hiW : EReal := Ideal.ofBits .f32 0x42C80000#32

abbrev A2 (a b : Nat) : Type := (⟨2, ![a, b]⟩ : Shape).Idx → EReal
abbrev A3 (a b c : Nat) : Type := (⟨3, ![a, b, c]⟩ : Shape).Idx → EReal

/-- The clamp to [lo, hi] as the kernels spell it: the smaller of hi and (the larger of lo and x). -/
def clamp (x : EReal) : EReal := min hiW (max loW x)

/-- A perceptron with one rectified hidden layer, at one input column `x`: output unit `o`. The weight
    matrices are stored (unit, feature); the biases are stored as one-column matrices. -/
def mlp {nin nh nout : Nat} (w1 : A2 nh nin) (b1 : A2 nh 1) (w2 : A2 nout nh) (b2 : A2 nout 1)
    (x : Fin nin → EReal) (o : Fin nout) : EReal :=
  (∑ k : Fin nh, w2 (ix2 o k) * max ((∑ f : Fin nin, w1 (ix2 k f) * x f) + b1 (ix2 k 0)) zeroW) + b2 (ix2 o 0)

/-- The 34 message features of edge `e` in batch `b`, read off the gathered tables in (batch, channel, edge)
    layout: `ns` the source node's 12 channels and its out-degree (channel 12), `nt` the target node's 12
    channels and its in-degree, `et` the edge's 8 channels. -/
def msgFeatT (ns nt : A3 2 13 1132624) (et : A3 2 8 1132624) (b : Fin 2) (e : Fin 1132624) (f : Fin 34) : EReal :=
  if h : f.val < 12 then ns (ix3 b ⟨f.val, by omega⟩ e)
  else if h2 : f.val < 24 then nt (ix3 b ⟨f.val - 12, by omega⟩ e)
  else if h3 : f.val < 32 then et (ix3 b ⟨f.val - 24, by omega⟩ e)
  else if f.val = 32 then ns (ix3 b ⟨12, by omega⟩ e)
  else nt (ix3 b ⟨12, by omega⟩ e)

/-- Edge `e`'s 24 message outputs from the gathered tables. -/
def msgT (ns nt : A3 2 13 1132624) (et : A3 2 8 1132624) (w1 : A2 32 34) (b1 : A2 32 1) (w2 : A2 24 32) (b2 : A2 24 1)
    (b : Fin 2) (e : Fin 1132624) (o : Fin 24) : EReal :=
  mlp w1 b1 w2 b2 (msgFeatT ns nt et b e) o

/-- What the message region leaves in its three result arrays, at batch `b`, channel `j`, edge `e`: the new
    edge channel, the source-side message, the target-side message. -/
def newEdgeAt (ns nt : A3 2 13 1132624) (et : A3 2 8 1132624) (w1 : A2 32 34) (b1 : A2 32 1) (w2 : A2 24 32) (b2 : A2 24 1)
    (b : Fin 2) (j : Fin 8) (e : Fin 1132624) : EReal :=
  clamp (et (ix3 b j e) + msgT ns nt et w1 b1 w2 b2 b e ⟨16 + j.val, by omega⟩ * oneW)
def msgAAt (ns nt : A3 2 13 1132624) (et : A3 2 8 1132624) (w1 : A2 32 34) (b1 : A2 32 1) (w2 : A2 24 32) (b2 : A2 24 1)
    (b : Fin 2) (j : Fin 8) (e : Fin 1132624) : EReal :=
  msgT ns nt et w1 b1 w2 b2 b e ⟨j.val, by omega⟩
def msgBAt (ns nt : A3 2 13 1132624) (et : A3 2 8 1132624) (w1 : A2 32 34) (b1 : A2 32 1) (w2 : A2 24 32) (b2 : A2 24 1)
    (b : Fin 2) (j : Fin 8) (e : Fin 1132624) : EReal :=
  msgT ns nt et w1 b1 w2 b2 b e ⟨8 + j.val, by omega⟩

/-- The same as arrays in (batch, channel, edge) layout. -/
def newEdgeT (ns nt : A3 2 13 1132624) (et : A3 2 8 1132624) (w1 : A2 32 34) (b1 : A2 32 1) (w2 : A2 24 32) (b2 : A2 24 1) :
    A3 2 8 1132624 := fun i => newEdgeAt ns nt et w1 b1 w2 b2 (i 0) (i 1) (i 2)
def msgAT (ns nt : A3 2 13 1132624) (et : A3 2 8 1132624) (w1 : A2 32 34) (b1 : A2 32 1) (w2 : A2 24 32) (b2 : A2 24 1) :
    A3 2 8 1132624 := fun i => msgAAt ns nt et w1 b1 w2 b2 (i 0) (i 1) (i 2)
def msgBT (ns nt : A3 2 13 1132624) (et : A3 2 8 1132624) (w1 : A2 32 34) (b1 : A2 32 1) (w2 : A2 24 32) (b2 : A2 24 1) :
    A3 2 8 1132624 := fun i => msgBAt ns nt et w1 b1 w2 b2 (i 0) (i 1) (i 2)

/-- The 28 update features of node `n` in batch `b`, in (batch, channel, node) layout. -/
def updFeatT (aa ab : A3 2 8 1105) (nd : A3 2 12 1105) (b : Fin 2) (n : Fin 1105) (f : Fin 28) : EReal :=
  if h : f.val < 8 then aa (ix3 b ⟨f.val, by omega⟩ n)
  else if h2 : f.val < 16 then ab (ix3 b ⟨f.val - 8, by omega⟩ n)
  else nd (ix3 b ⟨f.val - 16, by omega⟩ n)

/-- What the update region leaves in its result array at batch `b`, channel `j`, node `n`. -/
def newDynAt (aa ab : A3 2 8 1105) (nd : A3 2 12 1105) (w1 : A2 16 28) (b1 : A2 16 1) (w2 : A2 8 16) (b2 : A2 8 1)
    (b : Fin 2) (j : Fin 8) (n : Fin 1105) : EReal :=
  clamp (nd (ix3 b ⟨j.val, by omega⟩ n) + mlp w1 b1 w2 b2 (updFeatT aa ab nd b n) j * oneW)
/-- The same as an array in (batch, channel, node) layout. -/
def newDynT (aa ab : A3 2 8 1105) (nd : A3 2 12 1105) (w1 : A2 16 28) (b1 : A2 16 1) (w2 : A2 8 16) (b2 : A2 8 1) : A3 2 8 1105 :=
  fun i => newDynAt aa ab nd w1 b1 w2 b2 (i 0) (i 1) (i 2)

end Cert.Spec

end
-- ==== Proof.SpecRef.lean ====
/-
  The whole step in the arrays' own layout (batch, edge or node, channel), over the quantities both
  programs compute alike: the two degree vectors, the row of the node table each edge reads at its source
  and at its target, and the two degree-averaged message sums.

  An edge's endpoint index is a signed 32-bit word; a negative word w stands for w + 1105 (counting from the
  end), and the table row read is that value clamped to the table's 1105 rows. Within -1105 ≤ w < 1105 no
  clamping takes place: the row is w or w + 1105.
-/
import proofs.«427296_j67087389163569_2_alg».proof.Proof.Spec

noncomputable section

open scoped BigOperators

namespace Cert.Spec

open Idealize.ShloMosaic Idealize.ShloMosaic.ValueIdx

abbrev A1 (a : Nat) : Type := (⟨1, ![a]⟩ : Shape).Idx → EReal
/-- A vector of 32-bit index words. -/
abbrev I1 (a : Nat) : Type := (⟨1, ![a]⟩ : Shape).Idx → BitVec 32

/-- The endpoint words lie in the node table's signed range. -/
def InRange (idx : I1 1132624) : Prop := ∀ e : Fin 1132624, -1105 ≤ (idx (ix1 e)).toInt ∧ (idx (ix1 e)).toInt < 1105

/-- A negative endpoint word counts from the table's end. -/
def wrapW (w : BitVec 32) : BitVec 32 := if w.toInt < 0 then w + 1105#32 else w

/-- The table row edge `e` reads: the wrapped word, read signed and clamped to the 1105 rows. -/
def rowOf (idx : I1 1132624) (e : Fin 1132624) : Fin 1105 :=
  ⟨min ((wrapW (idx (ix1 e))).toInt.toNat) 1104, by omega⟩

/-- A bias vector as a one-column matrix. -/
def colOf {n : Nat} (v : A1 n) : A2 n 1 := fun i => v (ix1 (i 0))

/-- The 34 message features of edge `e` in batch `b`: the source row's 12 channels, the target row's 12 channels,
    the edge's 8 channels, the source's out-degree, the target's in-degree. -/
def msgFeat (nodes : A3 2 1105 12) (edges : A3 2 1132624 8) (dS dT : A1 1105) (rs rt : Fin 1132624 → Fin 1105)
    (b : Fin 2) (e : Fin 1132624) (f : Fin 34) : EReal :=
  if h : f.val < 12 then nodes (ix3 b (rs e) ⟨f.val, by omega⟩)
  else if h2 : f.val < 24 then nodes (ix3 b (rt e) ⟨f.val - 12, by omega⟩)
  else if h3 : f.val < 32 then edges (ix3 b e ⟨f.val - 24, by omega⟩)
  else if f.val = 32 then dS (ix1 (rs e))
  else dT (ix1 (rt e))

/-- Edge `e`'s 24 message outputs. -/
def msg (nodes : A3 2 1105 12) (edges : A3 2 1132624 8) (dS dT : A1 1105) (rs rt : Fin 1132624 → Fin 1105)
    (w1 : A2 32 34) (b1 : A1 32) (w2 : A2 24 32) (b2 : A1 24) (b : Fin 2) (e : Fin 1132624) (o : Fin 24) : EReal :=
  mlp w1 (colOf b1) w2 (colOf b2) (msgFeat nodes edges dS dT rs rt b e) o

/-- The new edge channels, the source-side messages and the target-side messages at batch `b`, edge `e`, channel `j`. -/
def newEdgesAt (nodes : A3 2 1105 12) (edges : A3 2 1132624 8) (dS dT : A1 1105) (rs rt : Fin 1132624 → Fin 1105)
    (w1 : A2 32 34) (b1 : A1 32) (w2 : A2 24 32) (b2 : A1 24) (b : Fin 2) (e : Fin 1132624) (j : Fin 8) : EReal :=
  clamp (edges (ix3 b e j) + msg nodes edges dS dT rs rt w1 b1 w2 b2 b e ⟨16 + j.val, by omega⟩ * oneW)
def msgAAt' (nodes : A3 2 1105 12) (edges : A3 2 1132624 8) (dS dT : A1 1105) (rs rt : Fin 1132624 → Fin 1105)
    (w1 : A2 32 34) (b1 : A1 32) (w2 : A2 24 32) (b2 : A1 24) (b : Fin 2) (e : Fin 1132624) (j : Fin 8) : EReal :=
  msg nodes edges dS dT rs rt w1 b1 w2 b2 b e ⟨j.val, by omega⟩
def msgBAt' (nodes : A3 2 1105 12) (edges : A3 2 1132624 8) (dS dT : A1 1105) (rs rt : Fin 1132624 → Fin 1105)
    (w1 : A2 32 34) (b1 : A1 32) (w2 : A2 24 32) (b2 : A1 24) (b : Fin 2) (e : Fin 1132624) (j : Fin 8) : EReal :=
  msg nodes edges dS dT rs rt w1 b1 w2 b2 b e ⟨8 + j.val, by omega⟩

/-- The same as arrays in (batch, edge, channel) layout. -/
def newEdges (nodes : A3 2 1105 12) (edges : A3 2 1132624 8) (dS dT : A1 1105) (rs rt : Fin 1132624 → Fin 1105)
    (w1 : A2 32 34) (b1 : A1 32) (w2 : A2 24 32) (b2 : A1 24) : A3 2 1132624 8 :=
  fun i => newEdgesAt nodes edges dS dT rs rt w1 b1 w2 b2 (i 0) (i 1) (i 2)
def msgA (nodes : A3 2 1105 12) (edges : A3 2 1132624 8) (dS dT : A1 1105) (rs rt : Fin 1132624 → Fin 1105)
    (w1 : A2 32 34) (b1 : A1 32) (w2 : A2 24 32) (b2 : A1 24) : A3 2 1132624 8 :=
  fun i => msgAAt' nodes edges dS dT rs rt w1 b1 w2 b2 (i 0) (i 1) (i 2)
def msgB (nodes : A3 2 1105 12) (edges : A3 2 1132624 8) (dS dT : A1 1105) (rs rt : Fin 1132624 → Fin 1105)
    (w1 : A2 32 34) (b1 : A1 32) (w2 : A2 24 32) (b2 : A1 24) : A3 2 1132624 8 :=
  fun i => msgBAt' nodes edges dS dT rs rt w1 b1 w2 b2 (i 0) (i 1) (i 2)

/-- The 28 update features of node `n` in batch `b`: the two averaged message sums, then the node's 12 channels. -/
def updFeat (aggA aggB : A3 2 1105 8) (nodes : A3 2 1105 12) (b : Fin 2) (n : Fin 1105) (f : Fin 28) : EReal :=
  if h : f.val < 8 then aggA (ix3 b n ⟨f.val, by omega⟩)
  else if h2 : f.val < 16 then aggB (ix3 b n ⟨f.val - 8, by omega⟩)
  else nodes (ix3 b n ⟨f.val - 16, by omega⟩)

/-- The new node table at batch `b`, node `n`, channel `f`: the first 8 channels updated and clamped, the last 4 kept. -/
def newNodesAt (aggA aggB : A3 2 1105 8) (nodes : A3 2 1105 12) (w1 : A2 16 28) (b1 : A1 16) (w2 : A2 8 16) (b2 : A1 8)
    (b : Fin 2) (n : Fin 1105) (f : Fin 12) : EReal :=
  if h : f.val < 8 then
    clamp (nodes (ix3 b n f) + mlp w1 (colOf b1) w2 (colOf b2) (updFeat aggA aggB nodes b n) ⟨f.val, h⟩ * oneW)
  else nodes (ix3 b n f)
def newNodes (aggA aggB : A3 2 1105 8) (nodes : A3 2 1105 12) (w1 : A2 16 28) (b1 : A1 16) (w2 : A2 8 16) (b2 : A1 8) :
    A3 2 1105 12 :=
  fun i => newNodesAt aggA aggB nodes w1 b1 w2 b2 (i 0) (i 1) (i 2)

end Cert.Spec

end
-- ==== Proof.PreRange.lean ====
/-
  The precondition's last four conjuncts, decoded: every endpoint word of `sources` and of `targets` lies in
  the node table's signed range, -1105 ≤ w < 1105.
-/
import proofs.«427296_j67087389163569_2_alg».proof.Defs
import proofs.«427296_j67087389163569_2_alg».proof.Proof.Gen.Pre_finite_inputs
import proofs.«427296_j67087389163569_2_alg».proof.Proof.SpecRef
import Idealize.ShloMosaic.Lib.StableHlo.Predicate
import Idealize.ShloMosaic.Lib.ReduceAll

noncomputable section

namespace Cert.Proof.PreRange

open Idealize.ShloMosaic Idealize.ShloMosaic.ValueIdx Idealize.SL.Sem

section Decode

open Cert.Pre_finite_inputs

/-- The rank-0 shape has one index. -/
local instance : Subsingleton S_.Idx := ⟨fun a b => funext fun d => d.elim0⟩

/-- The two bounds as signed integers: the lower one is written as its two's-complement word. -/
theorem lo_word : (4294966191#32 : BitVec 32).toInt = -1105 := by decide
theorem hi_word : (1105#32 : BitVec 32).toInt = 1105 := by decide

/-- An entry of `x ≥ -1105` (signed, against the broadcast scalar) being 1 bounds the word below. -/
theorem sge_lo (x : IVec S1132624 32) (i : S1132624.Idx)
    (e : cmpi .sge x (broadcastInDim S1132624 ![] Facts.bcast_S_S1132624 (constantI S_ 32 4294966191#32)) i = 1#1) :
    -1105 ≤ (x i).toInt := by
  have e' : IntOp.cmpi .sge (x i) (4294966191#32) = 1#1 := e
  rw [IntOp.cmpi_sge, lo_word] at e'
  exact e'

/-- An entry of `x < 1105` (signed, against the broadcast scalar) being 1 bounds the word above. -/
theorem slt_hi (x : IVec S1132624 32) (i : S1132624.Idx)
    (e : cmpi .slt x (broadcastInDim S1132624 ![] Facts.bcast_S_S1132624 (constantI S_ 32 1105#32)) i = 1#1) :
    (x i).toInt < 1105 := by
  have e' : IntOp.cmpi .slt (x i) (1105#32) = 1#1 := e
  rw [IntOp.cmpi_slt, hi_word] at e'
  exact e'

/-- The tail of the conjunction: if it is 1 then the lower-bound mask of `sources` it is handed is all ones, and
    the three masks it builds itself (`sources < 1105`, `targets ≥ -1105`, `targets < 1105`) are all ones. -/
theorem tail (a10 a11 : IVec S1132624 32) (v48 : IVec S_ 1) (v50 : IVec S1132624 1)
    (e : fn_part3 (F := Ideal) a10 a11 v48 v50 ix0 = 1#1) :
    (∀ i, v50 i = 1#1) ∧ (∀ i, (a10 i).toInt < 1105) ∧ (∀ i, -1105 ≤ (a11 i).toInt) ∧ (∀ i, (a11 i).toInt < 1105) := by
  dsimp only [fn_part3] at e
  simp only [andi, IntOp.andi_eq_one] at e
  obtain ⟨⟨⟨⟨-, h1⟩, h2⟩, h3⟩, h4⟩ := e
  exact ⟨fun i => Host.reduce_andi_all _ _ _ _ _ h1 i,
    fun i => slt_hi a10 i (Host.reduce_andi_all _ _ _ _ _ h2 i),
    fun i => sge_lo a11 i (Host.reduce_andi_all _ _ _ _ _ h3 i),
    fun i => slt_hi a11 i (Host.reduce_andi_all _ _ _ _ _ h4 i)⟩

end Decode

theorem inRange_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.InRange (m ((c.tc : Thread Cert.KernelIdeal.nD Cert.KernelIdeal.τ).loc Cert.KernelIdeal.main_arg10))
    ∧ Cert.Spec.InRange (m ((c.tc : Thread Cert.KernelIdeal.nD Cert.KernelIdeal.τ).loc Cert.KernelIdeal.main_arg11)) := by
  have e := congrFun (h c) ix0
  dsimp only [Cert.Pre_finite_inputs.fn, Cert.Pre_finite_inputs.fn_part1, Cert.Pre_finite_inputs.fn_part2] at e
  obtain ⟨h1, h2, h3, h4⟩ := tail _ _ _ _ e
  exact ⟨fun k => ⟨sge_lo _ (ix1 k) (h1 (ix1 k)), h2 (ix1 k)⟩, fun k => ⟨h3 (ix1 k), h4 (ix1 k)⟩⟩

end Cert.Proof.PreRange

end
-- ==== Proof.Pay.lean ====
/-
  The two kernels' block arithmetic read at one element, at the extended reals: a column of a block is the
  perceptron of that column's features.

  Each kernel stacks its input planes into one feature matrix (features by columns), multiplies by the
  first weight matrix, adds the bias column to every column, rectifies, multiplies by the second weight
  matrix and adds its bias column. Read at one entry (unit, column) a product of matrices is the sum over
  the inner index of the products of the entries, a bias column spread over the columns is its entry of the
  row, and a change of number format is the identity, so the entry is the perceptron of the column's
  features; the stacked matrix at (feature, column) is the plane that feature comes from, at that column.
-/
import proofs.«427296_j67087389163569_2_alg».proof.Proof.Gen.KernelIdeal.Skeleton
import proofs.«427296_j67087389163569_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The 34 features of column `col` of a message block: the source rows 0..11, the target rows 0..11, the edge rows,
    then the two degree rows (row 12 of the source and of the target block). -/
def featBlk (x0 x1 : Vec Ideal S1x13x16384 .f32) (x2 : Vec Ideal S1x8x16384 .f32) (col : Fin 16384) (f : Fin 34) : EReal :=
  if h : f.val < 12 then x0 (ix3 0 ⟨f.val, by omega⟩ col)
  else if h2 : f.val < 24 then x1 (ix3 0 ⟨f.val - 12, by omega⟩ col)
  else if h3 : f.val < 32 then x2 (ix3 0 ⟨f.val - 24, by omega⟩ col)
  else if f.val = 32 then x0 (ix3 0 ⟨12, by omega⟩ col)
  else x1 (ix3 0 ⟨12, by omega⟩ col)

/-- The 28 features of column `n` of an update block. -/
def featBlk1 (y0 y1 : Vec Ideal S1x8x1105 .f32) (y2 : Vec Ideal S1x12x1105 .f32) (n : Fin 1105) (f : Fin 28) : EReal :=
  if h : f.val < 8 then y0 (ix3 0 ⟨f.val, by omega⟩ n)
  else if h2 : f.val < 16 then y1 (ix3 0 ⟨f.val - 8, by omega⟩ n)
  else y2 (ix3 0 ⟨f.val - 16, by omega⟩ n)

/-! ## The operations that are not entry by entry, read at an entry -/

section Generic
variable {α : Type}
/-- A one-column matrix broadcast along its rows reads, at (p, c), the column's entry p. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rows-by-columns product into the zero accumulator, read at (p, c): the sum over the inner index. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (c : Fin N) :
    FloatOps.matmul d prec lhs rhs (constant (F := Ideal) ⟨2, ![M, N]⟩ .f32 0x00000000#32) (ix2 p c)
      = ∑ k : Fin K, lhs (ix2 p k) * rhs (ix2 k c) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p c) ((contrEquiv1 (DotDims.plain M K N) K rfl rfl).symm k) = ix2 k c :=
    funext fun a => Fin.ext (by
      match a with
      | ⟨0, _⟩ => exact hk
      | ⟨1, _⟩ => rfl)
  rw [el, er]

/-- Five row blocks of 12, 12, 8, 1 and 1 rows stacked: row f reads the block that holds it. -/
theorem stack5_apply (v6 v8 : S12x16384.Idx → α) (v5 : S8x16384.Idx → α) (v7 v9 : S1x16384.Idx → α)
    (h : Shape.Concatenates [S12x16384, S12x16384, S8x16384, S1x16384, S1x16384] S34x16384 0)
    (f : Fin 34) (col : Fin 16384) :
    concatenate S34x16384 0 [⟨S12x16384, v6⟩, ⟨S12x16384, v8⟩, ⟨S8x16384, v5⟩, ⟨S1x16384, v7⟩, ⟨S1x16384, v9⟩] h (ix2 f col)
      = if h1 : f.val < 12 then v6 (ix2 ⟨f.val, h1⟩ col)
        else if h2 : f.val < 24 then v8 (ix2 ⟨f.val - 12, by omega⟩ col)
        else if h3 : f.val < 32 then v5 (ix2 ⟨f.val - 24, by omega⟩ col)
        else if f.val = 32 then v7 (ix2 (0 : Fin 1) col)
        else v9 (ix2 (0 : Fin 1) col) := by
  have hf := f.isLt
  split
  · next h1 =>
    refine concatenate_apply_piece (t := S34x16384) (0 : Fin 2) [⟨S12x16384, v6⟩, ⟨S12x16384, v8⟩, ⟨S8x16384, v5⟩, ⟨S1x16384, v7⟩, ⟨S1x16384, v9⟩] h (ix2 f col) 0 (show 0 < 5 by omega) S12x16384 v6 rfl rfl 0 rfl
      (ix2 ⟨f.val, h1⟩ col) (fun b hb => ?_) ?_
    · match b with
      | ⟨0, _⟩ => exact absurd rfl hb
      | ⟨1, _⟩ => rfl
    · show 0 + f.val = f.val
      omega
  · next h1 =>
    split
    · next h2 =>
      refine concatenate_apply_piece (t := S34x16384) (0 : Fin 2) [⟨S12x16384, v6⟩, ⟨S12x16384, v8⟩, ⟨S8x16384, v5⟩, ⟨S1x16384, v7⟩, ⟨S1x16384, v9⟩] h (ix2 f col) 1 (show 1 < 5 by omega) S12x16384 v8 rfl rfl 12 rfl
        (ix2 ⟨f.val - 12, by omega⟩ col) (fun b hb => ?_) ?_
      · match b with
        | ⟨0, _⟩ => exact absurd rfl hb
        | ⟨1, _⟩ => rfl
      · show 12 + (f.val - 12) = f.val
        omega
    · next h2 =>
      split
      · next h3 =>
        refine concatenate_apply_piece (t := S34x16384) (0 : Fin 2) [⟨S12x16384, v6⟩, ⟨S12x16384, v8⟩, ⟨S8x16384, v5⟩, ⟨S1x16384, v7⟩, ⟨S1x16384, v9⟩] h (ix2 f col) 2 (show 2 < 5 by omega) S8x16384 v5 rfl rfl 24 rfl
          (ix2 ⟨f.val - 24, by omega⟩ col) (fun b hb => ?_) ?_
        · match b with
          | ⟨0, _⟩ => exact absurd rfl hb
          | ⟨1, _⟩ => rfl
        · show 24 + (f.val - 24) = f.val
          omega
      · next h3 =>
        split
        · next h4 =>
          refine concatenate_apply_piece (t := S34x16384) (0 : Fin 2) [⟨S12x16384, v6⟩, ⟨S12x16384, v8⟩, ⟨S8x16384, v5⟩, ⟨S1x16384, v7⟩, ⟨S1x16384, v9⟩] h (ix2 f col) 3 (show 3 < 5 by omega) S1x16384 v7 rfl rfl 32 rfl
            (ix2 (0 : Fin 1) col) (fun b hb => ?_) ?_
          · match b with
            | ⟨0, _⟩ => exact absurd rfl hb
            | ⟨1, _⟩ => rfl
          · show 32 + 0 = f.val
            omega
        · next h4 =>
          refine concatenate_apply_piece (t := S34x16384) (0 : Fin 2) [⟨S12x16384, v6⟩, ⟨S12x16384, v8⟩, ⟨S8x16384, v5⟩, ⟨S1x16384, v7⟩, ⟨S1x16384, v9⟩] h (ix2 f col) 4 (show 4 < 5 by omega) S1x16384 v9 rfl rfl 33 rfl
            (ix2 (0 : Fin 1) col) (fun b hb => ?_) ?_
          · match b with
            | ⟨0, _⟩ => exact absurd rfl hb
            | ⟨1, _⟩ => rfl
          · show 33 + 0 = f.val
            omega

/-- Three row blocks of 8, 8 and 12 rows stacked: row f reads the block that holds it. -/
theorem stack3_apply (v1 v3 : S8x1105.Idx → α) (v5 : S12x1105.Idx → α)
    (h : Shape.Concatenates [S8x1105, S8x1105, S12x1105] S28x1105 0) (f : Fin 28) (n : Fin 1105) :
    concatenate S28x1105 0 [⟨S8x1105, v1⟩, ⟨S8x1105, v3⟩, ⟨S12x1105, v5⟩] h (ix2 f n)
      = if h1 : f.val < 8 then v1 (ix2 ⟨f.val, h1⟩ n)
        else if h2 : f.val < 16 then v3 (ix2 ⟨f.val - 8, by omega⟩ n)
        else v5 (ix2 ⟨f.val - 16, by omega⟩ n) := by
  have hf := f.isLt
  split
  · next h1 =>
    refine concatenate_apply_piece (t := S28x1105) (0 : Fin 2) [⟨S8x1105, v1⟩, ⟨S8x1105, v3⟩, ⟨S12x1105, v5⟩] h (ix2 f n)
      0 (show 0 < 3 by omega) S8x1105 v1 rfl rfl 0 rfl (ix2 ⟨f.val, h1⟩ n) (fun b hb => ?_) ?_
    · match b with
      | ⟨0, _⟩ => exact absurd rfl hb
      | ⟨1, _⟩ => rfl
    · show 0 + f.val = f.val
      omega
  · next h1 =>
    split
    · next h2 =>
      refine concatenate_apply_piece (t := S28x1105) (0 : Fin 2) [⟨S8x1105, v1⟩, ⟨S8x1105, v3⟩, ⟨S12x1105, v5⟩] h (ix2 f n)
        1 (show 1 < 3 by omega) S8x1105 v3 rfl rfl 8 rfl (ix2 ⟨f.val - 8, by omega⟩ n) (fun b hb => ?_) ?_
      · match b with
        | ⟨0, _⟩ => exact absurd rfl hb
        | ⟨1, _⟩ => rfl
      · show 8 + (f.val - 8) = f.val
        omega
    · next h2 =>
      refine concatenate_apply_piece (t := S28x1105) (0 : Fin 2) [⟨S8x1105, v1⟩, ⟨S8x1105, v3⟩, ⟨S12x1105, v5⟩] h (ix2 f n)
        2 (show 2 < 3 by omega) S12x1105 v5 rfl rfl 16 rfl (ix2 ⟨f.val - 16, by omega⟩ n) (fun b hb => ?_) ?_
      · match b with
        | ⟨0, _⟩ => exact absurd rfl hb
        | ⟨1, _⟩ => rfl
      · show 16 + (f.val - 16) = f.val
        omega

end Generic

/-- One layer before its rectifier, at (unit p, column c): weights times inputs summed over the inputs, plus the
    unit's bias. The two changes of format are the identity on extended reals. -/
theorem layer_apply {M K N : ℕ} (d : DotDims ⟨2, ![M, K]⟩ ⟨2, ![K, N]⟩ ⟨2, ![M, N]⟩) (hd : d = DotDims.plain M K N)
    (W : FVec Ideal ⟨2, ![M, K]⟩ .f32) (B : FVec Ideal ⟨2, ![M, 1]⟩ .f32) (X : FVec Ideal ⟨2, ![K, N]⟩ .f32)
    (hW : FTy.bf16.bits < FTy.f32.bits) (hsc : (⟨2, ![M, 1]⟩ : Shape).ShapeCasts ⟨2, ![M, 1]⟩)
    (hbc : (⟨2, ![M, 1]⟩ : Shape).Broadcasts ⟨2, ![M, N]⟩) (p : Fin M) (c : Fin N) :
    addf (matmul d none (truncf .bf16 W hW) (truncf .bf16 X hW) (constant (F := Ideal) ⟨2, ![M, N]⟩ .f32 0x00000000#32))
        (broadcastTo ⟨2, ![M, N]⟩ (shapeCast ⟨2, ![M, 1]⟩ B hsc) hbc) (ix2 p c)
      = (∑ k : Fin K, W (ix2 p k) * X (ix2 k c)) + B (ix2 p (0 : Fin 1)) := by
  show FloatOps.matmul d none (truncf .bf16 W hW) (truncf .bf16 X hW) (constant (F := Ideal) ⟨2, ![M, N]⟩ .f32 0x00000000#32) (ix2 p c)
      + broadcastTo ⟨2, ![M, N]⟩ (shapeCast ⟨2, ![M, 1]⟩ B hsc) hbc (ix2 p c) = _
  rw [matmul_plain_apply d hd, bcastCol_apply, shapeCast_self]
  rfl

/-! ## The message kernel -/

variable (x0 x1 : Vec Ideal S1x13x16384 .f32) (x2 : Vec Ideal S1x8x16384 .f32) (w1 : Vec Ideal S32x34 .f32)
  (b1 : Vec Ideal S32x1 .f32) (w2 : Vec Ideal S24x32 .f32) (b2 : Vec Ideal S24x1 .f32)

/-- The edge block with its unit batch axis dropped, at (row, column). -/
theorem pay4_apply (i : Fin 8) (col : Fin 16384) : k0_pay4 (F := Ideal) x2 (ix2 i col) = x2 (ix3 (0 : Fin 1) i col) := by
  unfold k0_pay4
  exact shapeCast_1ab_ab_apply x2 _ i col

/-- The stacked feature matrix at (feature, column) is that column's feature. -/
theorem feat0_apply (h13 : S1x13x16384.ShapeCasts S13x16384)
    (hs0 : S13x16384.Slices ![0, 0] S12x16384) (hs12 : S13x16384.Slices ![12, 0] S1x16384)
    (hc : Shape.Concatenates [S12x16384, S12x16384, S8x16384, S1x16384, S1x16384] S34x16384 0)
    (f : Fin 34) (col : Fin 16384) :
    concatenate S34x16384 0
      [⟨S12x16384, extractStridedSlice S12x16384 ![0, 0] (shapeCast S13x16384 x0 h13) hs0⟩,
       ⟨S12x16384, extractStridedSlice S12x16384 ![0, 0] (shapeCast S13x16384 x1 h13) hs0⟩,
       ⟨S8x16384, k0_pay4 (F := Ideal) x2⟩,
       ⟨S1x16384, extractStridedSlice S1x16384 ![12, 0] (shapeCast S13x16384 x0 h13) hs12⟩,
       ⟨S1x16384, extractStridedSlice S1x16384 ![12, 0] (shapeCast S13x16384 x1 h13) hs12⟩] hc (ix2 f col)
      = featBlk x0 x1 x2 col f := by
  have hf := f.isLt
  rw [stack5_apply]
  unfold featBlk
  by_cases h1 : f.val < 12
  · rw [dif_pos h1, dif_pos h1]
    exact (slice2_axis0_apply 0 _ hs0 ⟨f.val, h1⟩ col ⟨f.val, by omega⟩ (Nat.zero_add _).symm).trans
      (shapeCast_1ab_ab_apply x0 h13 _ col)
  · rw [dif_neg h1, dif_neg h1]
    by_cases h2 : f.val < 24
    · rw [dif_pos h2, dif_pos h2]
      exact (slice2_axis0_apply 0 _ hs0 ⟨f.val - 12, by omega⟩ col ⟨f.val - 12, by omega⟩ (Nat.zero_add _).symm).trans
        (shapeCast_1ab_ab_apply x1 h13 _ col)
    · rw [dif_neg h2, dif_neg h2]
      by_cases h3 : f.val < 32
      · rw [dif_pos h3, dif_pos h3]
        exact pay4_apply x2 _ col
      · rw [dif_neg h3, dif_neg h3]
        by_cases h4 : f.val = 32
        · rw [if_pos h4, if_pos h4]
          exact (slice2_axis0_apply 12 _ hs12 (0 : Fin 1) col ⟨12, by omega⟩ rfl).trans
            (shapeCast_1ab_ab_apply x0 h13 _ col)
        · rw [if_neg h4, if_neg h4]
          exact (slice2_axis0_apply 12 _ hs12 (0 : Fin 1) col ⟨12, by omega⟩ rfl).trans
            (shapeCast_1ab_ab_apply x1 h13 _ col)

/-- The message block's 24 outputs before they are split, at (unit, column): the perceptron of the column's features. -/
theorem pay5_apply (o : Fin 24) (col : Fin 16384) :
    k0_pay5 (F := Ideal) x0 x1 x2 w1 b1 w2 b2 (ix2 o col) = Cert.Spec.mlp w1 b1 w2 b2 (featBlk x0 x1 x2 col) o := by
  unfold k0_pay5 Cert.Spec.mlp
  refine (layer_apply dot_S24x32_S32x16384_S24x16384_1_0_0_1_n_n rfl w2 b2 _ _ _ _ o col).trans ?_
  refine congrArg (· + b2 (ix2 o (0 : Fin 1))) (Finset.sum_congr rfl fun k _ => congrArg (w2 (ix2 o k) * ·) ?_)
  refine congrArg (max · Cert.Spec.zeroW) ?_
  refine (layer_apply dot_S32x34_S34x16384_S32x16384_1_0_0_1_n_n rfl w1 b1 _ _ _ _ k col).trans ?_
  refine congrArg (· + b1 (ix2 k (0 : Fin 1))) (Finset.sum_congr rfl fun f _ => congrArg (w1 (ix2 k f) * ·) ?_)
  exact feat0_apply x0 x1 x2 _ _ _ _ f col

/-- The new edge channels: the edge's channel plus outputs 16..23 times one, clamped. -/
theorem oute_apply (j : Fin 8) (col : Fin 16384) :
    k0_pay1 (F := Ideal) (k0_pay8 x0 x1 x2 w1 b1 w2 b2) (Scalar.ofBits .f32 0xC2C80000#32) (Scalar.ofBits .f32 0x42C80000#32) (ix3 0 j col)
      = Cert.Spec.clamp (x2 (ix3 0 j col) + Cert.Spec.mlp w1 b1 w2 b2 (featBlk x0 x1 x2 col) ⟨16 + j.val, by omega⟩ * Cert.Spec.oneW) := by
  unfold k0_pay1 Cert.Spec.clamp
  refine (shapeCast_ab_1ab_apply _ _ (0 : Fin 1) j col).trans ?_
  refine congrArg (fun z => min Cert.Spec.hiW (max Cert.Spec.loW z)) ?_
  unfold k0_pay8
  refine congr (congrArg HAdd.hAdd (pay4_apply x2 j col)) (congrArg (· * Cert.Spec.oneW) ?_)
  refine (slice2_axis0_apply 16 _ _ j col ⟨16 + j.val, by omega⟩ rfl).trans ?_
  exact pay5_apply x0 x1 x2 w1 b1 w2 b2 _ col

/-- The source-side messages: outputs 0..7. -/
theorem outa_apply (j : Fin 8) (col : Fin 16384) :
    k0_pay2 (F := Ideal) (k0_pay6 x0 x1 x2 w1 b1 w2 b2) (ix3 0 j col)
      = Cert.Spec.mlp w1 b1 w2 b2 (featBlk x0 x1 x2 col) ⟨j.val, by omega⟩ := by
  unfold k0_pay2 k0_pay6
  refine (shapeCast_ab_1ab_apply _ _ (0 : Fin 1) j col).trans ?_
  refine (slice2_axis0_apply (n0 := 24) 0 _ _ j col ⟨j.val, by omega⟩ (Nat.zero_add _).symm).trans ?_
  exact pay5_apply x0 x1 x2 w1 b1 w2 b2 _ col

/-- The target-side messages: outputs 8..15. -/
theorem outb_apply (j : Fin 8) (col : Fin 16384) :
    k0_pay3 (F := Ideal) (k0_pay7 x0 x1 x2 w1 b1 w2 b2) (ix3 0 j col)
      = Cert.Spec.mlp w1 b1 w2 b2 (featBlk x0 x1 x2 col) ⟨8 + j.val, by omega⟩ := by
  unfold k0_pay3 k0_pay7
  refine (shapeCast_ab_1ab_apply _ _ (0 : Fin 1) j col).trans ?_
  refine (slice2_axis0_apply 8 _ _ j col ⟨8 + j.val, by omega⟩ rfl).trans ?_
  exact pay5_apply x0 x1 x2 w1 b1 w2 b2 _ col

/-! ## The update kernel -/

variable (y0 y1 : Vec Ideal S1x8x1105 .f32) (y2 : Vec Ideal S1x12x1105 .f32) (u1 : Vec Ideal S16x28 .f32)
  (c1 : Vec Ideal S16x1 .f32) (u2 : Vec Ideal S8x16 .f32) (c2 : Vec Ideal S8x1 .f32)

/-- The stacked feature matrix at (feature, column) is that column's feature. -/
theorem feat1_apply (h8 : S1x8x1105.ShapeCasts S8x1105) (h12 : S1x12x1105.ShapeCasts S12x1105)
    (hc : Shape.Concatenates [S8x1105, S8x1105, S12x1105] S28x1105 0) (f : Fin 28) (n : Fin 1105) :
    concatenate S28x1105 0
      [⟨S8x1105, shapeCast S8x1105 y0 h8⟩, ⟨S8x1105, shapeCast S8x1105 y1 h8⟩, ⟨S12x1105, shapeCast S12x1105 y2 h12⟩] hc (ix2 f n)
      = featBlk1 y0 y1 y2 n f := by
  have hf := f.isLt
  rw [stack3_apply]
  unfold featBlk1
  by_cases h1 : f.val < 8
  · rw [dif_pos h1, dif_pos h1]
    exact shapeCast_1ab_ab_apply y0 h8 _ n
  · rw [dif_neg h1, dif_neg h1]
    by_cases h2 : f.val < 16
    · rw [dif_pos h2, dif_pos h2]
      exact shapeCast_1ab_ab_apply y1 h8 _ n
    · rw [dif_neg h2, dif_neg h2]
      exact shapeCast_1ab_ab_apply y2 h12 _ n

/-- The new node channels: the node's channel plus the perceptron's output times one, clamped. -/
theorem outd_apply (j : Fin 8) (n : Fin 1105) :
    k1_pay1 (F := Ideal) (k1_pay2 y0 y1 y2 u1 c1 u2 c2) (ix3 0 j n)
      = Cert.Spec.clamp (y2 (ix3 0 ⟨j.val, by omega⟩ n) + Cert.Spec.mlp u1 c1 u2 c2 (featBlk1 y0 y1 y2 n) j * Cert.Spec.oneW) := by
  unfold k1_pay1 Cert.Spec.clamp
  refine (shapeCast_ab_1ab_apply _ _ (0 : Fin 1) j n).trans ?_
  unfold k1_pay2 Cert.Spec.mlp
  refine congrArg (fun z => min Cert.Spec.hiW (max Cert.Spec.loW z)) ?_
  refine congr (congrArg HAdd.hAdd ?_) (congrArg (· * Cert.Spec.oneW) ?_)
  · refine (slice2_axis0_apply (n0 := 12) 0 _ _ j n ⟨j.val, by omega⟩ (Nat.zero_add _).symm).trans ?_
    exact shapeCast_1ab_ab_apply y2 _ _ n
  · refine (layer_apply dot_S8x16_S16x1105_S8x1105_1_0_0_1_n_n rfl u2 c2 _ _ _ _ j n).trans ?_
    refine congrArg (· + c2 (ix2 j (0 : Fin 1))) (Finset.sum_congr rfl fun k _ => congrArg (u2 (ix2 j k) * ·) ?_)
    refine congrArg (max · Cert.Spec.zeroW) ?_
    refine (layer_apply dot_S16x28_S28x1105_S16x1105_1_0_0_1_n_n rfl u1 c1 _ _ _ _ k n).trans ?_
    refine congrArg (· + c1 (ix2 k (0 : Fin 1))) (Finset.sum_congr rfl fun f _ => congrArg (u1 (ix2 k f) * ·) ?_)
    exact feat1_apply y0 y1 y2 _ _ _ f n

end Cert.KernelIdeal.Hand

end
-- ==== Proof.R0Value.lean ====
/-
  The message region's three result arrays after the run, in closed form: every (batch, channel, edge) entry is
  the perceptron of that edge's features. The 140 grid points' blocks, the last one of each batch entry cut at
  the array's end, cover the array; the entry at edge e is written by the point (batch, e / 16384) from column
  e % 16384 of its block, and that column is read from the same edge of the input arrays.
-/
import proofs.«427296_j67087389163569_2_alg».proof.Proof.R0Dat
import proofs.«427296_j67087389163569_2_alg».proof.Proof.Pay
import proofs.«427296_j67087389163569_2_alg».proof.Proof.Spec
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-! ## The index maps and the cuts at every grid point

Point `t` is (batch, edge block) = (t / 70, t % 70). Each of the six edge-indexed windows has block index
(t / 70, 0, t % 70) there and moves one batch entry, all its channels, and 16384 columns, or 2128 at the last edge
block of a batch entry (69 * 16384 + 2128 = 1132624). The four weight windows sit at block index (0, 0). -/

theorem idx_src : ∀ t : Fin cfg0.N,
    win0_0.index t (0 : Fin 3) = t.val / 70 ∧ win0_0.index t (1 : Fin 3) = 0 ∧ win0_0.index t (2 : Fin 3) = t.val % 70
    ∧ win0_0.xsize (grid0.coords t) (0 : Fin 3) = 1 ∧ win0_0.xsize (grid0.coords t) (1 : Fin 3) = 13
    ∧ win0_0.xsize (grid0.coords t) (2 : Fin 3) = (if t.val % 70 = 69 then 2128 else 16384) :=
  (by decide +kernel : ∀ t : Fin grid0.N, _)

theorem idx_tgt : ∀ t : Fin cfg0.N,
    win0_1.index t (0 : Fin 3) = t.val / 70 ∧ win0_1.index t (1 : Fin 3) = 0 ∧ win0_1.index t (2 : Fin 3) = t.val % 70
    ∧ win0_1.xsize (grid0.coords t) (0 : Fin 3) = 1 ∧ win0_1.xsize (grid0.coords t) (1 : Fin 3) = 13
    ∧ win0_1.xsize (grid0.coords t) (2 : Fin 3) = (if t.val % 70 = 69 then 2128 else 16384) :=
  (by decide +kernel : ∀ t : Fin grid0.N, _)

theorem idx_edge : ∀ t : Fin cfg0.N,
    win0_2.index t (0 : Fin 3) = t.val / 70 ∧ win0_2.index t (1 : Fin 3) = 0 ∧ win0_2.index t (2 : Fin 3) = t.val % 70
    ∧ win0_2.xsize (grid0.coords t) (0 : Fin 3) = 1 ∧ win0_2.xsize (grid0.coords t) (1 : Fin 3) = 8
    ∧ win0_2.xsize (grid0.coords t) (2 : Fin 3) = (if t.val % 70 = 69 then 2128 else 16384) :=
  (by decide +kernel : ∀ t : Fin grid0.N, _)

theorem idx_newEdge : ∀ t : Fin cfg0.N,
    win0_7.index t (0 : Fin 3) = t.val / 70 ∧ win0_7.index t (1 : Fin 3) = 0 ∧ win0_7.index t (2 : Fin 3) = t.val % 70
    ∧ win0_7.xsize (grid0.coords t) (0 : Fin 3) = 1 ∧ win0_7.xsize (grid0.coords t) (1 : Fin 3) = 8
    ∧ win0_7.xsize (grid0.coords t) (2 : Fin 3) = (if t.val % 70 = 69 then 2128 else 16384) :=
  (by decide +kernel : ∀ t : Fin grid0.N, _)

theorem idx_msgA : ∀ t : Fin cfg0.N,
    win0_8.index t (0 : Fin 3) = t.val / 70 ∧ win0_8.index t (1 : Fin 3) = 0 ∧ win0_8.index t (2 : Fin 3) = t.val % 70
    ∧ win0_8.xsize (grid0.coords t) (0 : Fin 3) = 1 ∧ win0_8.xsize (grid0.coords t) (1 : Fin 3) = 8
    ∧ win0_8.xsize (grid0.coords t) (2 : Fin 3) = (if t.val % 70 = 69 then 2128 else 16384) :=
  (by decide +kernel : ∀ t : Fin grid0.N, _)

theorem idx_msgB : ∀ t : Fin cfg0.N,
    win0_9.index t (0 : Fin 3) = t.val / 70 ∧ win0_9.index t (1 : Fin 3) = 0 ∧ win0_9.index t (2 : Fin 3) = t.val % 70
    ∧ win0_9.xsize (grid0.coords t) (0 : Fin 3) = 1 ∧ win0_9.xsize (grid0.coords t) (1 : Fin 3) = 8
    ∧ win0_9.xsize (grid0.coords t) (2 : Fin 3) = (if t.val % 70 = 69 then 2128 else 16384) :=
  (by decide +kernel : ∀ t : Fin grid0.N, _)

theorem idx_weights : ∀ t : Fin cfg0.N,
    win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

/-! ## The staged input blocks read at a column inside the array

Column `col` of the block at point `t` is edge `(t % 70) * 16384 + col` of batch entry `t / 70`; when that edge
exists the column lies in the part of the block the fetch moves, so the filled-out block holds the array's entry there. -/

/-- The source table's block. -/
theorem ns0_apply (t : Fin cfg0.N) (r : Fin 13) (col : Fin 16384) (b : Fin 2) (e : Fin 1132624)
    (hb : b.val = t.val / 70) (he : e.val = (t.val % 70) * 16384 + col.val) :
    ns0 (F := Ideal) V c t (ix3 0 r col) = V c main_v16 (ix3 b r e) := by
  obtain ⟨i0, i1, i2, x0, x1, x2⟩ := idx_src t
  have hN : grid0.N = 140 := N_0
  have ht : t.val < 140 := hN ▸ t.isLt
  have hcol := col.isLt
  have he' := e.isLt
  have hr := r.isLt
  have hx2 : col.val < win0_0.xsize (grid0.coords t) (2 : Fin 3) := by
    rw [x2]; split <;> omega
  let y : (win0_0.xblock (grid0.coords t)).Idx := fun a => match a with
    | ⟨0, _⟩ => ⟨0, by show 0 < win0_0.xsize (grid0.coords t) (0 : Fin 3); omega⟩
    | ⟨1, _⟩ => ⟨r.val, by show r.val < win0_0.xsize (grid0.coords t) (1 : Fin 3); omega⟩
    | ⟨2, _⟩ => ⟨col.val, hx2⟩
  have hy : (ix3 0 r col : S1x13x16384.Idx) = win0_0.xinj (grid0.coords t) y := by
    funext a; apply Fin.ext
    match a with
    | ⟨0, _⟩ => rfl
    | ⟨1, _⟩ => rfl
    | ⟨2, _⟩ => rfl
  unfold ns0
  rw [hy, Window.fill_xinj]
  unfold iblk0
  rw [View.read_apply]
  show V c main_v16 (((cfg0.win 0).blk t).view.emb y) = V c main_v16 (ix3 b r e)
  congr 1
  funext a
  apply Fin.ext
  match a with
  | ⟨0, _⟩ => show win0_0.index t (0 : Fin 3) * 1 + 1 * 0 = b.val; omega
  | ⟨1, _⟩ => show win0_0.index t (1 : Fin 3) * 13 + 1 * r.val = r.val; omega
  | ⟨2, _⟩ => show win0_0.index t (2 : Fin 3) * 16384 + 1 * col.val = e.val; omega

/-- The target table's block. -/
theorem nt0_apply (t : Fin cfg0.N) (r : Fin 13) (col : Fin 16384) (b : Fin 2) (e : Fin 1132624)
    (hb : b.val = t.val / 70) (he : e.val = (t.val % 70) * 16384 + col.val) :
    nt0 (F := Ideal) V c t (ix3 0 r col) = V c main_v17 (ix3 b r e) := by
  obtain ⟨i0, i1, i2, x0, x1, x2⟩ := idx_tgt t
  have hN : grid0.N = 140 := N_0
  have ht : t.val < 140 := hN ▸ t.isLt
  have hcol := col.isLt
  have he' := e.isLt
  have hr := r.isLt
  have hx2 : col.val < win0_1.xsize (grid0.coords t) (2 : Fin 3) := by
    rw [x2]; split <;> omega
  let y : (win0_1.xblock (grid0.coords t)).Idx := fun a => match a with
    | ⟨0, _⟩ => ⟨0, by show 0 < win0_1.xsize (grid0.coords t) (0 : Fin 3); omega⟩
    | ⟨1, _⟩ => ⟨r.val, by show r.val < win0_1.xsize (grid0.coords t) (1 : Fin 3); omega⟩
    | ⟨2, _⟩ => ⟨col.val, hx2⟩
  have hy : (ix3 0 r col : S1x13x16384.Idx) = win0_1.xinj (grid0.coords t) y := by
    funext a; apply Fin.ext
    match a with
    | ⟨0, _⟩ => rfl
    | ⟨1, _⟩ => rfl
    | ⟨2, _⟩ => rfl
  unfold nt0
  rw [hy, Window.fill_xinj]
  unfold iblk0
  rw [View.read_apply]
  show V c main_v17 (((cfg0.win 1).blk t).view.emb y) = V c main_v17 (ix3 b r e)
  congr 1
  funext a
  apply Fin.ext
  match a with
  | ⟨0, _⟩ => show win0_1.index t (0 : Fin 3) * 1 + 1 * 0 = b.val; omega
  | ⟨1, _⟩ => show win0_1.index t (1 : Fin 3) * 13 + 1 * r.val = r.val; omega
  | ⟨2, _⟩ => show win0_1.index t (2 : Fin 3) * 16384 + 1 * col.val = e.val; omega

/-- The edge array's block. -/
theorem et0_apply (t : Fin cfg0.N) (j : Fin 8) (col : Fin 16384) (b : Fin 2) (e : Fin 1132624)
    (hb : b.val = t.val / 70) (he : e.val = (t.val % 70) * 16384 + col.val) :
    et0 (F := Ideal) V c t (ix3 0 j col) = V c main_v15 (ix3 b j e) := by
  obtain ⟨i0, i1, i2, x0, x1, x2⟩ := idx_edge t
  have hN : grid0.N = 140 := N_0
  have ht : t.val < 140 := hN ▸ t.isLt
  have hcol := col.isLt
  have he' := e.isLt
  have hj := j.isLt
  have hx2 : col.val < win0_2.xsize (grid0.coords t) (2 : Fin 3) := by
    rw [x2]; split <;> omega
  let y : (win0_2.xblock (grid0.coords t)).Idx := fun a => match a with
    | ⟨0, _⟩ => ⟨0, by show 0 < win0_2.xsize (grid0.coords t) (0 : Fin 3); omega⟩
    | ⟨1, _⟩ => ⟨j.val, by show j.val < win0_2.xsize (grid0.coords t) (1 : Fin 3); omega⟩
    | ⟨2, _⟩ => ⟨col.val, hx2⟩
  have hy : (ix3 0 j col : S1x8x16384.Idx) = win0_2.xinj (grid0.coords t) y := by
    funext a; apply Fin.ext
    match a with
    | ⟨0, _⟩ => rfl
    | ⟨1, _⟩ => rfl
    | ⟨2, _⟩ => rfl
  unfold et0
  rw [hy, Window.fill_xinj]
  unfold iblk0
  rw [View.read_apply]
  show V c main_v15 (((cfg0.win 2).blk t).view.emb y) = V c main_v15 (ix3 b j e)
  congr 1
  funext a
  apply Fin.ext
  match a with
  | ⟨0, _⟩ => show win0_2.index t (0 : Fin 3) * 1 + 1 * 0 = b.val; omega
  | ⟨1, _⟩ => show win0_2.index t (1 : Fin 3) * 8 + 1 * j.val = j.val; omega
  | ⟨2, _⟩ => show win0_2.index t (2 : Fin 3) * 16384 + 1 * col.val = e.val; omega

/-- So the 34 features of a column inside the array are the 34 features of its edge. -/
theorem feat_eq (t : Fin cfg0.N) (col : Fin 16384) (b : Fin 2) (e : Fin 1132624)
    (hb : b.val = t.val / 70) (he : e.val = (t.val % 70) * 16384 + col.val) :
    featBlk (ns0 V c t) (nt0 V c t) (et0 V c t) col = Cert.Spec.msgFeatT (V c main_v16) (V c main_v17) (V c main_v15) b e := by
  funext f
  unfold featBlk Cert.Spec.msgFeatT
  split_ifs
  · exact ns0_apply V c t _ col b e hb he
  · exact nt0_apply V c t _ col b e hb he
  · exact et0_apply V c t _ col b e hb he
  · exact ns0_apply V c t _ col b e hb he
  · exact nt0_apply V c t _ col b e hb he

/-! ## The weight blocks are the weight arrays -/

theorem w1_eq (t : Fin cfg0.N) : (iblk0 (F := Ideal) V c 3 t : Vec Ideal S32x34 .f32) = V c main_arg2 := by
  obtain ⟨a0, a1, -, -, -, -, -, -⟩ := idx_weights t
  funext y
  unfold iblk0
  rw [View.read_apply]
  show V c main_arg2 (((cfg0.win 3).blk t).view.emb y) = V c main_arg2 y
  congr 1
  funext a
  apply Fin.ext
  match a with
  | ⟨0, _⟩ => show win0_3.index t (0 : Fin 2) * 32 + 1 * (y 0).val = (y 0).val; omega
  | ⟨1, _⟩ => show win0_3.index t (1 : Fin 2) * 34 + 1 * (y 1).val = (y 1).val; omega

theorem b1_eq (t : Fin cfg0.N) : (iblk0 (F := Ideal) V c 4 t : Vec Ideal S32x1 .f32) = V c main_v18 := by
  obtain ⟨-, -, a0, a1, -, -, -, -⟩ := idx_weights t
  funext y
  unfold iblk0
  rw [View.read_apply]
  show V c main_v18 (((cfg0.win 4).blk t).view.emb y) = V c main_v18 y
  congr 1
  funext a
  apply Fin.ext
  match a with
  | ⟨0, _⟩ => show win0_4.index t (0 : Fin 2) * 32 + 1 * (y 0).val = (y 0).val; omega
  | ⟨1, _⟩ => show win0_4.index t (1 : Fin 2) * 1 + 1 * (y 1).val = (y 1).val; omega

theorem w2_eq (t : Fin cfg0.N) : (iblk0 (F := Ideal) V c 5 t : Vec Ideal S24x32 .f32) = V c main_arg4 := by
  obtain ⟨-, -, -, -, a0, a1, -, -⟩ := idx_weights t
  funext y
  unfold iblk0
  rw [View.read_apply]
  show V c main_arg4 (((cfg0.win 5).blk t).view.emb y) = V c main_arg4 y
  congr 1
  funext a
  apply Fin.ext
  match a with
  | ⟨0, _⟩ => show win0_5.index t (0 : Fin 2) * 24 + 1 * (y 0).val = (y 0).val; omega
  | ⟨1, _⟩ => show win0_5.index t (1 : Fin 2) * 32 + 1 * (y 1).val = (y 1).val; omega

theorem b2_eq (t : Fin cfg0.N) : (iblk0 (F := Ideal) V c 6 t : Vec Ideal S24x1 .f32) = V c main_v19 := by
  obtain ⟨-, -, -, -, -, -, a0, a1⟩ := idx_weights t
  funext y
  unfold iblk0
  rw [View.read_apply]
  show V c main_v19 (((cfg0.win 6).blk t).view.emb y) = V c main_v19 y
  congr 1
  funext a
  apply Fin.ext
  match a with
  | ⟨0, _⟩ => show win0_6.index t (0 : Fin 2) * 24 + 1 * (y 0).val = (y 0).val; omega
  | ⟨1, _⟩ => show win0_6.index t (1 : Fin 2) * 1 + 1 * (y 1).val = (y 1).val; omega

/-! ## What a point stores, at a column inside the array -/

/-- The new edge channels' block. -/
theorem oute0_apply (t : Fin cfg0.N) (j : Fin 8) (col : Fin 16384) (b : Fin 2) (e : Fin 1132624)
    (hb : b.val = t.val / 70) (he : e.val = (t.val % 70) * 16384 + col.val) :
    oute0 (F := Ideal) V c t (ix3 0 j col)
      = Cert.Spec.newEdgeAt (V c main_v16) (V c main_v17) (V c main_v15) (V c main_arg2) (V c main_v18) (V c main_arg4) (V c main_v19) b j e := by
  unfold oute0
  refine (oute_apply (ns0 V c t) (nt0 V c t) (et0 V c t) (iblk0 V c 3 t) (iblk0 V c 4 t) (iblk0 V c 5 t) (iblk0 V c 6 t) j col).trans ?_
  unfold Cert.Spec.newEdgeAt Cert.Spec.msgT
  rw [et0_apply V c t j col b e hb he, feat_eq V c t col b e hb he, w1_eq V c t, b1_eq V c t, w2_eq V c t, b2_eq V c t]

/-- The source-side messages' block. -/
theorem outa0_apply (t : Fin cfg0.N) (j : Fin 8) (col : Fin 16384) (b : Fin 2) (e : Fin 1132624)
    (hb : b.val = t.val / 70) (he : e.val = (t.val % 70) * 16384 + col.val) :
    outa0 (F := Ideal) V c t (ix3 0 j col)
      = Cert.Spec.msgAAt (V c main_v16) (V c main_v17) (V c main_v15) (V c main_arg2) (V c main_v18) (V c main_arg4) (V c main_v19) b j e := by
  unfold outa0
  refine (outa_apply (ns0 V c t) (nt0 V c t) (et0 V c t) (iblk0 V c 3 t) (iblk0 V c 4 t) (iblk0 V c 5 t) (iblk0 V c 6 t) j col).trans ?_
  unfold Cert.Spec.msgAAt Cert.Spec.msgT
  rw [feat_eq V c t col b e hb he, w1_eq V c t, b1_eq V c t, w2_eq V c t, b2_eq V c t]

/-- The target-side messages' block. -/
theorem outb0_apply (t : Fin cfg0.N) (j : Fin 8) (col : Fin 16384) (b : Fin 2) (e : Fin 1132624)
    (hb : b.val = t.val / 70) (he : e.val = (t.val % 70) * 16384 + col.val) :
    outb0 (F := Ideal) V c t (ix3 0 j col)
      = Cert.Spec.msgBAt (V c main_v16) (V c main_v17) (V c main_v15) (V c main_arg2) (V c main_v18) (V c main_arg4) (V c main_v19) b j e := by
  unfold outb0
  refine (outb_apply (ns0 V c t) (nt0 V c t) (et0 V c t) (iblk0 V c 3 t) (iblk0 V c 4 t) (iblk0 V c 5 t) (iblk0 V c 6 t) j col).trans ?_
  unfold Cert.Spec.msgBAt Cert.Spec.msgT
  rw [feat_eq V c t col b e hb he, w1_eq V c t, b1_eq V c t, w2_eq V c t, b2_eq V c t]

/-! ## What a point writes back is its block of the closed form -/

theorem flushed_newEdge (t : Fin cfg0.N) :
    (dat0 (F := Ideal) V c).flushed 7 t = ((cfg0.win 7).blk t).view.read (Elt Ideal)
      (Cert.Spec.newEdgeT (V c main_v16) (V c main_v17) (V c main_v15) (V c main_arg2) (V c main_v18) (V c main_arg4) (V c main_v19)) := by
  obtain ⟨i0, i1, i2, x0, x1, x2⟩ := idx_newEdge t
  have hN : grid0.N = 140 := N_0
  have ht : t.val < 140 := hN ▸ t.isLt
  show (cfg0.win 7).cut (grid0.coords t) ((dat0 V c).after 7 t) = _
  rw [after0_7]
  funext y
  rw [View.read_apply]
  have h0 : (y (0 : Fin 3)).val < win0_7.xsize (grid0.coords t) (0 : Fin 3) := (y 0).isLt
  have h1 : (y (1 : Fin 3)).val < win0_7.xsize (grid0.coords t) (1 : Fin 3) := (y 1).isLt
  have h2 : (y (2 : Fin 3)).val < win0_7.xsize (grid0.coords t) (2 : Fin 3) := (y 2).isLt
  rw [x0] at h0; rw [x1] at h1; rw [x2] at h2
  have h2' : (y (2 : Fin 3)).val < 16384 := by split at h2 <;> omega
  have he : (t.val % 70) * 16384 + (y (2 : Fin 3)).val < 1132624 := by split at h2 <;> omega
  have hxi : win0_7.xinj (grid0.coords t) y = ix3 0 ⟨(y (1 : Fin 3)).val, h1⟩ ⟨(y (2 : Fin 3)).val, h2'⟩ := by
    funext a; apply Fin.ext
    match a with
    | ⟨0, _⟩ => show (y (0 : Fin 3)).val = 0; omega
    | ⟨1, _⟩ => rfl
    | ⟨2, _⟩ => rfl
  have hemb : (((cfg0.win 7).blk t).view.emb y : S2x8x1132624.Idx)
      = ix3 ⟨t.val / 70, by omega⟩ ⟨(y (1 : Fin 3)).val, h1⟩ ⟨(t.val % 70) * 16384 + (y (2 : Fin 3)).val, he⟩ := by
    funext a; apply Fin.ext
    match a with
    | ⟨0, _⟩ => show win0_7.index t (0 : Fin 3) * 1 + 1 * (y (0 : Fin 3)).val = t.val / 70; omega
    | ⟨1, _⟩ => show win0_7.index t (1 : Fin 3) * 8 + 1 * (y (1 : Fin 3)).val = (y (1 : Fin 3)).val; omega
    | ⟨2, _⟩ => show win0_7.index t (2 : Fin 3) * 16384 + 1 * (y (2 : Fin 3)).val = (t.val % 70) * 16384 + (y (2 : Fin 3)).val; omega
  show oute0 V c t (win0_7.xinj (grid0.coords t) y)
    = Cert.Spec.newEdgeT (V c main_v16) (V c main_v17) (V c main_v15) (V c main_arg2) (V c main_v18) (V c main_arg4) (V c main_v19)
        (((cfg0.win 7).blk t).view.emb y)
  rw [hxi, hemb]
  exact oute0_apply V c t _ _ _ _ rfl rfl

theorem flushed_msgA (t : Fin cfg0.N) :
    (dat0 (F := Ideal) V c).flushed 8 t = ((cfg0.win 8).blk t).view.read (Elt Ideal)
      (Cert.Spec.msgAT (V c main_v16) (V c main_v17) (V c main_v15) (V c main_arg2) (V c main_v18) (V c main_arg4) (V c main_v19)) := by
  obtain ⟨i0, i1, i2, x0, x1, x2⟩ := idx_msgA t
  have hN : grid0.N = 140 := N_0
  have ht : t.val < 140 := hN ▸ t.isLt
  show (cfg0.win 8).cut (grid0.coords t) ((dat0 V c).after 8 t) = _
  rw [after0_8]
  funext y
  rw [View.read_apply]
  have h0 : (y (0 : Fin 3)).val < win0_8.xsize (grid0.coords t) (0 : Fin 3) := (y 0).isLt
  have h1 : (y (1 : Fin 3)).val < win0_8.xsize (grid0.coords t) (1 : Fin 3) := (y 1).isLt
  have h2 : (y (2 : Fin 3)).val < win0_8.xsize (grid0.coords t) (2 : Fin 3) := (y 2).isLt
  rw [x0] at h0; rw [x1] at h1; rw [x2] at h2
  have h2' : (y (2 : Fin 3)).val < 16384 := by split at h2 <;> omega
  have he : (t.val % 70) * 16384 + (y (2 : Fin 3)).val < 1132624 := by split at h2 <;> omega
  have hxi : win0_8.xinj (grid0.coords t) y = ix3 0 ⟨(y (1 : Fin 3)).val, h1⟩ ⟨(y (2 : Fin 3)).val, h2'⟩ := by
    funext a; apply Fin.ext
    match a with
    | ⟨0, _⟩ => show (y (0 : Fin 3)).val = 0; omega
    | ⟨1, _⟩ => rfl
    | ⟨2, _⟩ => rfl
  have hemb : (((cfg0.win 8).blk t).view.emb y : S2x8x1132624.Idx)
      = ix3 ⟨t.val / 70, by omega⟩ ⟨(y (1 : Fin 3)).val, h1⟩ ⟨(t.val % 70) * 16384 + (y (2 : Fin 3)).val, he⟩ := by
    funext a; apply Fin.ext
    match a with
    | ⟨0, _⟩ => show win0_8.index t (0 : Fin 3) * 1 + 1 * (y (0 : Fin 3)).val = t.val / 70; omega
    | ⟨1, _⟩ => show win0_8.index t (1 : Fin 3) * 8 + 1 * (y (1 : Fin 3)).val = (y (1 : Fin 3)).val; omega
    | ⟨2, _⟩ => show win0_8.index t (2 : Fin 3) * 16384 + 1 * (y (2 : Fin 3)).val = (t.val % 70) * 16384 + (y (2 : Fin 3)).val; omega
  show outa0 V c t (win0_8.xinj (grid0.coords t) y)
    = Cert.Spec.msgAT (V c main_v16) (V c main_v17) (V c main_v15) (V c main_arg2) (V c main_v18) (V c main_arg4) (V c main_v19)
        (((cfg0.win 8).blk t).view.emb y)
  rw [hxi, hemb]
  exact outa0_apply V c t _ _ _ _ rfl rfl

theorem flushed_msgB (t : Fin cfg0.N) :
    (dat0 (F := Ideal) V c).flushed 9 t = ((cfg0.win 9).blk t).view.read (Elt Ideal)
      (Cert.Spec.msgBT (V c main_v16) (V c main_v17) (V c main_v15) (V c main_arg2) (V c main_v18) (V c main_arg4) (V c main_v19)) := by
  obtain ⟨i0, i1, i2, x0, x1, x2⟩ := idx_msgB t
  have hN : grid0.N = 140 := N_0
  have ht : t.val < 140 := hN ▸ t.isLt
  show (cfg0.win 9).cut (grid0.coords t) ((dat0 V c).after 9 t) = _
  rw [after0_9]
  funext y
  rw [View.read_apply]
  have h0 : (y (0 : Fin 3)).val < win0_9.xsize (grid0.coords t) (0 : Fin 3) := (y 0).isLt
  have h1 : (y (1 : Fin 3)).val < win0_9.xsize (grid0.coords t) (1 : Fin 3) := (y 1).isLt
  have h2 : (y (2 : Fin 3)).val < win0_9.xsize (grid0.coords t) (2 : Fin 3) := (y 2).isLt
  rw [x0] at h0; rw [x1] at h1; rw [x2] at h2
  have h2' : (y (2 : Fin 3)).val < 16384 := by split at h2 <;> omega
  have he : (t.val % 70) * 16384 + (y (2 : Fin 3)).val < 1132624 := by split at h2 <;> omega
  have hxi : win0_9.xinj (grid0.coords t) y = ix3 0 ⟨(y (1 : Fin 3)).val, h1⟩ ⟨(y (2 : Fin 3)).val, h2'⟩ := by
    funext a; apply Fin.ext
    match a with
    | ⟨0, _⟩ => show (y (0 : Fin 3)).val = 0; omega
    | ⟨1, _⟩ => rfl
    | ⟨2, _⟩ => rfl
  have hemb : (((cfg0.win 9).blk t).view.emb y : S2x8x1132624.Idx)
      = ix3 ⟨t.val / 70, by omega⟩ ⟨(y (1 : Fin 3)).val, h1⟩ ⟨(t.val % 70) * 16384 + (y (2 : Fin 3)).val, he⟩ := by
    funext a; apply Fin.ext
    match a with
    | ⟨0, _⟩ => show win0_9.index t (0 : Fin 3) * 1 + 1 * (y (0 : Fin 3)).val = t.val / 70; omega
    | ⟨1, _⟩ => show win0_9.index t (1 : Fin 3) * 8 + 1 * (y (1 : Fin 3)).val = (y (1 : Fin 3)).val; omega
    | ⟨2, _⟩ => show win0_9.index t (2 : Fin 3) * 16384 + 1 * (y (2 : Fin 3)).val = (t.val % 70) * 16384 + (y (2 : Fin 3)).val; omega
  show outb0 V c t (win0_9.xinj (grid0.coords t) y)
    = Cert.Spec.msgBT (V c main_v16) (V c main_v17) (V c main_v15) (V c main_arg2) (V c main_v18) (V c main_arg4) (V c main_v19)
        (((cfg0.win 9).blk t).view.emb y)
  rw [hxi, hemb]
  exact outb0_apply V c t _ _ _ _ rfl rfl

/-! ## The blocks cover the arrays

Entry (b, j, e) lies in the block of the point (b, e / 16384): its column there is e % 16384, which is below 2128
when the block is the last one of the edge axis, because e is below 1132624 = 69 * 16384 + 2128. -/

theorem cover_newEdge (i : S2x8x1132624.Idx) :
    ∃ t : Fin cfg0.N, (cfg0.win 7).flush t = true ∧ i ∈ ((cfg0.win 7).blk t).view.set := by
  have hN : grid0.N = 140 := N_0
  have h0 : (i (0 : Fin 3)).val < 2 := (i 0).isLt
  have h1 : (i (1 : Fin 3)).val < 8 := (i 1).isLt
  have h2 : (i (2 : Fin 3)).val < 1132624 := (i 2).isLt
  obtain ⟨t, tv⟩ : ∃ t : Fin cfg0.N, t.val = (i (0 : Fin 3)).val * 70 + (i (2 : Fin 3)).val / 16384 :=
    ⟨⟨(i (0 : Fin 3)).val * 70 + (i (2 : Fin 3)).val / 16384, by show _ < grid0.N; omega⟩, rfl⟩
  obtain ⟨i0, i1, i2, x0, x1, x2⟩ := idx_newEdge t
  refine ⟨t, flush0_7 t, ?_⟩
  show i ∈ ((View.whole main_v20_0).slice (win0_7.rect t)).set
  rw [View.set_slice_whole, Rect.mem_set_unit]
  intro a
  match a with
  | ⟨0, _⟩ =>
    show win0_7.index t (0 : Fin 3) * 1 ≤ (i (0 : Fin 3)).val
      ∧ (i (0 : Fin 3)).val < win0_7.index t (0 : Fin 3) * 1 + win0_7.xsize (grid0.coords t) (0 : Fin 3)
    rw [i0, x0]; omega
  | ⟨1, _⟩ =>
    show win0_7.index t (1 : Fin 3) * 8 ≤ (i (1 : Fin 3)).val
      ∧ (i (1 : Fin 3)).val < win0_7.index t (1 : Fin 3) * 8 + win0_7.xsize (grid0.coords t) (1 : Fin 3)
    rw [i1, x1]; omega
  | ⟨2, _⟩ =>
    show win0_7.index t (2 : Fin 3) * 16384 ≤ (i (2 : Fin 3)).val
      ∧ (i (2 : Fin 3)).val < win0_7.index t (2 : Fin 3) * 16384 + win0_7.xsize (grid0.coords t) (2 : Fin 3)
    rw [i2, x2]; split <;> omega

theorem cover_msgA (i : S2x8x1132624.Idx) :
    ∃ t : Fin cfg0.N, (cfg0.win 8).flush t = true ∧ i ∈ ((cfg0.win 8).blk t).view.set := by
  have hN : grid0.N = 140 := N_0
  have h0 : (i (0 : Fin 3)).val < 2 := (i 0).isLt
  have h1 : (i (1 : Fin 3)).val < 8 := (i 1).isLt
  have h2 : (i (2 : Fin 3)).val < 1132624 := (i 2).isLt
  obtain ⟨t, tv⟩ : ∃ t : Fin cfg0.N, t.val = (i (0 : Fin 3)).val * 70 + (i (2 : Fin 3)).val / 16384 :=
    ⟨⟨(i (0 : Fin 3)).val * 70 + (i (2 : Fin 3)).val / 16384, by show _ < grid0.N; omega⟩, rfl⟩
  obtain ⟨i0, i1, i2, x0, x1, x2⟩ := idx_msgA t
  refine ⟨t, flush0_8 t, ?_⟩
  show i ∈ ((View.whole main_v20_1).slice (win0_8.rect t)).set
  rw [View.set_slice_whole, Rect.mem_set_unit]
  intro a
  match a with
  | ⟨0, _⟩ =>
    show win0_8.index t (0 : Fin 3) * 1 ≤ (i (0 : Fin 3)).val
      ∧ (i (0 : Fin 3)).val < win0_8.index t (0 : Fin 3) * 1 + win0_8.xsize (grid0.coords t) (0 : Fin 3)
    rw [i0, x0]; omega
  | ⟨1, _⟩ =>
    show win0_8.index t (1 : Fin 3) * 8 ≤ (i (1 : Fin 3)).val
      ∧ (i (1 : Fin 3)).val < win0_8.index t (1 : Fin 3) * 8 + win0_8.xsize (grid0.coords t) (1 : Fin 3)
    rw [i1, x1]; omega
  | ⟨2, _⟩ =>
    show win0_8.index t (2 : Fin 3) * 16384 ≤ (i (2 : Fin 3)).val
      ∧ (i (2 : Fin 3)).val < win0_8.index t (2 : Fin 3) * 16384 + win0_8.xsize (grid0.coords t) (2 : Fin 3)
    rw [i2, x2]; split <;> omega

theorem cover_msgB (i : S2x8x1132624.Idx) :
    ∃ t : Fin cfg0.N, (cfg0.win 9).flush t = true ∧ i ∈ ((cfg0.win 9).blk t).view.set := by
  have hN : grid0.N = 140 := N_0
  have h0 : (i (0 : Fin 3)).val < 2 := (i 0).isLt
  have h1 : (i (1 : Fin 3)).val < 8 := (i 1).isLt
  have h2 : (i (2 : Fin 3)).val < 1132624 := (i 2).isLt
  obtain ⟨t, tv⟩ : ∃ t : Fin cfg0.N, t.val = (i (0 : Fin 3)).val * 70 + (i (2 : Fin 3)).val / 16384 :=
    ⟨⟨(i (0 : Fin 3)).val * 70 + (i (2 : Fin 3)).val / 16384, by show _ < grid0.N; omega⟩, rfl⟩
  obtain ⟨i0, i1, i2, x0, x1, x2⟩ := idx_msgB t
  refine ⟨t, flush0_9 t, ?_⟩
  show i ∈ ((View.whole main_v20_2).slice (win0_9.rect t)).set
  rw [View.set_slice_whole, Rect.mem_set_unit]
  intro a
  match a with
  | ⟨0, _⟩ =>
    show win0_9.index t (0 : Fin 3) * 1 ≤ (i (0 : Fin 3)).val
      ∧ (i (0 : Fin 3)).val < win0_9.index t (0 : Fin 3) * 1 + win0_9.xsize (grid0.coords t) (0 : Fin 3)
    rw [i0, x0]; omega
  | ⟨1, _⟩ =>
    show win0_9.index t (1 : Fin 3) * 8 ≤ (i (1 : Fin 3)).val
      ∧ (i (1 : Fin 3)).val < win0_9.index t (1 : Fin 3) * 8 + win0_9.xsize (grid0.coords t) (1 : Fin 3)
    rw [i1, x1]; omega
  | ⟨2, _⟩ =>
    show win0_9.index t (2 : Fin 3) * 16384 ≤ (i (2 : Fin 3)).val
      ∧ (i (2 : Fin 3)).val < win0_9.index t (2 : Fin 3) * 16384 + win0_9.xsize (grid0.coords t) (2 : Fin 3)
    rw [i2, x2]; split <;> omega

/-! ## The three result arrays after the run -/

/-- The new edge channels. -/
theorem arr0_7 : (dat0 (F := Ideal) V c).arrAt 7 cfg0.N
    = Cert.Spec.newEdgeT (V c main_v16) (V c main_v17) (V c main_v15) (V c main_arg2) (V c main_v18) (V c main_arg4) (V c main_v19) :=
  (dat0 (F := Ideal) V c).arrAt_eq_of_cover 7 _ (fun t _ => flushed_newEdge V c t) cover_newEdge

/-- The source-side messages. -/
theorem arr0_8 : (dat0 (F := Ideal) V c).arrAt 8 cfg0.N
    = Cert.Spec.msgAT (V c main_v16) (V c main_v17) (V c main_v15) (V c main_arg2) (V c main_v18) (V c main_arg4) (V c main_v19) :=
  (dat0 (F := Ideal) V c).arrAt_eq_of_cover 8 _ (fun t _ => flushed_msgA V c t) cover_msgA

/-- The target-side messages. -/
theorem arr0_9 : (dat0 (F := Ideal) V c).arrAt 9 cfg0.N
    = Cert.Spec.msgBT (V c main_v16) (V c main_v17) (V c main_v15) (V c main_arg2) (V c main_v18) (V c main_arg4) (V c main_v19) :=
  (dat0 (F := Ideal) V c).arrAt_eq_of_cover 9 _ (fun t _ => flushed_msgB V c t) cover_msgB

end Cert.KernelIdeal.Hand

end
-- ==== Proof.KernelValueA.lean ====
/-
  The kernel program's host side up to the message region's results, at the extended reals: the degree
  vectors, the two gathered tables the region reads (within the index range the gather's fill mask is all
  ones, so a gathered entry is the table row's entry), the region's three result arrays in the arrays' own
  layout, and the first returned result, the new edge channels.
-/
import proofs.«427296_j67087389163569_2_alg».proof.Proof.Outs
import proofs.«427296_j67087389163569_2_alg».proof.Proof.R0Value
import proofs.«427296_j67087389163569_2_alg».proof.Proof.SpecRef
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- A degree vector: ones summed onto the rows the endpoint words name (a word outside the table names none). -/
def degOf (idx : Cert.Spec.I1 1132624) : Cert.Spec.A1 1105 :=
  Host.scatterAdd (F := Ideal) scatter_S1105_S1132624x1_S1132624_n_0_0_1
    (broadcastInDim S1105 ![] bcast_S_S1105 (constant (F := Ideal) S_ .f32 0x00000000#32))
    (broadcastInDim S1132624x1 ![0] bcast_S1132624_S1132624x1_0 idx)
    (broadcastInDim S1132624 ![] bcast_S_S1132624 (constant (F := Ideal) S_ .f32 0x3F800000#32))

/-- The two degree vectors as the program holds them. -/
abbrev degS : Cert.Spec.A1 1105 := Gen.V1 m c main_v3
abbrev degT : Cert.Spec.A1 1105 := Gen.V1 m c main_v6

/-- The first host stretch sums ones onto the source rows, and onto the target rows. -/
theorem degS_eq : degS m c = degOf (m ((c.tc : Thread nD τ).loc main_arg10)) := by
  unfold degOf
  dsimp only [degS, Gen.V1, Gen.V0]
  after_results
theorem degT_eq : degT m c = degOf (m ((c.tc : Thread nD τ).loc main_arg11)) := by
  unfold degOf
  dsimp only [degT, Gen.V1, Gen.V0]
  after_results

namespace HostA

/-- A wrapped endpoint word, within the table's signed range, is a row number. -/
theorem wrapW_range (w : BitVec 32) (h : -1105 ≤ w.toInt ∧ w.toInt < 1105) :
    0 ≤ (Cert.Spec.wrapW w).toInt ∧ (Cert.Spec.wrapW w).toInt ≤ 1104 := by
  unfold Cert.Spec.wrapW
  by_cases hn : w.toInt < 0
  · rw [if_pos hn]
    have e : (w + 1105#32).toInt = w.toInt + 1105 := by
      rw [BitVec.toInt_add]
      have : (1105#32 : BitVec 32).toInt = 1105 := by decide
      rw [this]
      exact Int.bmod_eq_of_le (by omega) (by omega)
    rw [e]; omega
  · rw [if_neg hn]; omega

/-- The select the program spells is the wrap. -/
theorem wrap_sel (w : BitVec 32) :
    Scalar.select (IntOp.cmpi .slt w 0#32) (IntOp.addi w 1105#32) w = Cert.Spec.wrapW w := by
  unfold Cert.Spec.wrapW Scalar.select IntOp.cmpi IntOp.addi
  by_cases hn : w.toInt < 0
  · have : w.slt 0#32 = true := by rw [BitVec.slt_eq_decide]; simpa using hn
    rw [if_pos hn, this]; rfl
  · have : w.slt 0#32 = false := by rw [BitVec.slt_eq_decide]; simpa using hn
    rw [if_neg hn, this]; rfl

/-- A row number passes the two range tests. -/
theorem range_tests (v : BitVec 32) (h : 0 ≤ v.toInt ∧ v.toInt ≤ 1104) :
    IntOp.andi (IntOp.cmpi .sge v 0#32) (IntOp.cmpi .sle v 1104#32) = 1#1 := by
  have h1 : (0#32 : BitVec 32).sle v = true := by
    rw [BitVec.sle_eq_decide]; simpa using h.1
  have h2 : v.sle 1104#32 = true := by
    rw [BitVec.sle_eq_decide]
    have : (1104#32 : BitVec 32).toInt = 1104 := by decide
    rw [this]; simpa using h.2
  have a1 : IntOp.cmpi .sge v 0#32 = 1#1 := by
    show BitVec.ofBool ((0#32 : BitVec 32).sle v) = 1#1
    rw [h1]; rfl
  have a2 : IntOp.cmpi .sle v 1104#32 = 1#1 := by
    show BitVec.ofBool (v.sle 1104#32) = 1#1
    rw [h2]; rfl
  rw [a1, a2]; rfl

/-- A conjunction of ones is one. -/
theorem foldl_andi_one {ι : Type} (g : ι → BitVec 1) (hg : ∀ n, g n = 1#1) :
    ∀ L : List ι, L.foldl (fun r n => IntOp.andi r (g n)) 1#1 = 1#1
  | [] => rfl
  | a :: L => by
    rw [List.foldl_cons, hg a, show IntOp.andi 1#1 1#1 = 1#1 from rfl]
    exact foldl_andi_one g hg L

theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

section GatherRows
variable (j : S2x13x1132624.Idx) (idx : IVec S1132624x1 32)

private theorem g_off0 : (gather_S2x13x1105_S1132624x1_S2x13x1132624_01_2_n_n_2_1_2131).offCoord j 0 = (j 0).val := by
  unfold GatherDims.offCoord; rw [dif_pos (by decide)]; rfl
private theorem g_off1 : (gather_S2x13x1105_S1132624x1_S2x13x1132624_01_2_n_n_2_1_2131).offCoord j 1 = (j 1).val := by
  unfold GatherDims.offCoord; rw [dif_pos (by decide)]; rfl
private theorem g_off2 : (gather_S2x13x1105_S1132624x1_S2x13x1132624_01_2_n_n_2_1_2131).offCoord j 2 = 0 := by
  unfold GatherDims.offCoord; rw [dif_neg (by decide)]
private theorem g_start0 : (gather_S2x13x1105_S1132624x1_S2x13x1132624_01_2_n_n_2_1_2131).start j idx 0 = 0 := by
  unfold GatherDims.start; rw [dif_neg (by decide)]
private theorem g_start1 : (gather_S2x13x1105_S1132624x1_S2x13x1132624_01_2_n_n_2_1_2131).start j idx 1 = 0 := by
  unfold GatherDims.start; rw [dif_neg (by decide)]
private theorem g_start2 : (gather_S2x13x1105_S1132624x1_S2x13x1132624_01_2_n_n_2_1_2131).start j idx 2
    = min (idx (ix2 (j 2) 0)).toInt.toNat 1104 := by
  unfold GatherDims.start
  rw [dif_pos (by decide)]
  refine congrArg₂ min (congrArg (fun v => (idx v).toInt.toNat) ?_) (by decide)
  funext b'
  match b' with
  | ⟨0, _⟩ =>
    unfold GatherDims.siIdx
    rw [dif_neg (by show ¬ (0 : Nat) = 1; decide)]
    unfold GatherDims.siCoord
    exact Fin.ext rfl
  | ⟨1, _⟩ =>
    unfold GatherDims.siIdx
    rw [dif_pos (by show (1 : Nat) = 1; rfl)]
    exact Fin.ext rfl
end GatherRows

/-- The gather of table rows read at an index: channel and batch kept, the row the start index names, read signed and
    clamped to the table. -/
theorem gather13_apply {α : Type} (x : S2x13x1105.Idx → α) (idx : IVec S1132624x1 32) (b : Fin 2) (f : Fin 13) (p : Fin 1132624) :
    Host.gather gather_S2x13x1105_S1132624x1_S2x13x1132624_01_2_n_n_2_1_2131 x idx (ix3 b f p)
      = x (ix3 b f ⟨min (idx (ix2 p 0)).toInt.toNat 1104, by omega⟩) := by
  unfold Host.gather
  refine congrArg x (funext fun a => ?_)
  match a with
  | ⟨0, _⟩ =>
    apply Fin.ext
    show GatherDims.start _ _ idx 0 + GatherDims.batchCoord _ _ 0 + GatherDims.offCoord _ _ 0 = b.val
    rw [GatherDims.batchCoord_eq_zero _ _ _ (by decide), g_start0, g_off0]
    simp only [Nat.zero_add, Nat.add_zero]
  | ⟨1, _⟩ =>
    apply Fin.ext
    show GatherDims.start _ _ idx 1 + GatherDims.batchCoord _ _ 1 + GatherDims.offCoord _ _ 1 = f.val
    rw [GatherDims.batchCoord_eq_zero _ _ _ (by decide), g_start1, g_off1]
    simp only [Nat.zero_add, Nat.add_zero]
  | ⟨2, _⟩ =>
    apply Fin.ext
    show GatherDims.start _ _ idx 2 + GatherDims.batchCoord _ _ 2 + GatherDims.offCoord _ _ 2 = min (idx (ix2 p 0)).toInt.toNat 1104
    rw [GatherDims.batchCoord_eq_zero _ _ _ (by decide), g_start2, g_off2]
    rfl

/-- The column of wrapped words, read at an index. -/
theorem wrapCol_apply (idx Z0 O : IVec S1132624 32) (hZ0 : ∀ i, Z0 i = 0#32) (hO : ∀ i, O i = 1105#32) (p : Fin 1132624) (q : Fin 1) :
    broadcastInDim S1132624x1 ![0] bcast_S1132624_S1132624x1_0 (select (cmpi .slt idx Z0) (addi idx O) idx) (ix2 p q)
      = Cert.Spec.wrapW (idx (ix1 p)) := by
  rw [broadcastInDim_apply ![0] _ _ (ix2 p q) (ix1 p) (fun a => by match a with | ⟨0, _⟩ => rfl)]
  show Scalar.select (IntOp.cmpi .slt (idx _) (Z0 _)) (IntOp.addi (idx _) (O _)) (idx _) = _
  rw [hZ0, hO]
  exact wrap_sel _

/-- Within the index range every wrapped word passes the two range tests. -/
theorem mask_one (idx : Cert.Spec.I1 1132624) (hR : Cert.Spec.InRange idx)
    (Z0 O : IVec S1132624 32) (Z C : IVec S1132624x1 32)
    (hZ0 : ∀ i, Z0 i = 0#32) (hO : ∀ i, O i = 1105#32) (hZ : ∀ i, Z i = 0#32) (hC : ∀ i, C i = 1104#32) (i : S1132624x1.Idx) :
    andi (cmpi .sge (broadcastInDim S1132624x1 ![0] bcast_S1132624_S1132624x1_0 (select (cmpi .slt idx Z0) (addi idx O) idx)) Z)
         (cmpi .sle (broadcastInDim S1132624x1 ![0] bcast_S1132624_S1132624x1_0 (select (cmpi .slt idx Z0) (addi idx O) idx)) C) i = 1#1 := by
  rcases (⟨i 0, i 1, eq_ix2 i⟩ : ∃ (p : Fin 1132624) (q : Fin 1), i = ix2 p q) with ⟨p, q, rfl⟩
  show IntOp.andi (IntOp.cmpi .sge (broadcastInDim S1132624x1 ![0] bcast_S1132624_S1132624x1_0 (select (cmpi .slt idx Z0) (addi idx O) idx) (ix2 p q)) (Z (ix2 p q)))
      (IntOp.cmpi .sle (broadcastInDim S1132624x1 ![0] bcast_S1132624_S1132624x1_0 (select (cmpi .slt idx Z0) (addi idx O) idx) (ix2 p q)) (C (ix2 p q))) = 1#1
  rw [hZ, hC, wrapCol_apply idx Z0 O hZ0 hO p q]
  exact range_tests _ (wrapW_range _ (hR p))

/-- Where the take's fill mask is all ones the gathered entry is the table's at the edge's row. -/
theorem take_apply (X : S2x13x1105.Idx → EReal) (idx : Cert.Spec.I1 1132624)
    (R : IVec S1132624 1) (hR1 : ∀ j, R j = 1#1)
    (Z0 O : IVec S1132624 32) (FILL : S2x13x1132624.Idx → EReal)
    (hZ0 : ∀ i, Z0 i = 0#32) (hO : ∀ i, O i = 1105#32)
    (b : Fin 2) (f : Fin 13) (e : Fin 1132624) :
    select
        (broadcastInDim S2x13x1132624 ![2] bcast_S1132624_S2x13x1132624_2 R)
        (Host.gather gather_S2x13x1105_S1132624x1_S2x13x1132624_01_2_n_n_2_1_2131 X
          (broadcastInDim S1132624x1 ![0] bcast_S1132624_S1132624x1_0 (select (cmpi .slt idx Z0) (addi idx O) idx)))
        FILL (ix3 b f e)
      = X (ix3 b f (Cert.Spec.rowOf idx e)) := by
  rw [select_apply, broadcastInDim_apply ![2] _ R (ix3 b f e) (ix1 e) (fun a => by match a with | ⟨0, _⟩ => rfl),
    hR1, select_one, gather13_apply]
  refine congrArg X (congrArg (ix3 b f) (Fin.ext ?_))
  show min (broadcastInDim S1132624x1 ![0] bcast_S1132624_S1132624x1_0 (select (cmpi .slt idx Z0) (addi idx O) idx) (ix2 e 0)).toInt.toNat 1104
      = min (Cert.Spec.wrapW (idx (ix1 e))).toInt.toNat 1104
  rw [wrapCol_apply idx Z0 O hZ0 hO e 0]

/-- Contents carried to a buffer's own type and back are the contents. -/
theorem TRef_ofBuf_toBuf {T : BufTy} (x : StableHlo.TRef sig T) (v : T.Contents (Elt Ideal)) : x.ofBuf (x.toBuf v) = v := by
  obtain ⟨r, h, h2, h3⟩ := x
  subst h
  rfl

/-- At a literal buffer the carrying is the identity. -/
theorem toBuf_v16 (p1 : main_v16.ty = ⟨S2x13x1132624, .f32⟩) (p2 : main_v16.space ≠ .host) (p3 : main_v16.isScoped = false)
    (v : (⟨S2x13x1132624, .f32⟩ : BufTy).Contents (Elt Ideal)) : (StableHlo.TRef.of main_v16 p1 p2 p3).toBuf v = v := rfl
theorem toBuf_v17 (p1 : main_v17.ty = ⟨S2x13x1132624, .f32⟩) (p2 : main_v17.space ≠ .host) (p3 : main_v17.isScoped = false)
    (v : (⟨S2x13x1132624, .f32⟩ : BufTy).Contents (Elt Ideal)) : (StableHlo.TRef.of main_v17 p1 p2 p3).toBuf v = v := rfl
theorem ofBuf_arg10 (p1 : main_arg10.ty = ⟨S1132624, .i32⟩) (p2 : main_arg10.space ≠ .host) (p3 : main_arg10.isScoped = false)
    (v : main_arg10.ty.Contents (Elt Ideal)) : (StableHlo.TRef.of main_arg10 p1 p2 p3).ofBuf v = v := rfl
theorem ofBuf_arg11 (p1 : main_arg11.ty = ⟨S1132624, .i32⟩) (p2 : main_arg11.space ≠ .host) (p3 : main_arg11.isScoped = false)
    (v : main_arg11.ty.Contents (Elt Ideal)) : (StableHlo.TRef.of main_arg11 p1 p2 p3).ofBuf v = v := rfl
theorem ofBuf_v13 (p1 : main_v13.ty = ⟨S2x13x1105, .f32⟩) (p2 : main_v13.space ≠ .host) (p3 : main_v13.isScoped = false)
    (v : main_v13.ty.Contents (Elt Ideal)) : (StableHlo.TRef.of main_v13 p1 p2 p3).ofBuf v = v := rfl
theorem ofBuf_v14 (p1 : main_v14.ty = ⟨S2x13x1105, .f32⟩) (p2 : main_v14.space ≠ .host) (p3 : main_v14.isScoped = false)
    (v : main_v14.ty.Contents (Elt Ideal)) : (StableHlo.TRef.of main_v14 p1 p2 p3).ofBuf v = v := rfl

set_option maxHeartbeats 4000000 in
/-- The source-side take after its host stretch, over any contents before it, within the index range: at
    (batch, channel, edge) it holds the table's entry at the edge's row. -/
theorem after_take0_aux (W : Valuation τ sig (Elt Ideal)) (hR : Cert.Spec.InRange (W main_arg10)) (b : Fin 2) (f : Fin 13) (e : Fin 1132624)
    (r : EReal) (hr : (W main_v13 : Cert.Spec.A3 2 13 1105) (ix3 b f (Cert.Spec.rowOf (W main_arg10) e)) = r) :
    (StableHlo.after hostOps0_1 W main_v16 : Cert.Spec.A3 2 13 1132624) (ix3 b f e) = r := by
  after_results_simp
  repeat rw [TRef_ofBuf_toBuf]
  rw [toBuf_v16, ofBuf_arg10, ofBuf_v13]
  generalize hRdef : Host.reduce IntOp.andi _ _ reducesTo_S1132624x1_S1132624_d1 h_S_ = R
  have hR1 : ∀ j, (R : IVec S1132624 1) j = 1#1 := by
    intro j
    rw [← hRdef]
    exact reduce_andi_one _ _ _ _ (fun i => mask_one _ hR _ _ _ _ (fun _ => rfl) (fun _ => rfl) (fun _ => rfl) (fun _ => rfl) i) (fun _ => rfl) j
  clear hRdef
  rw [← hr]
  exact take_apply _ _ R hR1 _ _ _ (fun _ => rfl) (fun _ => rfl) b f e

set_option maxHeartbeats 4000000 in
/-- The target-side take likewise. -/
theorem after_take1_aux (W : Valuation τ sig (Elt Ideal)) (hR : Cert.Spec.InRange (W main_arg11)) (b : Fin 2) (f : Fin 13) (e : Fin 1132624)
    (r : EReal) (hr : (W main_v14 : Cert.Spec.A3 2 13 1105) (ix3 b f (Cert.Spec.rowOf (W main_arg11) e)) = r) :
    (StableHlo.after hostOps0_2 W main_v17 : Cert.Spec.A3 2 13 1132624) (ix3 b f e) = r := by
  after_results_simp
  repeat rw [TRef_ofBuf_toBuf]
  rw [toBuf_v17, ofBuf_arg11, ofBuf_v14]
  generalize hRdef : Host.reduce IntOp.andi _ _ reducesTo_S1132624x1_S1132624_d1 h_S_ = R
  have hR1 : ∀ j, (R : IVec S1132624 1) j = 1#1 := by
    intro j
    rw [← hRdef]
    exact reduce_andi_one _ _ _ _ (fun i => mask_one _ hR _ _ _ _ (fun _ => rfl) (fun _ => rfl) (fun _ => rfl) (fun _ => rfl) i) (fun _ => rfl) j
  clear hRdef
  rw [← hr]
  exact take_apply _ _ R hR1 _ _ _ (fun _ => rfl) (fun _ => rfl) b f e

/-- The node table with a degree column, channels before rows: what a take reads. -/
def tableOf (nodes : Cert.Spec.A3 2 1105 12) (d : Cert.Spec.A1 1105) : Cert.Spec.A3 2 13 1105 :=
  transpose S2x13x1105 [0, 2, 1]
    (concatenate S2x1105x13 2 [⟨S2x1105x12, nodes⟩, ⟨S2x1105x1,
        broadcastInDim S2x1105x1 ![0, 1, 2] bcast_S1x1105x1_S2x1105x1_0_1_2 (broadcastInDim S1x1105x1 ![1] bcast_S1105_S1x1105x1_1 d)⟩]
      concatenates_S2x1105x12_S2x1105x1_S2x1105x13_d2)
    transposes_S2x1105x13_S2x13x1105_0_2_1

/-- Its entries: channels 0..11 are the node's, channel 12 is the degree. -/
theorem tableOf_apply (nodes : Cert.Spec.A3 2 1105 12) (d : Cert.Spec.A1 1105) (b : Fin 2) (g : Fin 13) (n : Fin 1105) :
    tableOf nodes d (ix3 b g n) = if h : g.val < 12 then nodes (ix3 b n ⟨g.val, h⟩) else d (ix1 n) := by
  unfold tableOf
  rw [transpose_ix3_021_apply]
  by_cases h : g.val < 12
  · rw [dif_pos h]
    exact concatenate_pair_apply_left (s₁ := S2x1105x12) (s₂ := S2x1105x1) 2 _ _ _ (ix3 b n g) rfl (ix3 b n (⟨g.val, h⟩ : Fin 12))
      (fun a => by match a with | ⟨0, _⟩ => rfl | ⟨1, _⟩ => rfl | ⟨2, _⟩ => rfl)
  · rw [dif_neg h]
    rw [concatenate_pair_apply_right (s₁ := S2x1105x12) (s₂ := S2x1105x1) 2 _ _ _ (ix3 b n g) rfl rfl (ix3 b n (0 : Fin 1))
      (fun a ha => by
        match a, ha with
        | ⟨0, _⟩, _ => rfl
        | ⟨1, _⟩, _ => rfl
        | ⟨2, _⟩, ha => exact absurd (Fin.ext rfl) ha)
      (by show 0 + 12 = g.val; omega)]
    rw [broadcastInDim_apply ![0, 1, 2] _ _ (ix3 b n (0 : Fin 1)) (ix3 (0 : Fin 1) n (0 : Fin 1))
      (fun a => by match a with | ⟨0, _⟩ => rfl | ⟨1, _⟩ => rfl | ⟨2, _⟩ => rfl)]
    rw [broadcastInDim_apply ![1] _ _ (ix3 (0 : Fin 1) n (0 : Fin 1)) (ix1 n) (fun a => by match a with | ⟨0, _⟩ => rfl)]

/-- The two tables and the edge channels as the first host stretch leaves them. -/
theorem V1_v13 : (Gen.V1 m c main_v13 : Cert.Spec.A3 2 13 1105) = tableOf (m ((c.tc : Thread nD τ).loc main_arg0)) (degS m c) := by
  unfold tableOf
  dsimp only [degS, Gen.V1, Gen.V0]
  after_results
theorem V1_v14 : (Gen.V1 m c main_v14 : Cert.Spec.A3 2 13 1105) = tableOf (m ((c.tc : Thread nD τ).loc main_arg0)) (degT m c) := by
  unfold tableOf
  dsimp only [degT, Gen.V1, Gen.V0]
  after_results
theorem V1_v15 : (Gen.V1 m c main_v15 : Cert.Spec.A3 2 8 1132624)
    = transpose S2x8x1132624 [0, 2, 1] (m ((c.tc : Thread nD τ).loc main_arg1)) transposes_S2x1132624x8_S2x8x1132624_0_2_1 := by
  dsimp only [Gen.V1, Gen.V0]
  after_results

section Entry

/-- The message region's entry arrays, read at an index. Within the index ranges the two gathered tables hold, at
    (batch, channel, edge), the table's entry at the edge's source or target row. -/
theorem E4_v16 (hS : Cert.Spec.InRange (m ((c.tc : Thread nD τ).loc main_arg10))) (b : Fin 2) (f : Fin 13) (e : Fin 1132624) :
    (E4 m c main_v16 : Cert.Spec.A3 2 13 1132624) (ix3 b f e)
      = tableOf (m ((c.tc : Thread nD τ).loc main_arg0)) (degS m c) (ix3 b f (Cert.Spec.rowOf (m ((c.tc : Thread nD τ).loc main_arg10)) e)) := by
  have h1 : Gen.V4 m c main_v16 = Gen.V2 m c main_v16 := (Gen.V4_of m c main_v16 (by decide)).trans (Gen.V3_of m c main_v16 (by decide))
  have hsrc : Gen.V1 m c main_arg10 = m ((c.tc : Thread nD τ).loc main_arg10) := Gen.V1_of m c main_arg10 (by decide)
  show (Gen.V4 m c main_v16 : Cert.Spec.A3 2 13 1132624) (ix3 b f e) = _
  rw [h1]
  refine after_take0_aux (Gen.V1 m c) (by rw [hsrc]; exact hS) b f e _ ?_
  rw [hsrc, V1_v13]

theorem E4_v17 (hT : Cert.Spec.InRange (m ((c.tc : Thread nD τ).loc main_arg11))) (b : Fin 2) (f : Fin 13) (e : Fin 1132624) :
    (E4 m c main_v17 : Cert.Spec.A3 2 13 1132624) (ix3 b f e)
      = tableOf (m ((c.tc : Thread nD τ).loc main_arg0)) (degT m c) (ix3 b f (Cert.Spec.rowOf (m ((c.tc : Thread nD τ).loc main_arg11)) e)) := by
  have h1 : Gen.V4 m c main_v17 = Gen.V3 m c main_v17 := Gen.V4_of m c main_v17 (by decide)
  have htgt : Gen.V2 m c main_arg11 = m ((c.tc : Thread nD τ).loc main_arg11) :=
    (Gen.V2_of m c main_arg11 (by decide)).trans (Gen.V1_of m c main_arg11 (by decide))
  have htab : Gen.V2 m c main_v14 = Gen.V1 m c main_v14 := Gen.V2_of m c main_v14 (by decide)
  show (Gen.V4 m c main_v17 : Cert.Spec.A3 2 13 1132624) (ix3 b f e) = _
  rw [h1]
  refine after_take1_aux (Gen.V2 m c) (by rw [htgt]; exact hT) b f e _ ?_
  rw [htgt, htab, V1_v14]

/-- The edge channels, channels before edges. -/
theorem E4_v15 (b : Fin 2) (j : Fin 8) (e : Fin 1132624) :
    (E4 m c main_v15 : Cert.Spec.A3 2 8 1132624) (ix3 b j e) = (m ((c.tc : Thread nD τ).loc main_arg1) : Cert.Spec.A3 2 1132624 8) (ix3 b e j) := by
  have h1 : Gen.V4 m c main_v15 = Gen.V1 m c main_v15 :=
    (Gen.V4_of m c main_v15 (by decide)).trans ((Gen.V3_of m c main_v15 (by decide)).trans (Gen.V2_of m c main_v15 (by decide)))
  show (Gen.V4 m c main_v15 : Cert.Spec.A3 2 8 1132624) (ix3 b j e) = _
  rw [h1, V1_v15, transpose_ix3_021_apply]

/-- The two weight matrices reach the region as launched. -/
theorem E4_arg2 : E4 m c main_arg2 = m ((c.tc : Thread nD τ).loc main_arg2) :=
  (Gen.V4_of m c main_arg2 (by decide)).trans ((Gen.V3_of m c main_arg2 (by decide)).trans ((Gen.V2_of m c main_arg2 (by decide)).trans (Gen.V1_of m c main_arg2 (by decide))))
theorem E4_arg4 : E4 m c main_arg4 = m ((c.tc : Thread nD τ).loc main_arg4) :=
  (Gen.V4_of m c main_arg4 (by decide)).trans ((Gen.V3_of m c main_arg4 (by decide)).trans ((Gen.V2_of m c main_arg4 (by decide)).trans (Gen.V1_of m c main_arg4 (by decide))))

/-- The last host stretch before the region reshapes the two bias vectors to one column. -/
theorem after_bias (W : Valuation τ sig (Elt Ideal)) :
    (StableHlo.after hostOps0_3 W main_v18 : Cert.Spec.A2 32 1) = shapeCast S32x1 (W main_arg3 : Cert.Spec.A1 32) shapeCasts_S32_S32x1
    ∧ (StableHlo.after hostOps0_3 W main_v19 : Cert.Spec.A2 24 1) = shapeCast S24x1 (W main_arg5 : Cert.Spec.A1 24) shapeCasts_S24_S24x1 := by
  refine ⟨?_, ?_⟩ <;> after_results <;> rfl

/-- The two bias vectors reach the region as one-column matrices. -/
theorem E4_v18 : (E4 m c main_v18 : Cert.Spec.A2 32 1) = Cert.Spec.colOf (m ((c.tc : Thread nD τ).loc main_arg3)) := by
  have h3 : Gen.V3 m c main_arg3 = m ((c.tc : Thread nD τ).loc main_arg3) :=
    (Gen.V3_of m c main_arg3 (by decide)).trans ((Gen.V2_of m c main_arg3 (by decide)).trans (Gen.V1_of m c main_arg3 (by decide)))
  show (StableHlo.after hostOps0_3 (Gen.V3 m c) main_v18 : Cert.Spec.A2 32 1) = _
  rw [(after_bias (Gen.V3 m c)).1, h3]
  funext i
  rcases (⟨i 0, i 1, eq_ix2 i⟩ : ∃ (p : Fin 32) (q : Fin 1), i = ix2 p q) with ⟨p, q, rfl⟩
  unfold Cert.Spec.colOf
  refine shapeCast_apply _ _ (ix2 p q) (ix1 p) ?_
  rw [Shape.rowMajor_val_one, Shape.rowMajor_val_two]
  show p.val = p.val * 1 + q.val
  omega

theorem E4_v19 : (E4 m c main_v19 : Cert.Spec.A2 24 1) = Cert.Spec.colOf (m ((c.tc : Thread nD τ).loc main_arg5)) := by
  have h3 : Gen.V3 m c main_arg5 = m ((c.tc : Thread nD τ).loc main_arg5) :=
    (Gen.V3_of m c main_arg5 (by decide)).trans ((Gen.V2_of m c main_arg5 (by decide)).trans (Gen.V1_of m c main_arg5 (by decide)))
  show (StableHlo.after hostOps0_3 (Gen.V3 m c) main_v19 : Cert.Spec.A2 24 1) = _
  rw [(after_bias (Gen.V3 m c)).2, h3]
  funext i
  rcases (⟨i 0, i 1, eq_ix2 i⟩ : ∃ (p : Fin 24) (q : Fin 1), i = ix2 p q) with ⟨p, q, rfl⟩
  unfold Cert.Spec.colOf
  refine shapeCast_apply _ _ (ix2 p q) (ix1 p) ?_
  rw [Shape.rowMajor_val_one, Shape.rowMajor_val_two]
  show p.val = p.val * 1 + q.val
  omega

end Entry

section Region

/-- The 34 message features the region computes with are the step's: the gathered tables and the transposed edge
    channels read back in the arrays' own layout. -/
theorem entry_feat_eq (hS : Cert.Spec.InRange (m ((c.tc : Thread nD τ).loc main_arg10))) (hT : Cert.Spec.InRange (m ((c.tc : Thread nD τ).loc main_arg11)))
    (b : Fin 2) (e : Fin 1132624) :
    Cert.Spec.msgFeatT (E4 m c main_v16) (E4 m c main_v17) (E4 m c main_v15) b e
      = Cert.Spec.msgFeat (m ((c.tc : Thread nD τ).loc main_arg0)) (m ((c.tc : Thread nD τ).loc main_arg1)) (degS m c) (degT m c)
          (Cert.Spec.rowOf (m ((c.tc : Thread nD τ).loc main_arg10))) (Cert.Spec.rowOf (m ((c.tc : Thread nD τ).loc main_arg11))) b e := by
  funext f
  unfold Cert.Spec.msgFeatT Cert.Spec.msgFeat
  by_cases h : f.val < 12
  · rw [dif_pos h, dif_pos h, E4_v16 m c hS, tableOf_apply, dif_pos h]
  · rw [dif_neg h, dif_neg h]
    by_cases h2 : f.val < 24
    · rw [dif_pos h2, dif_pos h2, E4_v17 m c hT, tableOf_apply, dif_pos (show f.val - 12 < 12 by omega)]
    · rw [dif_neg h2, dif_neg h2]
      by_cases h3 : f.val < 32
      · rw [dif_pos h3, dif_pos h3, E4_v15]
      · rw [dif_neg h3, dif_neg h3]
        by_cases h4 : f.val = 32
        · rw [if_pos h4, if_pos h4, E4_v16 m c hS, tableOf_apply, dif_neg (show ¬ (12 : Nat) < 12 by omega)]
        · rw [if_neg h4, if_neg h4, E4_v17 m c hT, tableOf_apply, dif_neg (show ¬ (12 : Nat) < 12 by omega)]

/-- One edge's 24 message outputs as the region computes them are the step's. -/
theorem entry_msgT_eq (hS : Cert.Spec.InRange (m ((c.tc : Thread nD τ).loc main_arg10))) (hT : Cert.Spec.InRange (m ((c.tc : Thread nD τ).loc main_arg11)))
    (b : Fin 2) (e : Fin 1132624) (o : Fin 24) :
    Cert.Spec.msgT (E4 m c main_v16) (E4 m c main_v17) (E4 m c main_v15) (E4 m c main_arg2) (E4 m c main_v18) (E4 m c main_arg4) (E4 m c main_v19) b e o
      = Cert.Spec.msg (m ((c.tc : Thread nD τ).loc main_arg0)) (m ((c.tc : Thread nD τ).loc main_arg1)) (degS m c) (degT m c)
          (Cert.Spec.rowOf (m ((c.tc : Thread nD τ).loc main_arg10))) (Cert.Spec.rowOf (m ((c.tc : Thread nD τ).loc main_arg11)))
          (m ((c.tc : Thread nD τ).loc main_arg2)) (m ((c.tc : Thread nD τ).loc main_arg3)) (m ((c.tc : Thread nD τ).loc main_arg4)) (m ((c.tc : Thread nD τ).loc main_arg5)) b e o := by
  unfold Cert.Spec.msgT Cert.Spec.msg
  rw [entry_feat_eq m c hS hT, E4_arg2, E4_arg4, E4_v18, E4_v19]

/-- What the message region leaves in its three result arrays. -/
theorem W5_v20_0 : (W5 m c main_v20_0 : Cert.Spec.A3 2 8 1132624)
    = Cert.Spec.newEdgeT (E4 m c main_v16) (E4 m c main_v17) (E4 m c main_v15) (E4 m c main_arg2) (E4 m c main_v18) (E4 m c main_arg4) (E4 m c main_v19) :=
  (Pipeline.withArrays_arr spec0 launch0.win.arr_inj c _ _ 7).trans (arr0_7 (E4 m) c)
theorem W5_v20_1 : (W5 m c main_v20_1 : Cert.Spec.A3 2 8 1132624)
    = Cert.Spec.msgAT (E4 m c main_v16) (E4 m c main_v17) (E4 m c main_v15) (E4 m c main_arg2) (E4 m c main_v18) (E4 m c main_arg4) (E4 m c main_v19) :=
  (Pipeline.withArrays_arr spec0 launch0.win.arr_inj c _ _ 8).trans (arr0_8 (E4 m) c)
theorem W5_v20_2 : (W5 m c main_v20_2 : Cert.Spec.A3 2 8 1132624)
    = Cert.Spec.msgBT (E4 m c main_v16) (E4 m c main_v17) (E4 m c main_v15) (E4 m c main_arg2) (E4 m c main_v18) (E4 m c main_arg4) (E4 m c main_v19) :=
  (Pipeline.withArrays_arr spec0 launch0.win.arr_inj c _ _ 9).trans (arr0_9 (E4 m) c)

/-- The three result arrays as the host stretch after the region finds them. -/
theorem V5_v20_0 : Gen.V5 m (outs m) c main_v20_0 = W5 m c main_v20_0 := by
  dsimp only [Gen.V5]
  rw [Function.update_of_ne (StableHlo.devRef_ne_of_ne (by decide)), Function.update_of_ne (StableHlo.devRef_ne_of_ne (by decide)),
    Function.update_self, outs_five]
theorem V5_v20_1 : Gen.V5 m (outs m) c main_v20_1 = W5 m c main_v20_1 := by
  dsimp only [Gen.V5]
  rw [Function.update_of_ne (StableHlo.devRef_ne_of_ne (by decide)), Function.update_self, outs_five]
theorem V5_v20_2 : Gen.V5 m (outs m) c main_v20_2 = W5 m c main_v20_2 := by
  dsimp only [Gen.V5]
  rw [Function.update_self, outs_five]

set_option maxHeartbeats 4000000 in
/-- The host stretch after the region transposes them back to (batch, edge, channel). -/
theorem after_T (W : Valuation τ sig (Elt Ideal)) :
    (StableHlo.after hostOps1 W main_v21 : Cert.Spec.A3 2 1132624 8)
        = transpose S2x1132624x8 [0, 2, 1] (W main_v20_0 : Cert.Spec.A3 2 8 1132624) transposes_S2x8x1132624_S2x1132624x8_0_2_1
    ∧ (StableHlo.after hostOps1 W main_v22 : Cert.Spec.A3 2 1132624 8)
        = transpose S2x1132624x8 [0, 2, 1] (W main_v20_1 : Cert.Spec.A3 2 8 1132624) transposes_S2x8x1132624_S2x1132624x8_0_2_1
    ∧ (StableHlo.after hostOps1 W main_v23 : Cert.Spec.A3 2 1132624 8)
        = transpose S2x1132624x8 [0, 2, 1] (W main_v20_2 : Cert.Spec.A3 2 8 1132624) transposes_S2x8x1132624_S2x1132624x8_0_2_1 := by
  refine ⟨?_, ?_, ?_⟩ <;> after_results_simp

end Region

end HostA

open HostA

/-- The source-side messages as the host holds them after the message region, in (batch, edge, channel) layout. -/
theorem msgA_eq (hS : Cert.Spec.InRange (m ((c.tc : Thread nD τ).loc main_arg10))) (hT : Cert.Spec.InRange (m ((c.tc : Thread nD τ).loc main_arg11))) :
    (Gen.V6 m (outs m) c main_v22 : Cert.Spec.A3 2 1132624 8)
    = Cert.Spec.msgA (m ((c.tc : Thread nD τ).loc main_arg0)) (m ((c.tc : Thread nD τ).loc main_arg1)) (degS m c) (degT m c)
        (Cert.Spec.rowOf (m ((c.tc : Thread nD τ).loc main_arg10))) (Cert.Spec.rowOf (m ((c.tc : Thread nD τ).loc main_arg11)))
        (m ((c.tc : Thread nD τ).loc main_arg2)) (m ((c.tc : Thread nD τ).loc main_arg3)) (m ((c.tc : Thread nD τ).loc main_arg4)) (m ((c.tc : Thread nD τ).loc main_arg5)) := by
  funext i
  rcases (⟨i 0, i 1, i 2, eq_ix3 i⟩ : ∃ (b : Fin 2) (e : Fin 1132624) (j : Fin 8), i = ix3 b e j) with ⟨b, e, j, rfl⟩
  show (StableHlo.after hostOps1 (Gen.V5 m (outs m) c) main_v22 : Cert.Spec.A3 2 1132624 8) (ix3 b e j) = _
  rw [(after_T (Gen.V5 m (outs m) c)).2.1, V5_v20_1, W5_v20_1, transpose_ix3_021_apply]
  show Cert.Spec.msgAAt _ _ _ _ _ _ _ b j e = Cert.Spec.msgAAt' _ _ _ _ _ _ _ _ _ _ b e j
  unfold Cert.Spec.msgAAt Cert.Spec.msgAAt'
  exact entry_msgT_eq m c hS hT b e _

/-- The target-side messages likewise. -/
theorem msgB_eq (hS : Cert.Spec.InRange (m ((c.tc : Thread nD τ).loc main_arg10))) (hT : Cert.Spec.InRange (m ((c.tc : Thread nD τ).loc main_arg11))) :
    (Gen.V6 m (outs m) c main_v23 : Cert.Spec.A3 2 1132624 8)
    = Cert.Spec.msgB (m ((c.tc : Thread nD τ).loc main_arg0)) (m ((c.tc : Thread nD τ).loc main_arg1)) (degS m c) (degT m c)
        (Cert.Spec.rowOf (m ((c.tc : Thread nD τ).loc main_arg10))) (Cert.Spec.rowOf (m ((c.tc : Thread nD τ).loc main_arg11)))
        (m ((c.tc : Thread nD τ).loc main_arg2)) (m ((c.tc : Thread nD τ).loc main_arg3)) (m ((c.tc : Thread nD τ).loc main_arg4)) (m ((c.tc : Thread nD τ).loc main_arg5)) := by
  funext i
  rcases (⟨i 0, i 1, i 2, eq_ix3 i⟩ : ∃ (b : Fin 2) (e : Fin 1132624) (j : Fin 8), i = ix3 b e j) with ⟨b, e, j, rfl⟩
  show (StableHlo.after hostOps1 (Gen.V5 m (outs m) c) main_v23 : Cert.Spec.A3 2 1132624 8) (ix3 b e j) = _
  rw [(after_T (Gen.V5 m (outs m) c)).2.2, V5_v20_2, W5_v20_2, transpose_ix3_021_apply]
  show Cert.Spec.msgBAt _ _ _ _ _ _ _ b j e = Cert.Spec.msgBAt' _ _ _ _ _ _ _ _ _ _ b e j
  unfold Cert.Spec.msgBAt Cert.Spec.msgBAt'
  exact entry_msgT_eq m c hS hT b e _

/-- The returned new edge channels. -/
theorem K21_eq (hS : Cert.Spec.InRange (m ((c.tc : Thread nD τ).loc main_arg10))) (hT : Cert.Spec.InRange (m ((c.tc : Thread nD τ).loc main_arg11))) :
    (K21 m c : Cert.Spec.A3 2 1132624 8)
    = Cert.Spec.newEdges (m ((c.tc : Thread nD τ).loc main_arg0)) (m ((c.tc : Thread nD τ).loc main_arg1)) (degS m c) (degT m c)
        (Cert.Spec.rowOf (m ((c.tc : Thread nD τ).loc main_arg10))) (Cert.Spec.rowOf (m ((c.tc : Thread nD τ).loc main_arg11)))
        (m ((c.tc : Thread nD τ).loc main_arg2)) (m ((c.tc : Thread nD τ).loc main_arg3)) (m ((c.tc : Thread nD τ).loc main_arg4)) (m ((c.tc : Thread nD τ).loc main_arg5)) := by
  have hK : Gen.V8 m (outs m) c main_v21 = Gen.V6 m (outs m) c main_v21 :=
    (Gen.V8_of m (outs m) c main_v21 (by decide)).trans (Gen.V7_of m (outs m) c main_v21 (by decide))
  funext i
  rcases (⟨i 0, i 1, i 2, eq_ix3 i⟩ : ∃ (b : Fin 2) (e : Fin 1132624) (j : Fin 8), i = ix3 b e j) with ⟨b, e, j, rfl⟩
  show (Gen.V8 m (outs m) c main_v21 : Cert.Spec.A3 2 1132624 8) (ix3 b e j) = _
  rw [hK]
  show (StableHlo.after hostOps1 (Gen.V5 m (outs m) c) main_v21 : Cert.Spec.A3 2 1132624 8) (ix3 b e j) = _
  rw [(after_T (Gen.V5 m (outs m) c)).1, V5_v20_0, W5_v20_0, transpose_ix3_021_apply]
  show Cert.Spec.newEdgeAt _ _ _ _ _ _ _ b j e = Cert.Spec.newEdgesAt _ _ _ _ _ _ _ _ _ _ b e j
  unfold Cert.Spec.newEdgeAt Cert.Spec.newEdgesAt
  rw [entry_msgT_eq m c hS hT, E4_v15]

end Cert.KernelIdeal.Hand

end
-- ==== Proof.R1Value.lean ====
/-
  The update region's result array after the run, in closed form: every (batch, channel, node) entry is the
  clamped sum of the node's channel and the perceptron of that node's features. Two grid points, one whole
  (channel, node) plane each.
-/
import proofs.«427296_j67087389163569_2_alg».proof.Proof.R1Dat
import proofs.«427296_j67087389163569_2_alg».proof.Proof.Pay
import proofs.«427296_j67087389163569_2_alg».proof.Proof.Spec
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The block index maps over the two points: the three data windows and the result window sit at the point's own
    batch entry, whole in the other two axes; the four weight windows are their whole arrays. -/
theorem idx1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_7.index t (0 : Fin 3) = t.val ∧ win1_7.index t (1 : Fin 3) = 0 ∧ win1_7.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

theorem blk0_apply (t : Fin cfg1.N) (j : Fin 8) (n : Fin 1105) :
    (iblk1 V c 0 t : Vec Ideal S1x8x1105 .f32) (ix3 0 j n)
      = (V c main_v50 : S2x8x1105.Idx → EReal) (ix3 (t.cast N_1) j n) := by
  obtain ⟨⟨e0, e1, e2⟩, -⟩ := idx1 t
  unfold iblk1
  rw [View.read_apply]
  show V c main_v50 _ = V c main_v50 _
  congr 1
  funext a
  apply Fin.ext
  match a with
  | ⟨0, _⟩ => show win1_0.index t (0 : Fin 3) * 1 + 1 * 0 = t.val; omega
  | ⟨1, _⟩ => show win1_0.index t (1 : Fin 3) * 8 + 1 * j.val = j.val; omega
  | ⟨2, _⟩ => show win1_0.index t (2 : Fin 3) * 1105 + 1 * n.val = n.val; omega

theorem blk1_apply (t : Fin cfg1.N) (j : Fin 8) (n : Fin 1105) :
    (iblk1 V c 1 t : Vec Ideal S1x8x1105 .f32) (ix3 0 j n)
      = (V c main_v51 : S2x8x1105.Idx → EReal) (ix3 (t.cast N_1) j n) := by
  obtain ⟨-, ⟨e0, e1, e2⟩, -⟩ := idx1 t
  unfold iblk1
  rw [View.read_apply]
  show V c main_v51 _ = V c main_v51 _
  congr 1
  funext a
  apply Fin.ext
  match a with
  | ⟨0, _⟩ => show win1_1.index t (0 : Fin 3) * 1 + 1 * 0 = t.val; omega
  | ⟨1, _⟩ => show win1_1.index t (1 : Fin 3) * 8 + 1 * j.val = j.val; omega
  | ⟨2, _⟩ => show win1_1.index t (2 : Fin 3) * 1105 + 1 * n.val = n.val; omega

theorem blk2_apply (t : Fin cfg1.N) (j : Fin 12) (n : Fin 1105) :
    (iblk1 V c 2 t : Vec Ideal S1x12x1105 .f32) (ix3 0 j n)
      = (V c main_v52 : S2x12x1105.Idx → EReal) (ix3 (t.cast N_1) j n) := by
  obtain ⟨-, -, ⟨e0, e1, e2⟩, -⟩ := idx1 t
  unfold iblk1
  rw [View.read_apply]
  show V c main_v52 _ = V c main_v52 _
  congr 1
  funext a
  apply Fin.ext
  match a with
  | ⟨0, _⟩ => show win1_2.index t (0 : Fin 3) * 1 + 1 * 0 = t.val; omega
  | ⟨1, _⟩ => show win1_2.index t (1 : Fin 3) * 12 + 1 * j.val = j.val; omega
  | ⟨2, _⟩ => show win1_2.index t (2 : Fin 3) * 1105 + 1 * n.val = n.val; omega

/-- The four weight blocks are the weight arrays. -/
theorem blk3_eq (t : Fin cfg1.N) : (iblk1 V c 3 t : Vec Ideal S16x28 .f32) = (V c main_arg6 : S16x28.Idx → EReal) := by
  obtain ⟨-, -, -, -, ⟨e0, e1⟩, -⟩ := idx1 t
  funext x
  unfold iblk1
  rw [View.read_apply]
  show V c main_arg6 _ = V c main_arg6 _
  congr 1
  funext a
  apply Fin.ext
  match a with
  | ⟨0, _⟩ => show win1_3.index t (0 : Fin 2) * 16 + 1 * (x 0).val = (x 0).val; omega
  | ⟨1, _⟩ => show win1_3.index t (1 : Fin 2) * 28 + 1 * (x 1).val = (x 1).val; omega

theorem blk4_eq (t : Fin cfg1.N) : (iblk1 V c 4 t : Vec Ideal S16x1 .f32) = (V c main_v53 : S16x1.Idx → EReal) := by
  obtain ⟨-, -, -, -, -, ⟨e0, e1⟩, -⟩ := idx1 t
  funext x
  unfold iblk1
  rw [View.read_apply]
  show V c main_v53 _ = V c main_v53 _
  congr 1
  funext a
  apply Fin.ext
  match a with
  | ⟨0, _⟩ => show win1_4.index t (0 : Fin 2) * 16 + 1 * (x 0).val = (x 0).val; omega
  | ⟨1, _⟩ => show win1_4.index t (1 : Fin 2) * 1 + 1 * (x 1).val = (x 1).val; omega

theorem blk5_eq (t : Fin cfg1.N) : (iblk1 V c 5 t : Vec Ideal S8x16 .f32) = (V c main_arg8 : S8x16.Idx → EReal) := by
  obtain ⟨-, -, -, -, -, -, ⟨e0, e1⟩, -⟩ := idx1 t
  funext x
  unfold iblk1
  rw [View.read_apply]
  show V c main_arg8 _ = V c main_arg8 _
  congr 1
  funext a
  apply Fin.ext
  match a with
  | ⟨0, _⟩ => show win1_5.index t (0 : Fin 2) * 8 + 1 * (x 0).val = (x 0).val; omega
  | ⟨1, _⟩ => show win1_5.index t (1 : Fin 2) * 16 + 1 * (x 1).val = (x 1).val; omega

theorem blk6_eq (t : Fin cfg1.N) : (iblk1 V c 6 t : Vec Ideal S8x1 .f32) = (V c main_v54 : S8x1.Idx → EReal) := by
  obtain ⟨-, -, -, -, -, -, -, ⟨e0, e1⟩⟩ := idx1 t
  funext x
  unfold iblk1
  rw [View.read_apply]
  show V c main_v54 _ = V c main_v54 _
  congr 1
  funext a
  apply Fin.ext
  match a with
  | ⟨0, _⟩ => show win1_6.index t (0 : Fin 2) * 8 + 1 * (x 0).val = (x 0).val; omega
  | ⟨1, _⟩ => show win1_6.index t (1 : Fin 2) * 1 + 1 * (x 1).val = (x 1).val; omega

/-- The features a block column carries are the node's update features in the point's batch entry. -/
theorem featBlk1_eq (t : Fin cfg1.N) (n : Fin 1105) :
    featBlk1 (iblk1 V c 0 t) (iblk1 V c 1 t) (iblk1 V c 2 t) n
      = Cert.Spec.updFeatT (V c main_v50) (V c main_v51) (V c main_v52) (t.cast N_1) n := by
  funext f
  unfold featBlk1 Cert.Spec.updFeatT
  split
  · exact blk0_apply V c t _ n
  · split
    · exact blk1_apply V c t _ n
    · exact blk2_apply V c t _ n

/-- Where an element of the point's result block sits in the result array. -/
theorem emb7 (t : Fin cfg1.N) (j : Fin 8) (n : Fin 1105) :
    (((cfg1.win 7).blk t).view.emb (ix3 0 j n) : S2x8x1105.Idx) = ix3 (t.cast N_1) j n := by
  obtain ⟨-, -, -, ⟨e0, e1, e2⟩, -⟩ := idx1 t
  funext a
  apply Fin.ext
  match a with
  | ⟨0, _⟩ => show win1_7.index t (0 : Fin 3) * 1 + 1 * 0 = t.val; omega
  | ⟨1, _⟩ => show win1_7.index t (1 : Fin 3) * 8 + 1 * j.val = j.val; omega
  | ⟨2, _⟩ => show win1_7.index t (2 : Fin 3) * 1105 + 1 * n.val = n.val; omega

/-- What point `t` writes back is its block of the closed form. -/
theorem flushed7_eq (t : Fin cfg1.N) :
    (dat1 (F := Ideal) V c).flushed 7 t = ((cfg1.win 7).blk t).view.read (Elt Ideal)
      (Cert.Spec.newDynT (V c main_v50) (V c main_v51) (V c main_v52) (V c main_arg6) (V c main_v53) (V c main_arg8) (V c main_v54)) := by
  show (cfg1.win 7).cut (grid1.coords t) ((dat1 V c).after 7 t) = _
  rw [after1_7]
  have key : ∀ y : S1x8x1105.Idx, outd1 V c t y
      = Cert.Spec.newDynT (V c main_v50) (V c main_v51) (V c main_v52) (V c main_arg6) (V c main_v53) (V c main_arg8) (V c main_v54)
          (((cfg1.win 7).blk t).view.emb y) := by
    intro y
    obtain ⟨j, n, rfl⟩ : ∃ (j : Fin 8) (n : Fin 1105), y = ix3 0 j n :=
      ⟨y 1, y 2, (eq_ix3 y).trans (by congr 1; exact Fin.eq_zero (y 0 : Fin 1))⟩
    unfold outd1
    rw [outd_apply, featBlk1_eq, blk2_apply, blk3_eq, blk4_eq, blk5_eq, blk6_eq, emb7]
    rfl
  funext y
  rw [View.read_apply]
  exact key y

/-- An index of the result array is in point `t`'s block iff each coordinate is in the block's range on its axis. -/
theorem mem_blk7 (t : Fin cfg1.N) (i : S2x8x1105.Idx) :
    i ∈ ((cfg1.win 7).blk t).view.set ↔ ∀ a : Fin 3, win1_7.index t a * S1x8x1105.size a ≤ (i a).val
      ∧ (i a).val < win1_7.index t a * S1x8x1105.size a + S1x8x1105.size a := by
  show i ∈ ((View.whole main_v55).slice (win1_7.rect t)).set ↔ _
  rw [View.set_slice_whole, Rect.mem_set_unit]
  exact Iff.rfl

/-- Every entry of the result array is in the block of the point of its batch entry. -/
theorem cover7 (i : S2x8x1105.Idx) :
    ∃ t : Fin cfg1.N, (cfg1.win 7).flush t = true ∧ i ∈ ((cfg1.win 7).blk t).view.set := by
  have h0 : (i 0).val < 2 := (i 0).isLt
  have h1 : (i 1).val < 8 := (i 1).isLt
  have h2 : (i 2).val < 1105 := (i 2).isLt
  obtain ⟨t, ht⟩ : ∃ t : Fin cfg1.N, t.val = (i 0).val := ⟨⟨(i 0).val, by rw [show cfg1.N = 2 from N_1]; exact h0⟩, rfl⟩
  obtain ⟨-, -, -, ⟨e0, e1, e2⟩, -⟩ := idx1 t
  refine ⟨t, flush1_7 t, ?_⟩
  rw [mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 8 ≤ (i 1).val ∧ (i 1).val < win1_7.index t (1 : Fin 3) * 8 + 8; omega
  | ⟨2, _⟩ => show win1_7.index t (2 : Fin 3) * 1105 ≤ (i 2).val ∧ (i 2).val < win1_7.index t (2 : Fin 3) * 1105 + 1105; omega

/-- The new dynamic node channels. -/
theorem arr1_7 : (dat1 (F := Ideal) V c).arrAt 7 cfg1.N
    = Cert.Spec.newDynT (V c main_v50) (V c main_v51) (V c main_v52) (V c main_arg6) (V c main_v53) (V c main_arg8) (V c main_v54) :=
  (dat1 (F := Ideal) V c).arrAt_eq_of_cover 7 _ (fun t _ => flushed7_eq V c t) cover7

end Cert.KernelIdeal.Hand

end
-- ==== Proof.KernelValueB.lean ====
/-
  The kernel program's host side from the message region's results to the second returned result, at the
  extended reals: the two degree-averaged message sums as host functions of the message arrays, the update
  region's result, and the new node table.
-/
import proofs.«427296_j67087389163569_2_alg».proof.Proof.KernelValueA
import proofs.«427296_j67087389163569_2_alg».proof.Proof.R1Value
import Idealize.ShloMosaic.Lib.StableHlo.Run
import Idealize.ShloMosaic.Lib.Pipeline.FrameSuffix
import Idealize.ShloMosaic.Lib.Pipeline.Value
import Idealize.ShloMosaic.Lib.ValueIdx
import Idealize.ShloMosaic.Lib.ValueLayout
-- deciding that a reference is none of a host stretch's forty-odd written ones recurses past the default depth
set_option maxRecDepth 1136

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- A degree-averaged sum: the messages summed onto the table rows their edges' (wrapped) endpoint words name,
    each row divided by its degree or by one, whichever is larger. -/
def aggOf (idx : Cert.Spec.I1 1132624) (deg : Cert.Spec.A1 1105) (u : Cert.Spec.A3 2 1132624 8) : Cert.Spec.A3 2 1105 8 :=
  Host.divf (F := Ideal)
    (Host.scatterAdd (F := Ideal) scatter_S2x1105x8_S1132624x1_S2x1132624x8_02_1_1_1
      (broadcastInDim S2x1105x8 ![] bcast_S_S2x1105x8 (constant (F := Ideal) S_ .f32 0x00000000#32))
      (broadcastInDim S1132624x1 ![0] bcast_S1132624_S1132624x1_0
        (select (cmpi .slt idx (broadcastInDim S1132624 ![] bcast_S_S1132624 (constantI S_ 32 0#32)))
          (addi idx (broadcastInDim S1132624 ![] bcast_S_S1132624 (constantI S_ 32 1105#32))) idx))
      u)
    (broadcastInDim S2x1105x8 ![0, 1, 2] bcast_S1x1105x1_S2x1105x8_0_1_2
      (broadcastInDim S1x1105x1 ![1] bcast_S1105_S1x1105x1_1
        (maximumf (F := Ideal) deg (broadcastInDim S1105 ![] bcast_S_S1105 (constant (F := Ideal) S_ .f32 0x3F800000#32)))))

/-- The two averaged sums as the program holds them before the update region. -/
abbrev aggA : Cert.Spec.A3 2 1105 8 := Gen.V6 m (outs m) c main_v44
abbrev aggB : Cert.Spec.A3 2 1105 8 := Gen.V6 m (outs m) c main_v49

/-! ## The host operations between the two regions, over any entry contents -/

/-- The host operations between the two regions, read at the first averaged sum, over any entry contents. -/
theorem agg44_of (W : Valuation τ sig (Elt Ideal)) :
    (StableHlo.after (hostOps1 (F := Ideal)) W main_v44 : Cert.Spec.A3 2 1105 8)
    = aggOf (W main_arg10) (W main_v3) (StableHlo.after (hostOps1 (F := Ideal)) W main_v22) := by
  unfold aggOf
  after_results_simp

/-- The same at the second averaged sum. -/
theorem agg49_of (W : Valuation τ sig (Elt Ideal)) :
    (StableHlo.after (hostOps1 (F := Ideal)) W main_v49 : Cert.Spec.A3 2 1105 8)
    = aggOf (W main_arg11) (W main_v6) (StableHlo.after (hostOps1 (F := Ideal)) W main_v23) := by
  unfold aggOf
  after_results_simp

/-! ## What the earlier host operations and the message region leave untouched -/

/-- No host operation before the update region writes an argument or a degree vector, and the message region may change neither. -/
theorem V5_arg10 : Gen.V5 m (outs m) c main_arg10 = m ((c.tc : Thread nD τ).loc main_arg10) :=
  (V5_of m (outs m) c main_arg10 (by decide)).trans <| (V4_of m c main_arg10 (by decide)).trans <| (V3_of m c main_arg10 (by decide)).trans <| (V2_of m c main_arg10 (by decide)).trans <| (V1_of m c main_arg10 (by decide)).trans rfl
theorem V5_arg11 : Gen.V5 m (outs m) c main_arg11 = m ((c.tc : Thread nD τ).loc main_arg11) :=
  (V5_of m (outs m) c main_arg11 (by decide)).trans <| (V4_of m c main_arg11 (by decide)).trans <| (V3_of m c main_arg11 (by decide)).trans <| (V2_of m c main_arg11 (by decide)).trans <| (V1_of m c main_arg11 (by decide)).trans rfl
theorem V5_v3 : Gen.V5 m (outs m) c main_v3 = Gen.V1 m c main_v3 :=
  (V5_of m (outs m) c main_v3 (by decide)).trans <| (V4_of m c main_v3 (by decide)).trans <| (V3_of m c main_v3 (by decide)).trans <| (V2_of m c main_v3 (by decide))
theorem V5_v6 : Gen.V5 m (outs m) c main_v6 = Gen.V1 m c main_v6 :=
  (V5_of m (outs m) c main_v6 (by decide)).trans <| (V4_of m c main_v6 (by decide)).trans <| (V3_of m c main_v6 (by decide)).trans <| (V2_of m c main_v6 (by decide))

/-! ## The two averaged sums -/

theorem aggA_eq : aggA m c = aggOf (m ((c.tc : Thread nD τ).loc main_arg10)) (degS m c) (Gen.V6 m (outs m) c main_v22) := by
  refine (agg44_of (Gen.V5 m (outs m) c)).trans ?_
  rw [V5_arg10 m c, V5_v3 m c]
theorem aggB_eq : aggB m c = aggOf (m ((c.tc : Thread nD τ).loc main_arg11)) (degT m c) (Gen.V6 m (outs m) c main_v23) := by
  refine (agg49_of (Gen.V5 m (outs m) c)).trans ?_
  rw [V5_arg11 m c, V5_v6 m c]

/-- Before the update region the program's buffers do not depend on what that region leaves. -/
theorem V5_outsA : Gen.V5 m (outs m) c = Gen.V5 m (outsA m) c := by
  dsimp only [Gen.V5]
  rw [outs_five, outs_five, outs_five]
  rfl
theorem V6_outsA : Gen.V6 m (outs m) c = Gen.V6 m (outsA m) c := by
  show StableHlo.after hostOps1 (Gen.V5 m (outs m) c) = StableHlo.after hostOps1 (Gen.V5 m (outsA m) c)
  rw [V5_outsA]

/-- After the update region its result array holds what the region's 2 write-backs left. -/
theorem V7_v55 : Gen.V7 m (outs m) c main_v55 = (dat1 (F := Ideal) (E6 m) c).arrAt 7 cfg1.N := by
  show Function.update (Gen.V6 m (outs m) c) main_v55 (outs m 7 main_v55 c) main_v55 = _
  rw [Function.update_self, outs_seven]
  exact Pipeline.withArrays_arr spec1 launch1.win.arr_inj c _ _ 7

/-- The host operations between the two regions, read at the update region's operands, over any entry contents:
    the two averaged sums and the node table transposed, the two biases as columns. -/
theorem v50_of (W : Valuation τ sig (Elt Ideal)) :
    (StableHlo.after (hostOps1 (F := Ideal)) W main_v50 : Cert.Spec.A3 2 8 1105)
    = transpose S2x8x1105 [0, 2, 1] (StableHlo.after (hostOps1 (F := Ideal)) W main_v44 : Cert.Spec.A3 2 1105 8) transposes_S2x1105x8_S2x8x1105_0_2_1 := by
  after_results_simp
theorem v51_of (W : Valuation τ sig (Elt Ideal)) :
    (StableHlo.after (hostOps1 (F := Ideal)) W main_v51 : Cert.Spec.A3 2 8 1105)
    = transpose S2x8x1105 [0, 2, 1] (StableHlo.after (hostOps1 (F := Ideal)) W main_v49 : Cert.Spec.A3 2 1105 8) transposes_S2x1105x8_S2x8x1105_0_2_1 := by
  after_results_simp
theorem v52_of (W : Valuation τ sig (Elt Ideal)) :
    (StableHlo.after (hostOps1 (F := Ideal)) W main_v52 : Cert.Spec.A3 2 12 1105)
    = transpose S2x12x1105 [0, 2, 1] (W main_arg0 : Cert.Spec.A3 2 1105 12) transposes_S2x1105x12_S2x12x1105_0_2_1 := by
  after_results_simp
theorem v53_of (W : Valuation τ sig (Elt Ideal)) :
    (StableHlo.after (hostOps1 (F := Ideal)) W main_v53 : Cert.Spec.A2 16 1)
    = shapeCast S16x1 (W main_arg7 : Cert.Spec.A1 16) shapeCasts_S16_S16x1 := by
  after_results_simp <;> rfl
theorem v54_of (W : Valuation τ sig (Elt Ideal)) :
    (StableHlo.after (hostOps1 (F := Ideal)) W main_v54 : Cert.Spec.A2 8 1)
    = shapeCast S8x1 (W main_arg9 : Cert.Spec.A1 8) shapeCasts_S8_S8x1 := by
  after_results_simp <;> rfl

/-- The last host operations, read at the second result, over any entry contents. -/
theorem v58_of (W : Valuation τ sig (Elt Ideal)) :
    (StableHlo.after (hostOps2 (F := Ideal)) W main_v58 : Cert.Spec.A3 2 1105 12)
    = concatenate S2x1105x12 2
        [⟨S2x1105x8, transpose S2x1105x8 [0, 2, 1] (W main_v55 : Cert.Spec.A3 2 8 1105) transposes_S2x8x1105_S2x1105x8_0_2_1⟩,
         ⟨S2x1105x4, extractStridedSlice S2x1105x4 ![0, 0, 8] (W main_arg0 : Cert.Spec.A3 2 1105 12) slices_S2x1105x12_S2x1105x4_0_0_8⟩]
        concatenates_S2x1105x8_S2x1105x4_S2x1105x12_d2 := by
  after_results

/-! ## The layout operations around the update region, read at an index -/

section Layout

variable (aa ab : Cert.Spec.A3 2 1105 8) (nodes : Cert.Spec.A3 2 1105 12)
  (w1 : Cert.Spec.A2 16 28) (b1 : Cert.Spec.A1 16) (w2 : Cert.Spec.A2 8 16) (b2 : Cert.Spec.A1 8)

/-- A vector reshaped to one column is read at its row. -/
theorem shapeCast_colOf {n : Nat} (v : Cert.Spec.A1 n) (h : (⟨1, ![n]⟩ : Shape).ShapeCasts ⟨2, ![n, 1]⟩) :
    (shapeCast ⟨2, ![n, 1]⟩ v h : Cert.Spec.A2 n 1) = Cert.Spec.colOf v := by
  funext j
  refine shapeCast_apply v h j (ix1 (j 0)) ?_
  rw [Shape.rowMajor_val_one, Shape.rowMajor_val_two]
  have h1 : (j 1).val < 1 := idx2_lt1 j
  show (j 0).val = (j 0).val * 1 + (j 1).val
  omega

/-- The update features read off the transposed arrays are the features in the arrays' own layout. -/
theorem updFeatT_transposes (hA : S2x1105x8.Transposes [0, 2, 1] S2x8x1105) (hN : S2x1105x12.Transposes [0, 2, 1] S2x12x1105)
    (b : Fin 2) (n : Fin 1105) :
    Cert.Spec.updFeatT (transpose S2x8x1105 [0, 2, 1] aa hA) (transpose S2x8x1105 [0, 2, 1] ab hA)
      (transpose S2x12x1105 [0, 2, 1] nodes hN) b n
    = Cert.Spec.updFeat aa ab nodes b n := by
  funext f
  unfold Cert.Spec.updFeatT Cert.Spec.updFeat
  by_cases h : f.val < 8
  · rw [dif_pos h, dif_pos h]; exact transpose_ix3_021_apply aa hA b _ n
  · rw [dif_neg h, dif_neg h]
    by_cases h2 : f.val < 16
    · rw [dif_pos h2, dif_pos h2]; exact transpose_ix3_021_apply ab hA b _ n
    · rw [dif_neg h2, dif_neg h2]; exact transpose_ix3_021_apply nodes hN b _ n

/-- The returned table at one entry: channels 0..7 are the update region's result read through its transpose,
    channels 8..11 the node's own last four. -/
theorem newNodes_at
    (hA : S2x1105x8.Transposes [0, 2, 1] S2x8x1105) (hN : S2x1105x12.Transposes [0, 2, 1] S2x12x1105)
    (hD : S2x8x1105.Transposes [0, 2, 1] S2x1105x8) (hS : S2x1105x12.Slices ![0, 0, 8] S2x1105x4)
    (hC : Shape.Concatenates [S2x1105x8, S2x1105x4] S2x1105x12 2)
    (c1 : Cert.Spec.A2 16 1) (c2 : Cert.Spec.A2 8 1) (b : Fin 2) (n : Fin 1105) (f : Fin 12) :
    (concatenate S2x1105x12 2
      [⟨S2x1105x8, transpose S2x1105x8 [0, 2, 1]
          (Cert.Spec.newDynT (transpose S2x8x1105 [0, 2, 1] aa hA) (transpose S2x8x1105 [0, 2, 1] ab hA)
            (transpose S2x12x1105 [0, 2, 1] nodes hN) w1 c1 w2 c2) hD⟩,
       ⟨S2x1105x4, extractStridedSlice S2x1105x4 ![0, 0, 8] nodes hS⟩] hC : Cert.Spec.A3 2 1105 12) (ix3 b n f)
    = if h : f.val < 8 then
        Cert.Spec.clamp (nodes (ix3 b n f) + Cert.Spec.mlp w1 c1 w2 c2 (Cert.Spec.updFeat aa ab nodes b n) ⟨f.val, h⟩ * Cert.Spec.oneW)
      else nodes (ix3 b n f) := by
  by_cases h : f.val < 8
  · rw [dif_pos h]
    refine (concatenate_pair_apply_left _ _ _ hC (ix3 b n f) rfl (ix3 b n ⟨f.val, h⟩)
      (fun a => match a with | ⟨0, _⟩ => rfl | ⟨1, _⟩ => rfl | ⟨2, _⟩ => rfl)).trans ?_
    rw [transpose_ix3_021_apply _ hD b n ⟨f.val, h⟩]
    show Cert.Spec.newDynAt _ _ _ w1 c1 w2 c2 b ⟨f.val, h⟩ n = _
    unfold Cert.Spec.newDynAt
    rw [updFeatT_transposes, transpose_ix3_021_apply nodes hN b _ n]
  · rw [dif_neg h]
    have hf : f.val - 8 < 4 := by have := f.isLt; omega
    refine (concatenate_pair_apply_right _ _ _ hC (ix3 b n f) rfl rfl (ix3 b n ⟨f.val - 8, hf⟩)
      (fun a => match a with | ⟨0, _⟩ => fun _ => rfl | ⟨1, _⟩ => fun _ => rfl | ⟨2, _⟩ => fun hne => absurd rfl hne)
      (by show f.val - 8 + 8 = f.val; omega)).trans ?_
    refine extractStridedSlice_apply _ nodes hS _ (ix3 b n f) (fun a => match a with
      | ⟨0, _⟩ => by show b.val = 0 + b.val; omega
      | ⟨1, _⟩ => by show n.val = 0 + n.val; omega
      | ⟨2, _⟩ => by show f.val = 8 + (f.val - 8); omega)

theorem newNodes_of_layout
    (hA : S2x1105x8.Transposes [0, 2, 1] S2x8x1105) (hN : S2x1105x12.Transposes [0, 2, 1] S2x12x1105)
    (hB1 : S16.ShapeCasts S16x1) (hB2 : S8.ShapeCasts S8x1)
    (hD : S2x8x1105.Transposes [0, 2, 1] S2x1105x8) (hS : S2x1105x12.Slices ![0, 0, 8] S2x1105x4)
    (hC : Shape.Concatenates [S2x1105x8, S2x1105x4] S2x1105x12 2) :
    (concatenate S2x1105x12 2
      [⟨S2x1105x8, transpose S2x1105x8 [0, 2, 1]
          (Cert.Spec.newDynT (transpose S2x8x1105 [0, 2, 1] aa hA) (transpose S2x8x1105 [0, 2, 1] ab hA)
            (transpose S2x12x1105 [0, 2, 1] nodes hN) w1 (shapeCast S16x1 b1 hB1) w2 (shapeCast S8x1 b2 hB2)) hD⟩,
       ⟨S2x1105x4, extractStridedSlice S2x1105x4 ![0, 0, 8] nodes hS⟩] hC : Cert.Spec.A3 2 1105 12)
    = Cert.Spec.newNodes aa ab nodes w1 b1 w2 b2 := by
  funext j
  rw [shapeCast_colOf b1 hB1, shapeCast_colOf b2 hB2]
  exact (congrArg _ (eq_ix3 j)).trans (newNodes_at aa ab nodes w1 w2 hA hN hD hS hC _ _ (j 0) (j 1) (j 2))

end Layout

/-! ## The update region's operands and its result -/

theorem V5_arg0 : Gen.V5 m (outs m) c main_arg0 = m ((c.tc : Thread nD τ).loc main_arg0) :=
  (V5_of m (outs m) c main_arg0 (by decide)).trans <| (V4_of m c main_arg0 (by decide)).trans <| (V3_of m c main_arg0 (by decide)).trans <| (V2_of m c main_arg0 (by decide)).trans <| (V1_of m c main_arg0 (by decide)).trans rfl
theorem V5_arg6 : Gen.V5 m (outs m) c main_arg6 = m ((c.tc : Thread nD τ).loc main_arg6) :=
  (V5_of m (outs m) c main_arg6 (by decide)).trans <| (V4_of m c main_arg6 (by decide)).trans <| (V3_of m c main_arg6 (by decide)).trans <| (V2_of m c main_arg6 (by decide)).trans <| (V1_of m c main_arg6 (by decide)).trans rfl
theorem V5_arg7 : Gen.V5 m (outs m) c main_arg7 = m ((c.tc : Thread nD τ).loc main_arg7) :=
  (V5_of m (outs m) c main_arg7 (by decide)).trans <| (V4_of m c main_arg7 (by decide)).trans <| (V3_of m c main_arg7 (by decide)).trans <| (V2_of m c main_arg7 (by decide)).trans <| (V1_of m c main_arg7 (by decide)).trans rfl
theorem V5_arg8 : Gen.V5 m (outs m) c main_arg8 = m ((c.tc : Thread nD τ).loc main_arg8) :=
  (V5_of m (outs m) c main_arg8 (by decide)).trans <| (V4_of m c main_arg8 (by decide)).trans <| (V3_of m c main_arg8 (by decide)).trans <| (V2_of m c main_arg8 (by decide)).trans <| (V1_of m c main_arg8 (by decide)).trans rfl
theorem V5_arg9 : Gen.V5 m (outs m) c main_arg9 = m ((c.tc : Thread nD τ).loc main_arg9) :=
  (V5_of m (outs m) c main_arg9 (by decide)).trans <| (V4_of m c main_arg9 (by decide)).trans <| (V3_of m c main_arg9 (by decide)).trans <| (V2_of m c main_arg9 (by decide)).trans <| (V1_of m c main_arg9 (by decide)).trans rfl

/-- The update region's seven operands as the program holds them when the region is entered. -/
theorem V6_v50 : (Gen.V6 m (outs m) c main_v50 : Cert.Spec.A3 2 8 1105)
    = transpose S2x8x1105 [0, 2, 1] (aggA m c) transposes_S2x1105x8_S2x8x1105_0_2_1 := v50_of (Gen.V5 m (outs m) c)
theorem V6_v51 : (Gen.V6 m (outs m) c main_v51 : Cert.Spec.A3 2 8 1105)
    = transpose S2x8x1105 [0, 2, 1] (aggB m c) transposes_S2x1105x8_S2x8x1105_0_2_1 := v51_of (Gen.V5 m (outs m) c)
theorem V6_v52 : (Gen.V6 m (outs m) c main_v52 : Cert.Spec.A3 2 12 1105)
    = transpose S2x12x1105 [0, 2, 1] (m ((c.tc : Thread nD τ).loc main_arg0) : Cert.Spec.A3 2 1105 12) transposes_S2x1105x12_S2x12x1105_0_2_1 :=
  (v52_of (Gen.V5 m (outs m) c)).trans (by rw [V5_arg0 m c])
theorem V6_v53 : (Gen.V6 m (outs m) c main_v53 : Cert.Spec.A2 16 1)
    = shapeCast S16x1 (m ((c.tc : Thread nD τ).loc main_arg7) : Cert.Spec.A1 16) shapeCasts_S16_S16x1 :=
  (v53_of (Gen.V5 m (outs m) c)).trans (by rw [V5_arg7 m c])
theorem V6_v54 : (Gen.V6 m (outs m) c main_v54 : Cert.Spec.A2 8 1)
    = shapeCast S8x1 (m ((c.tc : Thread nD τ).loc main_arg9) : Cert.Spec.A1 8) shapeCasts_S8_S8x1 :=
  (v54_of (Gen.V5 m (outs m) c)).trans (by rw [V5_arg9 m c])
theorem V6_arg6 : Gen.V6 m (outs m) c main_arg6 = m ((c.tc : Thread nD τ).loc main_arg6) :=
  (V6_of m (outs m) c main_arg6 (by decide)).trans (V5_arg6 m c)
theorem V6_arg8 : Gen.V6 m (outs m) c main_arg8 = m ((c.tc : Thread nD τ).loc main_arg8) :=
  (V6_of m (outs m) c main_arg8 (by decide)).trans (V5_arg8 m c)
theorem V7_arg0 : Gen.V7 m (outs m) c main_arg0 = m ((c.tc : Thread nD τ).loc main_arg0) :=
  (V7_of m (outs m) c main_arg0 (by decide)).trans <| (V6_of m (outs m) c main_arg0 (by decide)).trans (V5_arg0 m c)

/-- The update region's result array after the run, over the averaged sums and the launch arrays. -/
theorem V7_v55_eq : (Gen.V7 m (outs m) c main_v55 : Cert.Spec.A3 2 8 1105)
    = Cert.Spec.newDynT
        (transpose S2x8x1105 [0, 2, 1] (aggA m c) transposes_S2x1105x8_S2x8x1105_0_2_1)
        (transpose S2x8x1105 [0, 2, 1] (aggB m c) transposes_S2x1105x8_S2x8x1105_0_2_1)
        (transpose S2x12x1105 [0, 2, 1] (m ((c.tc : Thread nD τ).loc main_arg0) : Cert.Spec.A3 2 1105 12) transposes_S2x1105x12_S2x12x1105_0_2_1)
        (m ((c.tc : Thread nD τ).loc main_arg6)) (shapeCast S16x1 (m ((c.tc : Thread nD τ).loc main_arg7) : Cert.Spec.A1 16) shapeCasts_S16_S16x1)
        (m ((c.tc : Thread nD τ).loc main_arg8)) (shapeCast S8x1 (m ((c.tc : Thread nD τ).loc main_arg9) : Cert.Spec.A1 8) shapeCasts_S8_S8x1) := by
  refine (V7_v55 m c).trans <| (arr1_7 (E6 m) c).trans ?_
  show Cert.Spec.newDynT (Gen.V6 m (outsA m) c main_v50) (Gen.V6 m (outsA m) c main_v51) (Gen.V6 m (outsA m) c main_v52)
    (Gen.V6 m (outsA m) c main_arg6) (Gen.V6 m (outsA m) c main_v53) (Gen.V6 m (outsA m) c main_arg8) (Gen.V6 m (outsA m) c main_v54) = _
  rw [← V6_outsA m c, V6_v50 m c, V6_v51 m c, V6_v52 m c, V6_v53 m c, V6_v54 m c, V6_arg6 m c, V6_arg8 m c]

/-- The returned new node table. -/
theorem K58_eq : (K58 m c : Cert.Spec.A3 2 1105 12)
    = Cert.Spec.newNodes (aggA m c) (aggB m c) (m ((c.tc : Thread nD τ).loc main_arg0))
        (m ((c.tc : Thread nD τ).loc main_arg6)) (m ((c.tc : Thread nD τ).loc main_arg7)) (m ((c.tc : Thread nD τ).loc main_arg8)) (m ((c.tc : Thread nD τ).loc main_arg9)) := by
  refine (v58_of (Gen.V7 m (outs m) c)).trans ?_
  rw [V7_v55_eq m c, V7_arg0 m c]
  exact newNodes_of_layout (aggA m c) (aggB m c) _ _ _ _ _ _ _ _ _ _ _ _

end Cert.KernelIdeal.Hand

end
-- ==== Proof.RefValue.lean ====
/-
  The reference program's stages at the extended reals, in the arrays' own layout: its message arrays, its
  new edge channels and its new node table are the step's formulas over its own degree vectors and averaged
  message sums. The reference reads a node row per edge through a gather, whose start word is read signed
  and clamped to the table's rows: the row function of the specification, for every endpoint word.

  The road: each stage is read at an index (batch, edge or node, channel). The two perceptrons are sums over
  the contraction index of feature times weight, which the specification writes weight times feature:
  products of extended reals commute. The joined feature rows are read piece by piece along the feature axis;
  the gathered pieces are read at the row their start word names. The clamp is the smaller of the upper bound
  and (the larger of the lower bound and the value), the same order on both sides.
-/
import proofs.«427296_j67087389163569_2_alg».proof.Proof.ReadP
import proofs.«427296_j67087389163569_2_alg».proof.Proof.SpecRef
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.ReferenceIdeal.Hand

open Cert.ReferenceIdeal Cert.ReferenceIdeal.Gen Cert.ReferenceIdeal.ReadP
open Idealize.ShloMosaic Idealize.ShloMosaic.TcCoe Idealize.ShloMosaic.ValueIdx

/-- The start word of a row read: a negative endpoint word has 1105 added. -/
theorem wrap_word (w : BitVec 32) :
    Scalar.select (IntOp.cmpi .slt w 0#32) (IntOp.addi w 1105#32) w = Cert.Spec.wrapW w := by
  unfold Scalar.select IntOp.cmpi IntOp.addi Cert.Spec.wrapW
  by_cases h : w.toInt < 0
  · have hs : w.slt 0#32 = true := by simp [BitVec.slt, h]
    rw [hs, if_pos h]; rfl
  · have hs : w.slt 0#32 = false := by simp [BitVec.slt, h]
    rw [hs, if_neg h]; rfl

/-! ## The two gathers at an index

The node-table gather keeps the batch and channel axes and reads, on the node axis, the row its start word names,
read signed and clamped to the 1105 rows; the degree gather is the same on a vector. -/

abbrev G3 := gather_S2x1105x12_S1132624x1_S2x1132624x12_02_1_n_n_1_1_2112
abbrev G1 := gather_S1105_S1132624x1_S1132624_n_0_n_n_0_1_1

section Rows
variable (b : Fin 2) (e : Fin 1132624) (f : Fin 12)

theorem g3_si0 (c : Fin G3.startIndexMap.length) :
    (G3.siIdx (ix3 b e f) c 0).val = e.val := by
  unfold GatherDims.siIdx
  rw [dif_neg (by decide)]
  rfl
theorem g3_si1 (c : Fin G3.startIndexMap.length) :
    (G3.siIdx (ix3 b e f) c 1).val = 0 := by
  unfold GatherDims.siIdx
  rw [dif_pos (by decide)]
  have : c.val < 1 := c.isLt
  show c.val = 0
  omega
/-- The start word edge e reads sits at (e, 0) of the start-index column. -/
theorem g3_si (c : Fin G3.startIndexMap.length) :
    G3.siIdx (ix3 b e f) c = ix2 e 0 := funext fun a => Fin.ext (by
  match a with
  | ⟨0, _⟩ => exact g3_si0 b e f c
  | ⟨1, _⟩ => exact g3_si1 b e f c)

theorem g3_axis0 (idx : IVec S1132624x1 32) :
    (G3.operandIdx (ix3 b e f) idx 0).val = b.val := by
  show G3.start (ix3 b e f) idx 0 + G3.batchCoord (ix3 b e f) 0 + G3.offCoord (ix3 b e f) 0 = b.val
  have hs : G3.start (ix3 b e f) idx 0 = 0 := by unfold GatherDims.start; rw [dif_neg (by decide)]
  have ho : G3.offCoord (ix3 b e f) 0 = b.val := by unfold GatherDims.offCoord; rw [dif_pos (by decide)]; rfl
  rw [GatherDims.batchCoord_eq_zero _ _ _ (by decide), hs, ho]
  omega
theorem g3_axis2 (idx : IVec S1132624x1 32) :
    (G3.operandIdx (ix3 b e f) idx 2).val = f.val := by
  show G3.start (ix3 b e f) idx 2 + G3.batchCoord (ix3 b e f) 2 + G3.offCoord (ix3 b e f) 2 = f.val
  have hs : G3.start (ix3 b e f) idx 2 = 0 := by unfold GatherDims.start; rw [dif_neg (by decide)]
  have ho : G3.offCoord (ix3 b e f) 2 = f.val := by unfold GatherDims.offCoord; rw [dif_pos (by decide)]; rfl
  rw [GatherDims.batchCoord_eq_zero _ _ _ (by decide), hs, ho]
  omega
theorem g3_axis1 (idx : IVec S1132624x1 32) :
    (G3.operandIdx (ix3 b e f) idx 1).val = min (idx (ix2 e 0)).toInt.toNat 1104 := by
  show G3.start (ix3 b e f) idx 1 + G3.batchCoord (ix3 b e f) 1 + G3.offCoord (ix3 b e f) 1 = _
  rw [GatherDims.batchCoord_eq_zero _ _ _ (by decide), GatherDims.offCoord_eq_zero _ _ _ (by decide)]
  unfold GatherDims.start
  rw [dif_pos (by decide), g3_si]
  rfl

/-- A node-table gather at (batch, edge, channel): the table's row r named by the edge's start word, read signed and
    clamped to the 1105 rows. -/
theorem gather_rows {α : Type} (x : S2x1105x12.Idx → α) (idx : IVec S1132624x1 32) (r : Fin 1105)
    (hr : r.val = min (idx (ix2 e 0)).toInt.toNat 1104) :
    Host.gather G3 x idx (ix3 b e f) = x (ix3 b r f) := by
  unfold Host.gather
  refine congrArg x (funext fun a => Fin.ext ?_)
  match a with
  | ⟨0, _⟩ => exact g3_axis0 b e f idx
  | ⟨1, _⟩ => exact (g3_axis1 b e f idx).trans hr.symm
  | ⟨2, _⟩ => exact g3_axis2 b e f idx

/-- A degree gather at an edge: the degree vector at the row r the edge's start word names. -/
theorem gather_deg {α : Type} (x : S1105.Idx → α) (idx : IVec S1132624x1 32) (r : Fin 1105)
    (hr : r.val = min (idx (ix2 e 0)).toInt.toNat 1104) :
    Host.gather G1 x idx (ix1 e) = x (ix1 r) := by
  have e1 : (ix1 e : S1132624.Idx) = Shape.Idx.ofFin e := funext fun a => by match a with | ⟨0, _⟩ => rfl
  have e2 : (StableHlo.Predicate.ixP e : S1132624x1.Idx) = ix2 e 0 := funext fun a => by match a with | ⟨0, _⟩ => rfl | ⟨1, _⟩ => rfl
  rw [e1]
  refine (StableHlo.Predicate.gather_take G1 rfl rfl rfl rfl x idx e (by decide)).trans ?_
  refine congrArg x (funext fun a => ?_)
  match a with
  | ⟨0, _⟩ =>
    refine Fin.ext ?_
    show min (idx (StableHlo.Predicate.ixP e)).toInt.toNat (1105 - 1) = r.val
    rw [e2, hr]

end Rows
section Cat
variable {α : Type}

/-- The five-piece feature row at (batch, edge, feature): which piece holds feature f, and where. -/
theorem cat5_at (A B : S2x1132624x12.Idx → α) (C : S2x1132624x8.Idx → α) (D E : S2x1132624x1.Idx → α)
    (b : Fin 2) (e : Fin 1132624) (f : Fin 34) :
    concatenate S2x1132624x34 2 [⟨S2x1132624x12, A⟩, ⟨S2x1132624x12, B⟩, ⟨S2x1132624x8, C⟩, ⟨S2x1132624x1, D⟩, ⟨S2x1132624x1, E⟩]
        concatenates_S2x1132624x12_S2x1132624x12_S2x1132624x8_S2x1132624x1_S2x1132624x1_S2x1132624x34_d2 (ix3 b e f)
      = if h : f.val < 12 then A (ix3 b e ⟨f.val, h⟩)
        else if h2 : f.val < 24 then B (ix3 b e ⟨f.val - 12, by omega⟩)
        else if h3 : f.val < 32 then C (ix3 b e ⟨f.val - 24, by omega⟩)
        else if f.val = 32 then D (ix3 b e 0)
        else E (ix3 b e 0) := by
  have hf : f.val < 34 := f.isLt
  by_cases h : f.val < 12
  · rw [dif_pos h]
    exact concatenate_apply_piece (2 : Fin S2x1132624x34.rank) _ _ (ix3 b e f) 0 (by show (0 : Nat) < 5; omega) S2x1132624x12 A rfl rfl 0 rfl
      (ix3 b e ⟨f.val, h⟩) (fun c hc => by
        match c with
        | ⟨0, _⟩ => rfl
        | ⟨1, _⟩ => rfl
        | ⟨2, _⟩ => exact absurd (Fin.ext rfl) hc) (by show 0 + f.val = f.val; omega)
  rw [dif_neg h]
  by_cases h2 : f.val < 24
  · rw [dif_pos h2]
    exact concatenate_apply_piece (2 : Fin S2x1132624x34.rank) _ _ (ix3 b e f) 1 (by show (1 : Nat) < 5; omega) S2x1132624x12 B rfl rfl 12 rfl
      (ix3 b e ⟨f.val - 12, by omega⟩) (fun c hc => by
        match c with
        | ⟨0, _⟩ => rfl
        | ⟨1, _⟩ => rfl
        | ⟨2, _⟩ => exact absurd (Fin.ext rfl) hc) (by show 12 + (f.val - 12) = f.val; omega)
  rw [dif_neg h2]
  by_cases h3 : f.val < 32
  · rw [dif_pos h3]
    exact concatenate_apply_piece (2 : Fin S2x1132624x34.rank) _ _ (ix3 b e f) 2 (by show (2 : Nat) < 5; omega) S2x1132624x8 C rfl rfl 24 rfl
      (ix3 b e ⟨f.val - 24, by omega⟩) (fun c hc => by
        match c with
        | ⟨0, _⟩ => rfl
        | ⟨1, _⟩ => rfl
        | ⟨2, _⟩ => exact absurd (Fin.ext rfl) hc) (by show 24 + (f.val - 24) = f.val; omega)
  rw [dif_neg h3]
  by_cases h4 : f.val = 32
  · rw [if_pos h4]
    exact concatenate_apply_piece (2 : Fin S2x1132624x34.rank) _ _ (ix3 b e f) 3 (by show (3 : Nat) < 5; omega) S2x1132624x1 D rfl rfl 32 rfl
      (ix3 b e 0) (fun c hc => by
        match c with
        | ⟨0, _⟩ => rfl
        | ⟨1, _⟩ => rfl
        | ⟨2, _⟩ => exact absurd (Fin.ext rfl) hc) (by show 32 + 0 = f.val; omega)
  · rw [if_neg h4]
    exact concatenate_apply_piece (2 : Fin S2x1132624x34.rank) _ _ (ix3 b e f) 4 (by show (4 : Nat) < 5; omega) S2x1132624x1 E rfl rfl 33 rfl
      (ix3 b e 0) (fun c hc => by
        match c with
        | ⟨0, _⟩ => rfl
        | ⟨1, _⟩ => rfl
        | ⟨2, _⟩ => exact absurd (Fin.ext rfl) hc) (by show 33 + 0 = f.val; omega)

/-- The three-piece update-feature row at (batch, node, feature). -/
theorem cat3_at (A B : S2x1105x8.Idx → α) (C : S2x1105x12.Idx → α) (b : Fin 2) (n : Fin 1105) (f : Fin 28) :
    concatenate S2x1105x28 2 [⟨S2x1105x8, A⟩, ⟨S2x1105x8, B⟩, ⟨S2x1105x12, C⟩]
        concatenates_S2x1105x8_S2x1105x8_S2x1105x12_S2x1105x28_d2 (ix3 b n f)
      = if h : f.val < 8 then A (ix3 b n ⟨f.val, h⟩)
        else if h2 : f.val < 16 then B (ix3 b n ⟨f.val - 8, by omega⟩)
        else C (ix3 b n ⟨f.val - 16, by omega⟩) := by
  have hf : f.val < 28 := f.isLt
  by_cases h : f.val < 8
  · rw [dif_pos h]
    exact concatenate_apply_piece (2 : Fin S2x1105x28.rank) _ _ (ix3 b n f) 0 (by show (0 : Nat) < 3; omega) S2x1105x8 A rfl rfl 0 rfl
      (ix3 b n ⟨f.val, h⟩) (fun c hc => by
        match c with
        | ⟨0, _⟩ => rfl
        | ⟨1, _⟩ => rfl
        | ⟨2, _⟩ => exact absurd (Fin.ext rfl) hc) (by show 0 + f.val = f.val; omega)
  rw [dif_neg h]
  by_cases h2 : f.val < 16
  · rw [dif_pos h2]
    exact concatenate_apply_piece (2 : Fin S2x1105x28.rank) _ _ (ix3 b n f) 1 (by show (1 : Nat) < 3; omega) S2x1105x8 B rfl rfl 8 rfl
      (ix3 b n ⟨f.val - 8, by omega⟩) (fun c hc => by
        match c with
        | ⟨0, _⟩ => rfl
        | ⟨1, _⟩ => rfl
        | ⟨2, _⟩ => exact absurd (Fin.ext rfl) hc) (by show 8 + (f.val - 8) = f.val; omega)
  · rw [dif_neg h2]
    exact concatenate_apply_piece (2 : Fin S2x1105x28.rank) _ _ (ix3 b n f) 2 (by show (2 : Nat) < 3; omega) S2x1105x12 C rfl rfl 16 rfl
      (ix3 b n ⟨f.val - 16, by omega⟩) (fun c hc => by
        match c with
        | ⟨0, _⟩ => rfl
        | ⟨1, _⟩ => rfl
        | ⟨2, _⟩ => exact absurd (Fin.ext rfl) hc) (by show 16 + (f.val - 16) = f.val; omega)

/-- The two-piece new node row at (batch, node, channel). -/
theorem cat2_at (A : S2x1105x8.Idx → α) (B : S2x1105x4.Idx → α) (b : Fin 2) (n : Fin 1105) (f : Fin 12) :
    concatenate S2x1105x12 2 [⟨S2x1105x8, A⟩, ⟨S2x1105x4, B⟩] concatenates_S2x1105x8_S2x1105x4_S2x1105x12_d2 (ix3 b n f)
      = if h : f.val < 8 then A (ix3 b n ⟨f.val, h⟩) else B (ix3 b n ⟨f.val - 8, by omega⟩) := by
  have hf : f.val < 12 := f.isLt
  by_cases h : f.val < 8
  · rw [dif_pos h]
    exact concatenate_apply_piece (2 : Fin S2x1105x12.rank) _ _ (ix3 b n f) 0 (by show (0 : Nat) < 2; omega) S2x1105x8 A rfl rfl 0 rfl
      (ix3 b n ⟨f.val, h⟩) (fun c hc => by
        match c with
        | ⟨0, _⟩ => rfl
        | ⟨1, _⟩ => rfl
        | ⟨2, _⟩ => exact absurd (Fin.ext rfl) hc) (by show 0 + f.val = f.val; omega)
  · rw [dif_neg h]
    exact concatenate_apply_piece (2 : Fin S2x1105x12.rank) _ _ (ix3 b n f) 1 (by show (1 : Nat) < 2; omega) S2x1105x4 B rfl rfl 8 rfl
      (ix3 b n ⟨f.val - 8, by omega⟩) (fun c hc => by
        match c with
        | ⟨0, _⟩ => rfl
        | ⟨1, _⟩ => rfl
        | ⟨2, _⟩ => exact absurd (Fin.ext rfl) hc) (by show 8 + (f.val - 8) = f.val; omega)

end Cat

/-- A perceptron from its hidden layer: with the hidden unit k the rectified sum of feature times weight plus
    bias, the sum of hidden unit times weight plus bias is the specification's perceptron (products commute). -/
theorem mlp_of_hidden {nin nh nout : Nat} (w1 : Cert.Spec.A2 nh nin) (b1 : Cert.Spec.A1 nh) (w2 : Cert.Spec.A2 nout nh)
    (b2 : Cert.Spec.A1 nout) (X : Fin nin → EReal) (H : Fin nh → EReal) (o : Fin nout)
    (hH : ∀ k, H k = max ((∑ f : Fin nin, X f * w1 (ix2 k f)) + b1 (ix1 k)) Cert.Spec.zeroW) :
    (∑ k : Fin nh, H k * w2 (ix2 o k)) + b2 (ix1 o)
      = Cert.Spec.mlp w1 (Cert.Spec.colOf b1) w2 (Cert.Spec.colOf b2) X o := by
  show _ = (∑ k : Fin nh, w2 (ix2 o k) * max ((∑ f : Fin nin, w1 (ix2 k f) * X f) + b1 (ix1 k)) Cert.Spec.zeroW) + b2 (ix1 o)
  refine congrArg (· + b2 (ix1 o)) (Finset.sum_congr rfl fun k _ => ?_)
  rw [hH k, mul_comm]
  refine congrArg (fun s => w2 (ix2 o k) * max (s + b1 (ix1 k)) Cert.Spec.zeroW) (Finset.sum_congr rfl fun f _ => mul_comm _ _)

variable (x0 : (⟨S2x1105x12, .f32⟩ : BufTy).Contents (Elt Ideal)) (x1 : (⟨S2x1132624x8, .f32⟩ : BufTy).Contents (Elt Ideal))
  (x2 : (⟨S32x34, .f32⟩ : BufTy).Contents (Elt Ideal)) (x3 : (⟨S32, .f32⟩ : BufTy).Contents (Elt Ideal))
  (x4 : (⟨S24x32, .f32⟩ : BufTy).Contents (Elt Ideal)) (x5 : (⟨S24, .f32⟩ : BufTy).Contents (Elt Ideal))
  (x6 : (⟨S16x28, .f32⟩ : BufTy).Contents (Elt Ideal)) (x7 : (⟨S16, .f32⟩ : BufTy).Contents (Elt Ideal))
  (x8 : (⟨S8x16, .f32⟩ : BufTy).Contents (Elt Ideal)) (x9 : (⟨S8, .f32⟩ : BufTy).Contents (Elt Ideal))
  (x10 x11 : (⟨S1132624, .i32⟩ : BufTy).Contents (Elt Ideal))

/-! ## The start words: the endpoint word, wrapped when negative -/

theorem start_v13 (e : Fin 1132624) :
    val_main_v13 (F := Ideal) x10 (ix2 e 0) = Cert.Spec.wrapW (x10 (ix1 e)) := by
  have hi : idx_main_v13 (ix2 e 0) = ix1 e := funext fun a => by match a with | ⟨0, _⟩ => rfl
  rw [val_main_v13_apply, hi, val_main_v12_apply, val_main_v9_apply, val_main_v11_apply, val_main_v8_apply,
    val_main_v10_apply, val_main_c_apply, val_main_c_3_apply]
  exact wrap_word _
theorem start_v22 (e : Fin 1132624) :
    val_main_v22 (F := Ideal) x11 (ix2 e 0) = Cert.Spec.wrapW (x11 (ix1 e)) := by
  have hi : idx_main_v22 (ix2 e 0) = ix1 e := funext fun a => by match a with | ⟨0, _⟩ => rfl
  rw [val_main_v22_apply, hi, val_main_v21_apply, val_main_v18_apply, val_main_v20_apply, val_main_v17_apply,
    val_main_v19_apply, val_main_c_4_apply, val_main_c_5_apply]
  exact wrap_word _
theorem start_v31 (e : Fin 1132624) :
    val_main_v31 (F := Ideal) x10 (ix2 e 0) = Cert.Spec.wrapW (x10 (ix1 e)) := by
  have hi : idx_main_v31 (ix2 e 0) = ix1 e := funext fun a => by match a with | ⟨0, _⟩ => rfl
  rw [val_main_v31_apply, hi, val_main_v30_apply, val_main_v27_apply, val_main_v29_apply, val_main_v26_apply,
    val_main_v28_apply, val_main_c_6_apply, val_main_c_7_apply]
  exact wrap_word _
theorem start_v38 (e : Fin 1132624) :
    val_main_v38 (F := Ideal) x11 (ix2 e 0) = Cert.Spec.wrapW (x11 (ix1 e)) := by
  have hi : idx_main_v38 (ix2 e 0) = ix1 e := funext fun a => by match a with | ⟨0, _⟩ => rfl
  rw [val_main_v38_apply, hi, val_main_v37_apply, val_main_v34_apply, val_main_v36_apply, val_main_v33_apply,
    val_main_v35_apply, val_main_c_8_apply, val_main_c_9_apply]
  exact wrap_word _

/-! ## The gathered rows and degrees -/

/-- The source-row gather reads the node table at the source row. -/
theorem row_v32 (b : Fin 2) (e : Fin 1132624) (f : Fin 12) :
    val_main_v32 (F := Ideal) x0 x10 (ix3 b e f) = x0 (ix3 b (Cert.Spec.rowOf x10 e) f) := by
  unfold val_main_v32
  refine gather_rows b e f _ _ (Cert.Spec.rowOf x10 e) ?_
  show min (Cert.Spec.wrapW (x10 (ix1 e))).toInt.toNat 1104 = min ((val_main_v31 (F := Ideal) x10) (ix2 e 0)).toInt.toNat 1104
  rw [start_v31]
/-- The target-row gather reads the node table at the target row. -/
theorem row_v39 (b : Fin 2) (e : Fin 1132624) (f : Fin 12) :
    val_main_v39 (F := Ideal) x0 x11 (ix3 b e f) = x0 (ix3 b (Cert.Spec.rowOf x11 e) f) := by
  unfold val_main_v39
  refine gather_rows b e f _ _ (Cert.Spec.rowOf x11 e) ?_
  show min (Cert.Spec.wrapW (x11 (ix1 e))).toInt.toNat 1104 = min ((val_main_v38 (F := Ideal) x11) (ix2 e 0)).toInt.toNat 1104
  rw [start_v38]
/-- The broadcast out-degree column reads the out-degree vector at the source row. -/
theorem deg_v16 (b : Fin 2) (e : Fin 1132624) :
    val_main_v16 (F := Ideal) x10 (ix3 b e 0) = val_main_v3 (F := Ideal) x10 (ix1 (Cert.Spec.rowOf x10 e)) := by
  have hi : idx_main_v15 (idx_main_v16 (ix3 b e 0)) = ix1 e := funext fun a => by match a with | ⟨0, _⟩ => rfl
  rw [val_main_v16_apply, val_main_v15_apply, hi]
  unfold val_main_v14
  refine gather_deg e _ _ (Cert.Spec.rowOf x10 e) ?_
  show min (Cert.Spec.wrapW (x10 (ix1 e))).toInt.toNat 1104 = min ((val_main_v13 (F := Ideal) x10) (ix2 e 0)).toInt.toNat 1104
  rw [start_v13]
/-- The broadcast in-degree column reads the in-degree vector at the target row. -/
theorem deg_v25 (b : Fin 2) (e : Fin 1132624) :
    val_main_v25 (F := Ideal) x11 (ix3 b e 0) = val_main_v7 (F := Ideal) x11 (ix1 (Cert.Spec.rowOf x11 e)) := by
  have hi : idx_main_v24 (idx_main_v25 (ix3 b e 0)) = ix1 e := funext fun a => by match a with | ⟨0, _⟩ => rfl
  rw [val_main_v25_apply, val_main_v24_apply, hi]
  unfold val_main_v23
  refine gather_deg e _ _ (Cert.Spec.rowOf x11 e) ?_
  show min (Cert.Spec.wrapW (x11 (ix1 e))).toInt.toNat 1104 = min ((val_main_v22 (F := Ideal) x11) (ix2 e 0)).toInt.toNat 1104
  rw [start_v22]

/-! ## The message perceptron -/

/-- The joined feature row is the specification's 34 message features. -/
theorem ref_feat (b : Fin 2) (e : Fin 1132624) (f : Fin 34) :
    val_main_v40 (F := Ideal) x0 x1 x10 x11 (ix3 b e f)
      = Cert.Spec.msgFeat x0 x1 (val_main_v3 (F := Ideal) x10) (val_main_v7 (F := Ideal) x11)
          (Cert.Spec.rowOf x10) (Cert.Spec.rowOf x11) b e f := by
  unfold val_main_v40
  rw [cat5_at]
  unfold Cert.Spec.msgFeat
  by_cases h : f.val < 12
  · rw [dif_pos h, dif_pos h]; exact row_v32 x0 x10 b e _
  rw [dif_neg h, dif_neg h]
  by_cases h2 : f.val < 24
  · rw [dif_pos h2, dif_pos h2]; exact row_v39 x0 x11 b e _
  rw [dif_neg h2, dif_neg h2]
  by_cases h3 : f.val < 32
  · rw [dif_pos h3, dif_pos h3]
  rw [dif_neg h3, dif_neg h3]
  by_cases h4 : f.val = 32
  · rw [if_pos h4, if_pos h4]; exact deg_v16 x10 b e
  · rw [if_neg h4, if_neg h4]; exact deg_v25 x11 b e

/-- The rectified hidden unit k of edge e. -/
theorem ref_hidden (b : Fin 2) (e : Fin 1132624) (k : Fin 32) :
    val_main_v45 (F := Ideal) x0 x1 x2 x3 x10 x11 (ix3 b e k)
      = max ((∑ f : Fin 34, Cert.Spec.msgFeat x0 x1 (val_main_v3 (F := Ideal) x10) (val_main_v7 (F := Ideal) x11)
          (Cert.Spec.rowOf x10) (Cert.Spec.rowOf x11) b e f * x2 (ix2 k f)) + x3 (ix1 k)) Cert.Spec.zeroW := by
  have e1 : ∀ f : Fin 34, lidx_main_v41 (ix3 b e k) f = ix3 b e f := fun f => funext fun a => by
    match a with | ⟨0, _⟩ => rfl | ⟨1, _⟩ => rfl | ⟨2, _⟩ => rfl
  have e2 : ∀ f : Fin 34, ridx_main_v41 (ix3 b e k) f = ix2 k f := fun f => funext fun a => by
    match a with | ⟨0, _⟩ => rfl | ⟨1, _⟩ => rfl
  have e3 : idx_main_v42 (idx_main_v43 (ix3 b e k)) = ix1 k := funext fun a => by match a with | ⟨0, _⟩ => rfl
  rw [val_main_v45_apply, val_main_v44_apply, val_main_v41_apply, val_main_v43_apply, val_main_v42_apply, e3,
    val_main_call0_v0_apply, val_main_call0_cst_apply]
  simp only [e1, e2, ref_feat]
  rfl

/-- The 24 message outputs of edge e. -/
theorem ref_msg (b : Fin 2) (e : Fin 1132624) (o : Fin 24) :
    val_main_v49 (F := Ideal) x0 x1 x2 x3 x4 x5 x10 x11 (ix3 b e o)
      = Cert.Spec.msg x0 x1 (val_main_v3 (F := Ideal) x10) (val_main_v7 (F := Ideal) x11)
          (Cert.Spec.rowOf x10) (Cert.Spec.rowOf x11) x2 x3 x4 x5 b e o := by
  have e1 : ∀ k : Fin 32, lidx_main_v46 (ix3 b e o) k = ix3 b e k := fun k => funext fun a => by
    match a with | ⟨0, _⟩ => rfl | ⟨1, _⟩ => rfl | ⟨2, _⟩ => rfl
  have e2 : ∀ k : Fin 32, ridx_main_v46 (ix3 b e o) k = ix2 o k := fun k => funext fun a => by
    match a with | ⟨0, _⟩ => rfl | ⟨1, _⟩ => rfl
  have e3 : idx_main_v47 (idx_main_v48 (ix3 b e o)) = ix1 o := funext fun a => by match a with | ⟨0, _⟩ => rfl
  rw [val_main_v49_apply, val_main_v46_apply, val_main_v48_apply, val_main_v47_apply, e3]
  simp only [e1, e2]
  exact mlp_of_hidden x2 x3 x4 x5 _ (fun k => val_main_v45 (F := Ideal) x0 x1 x2 x3 x10 x11 (ix3 b e k)) o
    (fun k => ref_hidden x0 x1 x2 x3 x10 x11 b e k)

/-- The source-side messages. -/
theorem ref_msgA : (val_main_v50 (F := Ideal) x0 x1 x2 x3 x4 x5 x10 x11 : Cert.Spec.A3 2 1132624 8)
    = Cert.Spec.msgA x0 x1 (val_main_v3 (F := Ideal) x10) (val_main_v7 (F := Ideal) x11) (Cert.Spec.rowOf x10) (Cert.Spec.rowOf x11) x2 x3 x4 x5 := by
  funext i
  obtain ⟨b, e, j, rfl⟩ : ∃ (b : Fin 2) (e : Fin 1132624) (j : Fin 8), i = ix3 b e j := ⟨i 0, i 1, i 2, eq_ix3 i⟩
  have hi : idx_main_v50 (ix3 b e j) = ix3 b e ⟨j.val, by omega⟩ := funext fun a => by
    match a with | ⟨0, _⟩ => rfl | ⟨1, _⟩ => rfl | ⟨2, _⟩ => rfl
  rw [val_main_v50_apply, hi]
  exact ref_msg x0 x1 x2 x3 x4 x5 x10 x11 b e _

/-- The target-side messages. -/
theorem ref_msgB : (val_main_v51 (F := Ideal) x0 x1 x2 x3 x4 x5 x10 x11 : Cert.Spec.A3 2 1132624 8)
    = Cert.Spec.msgB x0 x1 (val_main_v3 (F := Ideal) x10) (val_main_v7 (F := Ideal) x11) (Cert.Spec.rowOf x10) (Cert.Spec.rowOf x11) x2 x3 x4 x5 := by
  funext i
  obtain ⟨b, e, j, rfl⟩ : ∃ (b : Fin 2) (e : Fin 1132624) (j : Fin 8), i = ix3 b e j := ⟨i 0, i 1, i 2, eq_ix3 i⟩
  have hi : idx_main_v51 (ix3 b e j) = ix3 b e ⟨8 + j.val, by omega⟩ := funext fun a => by
    match a with | ⟨0, _⟩ => rfl | ⟨1, _⟩ => rfl | ⟨2, _⟩ => rfl
  rw [val_main_v51_apply, hi]
  exact ref_msg x0 x1 x2 x3 x4 x5 x10 x11 b e _

/-- The new edge channels. -/
theorem ref_newEdges : (val_main_v99 (F := Ideal) x0 x1 x2 x3 x4 x5 x10 x11 : Cert.Spec.A3 2 1132624 8)
    = Cert.Spec.newEdges x0 x1 (val_main_v3 (F := Ideal) x10) (val_main_v7 (F := Ideal) x11) (Cert.Spec.rowOf x10) (Cert.Spec.rowOf x11) x2 x3 x4 x5 := by
  funext i
  obtain ⟨b, e, j, rfl⟩ : ∃ (b : Fin 2) (e : Fin 1132624) (j : Fin 8), i = ix3 b e j := ⟨i 0, i 1, i 2, eq_ix3 i⟩
  have hi : idx_main_v52 (ix3 b e j) = ix3 b e ⟨16 + j.val, by omega⟩ := funext fun a => by
    match a with | ⟨0, _⟩ => rfl | ⟨1, _⟩ => rfl | ⟨2, _⟩ => rfl
  rw [val_main_v99_apply, val_main_call3_v4_apply, val_main_call3_v3_apply, val_main_cst_23_apply,
    val_main_call3_v2_apply, val_main_call3_v1_apply, val_main_call3_v0_apply, val_main_cst_22_apply,
    val_main_v98_apply, val_main_v97_apply, val_main_v96_apply, val_main_cst_21_apply, val_main_v52_apply, hi,
    ref_msg]
  rfl

/-! ## The update perceptron -/

/-- The joined update-feature row is the specification's 28 update features, over the reference's own averaged sums. -/
theorem ref_updFeat (b : Fin 2) (n : Fin 1105) (f : Fin 28) :
    val_main_v79 (F := Ideal) x0 x1 x2 x3 x4 x5 x10 x11 (ix3 b n f)
      = Cert.Spec.updFeat (val_main_v73 (F := Ideal) x0 x1 x2 x3 x4 x5 x10 x11)
          (val_main_v78 (F := Ideal) x0 x1 x2 x3 x4 x5 x10 x11) x0 b n f := by
  unfold val_main_v79
  rw [cat3_at]
  rfl

/-- The rectified hidden unit k of node n. -/
theorem ref_updHidden (b : Fin 2) (n : Fin 1105) (k : Fin 16) :
    val_main_v84 (F := Ideal) x0 x1 x2 x3 x4 x5 x6 x7 x10 x11 (ix3 b n k)
      = max ((∑ f : Fin 28, Cert.Spec.updFeat (val_main_v73 (F := Ideal) x0 x1 x2 x3 x4 x5 x10 x11)
          (val_main_v78 (F := Ideal) x0 x1 x2 x3 x4 x5 x10 x11) x0 b n f * x6 (ix2 k f)) + x7 (ix1 k)) Cert.Spec.zeroW := by
  have e1 : ∀ f : Fin 28, lidx_main_v80 (ix3 b n k) f = ix3 b n f := fun f => funext fun a => by
    match a with | ⟨0, _⟩ => rfl | ⟨1, _⟩ => rfl | ⟨2, _⟩ => rfl
  have e2 : ∀ f : Fin 28, ridx_main_v80 (ix3 b n k) f = ix2 k f := fun f => funext fun a => by
    match a with | ⟨0, _⟩ => rfl | ⟨1, _⟩ => rfl
  have e3 : idx_main_v81 (idx_main_v82 (ix3 b n k)) = ix1 k := funext fun a => by match a with | ⟨0, _⟩ => rfl
  rw [val_main_v84_apply, val_main_v83_apply, val_main_v80_apply, val_main_v82_apply, val_main_v81_apply, e3,
    val_main_call1_v0_apply, val_main_call1_cst_apply]
  simp only [e1, e2, ref_updFeat]
  rfl

/-- The 8 update outputs of node n. -/
theorem ref_upd (b : Fin 2) (n : Fin 1105) (o : Fin 8) :
    val_main_v88 (F := Ideal) x0 x1 x2 x3 x4 x5 x6 x7 x8 x9 x10 x11 (ix3 b n o)
      = Cert.Spec.mlp x6 (Cert.Spec.colOf x7) x8 (Cert.Spec.colOf x9)
          (Cert.Spec.updFeat (val_main_v73 (F := Ideal) x0 x1 x2 x3 x4 x5 x10 x11)
            (val_main_v78 (F := Ideal) x0 x1 x2 x3 x4 x5 x10 x11) x0 b n) o := by
  have e1 : ∀ k : Fin 16, lidx_main_v85 (ix3 b n o) k = ix3 b n k := fun k => funext fun a => by
    match a with | ⟨0, _⟩ => rfl | ⟨1, _⟩ => rfl | ⟨2, _⟩ => rfl
  have e2 : ∀ k : Fin 16, ridx_main_v85 (ix3 b n o) k = ix2 o k := fun k => funext fun a => by
    match a with | ⟨0, _⟩ => rfl | ⟨1, _⟩ => rfl
  have e3 : idx_main_v86 (idx_main_v87 (ix3 b n o)) = ix1 o := funext fun a => by match a with | ⟨0, _⟩ => rfl
  rw [val_main_v88_apply, val_main_v85_apply, val_main_v87_apply, val_main_v86_apply, e3]
  simp only [e1, e2]
  exact mlp_of_hidden x6 x7 x8 x9 _ (fun k => val_main_v84 (F := Ideal) x0 x1 x2 x3 x4 x5 x6 x7 x10 x11 (ix3 b n k)) o
    (fun k => ref_updHidden x0 x1 x2 x3 x4 x5 x6 x7 x10 x11 b n k)

/-- The new node table, over the reference's own averaged message sums. -/
theorem ref_newNodes : (val_main_v95 (F := Ideal) x0 x1 x2 x3 x4 x5 x6 x7 x8 x9 x10 x11 : Cert.Spec.A3 2 1105 12)
    = Cert.Spec.newNodes (val_main_v73 (F := Ideal) x0 x1 x2 x3 x4 x5 x10 x11) (val_main_v78 (F := Ideal) x0 x1 x2 x3 x4 x5 x10 x11) x0 x6 x7 x8 x9 := by
  funext i
  obtain ⟨b, n, f, rfl⟩ : ∃ (b : Fin 2) (n : Fin 1105) (f : Fin 12), i = ix3 b n f := ⟨i 0, i 1, i 2, eq_ix3 i⟩
  show val_main_v95 (F := Ideal) x0 x1 x2 x3 x4 x5 x6 x7 x8 x9 x10 x11 (ix3 b n f)
    = Cert.Spec.newNodesAt (val_main_v73 (F := Ideal) x0 x1 x2 x3 x4 x5 x10 x11)
        (val_main_v78 (F := Ideal) x0 x1 x2 x3 x4 x5 x10 x11) x0 x6 x7 x8 x9 b n f
  unfold val_main_v95 Cert.Spec.newNodesAt
  rw [cat2_at]
  by_cases h : f.val < 8
  · have hi : idx_main_v89 (ix3 b n (⟨f.val, h⟩ : Fin 8)) = ix3 b n f := funext fun a => by
      match a with | ⟨0, _⟩ => rfl | ⟨1, _⟩ => rfl | ⟨2, _⟩ => rfl
    rw [dif_pos h, dif_pos h, val_main_v93_apply, val_main_call2_v4_apply, val_main_call2_v3_apply, val_main_cst_20_apply,
      val_main_call2_v2_apply, val_main_call2_v1_apply, val_main_call2_v0_apply, val_main_cst_19_apply,
      val_main_v92_apply, val_main_v89_apply, hi, val_main_v91_apply, val_main_v90_apply, val_main_cst_18_apply,
      ref_upd]
    rfl
  · have hf : f.val < 12 := f.isLt
    have hi : idx_main_v94 (ix3 b n (⟨f.val - 8, by omega⟩ : Fin 4)) = ix3 b n f := funext fun a => by
      match a with
      | ⟨0, _⟩ => rfl
      | ⟨1, _⟩ => rfl
      | ⟨2, _⟩ => exact Fin.ext (by show 8 + (f.val - 8) = f.val; omega)
    rw [dif_neg h, dif_neg h, val_main_v94_apply, hi]

end Cert.ReferenceIdeal.Hand

end
-- ==== Proof.Bridge.lean ====
/-
  The two programs end with equal results. Both sides are the step's formulas over the same degree vectors
  (ones summed onto the named rows: one host function of the endpoint words), the same row per edge (the
  wrapped endpoint word clamped to the table), and the same degree-averaged sums (one host function of the
  endpoint words, the degrees and the message array); inside the endpoint range the kernel's gathered
  tables hold the rows themselves, so the messages agree, hence the averaged sums, hence the node tables.
-/
import proofs.«427296_j67087389163569_2_alg».proof.Proof.KernelValueA
import proofs.«427296_j67087389163569_2_alg».proof.Proof.KernelValueB
import proofs.«427296_j67087389163569_2_alg».proof.Proof.RefValue

noncomputable section

namespace Cert.Proof.Bridge

open Idealize.ShloMosaic Idealize.ShloMosaic.TcCoe Idealize.SL.Sem
open Cert.KernelIdeal.Hand Cert.ReferenceIdeal.ReadP Cert.ReferenceIdeal.Hand

/-- The reference's degree vector is the same host function of the endpoint words. -/
theorem deg_eq (idx : Cert.Spec.I1 1132624) :
    (val_main_v3 (F := Ideal) idx : Cert.Spec.A1 1105) = degOf idx := by
  unfold val_main_v3 val_main_v1 val_main_v2 val_main_v0 val_main_cst val_main_cst_0 degOf
  rfl

theorem deg_eq' (idx : Cert.Spec.I1 1132624) :
    (val_main_v7 (F := Ideal) idx : Cert.Spec.A1 1105) = degOf idx := by
  unfold val_main_v7 val_main_v5 val_main_v6 val_main_v4 val_main_cst_1 val_main_cst_2 degOf
  rfl

/-- The reference's source-side averaged sum is the same host function of the endpoint words, the degrees and the
    message array. -/
theorem agg_eq (x0 : Cert.Spec.A3 2 1105 12) (x1 : Cert.Spec.A3 2 1132624 8) (x2 : Cert.Spec.A2 32 34) (x3 : Cert.Spec.A1 32) (x4 : Cert.Spec.A2 24 32) (x5 : Cert.Spec.A1 24) (x10 x11 : Cert.Spec.I1 1132624) :
    (val_main_v73 (F := Ideal) x0 x1 x2 x3 x4 x5 x10 x11 : Cert.Spec.A3 2 1105 8)
      = aggOf x10 (val_main_v3 (F := Ideal) x10) (val_main_v50 (F := Ideal) x0 x1 x2 x3 x4 x5 x10 x11) := by
  unfold val_main_v73 val_main_v60 val_main_v72 val_main_v71 val_main_v70 val_main_v69 val_main_v59 val_main_v58 val_main_v57
    val_main_v56 val_main_v55 val_main_v54 val_main_v53 val_main_cst_10 val_main_c_11 val_main_c_12 val_main_cst_16 aggOf
  rfl

/-- The target-side one likewise. -/
theorem agg_eq' (x0 : Cert.Spec.A3 2 1105 12) (x1 : Cert.Spec.A3 2 1132624 8) (x2 : Cert.Spec.A2 32 34) (x3 : Cert.Spec.A1 32) (x4 : Cert.Spec.A2 24 32) (x5 : Cert.Spec.A1 24) (x10 x11 : Cert.Spec.I1 1132624) :
    (val_main_v78 (F := Ideal) x0 x1 x2 x3 x4 x5 x10 x11 : Cert.Spec.A3 2 1105 8)
      = aggOf x11 (val_main_v7 (F := Ideal) x11) (val_main_v51 (F := Ideal) x0 x1 x2 x3 x4 x5 x10 x11) := by
  unfold val_main_v78 val_main_v68 val_main_v77 val_main_v76 val_main_v75 val_main_v74 val_main_v67 val_main_v66 val_main_v65
    val_main_v64 val_main_v63 val_main_v62 val_main_v61 val_main_cst_13 val_main_c_14 val_main_c_15 val_main_cst_17 aggOf
  rfl

variable (m : (ℓ : Loc Cert.KernelIdeal.nD Cert.KernelIdeal.τ Cert.KernelIdeal.sig) → Buf (Elt Ideal) ℓ) (c : Dev Cert.KernelIdeal.nD)
  (hS : Cert.Spec.InRange (m ((c.tc : Thread Cert.KernelIdeal.nD Cert.KernelIdeal.τ).loc Cert.KernelIdeal.main_arg10)))
  (hT : Cert.Spec.InRange (m ((c.tc : Thread Cert.KernelIdeal.nD Cert.KernelIdeal.τ).loc Cert.KernelIdeal.main_arg11)))

include hS hT in
/-- The kernel's new edge channels are the reference's stage at the same arguments. -/
theorem edges_eq : (K21 m c : Cert.Spec.A3 2 1132624 8)
    = val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [K21_eq m c hS hT, ref_newEdges, degS_eq, degT_eq, deg_eq, deg_eq']

include hS hT in
/-- The kernel's new node table is the reference's stage at the same arguments. -/
theorem nodes_eq : (K58 m c : Cert.Spec.A3 2 1105 12)
    = val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [K58_eq m c, ref_newNodes, agg_eq, agg_eq', aggA_eq, aggB_eq, msgA_eq m c hS hT, msgB_eq m c hS hT, ref_msgA, ref_msgB,
    degS_eq, degT_eq, deg_eq, deg_eq']

end Cert.Proof.Bridge

end
-- ==== Proof.lean ====
/-
  The certificate: a graph-network step computed by two kernels (per-edge messages, per-node updates) between
  host gathers and scatter-adds, against its jnp reference, over the extended reals.

  Under the precondition every float input is finite and every edge endpoint word lies in the node table's
  signed range -1105 ≤ w < 1105 (outside it the reference itself indexes out of range). Then both programs
  read the same table row per edge, compute the same two-layer perceptron per edge (sums of products in the
  extended reals: order and grouping do not matter, no finiteness is used), sum the same messages onto the
  same rows with the same host function, and apply the same second perceptron per node.

  The three frames: the word-level kernel program's through relational proof data (its message region's
  last edge block overhangs the array, and at the word level a matrix product's element is a function of the
  whole right operand, so what the region leaves is constrained, not named); the idealized kernel program's
  through exact proof data, which also names its results; the reference's is its run (its host operations stretch by stretch) with the results dropped.
-/
import proofs.«427296_j67087389163569_2_alg».proof.Defs
import proofs.«427296_j67087389163569_2_alg».proof.Proof.Gen.Kernel
import proofs.«427296_j67087389163569_2_alg».proof.Proof.Gen.KernelIdeal
import proofs.«427296_j67087389163569_2_alg».proof.Proof.Gen.ReferenceIdeal
import proofs.«427296_j67087389163569_2_alg».proof.Proof.Gen.Pre_finite_inputs
import proofs.«427296_j67087389163569_2_alg».proof.Proof.RefRun
import proofs.«427296_j67087389163569_2_alg».proof.Proof.FrameBits
import proofs.«427296_j67087389163569_2_alg».proof.Proof.RunIdeal
import proofs.«427296_j67087389163569_2_alg».proof.Proof.PreRange
import proofs.«427296_j67087389163569_2_alg».proof.Proof.Bridge

noncomputable section

namespace Cert.Proof

open Idealize.ShloMosaic Idealize.SL.Sem

/-- The reference runs to the end with its arguments unchanged: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.HandRun.run (F := Ideal) m ρ)

/-- Both idealized programs end with the same two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.K58 m c, fun c => Cert.KernelIdeal.Hand.K21 m c, Cert.KernelIdeal.Hand.run_results m ρ, ?_⟩
  refine (θ_run Cert.ReferenceIdeal.defs _ _).mono (fun r h c => ⟨(h c).1.trans ?_, (h c).2.1.trans ?_, (h c).2.2⟩)
    (Cert.ReferenceIdeal.HandRun.run (F := Ideal) m' ρ')
  · obtain ⟨hS, hT⟩ := Cert.Proof.PreRange.inRange_of_pre m hpre c
    obtain ⟨e0, e1, e2, e3, e4, e5, e6, e7, e8, e9, e10, e11⟩ := hagree c
    rw [e0, e1, e2, e3, e4, e5, e6, e7, e8, e9, e10, e11]
    exact (Cert.Proof.Bridge.nodes_eq m c hS hT).symm
  · obtain ⟨hS, hT⟩ := Cert.Proof.PreRange.inRange_of_pre m hpre c
    obtain ⟨e0, e1, e2, e3, e4, e5, e6, e7, e8, e9, e10, e11⟩ := hagree c
    rw [e0, e1, e2, e3, e4, e5, e10, e11]
    exact (Cert.Proof.Bridge.edges_eq m c hS hT).symm

theorem claim : Cert.Claim := ⟨Cert.Kernel.Gen.facts, Cert.KernelIdeal.Gen.facts, Cert.ReferenceIdeal.Gen.facts, Cert.Pre_finite_inputs.Gen.facts,
  Cert.Proof.FrameBits.frame, Cert.KernelIdeal.Hand.frame, frame_ri, trivial, algebraic⟩

end Cert.Proof

end
